-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S2048x32 : Shape := ⟨2, ![2048, 32]⟩
abbrev S512x32 : Shape := ⟨2, ![512, 32]⟩
abbrev S1024x32 : Shape := ⟨2, ![1024, 32]⟩
abbrev S2048 : Shape := ⟨1, ![2048]⟩
abbrev S512 : Shape := ⟨1, ![512]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2048x32 : S_.BroadcastsInDim S2048x32 (![] : Fin 0 → Fin S2048x32.rank)
  reducesTo_S2048x32_S_d0_1 : S2048x32.ReducesTo [0, 1] S_
  bcast_S_S512x32 : S_.BroadcastsInDim S512x32 (![] : Fin 0 → Fin S512x32.rank)
  reducesTo_S512x32_S_d0_1 : S512x32.ReducesTo [0, 1] S_
  bcast_S_S1024x32 : S_.BroadcastsInDim S1024x32 (![] : Fin 0 → Fin S1024x32.rank)
  reducesTo_S1024x32_S_d0_1 : S1024x32.ReducesTo [0, 1] S_

variable [Facts]

def fn_part1 {F : FTy → Type} [FloatOps F] (main_arg3 : IVec S2048x32 32) (main_arg4 : IVec S1024x32 32) (main_v10 : IVec S_ 1) (main_v15 : IVec S512x32 1) (main_c_5 : IVec S_ 1) : IVec S_ 1 :=
  let main_v16 : IVec S_ 1 := (fun x v => Host.reduce IntOp.andi x v reducesTo_S512x32_S_d0_1 h_S_) main_v15 main_c_5
  let main_v17 : IVec S_ 1 := andi main_v10 main_v16
  let main_c_6 : IVec S_ 32 := constantI S_ 32 0#32
  let main_v18 : IVec S2048x32 32 := broadcastInDim S2048x32 ![] bcast_S_S2048x32 main_c_6
  let main_v19 : IVec S2048x32 1 := cmpi .sge main_arg3 main_v18
  let main_c_7 : IVec S_ 32 := constantI S_ 32 512#32
  let main_v20 : IVec S2048x32 32 := broadcastInDim S2048x32 ![] bcast_S_S2048x32 main_c_7
  let main_v21 : IVec S2048x32 1 := cmpi .slt main_arg3 main_v20
  let main_v22 : IVec S2048x32 1 := andi main_v19 main_v21
  let main_c_8 : IVec S_ 1 := constantI S_ 1 1#1
  let main_v23 : IVec S_ 1 := (fun x v => Host.reduce IntOp.andi x v reducesTo_S2048x32_S_d0_1 h_S_) main_v22 main_c_8
  let main_v24 : IVec S_ 1 := andi main_v17 main_v23
  let main_c_9 : IVec S_ 32 := constantI S_ 32 0#32
  let main_v25 : IVec S1024x32 32 := broadcastInDim S1024x32 ![] bcast_S_S1024x32 main_c_9
  let main_v26 : IVec S1024x32 1 := cmpi .sge main_arg4 main_v25
  let main_c_10 : IVec S_ 32 := constantI S_ 32 2048#32
  let main_v27 : IVec S1024x32 32 := broadcastInDim S1024x32 ![] bcast_S_S1024x32 main_c_10
  let main_v28 : IVec S1024x32 1 := cmpi .slt main_arg4 main_v27
  let main_v29 : IVec S1024x32 1 := andi main_v26 main_v28
  let main_c_11 : IVec S_ 1 := constantI S_ 1 1#1
  let main_v30 : IVec S_ 1 := (fun x v => Host.reduce IntOp.andi x v reducesTo_S1024x32_S_d0_1 h_S_) main_v29 main_c_11
  let main_v31 : IVec S_ 1 := andi main_v24 main_v30
  main_v31

def fn {F : FTy → Type} [FloatOps F] (main_arg0 : FVec F S4096x1024 .f32) (main_arg1 : IVec S2048x32 32) (main_arg2 : IVec S512x32 32) (main_arg3 : IVec S2048x32 32) (main_arg4 : IVec S1024x32 32) (main_arg5 : IVec S2048 32) (main_arg6 : IVec S512 32) (main_arg7 : IVec S2048 32) (main_arg8 : IVec S1024 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_c_0 : IVec S_ 32 := constantI S_ 32 0#32
  let main_v4 : IVec S2048x32 32 := broadcastInDim S2048x32 ![] bcast_S_S2048x32 main_c_0
  let main_v5 : IVec S2048x32 1 := cmpi .sge main_arg1 main_v4
  let main_c_1 : IVec S_ 32 := constantI S_ 32 1024#32
  let main_v6 : IVec S2048x32 32 := broadcastInDim S2048x32 ![] bcast_S_S2048x32 main_c_1
  let main_v7 : IVec S2048x32 1 := cmpi .slt main_arg1 main_v6
  let main_v8 : IVec S2048x32 1 := andi main_v5 main_v7
  let main_c_2 : IVec S_ 1 := constantI S_ 1 1#1
  let main_v9 : IVec S_ 1 := (fun x v => Host.reduce IntOp.andi x v reducesTo_S2048x32_S_d0_1 h_S_) main_v8 main_c_2
  let main_v10 : IVec S_ 1 := andi main_v3 main_v9
  let main_c_3 : IVec S_ 32 := constantI S_ 32 0#32
  let main_v11 : IVec S512x32 32 := broadcastInDim S512x32 ![] bcast_S_S512x32 main_c_3
  let main_v12 : IVec S512x32 1 := cmpi .sge main_arg2 main_v11
  let main_c_4 : IVec S_ 32 := constantI S_ 32 2048#32
  let main_v13 : IVec S512x32 32 := broadcastInDim S512x32 ![] bcast_S_S512x32 main_c_4
  let main_v14 : IVec S512x32 1 := cmpi .slt main_arg2 main_v13
  let main_v15 : IVec S512x32 1 := andi main_v12 main_v14
  let main_c_5 : IVec S_ 1 := constantI S_ 1 1#1
  fn_part1 (F := F) main_arg3 main_arg4 main_v10 main_v15 main_c_5
-- ==== Kernel.lean ====
abbrev S4096x1024 : Shape := ⟨2, ![4096, 1024]⟩
abbrev S2048x32 : Shape := ⟨2, ![2048, 32]⟩
abbrev S512x32 : Shape := ⟨2, ![512, 32]⟩
abbrev S1024x32 : Shape := ⟨2, ![1024, 32]⟩
abbrev S2048 : Shape := ⟨1, ![2048]⟩
abbrev S512 : Shape := ⟨1, ![512]⟩
abbrev S1024 : Shape := ⟨1, ![1024]⟩
abbrev S32x2048 : Shape := ⟨2, ![32, 2048]⟩
abbrev S_ : Shape := ⟨0, ![]⟩
abbrev S1x2048 : Shape := ⟨2, ![1, 2048]⟩
abbrev S4096x2048 : Shape := ⟨2, ![4096, 2048]⟩
abbrev S1024x1024 : Shape := ⟨2, ![1024, 1024]⟩
abbrev S32x256 : Shape := ⟨2, ![32, 256]⟩
abbrev S1x256 : Shape := ⟨2, ![1, 256]⟩
abbrev S1024x256 : Shape := ⟨2, ![1024, 256]⟩
abbrev S256 : Shape := ⟨1, ![256]⟩
abbrev S32x512 : Shape := ⟨2, ![32, 512]⟩
abbrev S1x512 : Shape := ⟨2, ![1, 512]⟩
abbrev S4096x512 : Shape := ⟨2, ![4096, 512]⟩
abbrev S1024x2048 : Shape := ⟨2, ![1024, 2048]⟩
abbrev S2048x256 : Shape := ⟨2, ![2048, 256]⟩
abbrev S1024x512 : Shape := ⟨2, ![1024, 512]⟩
abbrev S512x256 : Shape := ⟨2, ![512, 256]⟩
abbrev S32x1024 : Shape := ⟨2, ![32, 1024]⟩
abbrev S1x1024 : Shape := ⟨2, ![1, 1024]⟩

abbrev nBuf : Space → Nat
  | .hbm => 54
  | .vmem => 32
  | .smem => 0
  | _ => 0

abbrev bufTy : (tb : Table) → Fin (tcTables nBuf tb) → BufTy
  | .hbm, ⟨0, _⟩ => ⟨S4096x1024, .f32⟩
  | .hbm, ⟨1, _⟩ => ⟨S2048x32, .i32⟩
  | .hbm, ⟨2, _⟩ => ⟨S512x32, .i32⟩
  | .hbm, ⟨3, _⟩ => ⟨S2048x32, .i32⟩
  | .hbm, ⟨4, _⟩ => ⟨S1024x32, .i32⟩
  | .hbm, ⟨5, _⟩ => ⟨S2048, .i32⟩
  | .hbm, ⟨6, _⟩ => ⟨S512, .i32⟩
  | .hbm, ⟨7, _⟩ => ⟨S2048, .i32⟩
  | .hbm, ⟨8, _⟩ => ⟨S1024, .i32⟩
  | .hbm, ⟨9, _⟩ => ⟨S4096x1024, .bf16⟩
  | .hbm, ⟨10, _⟩ => ⟨S32x2048, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S32x2048, .i32⟩
  | .hbm, ⟨15, _⟩ => ⟨S32x2048, .i32⟩
  | .hbm, ⟨16, _⟩ => ⟨S_, .i32⟩
  | .hbm, ⟨17, _⟩ => ⟨S32x2048, .i32⟩
  | .hbm, ⟨18, _⟩ => ⟨S32x2048, .i32⟩
  | .hbm, ⟨19, _⟩ => ⟨S1x2048, .i32⟩
  | .hbm, ⟨20, _⟩ => ⟨S4096x2048, .bf16⟩
  | .hbm, ⟨21, _⟩ => ⟨S32x512, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S32x512, .i32⟩
  | .hbm, ⟨26, _⟩ => ⟨S32x512, .i32⟩
  | .hbm, ⟨27, _⟩ => ⟨S_, .i32⟩
  | .hbm, ⟨28, _⟩ => ⟨S32x512, .i32⟩
  | .hbm, ⟨29, _⟩ => ⟨S32x512, .i32⟩
  | .hbm, ⟨30, _⟩ => ⟨S1x512, .i32⟩
  | .hbm, ⟨31, _⟩ => ⟨S4096x512, .bf16⟩
  | .hbm, ⟨32, _⟩ => ⟨S32x2048, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S32x2048, .i32⟩
  | .hbm, ⟨37, _⟩ => ⟨S32x2048, .i32⟩
  | .hbm, ⟨38, _⟩ => ⟨S_, .i32⟩
  | .hbm, ⟨39, _⟩ => ⟨S32x2048, .i32⟩
  | .hbm, ⟨40, _⟩ => ⟨S32x2048, .i32⟩
  | .hbm, ⟨41, _⟩ => ⟨S1x2048, .i32⟩
  | .hbm, ⟨42, _⟩ => ⟨S4096x2048, .bf16⟩
  | .hbm, ⟨43, _⟩ => ⟨S32x1024, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S32x1024, .i32⟩
  | .hbm, ⟨48, _⟩ => ⟨S32x1024, .i32⟩
  | .hbm, ⟨49, _⟩ => ⟨S_, .i32⟩
  | .hbm, ⟨50, _⟩ => ⟨S32x1024, .i32⟩
  | .hbm, ⟨51, _⟩ => ⟨S32x1024, .i32⟩
  | .hbm, ⟨52, _⟩ => ⟨S1x1024, .i32⟩
  | .hbm, ⟨53, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S32x256, .i32⟩
  | .local _ .vmem, ⟨3, _⟩ => ⟨S32x256, .i32⟩
  | .local _ .vmem, ⟨4, _⟩ => ⟨S1x256, .i32⟩
  | .local _ .vmem, ⟨5, _⟩ => ⟨S1x256, .i32⟩
  | .local _ .vmem, ⟨6, _⟩ => ⟨S1024x256, .bf16⟩
  | .local _ .vmem, ⟨7, _⟩ => ⟨S1024x256, .bf16⟩
  | .local _ .vmem, ⟨8, _⟩ => ⟨S1024x2048, .bf16⟩
  | .local _ .vmem, ⟨9, _⟩ => ⟨S1024x2048, .bf16⟩
  | .local _ .vmem, ⟨10, _⟩ => ⟨S32x256, .i32⟩
  | .local _ .vmem, ⟨11, _⟩ => ⟨S32x256, .i32⟩
  | .local _ .vmem, ⟨12, _⟩ => ⟨S1x256, .i32⟩
  | .local _ .vmem, ⟨13, _⟩ => ⟨S1x256, .i32⟩
  | .local _ .vmem, ⟨14, _⟩ => ⟨S1024x256, .bf16⟩
  | .local _ .vmem, ⟨15, _⟩ => ⟨S1024x256, .bf16⟩
  | .local _ .vmem, ⟨16, _⟩ => ⟨S1024x512, .bf16⟩
  | .local _ .vmem, ⟨17, _⟩ => ⟨S1024x512, .bf16⟩
  | .local _ .vmem, ⟨18, _⟩ => ⟨S32x256, .i32⟩
  | .local _ .vmem, ⟨19, _⟩ => ⟨S32x256, .i32⟩
  | .local _ .vmem, ⟨20, _⟩ => ⟨S1x256, .i32⟩
  | .local _ .vmem, ⟨21, _⟩ => ⟨S1x256, .i32⟩
  | .local _ .vmem, ⟨22, _⟩ => ⟨S1024x256, .bf16⟩
  | .local _ .vmem, ⟨23, _⟩ => ⟨S1024x256, .bf16⟩
  | .local _ .vmem, ⟨24, _⟩ => ⟨S1024x2048, .bf16⟩
  | .local _ .vmem, ⟨25, _⟩ => ⟨S1024x2048, .bf16⟩
  | .local _ .vmem, ⟨26, _⟩ => ⟨S32x256, .i32⟩
  | .local _ .vmem, ⟨27, _⟩ => ⟨S32x256, .i32⟩
  | .local _ .vmem, ⟨28, _⟩ => ⟨S1x256, .i32⟩
  | .local _ .vmem, ⟨29, _⟩ => ⟨S1x256, .i32⟩
  | .local _ .vmem, ⟨30, _⟩ => ⟨S1024x256, .f32⟩
  | .local _ .vmem, ⟨31, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_1 : Ref sig .tc := ⟨.hbm, 22, rfl⟩
abbrev main_c_2 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_c_3 : Ref sig .tc := ⟨.hbm, 33, rfl⟩
abbrev main_c_4 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_c_5 : Ref sig .tc := ⟨.hbm, 44, rfl⟩
abbrev main_c_6 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S32x256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x256 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S32x256 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x256 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S32x256 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x256 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

class Facts₀ : Prop where
  bitsLt_bf16_f32 : FTy.bits .bf16 < FTy.bits .f32
  transposes_S2048x32_S32x2048_1_0 : S2048x32.Transposes [1, 0] S32x2048
  bcast_S_S32x2048 : S_.BroadcastsInDim S32x2048 (![] : Fin 0 → Fin S32x2048.rank)
  shapeCasts_S2048_S1x2048 : S2048.ShapeCasts S1x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  iota_S1024x256_d0_w32 : S1024x256.Iotas .tc 32 [0]
  inb_S32x256_S1x256_0_0 : ∀ a, (![0, 0] : Fin 2 → Nat) a + S1x256.size a ≤ S32x256.size a
  h_S1x256 : 0 < S1x256.numel
  shapeCasts_S1x256_S256 : S1x256.ShapeCasts S256
  shapeCasts_S256_S1x256 : S256.ShapeCasts S1x256
  shapeCasts_S1x256_S1x256 : S1x256.ShapeCasts S1x256
  broadcasts_S1x256_S1024x256 : S1x256.Broadcasts S1024x256
  natLt_1_32 : 1 < 32
  inb_S32x256_S1x256_1_0 : ∀ a, (![1, 0] : Fin 2 → Nat) a + S1x256.size a ≤ S32x256.size a
  inb_S32x256_S1x256_2_0 : ∀ a, (![2, 0] : Fin 2 → Nat) a + S1x256.size a ≤ S32x256.size a
  inb_S32x256_S1x256_3_0 : ∀ a, (![3, 0] : Fin 2 → Nat) a + S1x256.size a ≤ S32x256.size a
  inb_S32x256_S1x256_4_0 : ∀ a, (![4, 0] : Fin 2 → Nat) a + S1x256.size a ≤ S32x256.size a
  inb_S32x256_S1x256_5_0 : ∀ a, (![5, 0] : Fin 2 → Nat) a + S1x256.size a ≤ S32x256.size a
  inb_S32x256_S1x256_6_0 : ∀ a, (![6, 0] : Fin 2 → Nat) a + S1x256.size a ≤ S32x256.size a
  inb_S32x256_S1x256_7_0 : ∀ a, (![7, 0] : Fin 2 → Nat) a + S1x256.size a ≤ S32x256.size a
  inb_S32x256_S1x256_8_0 : ∀ a, (![8, 0] : Fin 2 → Nat) a + S1x256.size a ≤ S32x256.size a
  inb_S32x256_S1x256_9_0 : ∀ a, (![9, 0] : Fin 2 → Nat) a + S1x256.size a ≤ S32x256.size a
  inb_S32x256_S1x256_10_0 : ∀ a, (![10, 0] : Fin 2 → Nat) a + S1x256.size a ≤ S32x256.size a
  inb_S32x256_S1x256_11_0 : ∀ a, (![11, 0] : Fin 2 → Nat) a + S1x256.size a ≤ S32x256.size a
  inb_S32x256_S1x256_12_0 : ∀ a, (![12, 0] : Fin 2 → Nat) a + S1x256.size a ≤ S32x256.size a
  inb_S32x256_S1x256_13_0 : ∀ a, (![13, 0] : Fin 2 → Nat) a + S1x256.size a ≤ S32x256.size a
  inb_S32x256_S1x256_14_0 : ∀ a, (![14, 0] : Fin 2 → Nat) a + S1x256.size a ≤ S32x256.size a
  inb_S32x256_S1x256_15_0 : ∀ a, (![15, 0] : Fin 2 → Nat) a + S1x256.size a ≤ S32x256.size a
  inb_S32x256_S1x256_16_0 : ∀ a, (![16, 0] : Fin 2 → Nat) a + S1x256.size a ≤ S32x256.size a
  inb_S32x256_S1x256_17_0 : ∀ a, (![17, 0] : Fin 2 → Nat) a + S1x256.size a ≤ S32x256.size a
  inb_S32x256_S1x256_18_0 : ∀ a, (![18, 0] : Fin 2 → Nat) a + S1x256.size a ≤ S32x256.size a
  inb_S32x256_S1x256_19_0 : ∀ a, (![19, 0] : Fin 2 → Nat) a + S1x256.size a ≤ S32x256.size a
  inb_S32x256_S1x256_20_0 : ∀ a, (![20, 0] : Fin 2 → Nat) a + S1x256.size a ≤ S32x256.size a
  inb_S32x256_S1x256_21_0 : ∀ a, (![21, 0] : Fin 2 → Nat) a + S1x256.size a ≤ S32x256.size a
  inb_S32x256_S1x256_22_0 : ∀ a, (![22, 0] : Fin 2 → Nat) a + S1x256.size a ≤ S32x256.size a
  inb_S32x256_S1x256_23_0 : ∀ a, (![23, 0] : Fin 2 → Nat) a + S1x256.size a ≤ S32x256.size a
  inb_S32x256_S1x256_24_0 : ∀ a, (![24, 0] : Fin 2 → Nat) a + S1x256.size a ≤ S32x256.size a
  inb_S32x256_S1x256_25_0 : ∀ a, (![25, 0] : Fin 2 → Nat) a + S1x256.size a ≤ S32x256.size a
  inb_S32x256_S1x256_26_0 : ∀ a, (![26, 0] : Fin 2 → Nat) a + S1x256.size a ≤ S32x256.size a
  inb_S32x256_S1x256_27_0 : ∀ a, (![27, 0] : Fin 2 → Nat) a + S1x256.size a ≤ S32x256.size a
  inb_S32x256_S1x256_28_0 : ∀ a, (![28, 0] : Fin 2 → Nat) a + S1x256.size a ≤ S32x256.size a
  inb_S32x256_S1x256_29_0 : ∀ a, (![29, 0] : Fin 2 → Nat) a + S1x256.size a ≤ S32x256.size a
  inb_S32x256_S1x256_30_0 : ∀ a, (![30, 0] : Fin 2 → Nat) a + S1x256.size a ≤ S32x256.size a
  inb_S32x256_S1x256_31_0 : ∀ a, (![31, 0] : Fin 2 → Nat) a + S1x256.size a ≤ S32x256.size a
  inb_S1x256_S1x256_0_0 : ∀ a, (![0, 0] : Fin 2 → Nat) a + S1x256.size a ≤ S1x256.size a
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  transposes_S512x32_S32x512_1_0 : S512x32.Transposes [1, 0] S32x512
  bcast_S_S32x512 : S_.BroadcastsInDim S32x512 (![] : Fin 0 → Fin S32x512.rank)
  shapeCasts_S512_S1x512 : S512.ShapeCasts S1x512
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  iota_S2048x256_d0_w32 : S2048x256.Iotas .tc 32 [0]
  broadcasts_S1x256_S2048x256 : S1x256.Broadcasts S2048x256
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  iota_S512x256_d0_w32 : S512x256.Iotas .tc 32 [0]
  broadcasts_S1x256_S512x256 : S1x256.Broadcasts S512x256
  transposes_S1024x32_S32x1024_1_0 : S1024x32.Transposes [1, 0] S32x1024
  bcast_S_S32x1024 : S_.BroadcastsInDim S32x1024 (![] : Fin 0 → Fin S32x1024.rank)
  shapeCasts_S1024_S1x1024 : S1024.ShapeCasts S1x1024
  dot_S1024x1024_S1024x256_S1024x256_1_0_0_1_n_n_wf : DotDims.WF S1024x1024 S1024x256 S1024x256 [1] [0] [0] [1] [] []
  dot_S1024x2048_S2048x256_S1024x256_1_0_0_1_n_n_wf : DotDims.WF S1024x2048 S2048x256 S1024x256 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x2048.size a
  hwx0_1 : ∀ i : grid0.Coords, EltTy.bits .i32 = 32 ∨ (Rect.block (s := S32x2048) S32x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x2048.size a
  hwx0_2 : ∀ i : grid0.Coords, EltTy.bits .i32 = 32 ∨ (Rect.block (s := S1x2048) S1x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S4096x2048.size a
  hwx0_3 : ∀ i : grid0.Coords, EltTy.bits .bf16 = 32 ∨ (Rect.block (s := S4096x2048) S1024x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S4096x2048.size a
  hwx1_0 : ∀ i : grid1.Coords, EltTy.bits .bf16 = 32 ∨ (Rect.block (s := S4096x2048) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x256.size a ≤ S32x512.size a
  hwx1_1 : ∀ i : grid1.Coords, EltTy.bits .i32 = 32 ∨ (Rect.block (s := S32x512) S32x256.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x512.size a
  hwx1_2 : ∀ i : grid1.Coords, EltTy.bits .i32 = 32 ∨ (Rect.block (s := S1x512) S1x256.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S4096x512.size a
  hwx1_3 : ∀ i : grid1.Coords, EltTy.bits .bf16 = 32 ∨ (Rect.block (s := S4096x512) S1024x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S4096x512.size a
  hwx2_0 : ∀ i : grid2.Coords, EltTy.bits .bf16 = 32 ∨ (Rect.block (s := S4096x512) S1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S32x256.size a ≤ S32x2048.size a
  hwx2_1 : ∀ i : grid2.Coords, EltTy.bits .i32 = 32 ∨ (Rect.block (s := S32x2048) S32x256.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x2048.size a
  hwx2_2 : ∀ i : grid2.Coords, EltTy.bits .i32 = 32 ∨ (Rect.block (s := S1x2048) S1x256.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x256.size a ≤ S4096x2048.size a
  hwx2_3 : ∀ i : grid2.Coords, EltTy.bits .bf16 = 32 ∨ (Rect.block (s := S4096x2048) S1024x256.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S4096x2048.size a
  hwx3_0 : ∀ i : grid3.Coords, EltTy.bits .bf16 = 32 ∨ (Rect.block (s := S4096x2048) S1024x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S32x256.size a ≤ S32x1024.size a
  hwx3_1 : ∀ i : grid3.Coords, EltTy.bits .i32 = 32 ∨ (Rect.block (s := S32x1024) S32x256.size (cc3_transform_1 i) (hinb3_1 i)).WholeWords (EltTy.packing .i32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x1024.size a
  hwx3_2 : ∀ i : grid3.Coords, EltTy.bits .i32 = 32 ∨ (Rect.block (s := S1x1024) S1x256.size (cc3_transform_2 i) (hinb3_2 i)).WholeWords (EltTy.packing .i32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x256.size a ≤ S4096x1024.size a
  hwx3_3 : ∀ i : grid3.Coords, EltTy.bits .f32 = 32 ∨ (Rect.block (s := S4096x1024) S1024x256.size (cc3_transform_3 i) (hinb3_3 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S32x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S32x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1024x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v12) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S32x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S1x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v16) S1024x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S4096x1024 : Shape := ⟨2, ![4096, 1024]⟩
abbrev S2048x32 : Shape := ⟨2, ![2048, 32]⟩
abbrev S512x32 : Shape := ⟨2, ![512, 32]⟩
abbrev S1024x32 : Shape := ⟨2, ![1024, 32]⟩
abbrev S2048 : Shape := ⟨1, ![2048]⟩
abbrev S512 : Shape := ⟨1, ![512]⟩
abbrev S1024 : Shape := ⟨1, ![1024]⟩
abbrev S_ : Shape := ⟨0, ![]⟩
abbrev S2048x32x1 : Shape := ⟨3, ![2048, 32, 1]⟩
abbrev S1 : Shape := ⟨1, ![1]⟩
abbrev S1x1x1 : Shape := ⟨3, ![1, 1, 1]⟩
abbrev S4096x2048x32 : Shape := ⟨3, ![4096, 2048, 32]⟩
abbrev S4096x2048 : Shape := ⟨2, ![4096, 2048]⟩
abbrev S1x2048 : Shape := ⟨2, ![1, 2048]⟩
abbrev S512x32x1 : Shape := ⟨3, ![512, 32, 1]⟩
abbrev S4096x512x32 : Shape := ⟨3, ![4096, 512, 32]⟩
abbrev S4096x512 : Shape := ⟨2, ![4096, 512]⟩
abbrev S1x512 : Shape := ⟨2, ![1, 512]⟩
abbrev S1024x32x1 : Shape := ⟨3, ![1024, 32, 1]⟩
abbrev S4096x1024x32 : Shape := ⟨3, ![4096, 1024, 32]⟩
abbrev S1x1024 : Shape := ⟨2, ![1, 1024]⟩

abbrev nBuf : Space → Nat
  | .hbm => 141
  | .vmem => 0
  | .smem => 0
  | _ => 0

abbrev hbmTy0_0 (i : Nat) : BufTy := match i % 128 with
  | 0 => ⟨S4096x1024, .f32⟩
  | 1 => ⟨S2048x32, .i32⟩
  | 2 => ⟨S512x32, .i32⟩
  | 3 => ⟨S2048x32, .i32⟩
  | 4 => ⟨S1024x32, .i32⟩
  | 5 => ⟨S2048, .i32⟩
  | 6 => ⟨S512, .i32⟩
  | 7 => ⟨S2048, .i32⟩
  | 8 => ⟨S1024, .i32⟩
  | 9 => ⟨S_, .i32⟩
  | 10 => ⟨S2048x32, .i32⟩
  | 11 => ⟨S2048x32, .i1⟩
  | 12 => ⟨S_, .i32⟩
  | 13 => ⟨S2048x32, .i32⟩
  | 14 => ⟨S2048x32, .i32⟩
  | 15 => ⟨S2048x32, .i32⟩
  | 16 => ⟨S2048x32x1, .i32⟩
  | 17 => ⟨S1, .i32⟩
  | 18 => ⟨S_, .i32⟩
  | 19 => ⟨S2048x32x1, .i32⟩
  | 20 => ⟨S2048x32x1, .i1⟩
  | 21 => ⟨S1x1x1, .i32⟩
  | 22 => ⟨S2048x32x1, .i32⟩
  | 23 => ⟨S2048x32x1, .i1⟩
  | 24 => ⟨S2048x32x1, .i1⟩
  | 25 => ⟨S_, .i1⟩
  | 26 => ⟨S2048x32, .i1⟩
  | 27 => ⟨S4096x2048x32, .f32⟩
  | 28 => ⟨S4096x2048x32, .i1⟩
  | 29 => ⟨S_, .f32⟩
  | 30 => ⟨S4096x2048x32, .f32⟩
  | 31 => ⟨S4096x2048x32, .f32⟩
  | 32 => ⟨S_, .f32⟩
  | 33 => ⟨S4096x2048, .f32⟩
  | 34 => ⟨S_, .f32⟩
  | 35 => ⟨S4096x2048, .f32⟩
  | 36 => ⟨S1x2048, .i32⟩
  | 37 => ⟨S_, .i32⟩
  | 38 => ⟨S1x2048, .i32⟩
  | 39 => ⟨S1x2048, .i1⟩
  | 40 => ⟨S4096x2048, .i1⟩
  | 41 => ⟨S4096x2048, .f32⟩
  | 42 => ⟨S_, .i32⟩
  | 43 => ⟨S512x32, .i32⟩
  | 44 => ⟨S512x32, .i1⟩
  | 45 => ⟨S_, .i32⟩
  | 46 => ⟨S512x32, .i32⟩
  | 47 => ⟨S512x32, .i32⟩
  | 48 => ⟨S512x32, .i32⟩
  | 49 => ⟨S512x32x1, .i32⟩
  | 50 => ⟨S1, .i32⟩
  | 51 => ⟨S_, .i32⟩
  | 52 => ⟨S512x32x1, .i32⟩
  | 53 => ⟨S512x32x1, .i1⟩
  | 54 => ⟨S1x1x1, .i32⟩
  | 55 => ⟨S512x32x1, .i32⟩
  | 56 => ⟨S512x32x1, .i1⟩
  | 57 => ⟨S512x32x1, .i1⟩
  | 58 => ⟨S_, .i1⟩
  | 59 => ⟨S512x32, .i1⟩
  | 60 => ⟨S4096x512x32, .f32⟩
  | 61 => ⟨S4096x512x32, .i1⟩
  | 62 => ⟨S_, .f32⟩
  | 63 => ⟨S4096x512x32, .f32⟩
  | 64 => ⟨S4096x512x32, .f32⟩
  | 65 => ⟨S_, .f32⟩
  | 66 => ⟨S4096x512, .f32⟩
  | 67 => ⟨S_, .f32⟩
  | 68 => ⟨S4096x512, .f32⟩
  | 69 => ⟨S1x512, .i32⟩
  | 70 => ⟨S_, .i32⟩
  | 71 => ⟨S1x512, .i32⟩
  | 72 => ⟨S1x512, .i1⟩
  | 73 => ⟨S4096x512, .i1⟩
  | 74 => ⟨S4096x512, .f32⟩
  | 75 => ⟨S_, .i32⟩
  | 76 => ⟨S2048x32, .i32⟩
  | 77 => ⟨S2048x32, .i1⟩
  | 78 => ⟨S_, .i32⟩
  | 79 => ⟨S2048x32, .i32⟩
  | 80 => ⟨S2048x32, .i32⟩
  | 81 => ⟨S2048x32, .i32⟩
  | 82 => ⟨S2048x32x1, .i32⟩
  | 83 => ⟨S1, .i32⟩
  | 84 => ⟨S_, .i32⟩
  | 85 => ⟨S2048x32x1, .i32⟩
  | 86 => ⟨S2048x32x1, .i1⟩
  | 87 => ⟨S1x1x1, .i32⟩
  | 88 => ⟨S2048x32x1, .i32⟩
  | 89 => ⟨S2048x32x1, .i1⟩
  | 90 => ⟨S2048x32x1, .i1⟩
  | 91 => ⟨S_, .i1⟩
  | 92 => ⟨S2048x32, .i1⟩
  | 93 => ⟨S4096x2048x32, .f32⟩
  | 94 => ⟨S4096x2048x32, .i1⟩
  | 95 => ⟨S_, .f32⟩
  | 96 => ⟨S4096x2048x32, .f32⟩
  | 97 => ⟨S4096x2048x32, .f32⟩
  | 98 => ⟨S_, .f32⟩
  | 99 => ⟨S4096x2048, .f32⟩
  | 100 => ⟨S_, .f32⟩
  | 101 => ⟨S4096x2048, .f32⟩
  | 102 => ⟨S1x2048, .i32⟩
  | 103 => ⟨S_, .i32⟩
  | 104 => ⟨S1x2048, .i32⟩
  | 105 => ⟨S1x2048, .i1⟩
  | 106 => ⟨S4096x2048, .i1⟩
  | 107 => ⟨S4096x2048, .f32⟩
  | 108 => ⟨S_, .i32⟩
  | 109 => ⟨S1024x32, .i32⟩
  | 110 => ⟨S1024x32, .i1⟩
  | 111 => ⟨S_, .i32⟩
  | 112 => ⟨S1024x32, .i32⟩
  | 113 => ⟨S1024x32, .i32⟩
  | 114 => ⟨S1024x32, .i32⟩
  | 115 => ⟨S1024x32x1, .i32⟩
  | 116 => ⟨S1, .i32⟩
  | 117 => ⟨S_, .i32⟩
  | 118 => ⟨S1024x32x1, .i32⟩
  | 119 => ⟨S1024x32x1, .i1⟩
  | 120 => ⟨S1x1x1, .i32⟩
  | 121 => ⟨S1024x32x1, .i32⟩
  | 122 => ⟨S1024x32x1, .i1⟩
  | 123 => ⟨S1024x32x1, .i1⟩
  | 124 => ⟨S_, .i1⟩
  | 125 => ⟨S1024x32, .i1⟩
  | 126 => ⟨S4096x1024x32, .f32⟩
  | 127 => ⟨S4096x1024x32, .i1⟩
  | _ => ⟨S4096x1024, .f32⟩

abbrev hbmTy0_1 (i : Nat) : BufTy := match i % 128 with
  | 0 => ⟨S_, .f32⟩
  | 1 => ⟨S4096x1024x32, .f32⟩
  | 2 => ⟨S4096x1024x32, .f32⟩
  | 3 => ⟨S_, .f32⟩
  | 4 => ⟨S4096x1024, .f32⟩
  | 5 => ⟨S_, .f32⟩
  | 6 => ⟨S4096x1024, .f32⟩
  | 7 => ⟨S1x1024, .i32⟩
  | 8 => ⟨S_, .i32⟩
  | 9 => ⟨S1x1024, .i32⟩
  | 10 => ⟨S1x1024, .i1⟩
  | 11 => ⟨S4096x1024, .i1⟩
  | 12 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_cst : Ref sig .tc := ⟨.hbm, 32, rfl⟩
abbrev main_v1 : Ref sig .tc := ⟨.hbm, 33, rfl⟩
abbrev main_cst_0 : Ref sig .tc := ⟨.hbm, 34, rfl⟩
abbrev main_v2 : Ref sig .tc := ⟨.hbm, 35, rfl⟩
abbrev main_v3 : Ref sig .tc := ⟨.hbm, 36, rfl⟩
abbrev main_c : Ref sig .tc := ⟨.hbm, 37, rfl⟩
abbrev main_v4 : Ref sig .tc := ⟨.hbm, 38, rfl⟩
abbrev main_v5 : Ref sig .tc := ⟨.hbm, 39, rfl⟩
abbrev main_call1_v0 : Ref sig .tc := ⟨.hbm, 40, rfl⟩
abbrev main_v6 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_v14 : Ref sig .tc := ⟨.hbm, 61, rfl⟩
abbrev main_call2_cst : Ref sig .tc := ⟨.hbm, 62, rfl⟩
abbrev main_call2_v15 : Ref sig .tc := ⟨.hbm, 63, rfl⟩
abbrev main_v7 : Ref sig .tc := ⟨.hbm, 64, rfl⟩
abbrev main_cst_1 : Ref sig .tc := ⟨.hbm, 65, rfl⟩
abbrev main_v8 : Ref sig .tc := ⟨.hbm, 66, rfl⟩
abbrev main_cst_2 : Ref sig .tc := ⟨.hbm, 67, rfl⟩
abbrev main_v9 : Ref sig .tc := ⟨.hbm, 68, rfl⟩
abbrev main_v10 : Ref sig .tc := ⟨.hbm, 69, rfl⟩
abbrev main_c_3 : Ref sig .tc := ⟨.hbm, 70, rfl⟩
abbrev main_v11 : Ref sig .tc := ⟨.hbm, 71, rfl⟩
abbrev main_v12 : Ref sig .tc := ⟨.hbm, 72, rfl⟩
abbrev main_call3_v0 : Ref sig .tc := ⟨.hbm, 73, rfl⟩
abbrev main_v13 : Ref sig .tc := ⟨.hbm, 74, rfl⟩
abbrev main_call4_c : Ref sig .tc := ⟨.hbm, 75, rfl⟩
abbrev main_call4_v0 : Ref sig .tc := ⟨.hbm, 76, rfl⟩
abbrev main_call4_v1 : Ref sig .tc := ⟨.hbm, 77, rfl⟩
abbrev main_call4_c_0 : Ref sig .tc := ⟨.hbm, 78, rfl⟩
abbrev main_call4_v2 : Ref sig .tc := ⟨.hbm, 79, rfl⟩
abbrev main_call4_v3 : Ref sig .tc := ⟨.hbm, 80, rfl⟩
abbrev main_call4_v4 : Ref sig .tc := ⟨.hbm, 81, rfl⟩
abbrev main_call4_v5 : Ref sig .tc := ⟨.hbm, 82, rfl⟩
abbrev main_call4_c_1 : Ref sig .tc := ⟨.hbm, 83, rfl⟩
abbrev main_call4_c_2 : Ref sig .tc := ⟨.hbm, 84, rfl⟩
abbrev main_call4_v6 : Ref sig .tc := ⟨.hbm, 85, rfl⟩
abbrev main_call4_v7 : Ref sig .tc := ⟨.hbm, 86, rfl⟩
abbrev main_call4_v8 : Ref sig .tc := ⟨.hbm, 87, rfl⟩
abbrev main_call4_v9 : Ref sig .tc := ⟨.hbm, 88, rfl⟩
abbrev main_call4_v10 : Ref sig .tc := ⟨.hbm, 89, rfl⟩
abbrev main_call4_v11 : Ref sig .tc := ⟨.hbm, 90, rfl⟩
abbrev main_call4_c_3 : Ref sig .tc := ⟨.hbm, 91, rfl⟩
abbrev main_call4_v12 : Ref sig .tc := ⟨.hbm, 92, rfl⟩
abbrev main_call4_v13 : Ref sig .tc := ⟨.hbm, 93, rfl⟩
abbrev main_call4_v14 : Ref sig .tc := ⟨.hbm, 94, rfl⟩
abbrev main_call4_cst : Ref sig .tc := ⟨.hbm, 95, rfl⟩
abbrev main_call4_v15 : Ref sig .tc := ⟨.hbm, 96, rfl⟩
abbrev main_v14 : Ref sig .tc := ⟨.hbm, 97, rfl⟩
abbrev main_cst_4 : Ref sig .tc := ⟨.hbm, 98, rfl⟩
abbrev main_v15 : Ref sig .tc := ⟨.hbm, 99, rfl⟩
abbrev main_cst_5 : Ref sig .tc := ⟨.hbm, 100, rfl⟩
abbrev main_v16 : Ref sig .tc := ⟨.hbm, 101, rfl⟩
abbrev main_v17 : Ref sig .tc := ⟨.hbm, 102, rfl⟩
abbrev main_c_6 : Ref sig .tc := ⟨.hbm, 103, rfl⟩
abbrev main_v18 : Ref sig .tc := ⟨.hbm, 104, rfl⟩
abbrev main_v19 : Ref sig .tc := ⟨.hbm, 105, rfl⟩
abbrev main_call5_v0 : Ref sig .tc := ⟨.hbm, 106, rfl⟩
abbrev main_v20 : Ref sig .tc := ⟨.hbm, 107, rfl⟩
abbrev main_call6_c : Ref sig .tc := ⟨.hbm, 108, rfl⟩
abbrev main_call6_v0 : Ref sig .tc := ⟨.hbm, 109, rfl⟩
abbrev main_call6_v1 : Ref sig .tc := ⟨.hbm, 110, rfl⟩
abbrev main_call6_c_0 : Ref sig .tc := ⟨.hbm, 111, rfl⟩
abbrev main_call6_v2 : Ref sig .tc := ⟨.hbm, 112, rfl⟩
abbrev main_call6_v3 : Ref sig .tc := ⟨.hbm, 113, rfl⟩
abbrev main_call6_v4 : Ref sig .tc := ⟨.hbm, 114, rfl⟩
abbrev main_call6_v5 : Ref sig .tc := ⟨.hbm, 115, rfl⟩
abbrev main_call6_c_1 : Ref sig .tc := ⟨.hbm, 116, rfl⟩
abbrev main_call6_c_2 : Ref sig .tc := ⟨.hbm, 117, rfl⟩
abbrev main_call6_v6 : Ref sig .tc := ⟨.hbm, 118, rfl⟩
abbrev main_call6_v7 : Ref sig .tc := ⟨.hbm, 119, rfl⟩
abbrev main_call6_v8 : Ref sig .tc := ⟨.hbm, 120, rfl⟩
abbrev main_call6_v9 : Ref sig .tc := ⟨.hbm, 121, rfl⟩
abbrev main_call6_v10 : Ref sig .tc := ⟨.hbm, 122, rfl⟩
abbrev main_call6_v11 : Ref sig .tc := ⟨.hbm, 123, rfl⟩
abbrev main_call6_c_3 : Ref sig .tc := ⟨.hbm, 124, rfl⟩
abbrev main_call6_v12 : Ref sig .tc := ⟨.hbm, 125, rfl⟩
abbrev main_call6_v13 : Ref sig .tc := ⟨.hbm, 126, rfl⟩
abbrev main_call6_v14 : Ref sig .tc := ⟨.hbm, 127, rfl⟩
abbrev main_call6_cst : Ref sig .tc := ⟨.hbm, 128, rfl⟩
abbrev main_call6_v15 : Ref sig .tc := ⟨.hbm, 129, rfl⟩
abbrev main_v21 : Ref sig .tc := ⟨.hbm, 130, rfl⟩
abbrev main_cst_7 : Ref sig .tc := ⟨.hbm, 131, rfl⟩
abbrev main_v22 : Ref sig .tc := ⟨.hbm, 132, rfl⟩
abbrev main_cst_8 : Ref sig .tc := ⟨.hbm, 133, rfl⟩
abbrev main_v23 : Ref sig .tc := ⟨.hbm, 134, rfl⟩
abbrev main_v24 : Ref sig .tc := ⟨.hbm, 135, rfl⟩
abbrev main_c_9 : Ref sig .tc := ⟨.hbm, 136, rfl⟩
abbrev main_v25 : Ref sig .tc := ⟨.hbm, 137, rfl⟩
abbrev main_v26 : Ref sig .tc := ⟨.hbm, 138, rfl⟩
abbrev main_call7_v0 : Ref sig .tc := ⟨.hbm, 139, rfl⟩
abbrev main_v27 : Ref sig .tc := ⟨.hbm, 140, rfl⟩

abbrev nD : Nat := 1
abbrev τ : Topo := Topo.v7x

variable {F : FTy → Type} [FloatOps F]

class Facts₀ : Prop where
  bcast_S_S2048x32 : S_.BroadcastsInDim S2048x32 (![] : Fin 0 → Fin S2048x32.rank)
  bcast_S2048x32_S2048x32x1_0_1 : S2048x32.BroadcastsInDim S2048x32x1 (![0, 1] : Fin 2 → Fin S2048x32x1.rank)
  bcast_S_S2048x32x1 : S_.BroadcastsInDim S2048x32x1 (![] : Fin 0 → Fin S2048x32x1.rank)
  bcast_S1_S1x1x1_2 : S1.BroadcastsInDim S1x1x1 (![2] : Fin 1 → Fin S1x1x1.rank)
  bcast_S1x1x1_S2048x32x1_0_1_2 : S1x1x1.BroadcastsInDim S2048x32x1 (![0, 1, 2] : Fin 3 → Fin S2048x32x1.rank)
  reducesTo_S2048x32x1_S2048x32_d2 : S2048x32x1.ReducesTo [2] S2048x32
  h_S_ : 0 < S_.numel
  bcast_S2048x32_S4096x2048x32_1_2 : S2048x32.BroadcastsInDim S4096x2048x32 (![1, 2] : Fin 2 → Fin S4096x2048x32.rank)
  bcast_S_S4096x2048x32 : S_.BroadcastsInDim S4096x2048x32 (![] : Fin 0 → Fin S4096x2048x32.rank)
  reducesTo_S4096x2048x32_S4096x2048_d2 : S4096x2048x32.ReducesTo [2] S4096x2048
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S4096x2048_0_1 : S1x2048.BroadcastsInDim S4096x2048 (![0, 1] : Fin 2 → Fin S4096x2048.rank)
  bcast_S_S512x32 : S_.BroadcastsInDim S512x32 (![] : Fin 0 → Fin S512x32.rank)
  bcast_S512x32_S512x32x1_0_1 : S512x32.BroadcastsInDim S512x32x1 (![0, 1] : Fin 2 → Fin S512x32x1.rank)
  bcast_S_S512x32x1 : S_.BroadcastsInDim S512x32x1 (![] : Fin 0 → Fin S512x32x1.rank)
  bcast_S1x1x1_S512x32x1_0_1_2 : S1x1x1.BroadcastsInDim S512x32x1 (![0, 1, 2] : Fin 3 → Fin S512x32x1.rank)
  reducesTo_S512x32x1_S512x32_d2 : S512x32x1.ReducesTo [2] S512x32
  bcast_S512x32_S4096x512x32_1_2 : S512x32.BroadcastsInDim S4096x512x32 (![1, 2] : Fin 2 → Fin S4096x512x32.rank)
  bcast_S_S4096x512x32 : S_.BroadcastsInDim S4096x512x32 (![] : Fin 0 → Fin S4096x512x32.rank)
  reducesTo_S4096x512x32_S4096x512_d2 : S4096x512x32.ReducesTo [2] S4096x512
  bcast_S512_S1x512_1 : S512.BroadcastsInDim S1x512 (![1] : Fin 1 → Fin S1x512.rank)
  bcast_S_S1x512 : S_.BroadcastsInDim S1x512 (![] : Fin 0 → Fin S1x512.rank)
  bcast_S1x512_S4096x512_0_1 : S1x512.BroadcastsInDim S4096x512 (![0, 1] : Fin 2 → Fin S4096x512.rank)
  bcast_S_S1024x32 : S_.BroadcastsInDim S1024x32 (![] : Fin 0 → Fin S1024x32.rank)
  bcast_S1024x32_S1024x32x1_0_1 : S1024x32.BroadcastsInDim S1024x32x1 (![0, 1] : Fin 2 → Fin S1024x32x1.rank)
  bcast_S_S1024x32x1 : S_.BroadcastsInDim S1024x32x1 (![] : Fin 0 → Fin S1024x32x1.rank)
  bcast_S1x1x1_S1024x32x1_0_1_2 : S1x1x1.BroadcastsInDim S1024x32x1 (![0, 1, 2] : Fin 3 → Fin S1024x32x1.rank)
  reducesTo_S1024x32x1_S1024x32_d2 : S1024x32x1.ReducesTo [2] S1024x32
  bcast_S1024x32_S4096x1024x32_1_2 : S1024x32.BroadcastsInDim S4096x1024x32 (![1, 2] : Fin 2 → Fin S4096x1024x32.rank)
  bcast_S_S4096x1024x32 : S_.BroadcastsInDim S4096x1024x32 (![] : Fin 0 → Fin S4096x1024x32.rank)
  reducesTo_S4096x1024x32_S4096x1024_d2 : S4096x1024x32.ReducesTo [2] S4096x1024
  bcast_S1024_S1x1024_1 : S1024.BroadcastsInDim S1x1024 (![1] : Fin 1 → Fin S1x1024.rank)
  bcast_S_S1x1024 : S_.BroadcastsInDim S1x1024 (![] : Fin 0 → Fin S1x1024.rank)
  bcast_S1x1024_S4096x1024_0_1 : S1x1024.BroadcastsInDim S4096x1024 (![0, 1] : Fin 2 → Fin S4096x1024.rank)
  gather_S4096x1024_S2048x32x1_S4096x2048x32_0_1_n_n_1_2_40961_wf : GatherDims.WF S4096x1024 S2048x32x1 S4096x2048x32 [0] [1] [] [1] [] 2 ![4096, 1]
  gather_S4096x2048_S512x32x1_S4096x512x32_0_1_n_n_1_2_40961_wf : GatherDims.WF S4096x2048 S512x32x1 S4096x512x32 [0] [1] [] [1] [] 2 ![4096, 1]
  gather_S4096x512_S2048x32x1_S4096x2048x32_0_1_n_n_1_2_40961_wf : GatherDims.WF S4096x512 S2048x32x1 S4096x2048x32 [0] [1] [] [1] [] 2 ![4096, 1]
  gather_S4096x2048_S1024x32x1_S4096x1024x32_0_1_n_n_1_2_40961_wf : GatherDims.WF S4096x2048 S1024x32x1 S4096x1024x32 [0] [1] [] [1] [] 2 ![4096, 1]

variable [Facts₀]

def gather_S4096x1024_S2048x32x1_S4096x2048x32_0_1_n_n_1_2_40961 : GatherDims S4096x1024 S2048x32x1 S4096x2048x32 where
  offsetDims := [0]
  collapsedSliceDims := [1]
  operandBatchingDims := []
  startIndicesBatchingDims := []
  startIndexMap := [1]
  indexVectorDim := 2
  sliceSizes := ![4096, 1]
  wf := gather_S4096x1024_S2048x32x1_S4096x2048x32_0_1_n_n_1_2_40961_wf
def gather_S4096x2048_S512x32x1_S4096x512x32_0_1_n_n_1_2_40961 : GatherDims S4096x2048 S512x32x1 S4096x512x32 where
  offsetDims := [0]
  collapsedSliceDims := [1]
  operandBatchingDims := []
  startIndicesBatchingDims := []
  startIndexMap := [1]
  indexVectorDim := 2
  sliceSizes := ![4096, 1]
  wf := gather_S4096x2048_S512x32x1_S4096x512x32_0_1_n_n_1_2_40961_wf
def gather_S4096x512_S2048x32x1_S4096x2048x32_0_1_n_n_1_2_40961 : GatherDims S4096x512 S2048x32x1 S4096x2048x32 where
  offsetDims := [0]
  collapsedSliceDims := [1]
  operandBatchingDims := []
  startIndicesBatchingDims := []
  startIndexMap := [1]
  indexVectorDim := 2
  sliceSizes := ![4096, 1]
  wf := gather_S4096x512_S2048x32x1_S4096x2048x32_0_1_n_n_1_2_40961_wf
def gather_S4096x2048_S1024x32x1_S4096x1024x32_0_1_n_n_1_2_40961 : GatherDims S4096x2048 S1024x32x1 S4096x1024x32 where
  offsetDims := [0]
  collapsedSliceDims := [1]
  operandBatchingDims := []
  startIndicesBatchingDims := []
  startIndexMap := [1]
  indexVectorDim := 2
  sliceSizes := ![4096, 1]
  wf := gather_S4096x2048_S1024x32x1_S4096x1024x32_0_1_n_n_1_2_40961_wf

class Facts : Prop extends Facts₀ where

variable [Facts]
-- ==== Proof.Spec.lean ====
/-
  The mathematics of the network both programs compute, stated once over whole arrays.

  One layer takes activations `x` (4096 rows, `I` features), a table `conn` of `O × 32` feature numbers and a
  vector `op` of `O` selectors.  Output feature `o` of row `b` looks at the 32 entries `x[b, conn[o, k]]`,
  `k < 32`, and is their maximum when `op[o] = 1` and their minimum otherwise.  Both extrema are folds from the
  neutral infinity (−∞ for the maximum, +∞ for the minimum), so the order of the 32 entries does not matter.
  The network is four such layers, 1024 → 2048 → 512 → 2048 → 1024 features.

  A feature number is a 32-bit word; `pick` reads it as a natural number and is only meaningful when that number
  is below `I` (`InRange`), which is what the claim's precondition says of every entry of every table.
-/
import Idealize.ShloMosaic.PureOps.Ideal
import Idealize.ShloMosaic.Lib.ValueIdx

noncomputable section

namespace Cert.Layers

open Idealize.ShloMosaic Idealize.ShloMosaic.ValueIdx

/-- The initial value of a running maximum: the word of −∞. -/
abbrev negInf : Ideal .f32 := Ideal.ofBits .f32 0xFF800000#32
/-- The initial value of a running minimum: the word of +∞. -/
abbrev posInf : Ideal .f32 := Ideal.ofBits .f32 0x7F800000#32

/-- Every feature number of the table, read as a natural number, names one of the `I` input features. -/
def InRange (I : ℕ) {O : ℕ} (conn : IVec ⟨2, ![O, 32]⟩ 32) : Prop :=
  ∀ (o : Fin O) (k : Fin 32), (conn (ix2 o k)).toNat < I

/-- Entry `w` of row `b` of `x`, the word `w` read as a feature number (an arbitrary value, zero, when it names none). -/
def pick {I : ℕ} (x : FVec Ideal ⟨2, ![4096, I]⟩ .f32) (b : Fin 4096) (w : BitVec 32) : Ideal .f32 :=
  if h : w.toNat < I then x (ix2 b ⟨w.toNat, h⟩) else 0

theorem pick_of_lt {I : ℕ} (x : FVec Ideal ⟨2, ![4096, I]⟩ .f32) (b : Fin 4096) (w : BitVec 32) (h : w.toNat < I) :
    pick x b w = x (ix2 b ⟨w.toNat, h⟩) := dif_pos h

/-- The maximum of 32 entries, folded from −∞. -/
def max32 (f : Fin 32 → Ideal .f32) : Ideal .f32 := (Finset.univ : Finset (Fin 32)).fold max negInf f
/-- The minimum of 32 entries, folded from +∞. -/
def min32 (f : Fin 32 → Ideal .f32) : Ideal .f32 := (Finset.univ : Finset (Fin 32)).fold min posInf f

/-- Output feature `o` of row `b` of one layer. -/
def layerAt {I O : ℕ} (x : FVec Ideal ⟨2, ![4096, I]⟩ .f32) (conn : IVec ⟨2, ![O, 32]⟩ 32) (op : IVec ⟨1, ![O]⟩ 32)
    (b : Fin 4096) (o : Fin O) : Ideal .f32 :=
  Scalar.select (IntOp.cmpi .eq (op (ix1 o)) 1#32)
    (max32 fun k => pick x b (conn (ix2 o k)))
    (min32 fun k => pick x b (conn (ix2 o k)))

/-- One layer, as a whole array. -/
def layer {I O : ℕ} (x : FVec Ideal ⟨2, ![4096, I]⟩ .f32) (conn : IVec ⟨2, ![O, 32]⟩ 32) (op : IVec ⟨1, ![O]⟩ 32) :
    FVec Ideal ⟨2, ![4096, O]⟩ .f32 :=
  fun j => layerAt x conn op (j 0) (j 1)

theorem layer_apply {I O : ℕ} (x : FVec Ideal ⟨2, ![4096, I]⟩ .f32) (conn : IVec ⟨2, ![O, 32]⟩ 32) (op : IVec ⟨1, ![O]⟩ 32)
    (b : Fin 4096) (o : Fin O) : layer x conn op (ix2 b o) = layerAt x conn op b o := rfl

/-- Two arrays that agree entry by entry are one array: a layer's result is determined by its entries. -/
theorem eq_layer_of_apply {I O : ℕ} (x : FVec Ideal ⟨2, ![4096, I]⟩ .f32) (conn : IVec ⟨2, ![O, 32]⟩ 32) (op : IVec ⟨1, ![O]⟩ 32)
    (A : FVec Ideal ⟨2, ![4096, O]⟩ .f32) (h : ∀ (b : Fin 4096) (o : Fin O), A (ix2 b o) = layerAt x conn op b o) :
    A = layer x conn op := by
  funext j
  rw [eq_ix2 j]
  exact h (j 0) (j 1)

/-- The four layers in sequence. -/
def net (x : FVec Ideal ⟨2, ![4096, 1024]⟩ .f32)
    (c0 : IVec ⟨2, ![2048, 32]⟩ 32) (c1 : IVec ⟨2, ![512, 32]⟩ 32) (c2 : IVec ⟨2, ![2048, 32]⟩ 32) (c3 : IVec ⟨2, ![1024, 32]⟩ 32)
    (o0 : IVec ⟨1, ![2048]⟩ 32) (o1 : IVec ⟨1, ![512]⟩ 32) (o2 : IVec ⟨1, ![2048]⟩ 32) (o3 : IVec ⟨1, ![1024]⟩ 32) :
    FVec Ideal ⟨2, ![4096, 1024]⟩ .f32 :=
  layer (layer (layer (layer x c0 o0) c1 o1) c2 o2) c3 o3

end Cert.Layers

end
-- ==== Proof.Fold32.lean ====
/-
  A fold of a commutative, associative operation over the 32 indices, written out.

  For such an operation the fold over all of `Fin (n + 1)` is the fold over the first `n` indices joined, on the
  right, to the entry at the last index: the last index is split off the set, and commutativity moves its entry
  to the right.  Applied 32 times, down to the empty set whose fold is the initial value, this gives the fold over
  `Fin 32` as the left-nested chain that starts from the initial value and takes the entries 0, 1, …, 31 in turn.
-/
import Mathlib.Data.Finset.Fold
import Mathlib.Data.Fintype.Basic

namespace Cert.Fold32

/-- The fold over `Fin (n + 1)` is the fold over the first `n` indices, joined to the entry at the last. -/
theorem fold_univ_castSucc {α : Type*} (op : α → α → α) [Std.Commutative op] [Std.Associative op] (b : α) {n : ℕ}
    (f : Fin (n + 1) → α) :
    (Finset.univ : Finset (Fin (n + 1))).fold op b f
      = op ((Finset.univ : Finset (Fin n)).fold op b fun i => f i.castSucc) (f (Fin.last n)) := by
  rw [Fin.univ_castSuccEmb, Finset.fold_cons, Finset.fold_map, Std.Commutative.comm (op := op)]
  rfl

/-- The fold over no indices is the initial value. -/
theorem fold_univ_fin0 {α : Type*} (op : α → α → α) [Std.Commutative op] [Std.Associative op] (b : α)
    (f : Fin 0 → α) : (Finset.univ : Finset (Fin 0)).fold op b f = b := by
  rw [Finset.univ_eq_empty, Finset.fold_empty]

/-- The fold over the 32 indices is the left-nested chain from the initial value through the entries 0 … 31. -/
theorem fold_univ_fin32 {α : Type*} (op : α → α → α) [Std.Commutative op] [Std.Associative op] (b : α)
    (f : Fin 32 → α) :
    (Finset.univ : Finset (Fin 32)).fold op b f
      = op (op (op (op (op (op (op (op (op (op (op (op (op (op (op (op (op (op (op (op (op (op (op (op (op (op (op (op (op (op (op (op b (f 0)) (f 1)) (f 2)) (f 3)) (f 4)) (f 5)) (f 6)) (f 7)) (f 8)) (f 9)) (f 10)) (f 11)) (f 12)) (f 13)) (f 14)) (f 15)) (f 16)) (f 17)) (f 18)) (f 19)) (f 20)) (f 21)) (f 22)) (f 23)) (f 24)) (f 25)) (f 26)) (f 27)) (f 28)) (f 29)) (f 30)) (f 31) := by
  simp only [fold_univ_castSucc op, fold_univ_fin0 op]
  rfl

end Cert.Fold32
-- ==== Proof.KBlock0.lean ====
/-
  What one grid point of the first layer's kernel leaves in its output block, entry by entry.

  The kernel never indexes the activations.  For each of the 32 rows of feature numbers it builds the indicator
  matrix whose entry (i, q) is 1 when i is the number the row holds at q and 0 otherwise, multiplies the block of
  activations by it, and joins the product to a running minimum and a running maximum.  A sum of products with an
  indicator column has one term that is not a product with zero, so the product's entry (p, q) is the activation
  of row p at the feature the word names: in the extended reals x · 0 = 0 and x · 1 = x for every x, infinite ones
  included, so no finiteness is needed.  The 32 joins are a fold of min (from +∞) and of max (from −∞) over the 32
  rows, and the block's entry is the one the selector word chooses.
-/
import proofs.«424863_j77781857731251_2_alg».proof.Proof.Gen.KernelIdeal.Frame
import proofs.«424863_j77781857731251_2_alg».proof.Proof.Spec
import proofs.«424863_j77781857731251_2_alg».proof.Proof.Fold32
import Idealize.ShloMosaic.Lib.ValueIdx
import Idealize.ShloMosaic.Lib.Pipeline.Value
import Idealize.ShloMosaic.PureOps.Ideal.Laws

noncomputable section

namespace Cert.KernelIdeal.Block0

open Idealize.ShloMosaic Idealize.ShloMosaic.ValueIdx Cert.KernelIdeal Cert.Layers

/-! ## The product's operand indices -/

/-- The dimension numbers of the layer's product: rows of the left operand against columns of the right. -/
abbrev D := dot_S1024x1024_S1024x256_S1024x256_1_0_0_1_n_n

theorem lhs_D_0 (j : S1024x256.Idx) (k : D.contr.Idx) : (D.lhsIdx j k 0).val = (j 0).val := by
  simp [DotDims.lhsIdx, D, dot_S1024x1024_S1024x256_S1024x256_1_0_0_1_n_n]; rfl

theorem lhs_D_1 (j : S1024x256.Idx) (k : D.contr.Idx) : (D.lhsIdx j k 1).val = (k ⟨0, by decide⟩).val :=
  D.lhsIdx_val_of_single rfl j k

theorem rhs_D_0 (j : S1024x256.Idx) (k : D.contr.Idx) : (D.rhsIdx j k 0).val = (k ⟨0, by decide⟩).val :=
  D.rhsIdx_val_of_single rfl j k

theorem rhs_D_1 (j : S1024x256.Idx) (k : D.contr.Idx) : (D.rhsIdx j k 1).val = (j 1).val := by
  simp [DotDims.rhsIdx, D, dot_S1024x1024_S1024x256_S1024x256_1_0_0_1_n_n]; rfl

/-- The two operand indices of the product at output entry (p, q) and contraction position c: (p, c) on the left, (c, q) on the right. -/
theorem lhsIdx_D (p : Fin 1024) (q : Fin 256) (c : Fin 1024) :
    D.lhsIdx (ix2 p q) ((contrEquiv1 D 1024 rfl rfl).symm c) = ix2 p c := by
  have hc := contrEquiv1_symm_val D 1024 rfl rfl c
  funext a; apply Fin.ext
  match a with
  | ⟨0, _⟩ => exact lhs_D_0 _ _
  | ⟨1, _⟩ => exact (lhs_D_1 _ _).trans hc

theorem rhsIdx_D (p : Fin 1024) (q : Fin 256) (c : Fin 1024) :
    D.rhsIdx (ix2 p q) ((contrEquiv1 D 1024 rfl rfl).symm c) = ix2 c q := by
  have hc := contrEquiv1_symm_val D 1024 rfl rfl c
  funext a; apply Fin.ext
  match a with
  | ⟨0, _⟩ => exact (rhs_D_0 _ _).trans hc
  | ⟨1, _⟩ => exact rhs_D_1 _ _

/-- A set bit, widened and read as a float, is 1 … -/
theorem sitofp_bit_true : (FloatOps.sitofp (F := Ideal) .f32 ((BitVec.ofBool true).setWidth 32) : Ideal .f32) = 1 := by
  show (((BitVec.setWidth 32 (BitVec.ofBool true)).toInt : ℝ) : EReal) = 1
  rw [show (BitVec.setWidth 32 (BitVec.ofBool true)).toInt = 1 from by decide]; simp

/-- … and a clear bit is 0. -/
theorem sitofp_bit_false : (FloatOps.sitofp (F := Ideal) .f32 ((BitVec.ofBool false).setWidth 32) : Ideal .f32) = 0 := by
  show (((BitVec.setWidth 32 (BitVec.ofBool false)).toInt : ℝ) : EReal) = 0
  rw [show (BitVec.setWidth 32 (BitVec.ofBool false)).toInt = 0 from by decide]; simp

/-- The indicator entry: row number c against the word w, as a float, is 1 when c is the number w names and 0 otherwise. -/
theorem indicator_eq (c : Fin 1024) (w : BitVec 32) :
    (FloatOps.sitofp (F := Ideal) .f32 ((IntOp.cmpi .eq (BitVec.ofNat 32 c.val) w).setWidth 32) : Ideal .f32)
      = if c.val = w.toNat then 1 else 0 := by
  have hlt : c.val < 2 ^ 32 := lt_trans c.isLt (by norm_num)
  show (FloatOps.sitofp (F := Ideal) .f32 ((BitVec.ofBool (BitVec.ofNat 32 c.val == w)).setWidth 32) : Ideal .f32) = _
  by_cases h : c.val = w.toNat
  · have e : BitVec.ofNat 32 c.val = w :=
      BitVec.eq_of_toNat_eq (by rw [BitVec.toNat_ofNat, Nat.mod_eq_of_lt hlt, h])
    rw [if_pos h, e, beq_self_eq_true, sitofp_bit_true]
  · have e : ¬ BitVec.ofNat 32 c.val = w := fun e => h (by rw [← e, BitVec.toNat_ofNat, Nat.mod_eq_of_lt hlt])
    rw [if_neg h, beq_false_of_ne e, sitofp_bit_false]

/-- Entry w of row p of the activations, the word w read as a feature number; zero when it names none. -/
def pickw (x : FVec Ideal S1024x1024 .bf16) (p : Fin 1024) (w : BitVec 32) : Ideal .f32 :=
  if h : w.toNat < 1024 then x (ix2 p ⟨w.toNat, h⟩) else 0

theorem pickw_of_lt (x : FVec Ideal S1024x1024 .bf16) (p : Fin 1024) (w : BitVec 32) (h : w.toNat < 1024) :
    pickw x p w = x (ix2 p ⟨w.toNat, h⟩) := dif_pos h

/-- A product of the activations with the indicator of the numbers a row of words names picks, at column q, the
    activation the word there names: every other term of the sum is a product with 0, the one term a product with 1;
    and when the word names no feature every term is a product with 0. -/
theorem onehot_sum (x : FVec Ideal S1024x1024 .bf16) (B : IVec S1024x256 32) (p : Fin 1024) (q : Fin 256)
    (w : BitVec 32) (hB : ∀ i : Fin 1024, B (ix2 i q) = w) :
    matmul (F := Ideal) D none x
        (truncf .bf16 (sitofp .f32 (extui 32 (cmpi .eq (iota .tc S1024x256 32 [0] Gen.iota_S1024x256_d0_w32) B) Gen.natLt_1_32)) Gen.bitsLt_bf16_f32)
        (constant (F := Ideal) S1024x256 .f32 0x00000000#32) (ix2 p q)
      = pickw x p w := by
  show FloatOps.matmul D none x _ (constant (F := Ideal) S1024x256 .f32 0x00000000#32) (ix2 p q) = _
  rw [Ideal.matmul_constant_zero_apply, ← Equiv.sum_comp (contrEquiv1 D 1024 rfl rfl).symm]
  have term : ∀ c : Fin 1024,
      x (D.lhsIdx (ix2 p q) ((contrEquiv1 D 1024 rfl rfl).symm c))
        * (truncf .bf16 (sitofp .f32 (extui 32 (cmpi .eq (iota .tc S1024x256 32 [0] Gen.iota_S1024x256_d0_w32) B) Gen.natLt_1_32)) Gen.bitsLt_bf16_f32
            : FVec Ideal S1024x256 .bf16) (D.rhsIdx (ix2 p q) ((contrEquiv1 D 1024 rfl rfl).symm c))
      = x (ix2 p c) * (if c.val = w.toNat then 1 else 0) := by
    intro c
    rw [lhsIdx_D, rhsIdx_D, truncf_apply, sitofp_apply, extui_apply]
    show x (ix2 p c) * FloatOps.sitofp (F := Ideal) .f32
      ((IntOp.cmpi .eq (iota .tc S1024x256 32 [0] Gen.iota_S1024x256_d0_w32 (ix2 c q)) (B (ix2 c q))).setWidth 32) = _
    rw [iota_single_apply, hB c]
    exact congrArg (x (ix2 p c) * ·) (indicator_eq c w)
  rw [Finset.sum_congr rfl fun c _ => term c]
  unfold pickw
  by_cases h : w.toNat < 1024
  · rw [dif_pos h, Finset.sum_eq_single (⟨w.toNat, h⟩ : Fin 1024)]
    · rw [if_pos rfl, mul_one]
    · intro c _ hc
      rw [if_neg (fun e => hc (Fin.ext e)), mul_zero]
    · intro hn; exact absurd (Finset.mem_univ _) hn
  · rw [dif_neg h]
    exact Finset.sum_eq_zero fun c _ => by
      rw [if_neg (fun e : c.val = w.toNat => h (lt_of_eq_of_lt e.symm c.isLt)), mul_zero]

/-- A vector of 256 words, viewed as one row and repeated down the rows, reads at (i, q) its word q. -/
theorem rows_of_vector (s : IVec S256 32) (i : Fin 1024) (q : Fin 256) :
    broadcastTo S1024x256 (shapeCast S1x256 (shapeCast S1x256 s Gen.shapeCasts_S256_S1x256) Gen.shapeCasts_S1x256_S1x256)
        Gen.broadcasts_S1x256_S1024x256 (ix2 i q) = s (ix1 q) := by
  rw [shapeCast_self]
  refine (broadcastTo_apply _ _ (ix2 i q) (ix2 (0 : Fin 1) q) (fun a => ?_)).trans ?_
  · match a with
    | ⟨0, _⟩ => rfl
    | ⟨1, _⟩ => rfl
  · refine (shapeCast_addUnit_apply ![256] s Gen.shapeCasts_S256_S1x256 (ix2 (0 : Fin 1) q)).trans (congrArg s ?_)
    funext a
    match a with
    | ⟨0, _⟩ => rfl

/-- One row of 256 words, viewed as a vector, reads at q the row's word q. -/
theorem vector_of_row (r : IVec S1x256 32) (q : Fin 256) :
    shapeCast S256 r Gen.shapeCasts_S1x256_S256 (ix1 q) = r (ix2 (0 : Fin 1) q) := by
  refine (shapeCast_dropUnit_apply ![256] r Gen.shapeCasts_S1x256_S256 (ix1 q)).trans (congrArg r ?_)
  funext a
  match a with
  | ⟨0, _⟩ => rfl
  | ⟨1, _⟩ => rfl

/-- One row of 256 words repeated down the rows reads at (i, q) the row's word q. -/
theorem rows_of_row (r : IVec S1x256 32) (i : Fin 1024) (q : Fin 256) :
    broadcastTo S1024x256 (shapeCast S1x256 (shapeCast S1x256 r Gen.shapeCasts_S1x256_S1x256) Gen.shapeCasts_S1x256_S1x256)
        Gen.broadcasts_S1x256_S1024x256 (ix2 i q) = r (ix2 (0 : Fin 1) q) := by
  rw [shapeCast_self, shapeCast_self]
  refine broadcastTo_apply _ _ (ix2 i q) (ix2 (0 : Fin 1) q) (fun a => ?_)
  match a with
  | ⟨0, _⟩ => rfl
  | ⟨1, _⟩ => rfl

/-- The layer's product against the indicator of a vector of words, at (p, q): the activation the vector's word q names. -/
theorem gather_vector (x : FVec Ideal S1024x1024 .bf16) (s : IVec S256 32) (p : Fin 1024) (q : Fin 256) :
    matmul (F := Ideal) D none x
        (truncf .bf16 (sitofp .f32 (extui 32 (cmpi .eq (iota .tc S1024x256 32 [0] Gen.iota_S1024x256_d0_w32)
          (broadcastTo S1024x256 (shapeCast S1x256 (shapeCast S1x256 s Gen.shapeCasts_S256_S1x256) Gen.shapeCasts_S1x256_S1x256)
            Gen.broadcasts_S1x256_S1024x256)) Gen.natLt_1_32)) Gen.bitsLt_bf16_f32)
        (constant (F := Ideal) S1024x256 .f32 0x00000000#32) (ix2 p q)
      = pickw x p (s (ix1 q)) :=
  onehot_sum x _ p q _ fun i => rows_of_vector s i q

/-- The same against the indicator of one row of words: the activation the row's word q names. -/
theorem gather_row (x : FVec Ideal S1024x1024 .bf16) (r : IVec S1x256 32) (p : Fin 1024) (q : Fin 256) :
    matmul (F := Ideal) D none x
        (truncf .bf16 (sitofp .f32 (extui 32 (cmpi .eq (iota .tc S1024x256 32 [0] Gen.iota_S1024x256_d0_w32)
          (broadcastTo S1024x256 (shapeCast S1x256 (shapeCast S1x256 (shapeCast S256 r Gen.shapeCasts_S1x256_S256)
            Gen.shapeCasts_S256_S1x256) Gen.shapeCasts_S1x256_S1x256) Gen.broadcasts_S1x256_S1024x256)) Gen.natLt_1_32)) Gen.bitsLt_bf16_f32)
        (constant (F := Ideal) S1024x256 .f32 0x00000000#32) (ix2 p q)
      = pickw x p (r (ix2 (0 : Fin 1) q)) :=
  (gather_vector x _ p q).trans (congrArg (pickw x p) (vector_of_row r q))

/-- Row k of the table of feature numbers, loaded as a block of one row, reads at (0, q) the table's entry (k, q). -/
theorem ld_row (x1 : Vec Ideal S32x256 .i32) (k : ℕ) (inb : ∀ a, (![k, 0] : Fin 2 → Nat) a + S1x256.size a ≤ S32x256.size a) (q : Fin 256) :
    View.ld x1 (Rect.unit (s := S32x256) ![k, 0] S1x256.size inb) (ix2 (0 : Fin 1) q)
      = x1 (ix2 (⟨k, by have := inb 0; simpa using this⟩ : Fin 32) q) := by
  refine congrArg x1 (funext fun a => Fin.ext ?_)
  match a with
  | ⟨0, _⟩ => show k + 1 * 0 = k; omega
  | ⟨1, _⟩ => show 0 + 1 * q.val = q.val; omega

/-! ## The running extrema, four rows of feature numbers at a time

Each step of the kernel joins to a running minimum, and to a running maximum, the activations that three or four more
rows of the table name.  At entry (p, q) a step's result is the running value there joined, in order, to the picked
activations. -/

/-- The first three rows, from +∞ … -/
theorem pay6_apply (x : Vec Ideal S1024x1024 .bf16) (r0 r1 r2 : Vec Ideal S1x256 .i32) (p : Fin 1024) (q : Fin 256) :
    Gen.k0_pay6 x r0 r1 r2 (ix2 p q)
      = min (min (min posInf (pickw x p (r0 (ix2 (0 : Fin 1) q)))) (pickw x p (r1 (ix2 (0 : Fin 1) q))))
          (pickw x p (r2 (ix2 (0 : Fin 1) q))) := by
  unfold Gen.k0_pay6 Gen.k0_pay3 Gen.k0_pay4 Gen.k0_pay5 Gen.k0_pay2
  simp only [minimumf_apply, broadcast_apply]
  rw [shapeCast_self x Gen.shapeCasts_S1024x1024_S1024x1024, gather_row x r0 p q, gather_row x r1 p q, gather_row x r2 p q]
  rfl

/-- … and from −∞. -/
theorem pay7_apply (x : Vec Ideal S1024x1024 .bf16) (r0 r1 r2 : Vec Ideal S1x256 .i32) (p : Fin 1024) (q : Fin 256) :
    Gen.k0_pay7 x r0 r1 r2 (ix2 p q)
      = max (max (max negInf (pickw x p (r0 (ix2 (0 : Fin 1) q)))) (pickw x p (r1 (ix2 (0 : Fin 1) q))))
          (pickw x p (r2 (ix2 (0 : Fin 1) q))) := by
  unfold Gen.k0_pay7 Gen.k0_pay3 Gen.k0_pay4 Gen.k0_pay5 Gen.k0_pay2
  simp only [maximumf_apply, broadcast_apply]
  rw [shapeCast_self x Gen.shapeCasts_S1024x1024_S1024x1024, gather_row x r0 p q, gather_row x r1 p q, gather_row x r2 p q]
  rfl

/-- Four more rows of feature numbers joined to a running minimum … -/
theorem pay13_apply (x : FVec Ideal S1024x1024 .bf16) (acc : FVec Ideal S1024x256 .f32) (s : IVec S256 32)
    (r1 r2 r3 : Vec Ideal S1x256 .i32) (p : Fin 1024) (q : Fin 256) :
    Gen.k0_pay13 x (iota .tc S1024x256 32 [0] Gen.iota_S1024x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k0_pay13 Gen.k0_pay9 Gen.k0_pay10 Gen.k0_pay11 Gen.k0_pay12
  simp only [minimumf_apply]
  rw [gather_vector x s p q, gather_row x r1 p q, gather_row x r2 p q, gather_row x r3 p q]

/-- … and to a running maximum. -/
theorem pay14_apply (x : FVec Ideal S1024x1024 .bf16) (acc : FVec Ideal S1024x256 .f32) (s : IVec S256 32)
    (r1 r2 r3 : Vec Ideal S1x256 .i32) (p : Fin 1024) (q : Fin 256) :
    Gen.k0_pay14 x (iota .tc S1024x256 32 [0] Gen.iota_S1024x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k0_pay14 Gen.k0_pay9 Gen.k0_pay10 Gen.k0_pay11 Gen.k0_pay12
  simp only [maximumf_apply]
  rw [gather_vector x s p q, gather_row x r1 p q, gather_row x r2 p q, gather_row x r3 p q]

/-- Four more rows of feature numbers joined to a running minimum … -/
theorem pay20_apply (x : FVec Ideal S1024x1024 .bf16) (acc : FVec Ideal S1024x256 .f32) (s : IVec S256 32)
    (r1 r2 r3 : Vec Ideal S1x256 .i32) (p : Fin 1024) (q : Fin 256) :
    Gen.k0_pay20 x (iota .tc S1024x256 32 [0] Gen.iota_S1024x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k0_pay20 Gen.k0_pay16 Gen.k0_pay17 Gen.k0_pay18 Gen.k0_pay19
  simp only [minimumf_apply]
  rw [gather_vector x s p q, gather_row x r1 p q, gather_row x r2 p q, gather_row x r3 p q]

/-- … and to a running maximum. -/
theorem pay21_apply (x : FVec Ideal S1024x1024 .bf16) (acc : FVec Ideal S1024x256 .f32) (s : IVec S256 32)
    (r1 r2 r3 : Vec Ideal S1x256 .i32) (p : Fin 1024) (q : Fin 256) :
    Gen.k0_pay21 x (iota .tc S1024x256 32 [0] Gen.iota_S1024x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k0_pay21 Gen.k0_pay16 Gen.k0_pay17 Gen.k0_pay18 Gen.k0_pay19
  simp only [maximumf_apply]
  rw [gather_vector x s p q, gather_row x r1 p q, gather_row x r2 p q, gather_row x r3 p q]

/-- Four more rows of feature numbers joined to a running minimum … -/
theorem pay27_apply (x : FVec Ideal S1024x1024 .bf16) (acc : FVec Ideal S1024x256 .f32) (s : IVec S256 32)
    (r1 r2 r3 : Vec Ideal S1x256 .i32) (p : Fin 1024) (q : Fin 256) :
    Gen.k0_pay27 x (iota .tc S1024x256 32 [0] Gen.iota_S1024x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k0_pay27 Gen.k0_pay23 Gen.k0_pay24 Gen.k0_pay25 Gen.k0_pay26
  simp only [minimumf_apply]
  rw [gather_vector x s p q, gather_row x r1 p q, gather_row x r2 p q, gather_row x r3 p q]

/-- … and to a running maximum. -/
theorem pay28_apply (x : FVec Ideal S1024x1024 .bf16) (acc : FVec Ideal S1024x256 .f32) (s : IVec S256 32)
    (r1 r2 r3 : Vec Ideal S1x256 .i32) (p : Fin 1024) (q : Fin 256) :
    Gen.k0_pay28 x (iota .tc S1024x256 32 [0] Gen.iota_S1024x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k0_pay28 Gen.k0_pay23 Gen.k0_pay24 Gen.k0_pay25 Gen.k0_pay26
  simp only [maximumf_apply]
  rw [gather_vector x s p q, gather_row x r1 p q, gather_row x r2 p q, gather_row x r3 p q]

/-- Four more rows of feature numbers joined to a running minimum … -/
theorem pay34_apply (x : FVec Ideal S1024x1024 .bf16) (acc : FVec Ideal S1024x256 .f32) (s : IVec S256 32)
    (r1 r2 r3 : Vec Ideal S1x256 .i32) (p : Fin 1024) (q : Fin 256) :
    Gen.k0_pay34 x (iota .tc S1024x256 32 [0] Gen.iota_S1024x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k0_pay34 Gen.k0_pay30 Gen.k0_pay31 Gen.k0_pay32 Gen.k0_pay33
  simp only [minimumf_apply]
  rw [gather_vector x s p q, gather_row x r1 p q, gather_row x r2 p q, gather_row x r3 p q]

/-- … and to a running maximum. -/
theorem pay35_apply (x : FVec Ideal S1024x1024 .bf16) (acc : FVec Ideal S1024x256 .f32) (s : IVec S256 32)
    (r1 r2 r3 : Vec Ideal S1x256 .i32) (p : Fin 1024) (q : Fin 256) :
    Gen.k0_pay35 x (iota .tc S1024x256 32 [0] Gen.iota_S1024x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k0_pay35 Gen.k0_pay30 Gen.k0_pay31 Gen.k0_pay32 Gen.k0_pay33
  simp only [maximumf_apply]
  rw [gather_vector x s p q, gather_row x r1 p q, gather_row x r2 p q, gather_row x r3 p q]

/-- Four more rows of feature numbers joined to a running minimum … -/
theorem pay41_apply (x : FVec Ideal S1024x1024 .bf16) (acc : FVec Ideal S1024x256 .f32) (s : IVec S256 32)
    (r1 r2 r3 : Vec Ideal S1x256 .i32) (p : Fin 1024) (q : Fin 256) :
    Gen.k0_pay41 x (iota .tc S1024x256 32 [0] Gen.iota_S1024x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k0_pay41 Gen.k0_pay37 Gen.k0_pay38 Gen.k0_pay39 Gen.k0_pay40
  simp only [minimumf_apply]
  rw [gather_vector x s p q, gather_row x r1 p q, gather_row x r2 p q, gather_row x r3 p q]

/-- … and to a running maximum. -/
theorem pay42_apply (x : FVec Ideal S1024x1024 .bf16) (acc : FVec Ideal S1024x256 .f32) (s : IVec S256 32)
    (r1 r2 r3 : Vec Ideal S1x256 .i32) (p : Fin 1024) (q : Fin 256) :
    Gen.k0_pay42 x (iota .tc S1024x256 32 [0] Gen.iota_S1024x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k0_pay42 Gen.k0_pay37 Gen.k0_pay38 Gen.k0_pay39 Gen.k0_pay40
  simp only [maximumf_apply]
  rw [gather_vector x s p q, gather_row x r1 p q, gather_row x r2 p q, gather_row x r3 p q]

/-- Four more rows of feature numbers joined to a running minimum … -/
theorem pay48_apply (x : FVec Ideal S1024x1024 .bf16) (acc : FVec Ideal S1024x256 .f32) (s : IVec S256 32)
    (r1 r2 r3 : Vec Ideal S1x256 .i32) (p : Fin 1024) (q : Fin 256) :
    Gen.k0_pay48 x (iota .tc S1024x256 32 [0] Gen.iota_S1024x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k0_pay48 Gen.k0_pay44 Gen.k0_pay45 Gen.k0_pay46 Gen.k0_pay47
  simp only [minimumf_apply]
  rw [gather_vector x s p q, gather_row x r1 p q, gather_row x r2 p q, gather_row x r3 p q]

/-- … and to a running maximum. -/
theorem pay49_apply (x : FVec Ideal S1024x1024 .bf16) (acc : FVec Ideal S1024x256 .f32) (s : IVec S256 32)
    (r1 r2 r3 : Vec Ideal S1x256 .i32) (p : Fin 1024) (q : Fin 256) :
    Gen.k0_pay49 x (iota .tc S1024x256 32 [0] Gen.iota_S1024x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k0_pay49 Gen.k0_pay44 Gen.k0_pay45 Gen.k0_pay46 Gen.k0_pay47
  simp only [maximumf_apply]
  rw [gather_vector x s p q, gather_row x r1 p q, gather_row x r2 p q, gather_row x r3 p q]

/-- Four more rows of feature numbers joined to a running minimum … -/
theorem pay55_apply (x : FVec Ideal S1024x1024 .bf16) (acc : FVec Ideal S1024x256 .f32) (s : IVec S256 32)
    (r1 r2 r3 : Vec Ideal S1x256 .i32) (p : Fin 1024) (q : Fin 256) :
    Gen.k0_pay55 x (iota .tc S1024x256 32 [0] Gen.iota_S1024x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k0_pay55 Gen.k0_pay51 Gen.k0_pay52 Gen.k0_pay53 Gen.k0_pay54
  simp only [minimumf_apply]
  rw [gather_vector x s p q, gather_row x r1 p q, gather_row x r2 p q, gather_row x r3 p q]

/-- … and to a running maximum. -/
theorem pay56_apply (x : FVec Ideal S1024x1024 .bf16) (acc : FVec Ideal S1024x256 .f32) (s : IVec S256 32)
    (r1 r2 r3 : Vec Ideal S1x256 .i32) (p : Fin 1024) (q : Fin 256) :
    Gen.k0_pay56 x (iota .tc S1024x256 32 [0] Gen.iota_S1024x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k0_pay56 Gen.k0_pay51 Gen.k0_pay52 Gen.k0_pay53 Gen.k0_pay54
  simp only [maximumf_apply]
  rw [gather_vector x s p q, gather_row x r1 p q, gather_row x r2 p q, gather_row x r3 p q]

/-- The last row joined to both running values, and the choice between them: the maximum where the selector word is 1,
    the minimum elsewhere. -/
theorem pay1_apply (x : FVec Ideal S1024x1024 .bf16) (amin amax : FVec Ideal S1024x256 .f32) (s : IVec S256 32)
    (sel : Vec Ideal S1x256 .i32) (p : Fin 1024) (q : Fin 256) :
    Gen.k0_pay1 x (iota .tc S1024x256 32 [0] Gen.iota_S1024x256_d0_w32) amin amax s sel (ix2 p q)
      = Scalar.select (IntOp.cmpi .eq (sel (ix2 (0 : Fin 1) q)) 1#32)
          (max (amax (ix2 p q)) (pickw x p (s (ix1 q)))) (min (amin (ix2 p q)) (pickw x p (s (ix1 q)))) := by
  unfold Gen.k0_pay1
  simp only [truncf_apply, select_apply, maximumf_apply, minimumf_apply]
  rw [gather_vector x s p q]
  show Scalar.select (IntOp.cmpi .eq (broadcastTo S1024x256 (shapeCast S1x256 (shapeCast S1x256 sel Gen.shapeCasts_S1x256_S1x256)
    Gen.shapeCasts_S1x256_S1x256) Gen.broadcasts_S1x256_S1024x256 (ix2 p q)) 1#32) _ _ = _
  rw [rows_of_row sel p q]

/-! ## The block -/

/-- Entry (p, q) of the block a point writes: with `x0` the point's 1024 rows of activations, `x1` its 32 × 256
    feature numbers (each below 1024) and `x2` its 256 selectors, the maximum or the minimum over `k` of
    `x0[p, x1[k, q]]`, as `x2[0, q]` is 1 or not. -/
theorem out_apply (x0 : Vec Ideal S1024x1024 .bf16) (x1 : Vec Ideal S32x256 .i32) (x2 : Vec Ideal S1x256 .i32)
    (h1 : ∀ (k : Fin 32) (q : Fin 256), (x1 (ix2 k q)).toNat < 1024) (p : Fin 1024) (q : Fin 256) :
    Gen.out0_3 (F := Ideal) x0 x1 x2 (ix2 p q)
      = Scalar.select (IntOp.cmpi .eq (x2 (ix2 (0 : Fin 1) q)) 1#32)
          (max32 fun k => x0 (ix2 p ⟨(x1 (ix2 k q)).toNat, h1 k q⟩))
          (min32 fun k => x0 (ix2 p ⟨(x1 (ix2 k q)).toNat, h1 k q⟩)) := by
  have hz : (![0, 0] : Fin 2 → Nat) = fun _ => 0 := by
    funext a
    match a with
    | ⟨0, _⟩ => rfl
    | ⟨1, _⟩ => rfl
  have ef : (fun k : Fin 32 => (x0 (ix2 p ⟨(x1 (ix2 k q)).toNat, h1 k q⟩) : Ideal .f32))
      = fun k => pickw x0 p (x1 (ix2 k q)) := funext fun k => (pickw_of_lt x0 p _ (h1 k q)).symm
  have hx : Gen.k0_pay2 (F := Ideal) x0 = x0 := by
    unfold Gen.k0_pay2
    exact shapeCast_self x0 _
  rw [ef]
  unfold Gen.out0_3
  rw [View.canon_unit_zero hz]
  simp only [View.ld_unit_zero (S := S1024x1024) hz, View.ld_unit_zero (S := S1x256) hz]
  rw [hx, pay1_apply, pay56_apply, pay55_apply, pay49_apply, pay48_apply, pay42_apply, pay41_apply, pay35_apply, pay34_apply,
    pay28_apply, pay27_apply, pay21_apply, pay20_apply, pay14_apply, pay13_apply, pay7_apply, pay6_apply]
  simp only [Gen.k0_pay8, Gen.k0_pay15, Gen.k0_pay22, Gen.k0_pay29, Gen.k0_pay36, Gen.k0_pay43, Gen.k0_pay50, Gen.k0_pay57,
    vector_of_row]
  rw [ld_row x1 0 _ q, ld_row x1 1 _ q, ld_row x1 2 _ q, ld_row x1 3 _ q, ld_row x1 4 _ q, ld_row x1 5 _ q,
    ld_row x1 6 _ q, ld_row x1 7 _ q, ld_row x1 8 _ q, ld_row x1 9 _ q, ld_row x1 10 _ q, ld_row x1 11 _ q,
    ld_row x1 12 _ q, ld_row x1 13 _ q, ld_row x1 14 _ q, ld_row x1 15 _ q, ld_row x1 16 _ q, ld_row x1 17 _ q,
    ld_row x1 18 _ q, ld_row x1 19 _ q, ld_row x1 20 _ q, ld_row x1 21 _ q, ld_row x1 22 _ q, ld_row x1 23 _ q,
    ld_row x1 24 _ q, ld_row x1 25 _ q, ld_row x1 26 _ q, ld_row x1 27 _ q, ld_row x1 28 _ q, ld_row x1 29 _ q,
    ld_row x1 30 _ q, ld_row x1 31 _ q]
  unfold max32 min32
  rw [Cert.Fold32.fold_univ_fin32 max, Cert.Fold32.fold_univ_fin32 min]
  rfl

end Cert.KernelIdeal.Block0

end
-- ==== Proof.KArray0.lean ====
/-
  The first layer's output array after its kernel's run, entry by entry.
-/
import proofs.«424863_j77781857731251_2_alg».proof.Proof.KBlock0
import Idealize.ShloMosaic.Lib.Pipeline.Value

set_option maxRecDepth 16384

noncomputable section

namespace Cert.KernelIdeal.Array0

open Idealize.ShloMosaic Idealize.ShloMosaic.TcCoe Idealize.ShloMosaic.ValueIdx Idealize.SL.Sem
open Idealize.ShloMosaic.Pipeline (Dat)
open Cert.KernelIdeal Cert.KernelIdeal.Gen Cert.Layers

variable (V : (c : Dev nD) → (b : Ref sig .tc) → Buf (Elt Ideal) ((c : Thread nD τ).loc b))

/-- The activations the region finds: 4096 rows of 1024 features. -/
abbrev xArr (c : Dev nD) : Vec Ideal S4096x1024 .bf16 := V c main_v0
/-- The feature numbers the region finds, transposed: 32 × 2048. -/
abbrev connArr (c : Dev nD) : Vec Ideal S32x2048 .i32 := V c main_v2
/-- The selectors the region finds, as one row of 2048. -/
abbrev opArr (c : Dev nD) : Vec Ideal S1x2048 .i32 := V c main_v3
/-- The region's output array after the last grid point's write-back. -/
abbrev outArr (c : Dev nD) : Vec Ideal S4096x2048 .bf16 := (dat0 (F := Ideal) V c).arrAt 3 cfg0.N

/-- The layer's whole output, entry by entry: the maximum or the minimum over `k` of `x[b, conn[k, o]]`, as selector `o` is 1 or not. -/
def layerArr (c : Dev nD) (hconn : ∀ (k : Fin 32) (o : Fin 2048), (connArr V c (ix2 k o)).toNat < 1024) :
    Vec Ideal S4096x2048 .bf16 := fun j =>
  Scalar.select (IntOp.cmpi .eq (opArr V c (ix2 (0 : Fin 1) (j 1))) 1#32)
    (max32 fun k => xArr V c (ix2 (j 0) ⟨(connArr V c (ix2 k (j 1))).toNat, hconn k (j 1)⟩))
    (min32 fun k => xArr V c (ix2 (j 0) ⟨(connArr V c (ix2 k (j 1))).toNat, hconn k (j 1)⟩))

/-- How the four windows' block numbers go together at every grid point: the activations' block is the output's row
    block and spans all features; the feature numbers' and the selectors' blocks are the output's column block; there are
    4 row blocks and 8 column blocks. -/
theorem idx_facts : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) < 4 ∧ win0_3.index t (1 : Fin 2) < 8 :=
  (by decide +kernel : ∀ t : Fin grid0.N, _)

/-- Every (row block, column block) pair is some grid point's. -/
theorem idx_onto : ∀ (q0 : Fin 4) (q1 : Fin 8), ∃ t : Fin cfg0.N, win0_3.index t = ![q0.val, q1.val] :=
  (by decide +kernel : ∀ (q0 : Fin 4) (q1 : Fin 8), ∃ t : Fin grid0.N, win0_3.index t = ![q0.val, q1.val])

/-- A grid point's 1024 rows of activations. -/
abbrev xBlk (c : Dev nD) (t : Fin cfg0.N) : Vec Ideal S1024x1024 .bf16 := iblk0 (F := Ideal) V c 0 t
/-- A grid point's 32 × 256 feature numbers. -/
abbrev connBlk (c : Dev nD) (t : Fin cfg0.N) : Vec Ideal S32x256 .i32 := iblk0 (F := Ideal) V c 1 t
/-- A grid point's 256 selectors. -/
abbrev opBlk (c : Dev nD) (t : Fin cfg0.N) : Vec Ideal S1x256 .i32 := iblk0 (F := Ideal) V c 2 t

/-- Row `p` of a point's activations is row `b` of the array, `b` being `p` within the point's row block (the block spans
    all the features). -/
theorem xBlk_row (c : Dev nD) (t : Fin cfg0.N) (p : Fin 1024) (b : Fin 4096)
    (hb : b.val = win0_3.index t (0 : Fin 2) * 1024 + p.val) :
    (fun i => xBlk V c t (ix2 p i)) = fun i => xArr V c (ix2 b i) := by
  obtain ⟨e0, e1, -⟩ := idx_facts t
  funext i
  show V c main_v0 (((cfg0.win 0).blk t).view.emb (ix2 p i)) = V c main_v0 (ix2 b i)
  congr 1
  funext a
  apply Fin.ext
  match a with
  | ⟨0, _⟩ => show win0_0.index t (0 : Fin 2) * 1024 + 1 * p.val = b.val; omega
  | ⟨1, _⟩ => show win0_0.index t (1 : Fin 2) * _ + 1 * i.val = i.val; rw [e1, Nat.zero_mul, Nat.zero_add, Nat.one_mul]

/-- Column `q` of a point's feature numbers is column `o` of the array, `o` being `q` within the point's column block. -/
theorem connBlk_apply (c : Dev nD) (t : Fin cfg0.N) (k : Fin 32) (q : Fin 256) (o : Fin 2048)
    (ho : o.val = win0_3.index t (1 : Fin 2) * 256 + q.val) :
    connBlk V c t (ix2 k q) = connArr V c (ix2 k o) := by
  obtain ⟨-, -, e2, e3, -⟩ := idx_facts t
  show V c main_v2 (((cfg0.win 1).blk t).view.emb (ix2 k q)) = V c main_v2 (ix2 k o)
  congr 1
  funext a
  apply Fin.ext
  match a with
  | ⟨0, _⟩ => show win0_1.index t (0 : Fin 2) * 32 + 1 * k.val = k.val; omega
  | ⟨1, _⟩ => show win0_1.index t (1 : Fin 2) * 256 + 1 * q.val = o.val; omega

/-- Column `q` of a point's selectors is column `o` of the array. -/
theorem opBlk_apply (c : Dev nD) (t : Fin cfg0.N) (q : Fin 256) (o : Fin 2048)
    (ho : o.val = win0_3.index t (1 : Fin 2) * 256 + q.val) :
    opBlk V c t (ix2 (0 : Fin 1) q) = opArr V c (ix2 (0 : Fin 1) o) := by
  obtain ⟨-, -, -, -, e4, e5, -⟩ := idx_facts t
  show V c main_v3 (((cfg0.win 2).blk t).view.emb (ix2 (0 : Fin 1) q)) = V c main_v3 (ix2 (0 : Fin 1) o)
  congr 1
  funext a
  apply Fin.ext
  match a with
  | ⟨0, _⟩ => show win0_2.index t (0 : Fin 2) * 1 + 1 * (0 : Fin 1).val = (0 : Fin 1).val; omega
  | ⟨1, _⟩ => show win0_2.index t (1 : Fin 2) * 256 + 1 * q.val = o.val; omega

/-- What a grid point writes back is its block of the layer's output: entry (p, q) of the block is entry
    (row block × 1024 + p, column block × 256 + q) of the array, and the point's inputs are the arrays read there. -/
theorem flushed_eq (c : Dev nD) (hconn : ∀ (k : Fin 32) (o : Fin 2048), (connArr V c (ix2 k o)).toNat < 1024) (t : Fin cfg0.N) :
    (dat0 (F := Ideal) V c).flushed 3 t = ((cfg0.win 3).blk t).view.read (Elt Ideal) (layerArr V c hconn) := by
  show (cfg0.win 3).cut (grid0.coords t) ((dat0 (F := Ideal) V c).after 3 t) = _
  rw [after0_3]
  obtain ⟨-, -, -, -, -, -, e6, e7⟩ := idx_facts t
  funext y
  obtain ⟨p, q, rfl⟩ : ∃ (p : Fin 1024) (q : Fin 256), y = ix2 p q := ⟨y 0, y 1, eq_ix2 y⟩
  have hb : win0_3.index t (0 : Fin 2) * 1024 + p.val < 4096 := by have := p.isLt; omega
  have ho : win0_3.index t (1 : Fin 2) * 256 + q.val < 2048 := by have := q.isLt; omega
  have hemb : ((cfg0.win 3).blk t).view.emb (ix2 p q)
      = ix2 (⟨win0_3.index t (0 : Fin 2) * 1024 + p.val, hb⟩ : Fin 4096) (⟨win0_3.index t (1 : Fin 2) * 256 + q.val, ho⟩ : Fin 2048) := by
    funext a
    apply Fin.ext
    match a with
    | ⟨0, _⟩ => show win0_3.index t (0 : Fin 2) * 1024 + 1 * p.val = win0_3.index t (0 : Fin 2) * 1024 + p.val; omega
    | ⟨1, _⟩ => show win0_3.index t (1 : Fin 2) * 256 + 1 * q.val = win0_3.index t (1 : Fin 2) * 256 + q.val; omega
  have h1 : ∀ (k : Fin 32) (q' : Fin 256), (connBlk V c t (ix2 k q')).toNat < 1024 := fun k q' => by
    have ho' : win0_3.index t (1 : Fin 2) * 256 + q'.val < 2048 := by have := q'.isLt; omega
    rw [connBlk_apply V c t k q' ⟨_, ho'⟩ rfl]
    exact hconn k _
  show Gen.out0_3 (F := Ideal) (xBlk V c t) (connBlk V c t) (opBlk V c t) (ix2 p q) = layerArr V c hconn (((cfg0.win 3).blk t).view.emb (ix2 p q))
  rw [hemb, Block0.out_apply (xBlk V c t) (connBlk V c t) (opBlk V c t) h1 p q]
  have hent : (fun k : Fin 32 => xBlk V c t (ix2 p ⟨(connBlk V c t (ix2 k q)).toNat, h1 k q⟩))
      = fun k : Fin 32 => xArr V c (ix2 (⟨_, hb⟩ : Fin 4096) ⟨(connArr V c (ix2 k (⟨_, ho⟩ : Fin 2048))).toNat, hconn k ⟨_, ho⟩⟩) :=
    funext fun k => (congrFun (xBlk_row V c t p ⟨_, hb⟩ rfl) _).trans
      (congrArg (fun i => xArr V c (ix2 (⟨_, hb⟩ : Fin 4096) i)) (Fin.ext (congrArg BitVec.toNat (connBlk_apply V c t k q ⟨_, ho⟩ rfl))))
  rw [hent, opBlk_apply V c t q ⟨_, ho⟩ rfl]
  rfl

/-- An entry of the array is in a point's output block iff each coordinate is in the block's range on its axis. -/
theorem mem_blk (t : Fin cfg0.N) (i : S4096x2048.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v4).slice (win0_3.rect t)).set ↔ _
  rw [View.set_slice_whole, Rect.mem_set_unit]
  exact Iff.rfl

/-- The output blocks tile the array: entry (b, o) is in the block of the point whose row block is `b / 1024` and whose
    column block is `o / 256`. -/
theorem cover (i : S4096x2048.Idx) :
    ∃ t : Fin cfg0.N, (cfg0.win 3).flush t = true ∧ i ∈ ((cfg0.win 3).blk t).view.set := by
  have hi0 : (i 0).val < 4096 := (i 0).isLt
  have hi1 : (i 1).val < 2048 := (i 1).isLt
  obtain ⟨t, ht⟩ := idx_onto ⟨(i 0).val / 1024, by omega⟩ ⟨(i 1).val / 256, by omega⟩
  have q0 : win0_3.index t (0 : Fin 2) = (i 0).val / 1024 := congrFun ht 0
  have q1 : win0_3.index t (1 : Fin 2) = (i 1).val / 256 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 256 ≤ (i 1).val ∧ (i 1).val < win0_3.index t (1 : Fin 2) * 256 + 256; omega

/-- So after the last point the output array is the layer's output. -/
theorem outArr_eq (c : Dev nD) (hconn : ∀ (k : Fin 32) (o : Fin 2048), (connArr V c (ix2 k o)).toNat < 1024) :
    outArr V c = layerArr V c hconn :=
  (dat0 (F := Ideal) V c).arrAt_eq_of_cover 3 (layerArr V c hconn) (fun t _ => flushed_eq V c hconn t) cover

/-- Entry (b, o) of the output array: the maximum or the minimum over `k` of `x[b, conn[k, o]]`, as selector `o` is 1 or not. -/
theorem outArr_apply (c : Dev nD) (hconn : ∀ (k : Fin 32) (o : Fin 2048), (connArr V c (ix2 k o)).toNat < 1024)
    (b : Fin 4096) (o : Fin 2048) :
    outArr V c (ix2 b o)
      = Scalar.select (IntOp.cmpi .eq (opArr V c (ix2 (0 : Fin 1) o)) 1#32)
          (max32 fun k => xArr V c (ix2 b ⟨(connArr V c (ix2 k o)).toNat, hconn k o⟩))
          (min32 fun k => xArr V c (ix2 b ⟨(connArr V c (ix2 k o)).toNat, hconn k o⟩)) := by
  exact congrFun (outArr_eq V c hconn) (ix2 b o)

end Cert.KernelIdeal.Array0

end
-- ==== Proof.KBlock1.lean ====
/-
  What one grid point of the second layer's kernel leaves in its output block, entry by entry.

  The kernel never indexes the activations.  For each of the 32 rows of feature numbers it builds the indicator
  matrix whose entry (i, q) is 1 when i is the number the row holds at q and 0 otherwise, multiplies the block of
  activations by it, and joins the product to a running minimum and a running maximum.  A sum of products with an
  indicator column has one term that is not a product with zero, so the product's entry (p, q) is the activation
  of row p at the feature the word names: in the extended reals x · 0 = 0 and x · 1 = x for every x, infinite ones
  included, so no finiteness is needed.  The 32 joins are a fold of min (from +∞) and of max (from −∞) over the 32
  rows, and the block's entry is the one the selector word chooses.
-/
import proofs.«424863_j77781857731251_2_alg».proof.Proof.Gen.KernelIdeal.Frame
import proofs.«424863_j77781857731251_2_alg».proof.Proof.Spec
import proofs.«424863_j77781857731251_2_alg».proof.Proof.Fold32
import Idealize.ShloMosaic.Lib.ValueIdx
import Idealize.ShloMosaic.Lib.Pipeline.Value
import Idealize.ShloMosaic.PureOps.Ideal.Laws

noncomputable section

namespace Cert.KernelIdeal.Block1

open Idealize.ShloMosaic Idealize.ShloMosaic.ValueIdx Cert.KernelIdeal Cert.Layers

/-! ## The product's operand indices -/

/-- The dimension numbers of the layer's product: rows of the left operand against columns of the right. -/
abbrev D := dot_S1024x2048_S2048x256_S1024x256_1_0_0_1_n_n

theorem lhs_D_0 (j : S1024x256.Idx) (k : D.contr.Idx) : (D.lhsIdx j k 0).val = (j 0).val := by
  simp [DotDims.lhsIdx, D, dot_S1024x2048_S2048x256_S1024x256_1_0_0_1_n_n]; rfl

theorem lhs_D_1 (j : S1024x256.Idx) (k : D.contr.Idx) : (D.lhsIdx j k 1).val = (k ⟨0, by decide⟩).val :=
  D.lhsIdx_val_of_single rfl j k

theorem rhs_D_0 (j : S1024x256.Idx) (k : D.contr.Idx) : (D.rhsIdx j k 0).val = (k ⟨0, by decide⟩).val :=
  D.rhsIdx_val_of_single rfl j k

theorem rhs_D_1 (j : S1024x256.Idx) (k : D.contr.Idx) : (D.rhsIdx j k 1).val = (j 1).val := by
  simp [DotDims.rhsIdx, D, dot_S1024x2048_S2048x256_S1024x256_1_0_0_1_n_n]; rfl

/-- The two operand indices of the product at output entry (p, q) and contraction position c: (p, c) on the left, (c, q) on the right. -/
theorem lhsIdx_D (p : Fin 1024) (q : Fin 256) (c : Fin 2048) :
    D.lhsIdx (ix2 p q) ((contrEquiv1 D 2048 rfl rfl).symm c) = ix2 p c := by
  have hc := contrEquiv1_symm_val D 2048 rfl rfl c
  funext a; apply Fin.ext
  match a with
  | ⟨0, _⟩ => exact lhs_D_0 _ _
  | ⟨1, _⟩ => exact (lhs_D_1 _ _).trans hc

theorem rhsIdx_D (p : Fin 1024) (q : Fin 256) (c : Fin 2048) :
    D.rhsIdx (ix2 p q) ((contrEquiv1 D 2048 rfl rfl).symm c) = ix2 c q := by
  have hc := contrEquiv1_symm_val D 2048 rfl rfl c
  funext a; apply Fin.ext
  match a with
  | ⟨0, _⟩ => exact (rhs_D_0 _ _).trans hc
  | ⟨1, _⟩ => exact rhs_D_1 _ _

/-- A set bit, widened and read as a float, is 1 … -/
theorem sitofp_bit_true : (FloatOps.sitofp (F := Ideal) .f32 ((BitVec.ofBool true).setWidth 32) : Ideal .f32) = 1 := by
  show (((BitVec.setWidth 32 (BitVec.ofBool true)).toInt : ℝ) : EReal) = 1
  rw [show (BitVec.setWidth 32 (BitVec.ofBool true)).toInt = 1 from by decide]; simp

/-- … and a clear bit is 0. -/
theorem sitofp_bit_false : (FloatOps.sitofp (F := Ideal) .f32 ((BitVec.ofBool false).setWidth 32) : Ideal .f32) = 0 := by
  show (((BitVec.setWidth 32 (BitVec.ofBool false)).toInt : ℝ) : EReal) = 0
  rw [show (BitVec.setWidth 32 (BitVec.ofBool false)).toInt = 0 from by decide]; simp

/-- The indicator entry: row number c against the word w, as a float, is 1 when c is the number w names and 0 otherwise. -/
theorem indicator_eq (c : Fin 2048) (w : BitVec 32) :
    (FloatOps.sitofp (F := Ideal) .f32 ((IntOp.cmpi .eq (BitVec.ofNat 32 c.val) w).setWidth 32) : Ideal .f32)
      = if c.val = w.toNat then 1 else 0 := by
  have hlt : c.val < 2 ^ 32 := lt_trans c.isLt (by norm_num)
  show (FloatOps.sitofp (F := Ideal) .f32 ((BitVec.ofBool (BitVec.ofNat 32 c.val == w)).setWidth 32) : Ideal .f32) = _
  by_cases h : c.val = w.toNat
  · have e : BitVec.ofNat 32 c.val = w :=
      BitVec.eq_of_toNat_eq (by rw [BitVec.toNat_ofNat, Nat.mod_eq_of_lt hlt, h])
    rw [if_pos h, e, beq_self_eq_true, sitofp_bit_true]
  · have e : ¬ BitVec.ofNat 32 c.val = w := fun e => h (by rw [← e, BitVec.toNat_ofNat, Nat.mod_eq_of_lt hlt])
    rw [if_neg h, beq_false_of_ne e, sitofp_bit_false]

/-- Entry w of row p of the activations, the word w read as a feature number; zero when it names none. -/
def pickw (x : FVec Ideal S1024x2048 .bf16) (p : Fin 1024) (w : BitVec 32) : Ideal .f32 :=
  if h : w.toNat < 2048 then x (ix2 p ⟨w.toNat, h⟩) else 0

theorem pickw_of_lt (x : FVec Ideal S1024x2048 .bf16) (p : Fin 1024) (w : BitVec 32) (h : w.toNat < 2048) :
    pickw x p w = x (ix2 p ⟨w.toNat, h⟩) := dif_pos h

/-- A product of the activations with the indicator of the numbers a row of words names picks, at column q, the
    activation the word there names: every other term of the sum is a product with 0, the one term a product with 1;
    and when the word names no feature every term is a product with 0. -/
theorem onehot_sum (x : FVec Ideal S1024x2048 .bf16) (B : IVec S2048x256 32) (p : Fin 1024) (q : Fin 256)
    (w : BitVec 32) (hB : ∀ i : Fin 2048, B (ix2 i q) = w) :
    matmul (F := Ideal) D none x
        (truncf .bf16 (sitofp .f32 (extui 32 (cmpi .eq (iota .tc S2048x256 32 [0] Gen.iota_S2048x256_d0_w32) B) Gen.natLt_1_32)) Gen.bitsLt_bf16_f32)
        (constant (F := Ideal) S1024x256 .f32 0x00000000#32) (ix2 p q)
      = pickw x p w := by
  show FloatOps.matmul D none x _ (constant (F := Ideal) S1024x256 .f32 0x00000000#32) (ix2 p q) = _
  rw [Ideal.matmul_constant_zero_apply, ← Equiv.sum_comp (contrEquiv1 D 2048 rfl rfl).symm]
  have term : ∀ c : Fin 2048,
      x (D.lhsIdx (ix2 p q) ((contrEquiv1 D 2048 rfl rfl).symm c))
        * (truncf .bf16 (sitofp .f32 (extui 32 (cmpi .eq (iota .tc S2048x256 32 [0] Gen.iota_S2048x256_d0_w32) B) Gen.natLt_1_32)) Gen.bitsLt_bf16_f32
            : FVec Ideal S2048x256 .bf16) (D.rhsIdx (ix2 p q) ((contrEquiv1 D 2048 rfl rfl).symm c))
      = x (ix2 p c) * (if c.val = w.toNat then 1 else 0) := by
    intro c
    rw [lhsIdx_D, rhsIdx_D, truncf_apply, sitofp_apply, extui_apply]
    show x (ix2 p c) * FloatOps.sitofp (F := Ideal) .f32
      ((IntOp.cmpi .eq (iota .tc S2048x256 32 [0] Gen.iota_S2048x256_d0_w32 (ix2 c q)) (B (ix2 c q))).setWidth 32) = _
    rw [iota_single_apply, hB c]
    exact congrArg (x (ix2 p c) * ·) (indicator_eq c w)
  rw [Finset.sum_congr rfl fun c _ => term c]
  unfold pickw
  by_cases h : w.toNat < 2048
  · rw [dif_pos h, Finset.sum_eq_single (⟨w.toNat, h⟩ : Fin 2048)]
    · rw [if_pos rfl, mul_one]
    · intro c _ hc
      rw [if_neg (fun e => hc (Fin.ext e)), mul_zero]
    · intro hn; exact absurd (Finset.mem_univ _) hn
  · rw [dif_neg h]
    exact Finset.sum_eq_zero fun c _ => by
      rw [if_neg (fun e : c.val = w.toNat => h (lt_of_eq_of_lt e.symm c.isLt)), mul_zero]

/-- A vector of 256 words, viewed as one row and repeated down the rows, reads at (i, q) its word q. -/
theorem rows_of_vector (s : IVec S256 32) (i : Fin 2048) (q : Fin 256) :
    broadcastTo S2048x256 (shapeCast S1x256 (shapeCast S1x256 s Gen.shapeCasts_S256_S1x256) Gen.shapeCasts_S1x256_S1x256)
        Gen.broadcasts_S1x256_S2048x256 (ix2 i q) = s (ix1 q) := by
  rw [shapeCast_self]
  refine (broadcastTo_apply _ _ (ix2 i q) (ix2 (0 : Fin 1) q) (fun a => ?_)).trans ?_
  · match a with
    | ⟨0, _⟩ => rfl
    | ⟨1, _⟩ => rfl
  · refine (shapeCast_addUnit_apply ![256] s Gen.shapeCasts_S256_S1x256 (ix2 (0 : Fin 1) q)).trans (congrArg s ?_)
    funext a
    match a with
    | ⟨0, _⟩ => rfl

/-- One row of 256 words, viewed as a vector, reads at q the row's word q. -/
theorem vector_of_row (r : IVec S1x256 32) (q : Fin 256) :
    shapeCast S256 r Gen.shapeCasts_S1x256_S256 (ix1 q) = r (ix2 (0 : Fin 1) q) := by
  refine (shapeCast_dropUnit_apply ![256] r Gen.shapeCasts_S1x256_S256 (ix1 q)).trans (congrArg r ?_)
  funext a
  match a with
  | ⟨0, _⟩ => rfl
  | ⟨1, _⟩ => rfl

/-- One row of 256 words repeated down the rows reads at (i, q) the row's word q. -/
theorem rows_of_row (r : IVec S1x256 32) (i : Fin 1024) (q : Fin 256) :
    broadcastTo S1024x256 (shapeCast S1x256 (shapeCast S1x256 r Gen.shapeCasts_S1x256_S1x256) Gen.shapeCasts_S1x256_S1x256)
        Gen.broadcasts_S1x256_S1024x256 (ix2 i q) = r (ix2 (0 : Fin 1) q) := by
  rw [shapeCast_self, shapeCast_self]
  refine broadcastTo_apply _ _ (ix2 i q) (ix2 (0 : Fin 1) q) (fun a => ?_)
  match a with
  | ⟨0, _⟩ => rfl
  | ⟨1, _⟩ => rfl

/-- The layer's product against the indicator of a vector of words, at (p, q): the activation the vector's word q names. -/
theorem gather_vector (x : FVec Ideal S1024x2048 .bf16) (s : IVec S256 32) (p : Fin 1024) (q : Fin 256) :
    matmul (F := Ideal) D none x
        (truncf .bf16 (sitofp .f32 (extui 32 (cmpi .eq (iota .tc S2048x256 32 [0] Gen.iota_S2048x256_d0_w32)
          (broadcastTo S2048x256 (shapeCast S1x256 (shapeCast S1x256 s Gen.shapeCasts_S256_S1x256) Gen.shapeCasts_S1x256_S1x256)
            Gen.broadcasts_S1x256_S2048x256)) Gen.natLt_1_32)) Gen.bitsLt_bf16_f32)
        (constant (F := Ideal) S1024x256 .f32 0x00000000#32) (ix2 p q)
      = pickw x p (s (ix1 q)) :=
  onehot_sum x _ p q _ fun i => rows_of_vector s i q

/-- The same against the indicator of one row of words: the activation the row's word q names. -/
theorem gather_row (x : FVec Ideal S1024x2048 .bf16) (r : IVec S1x256 32) (p : Fin 1024) (q : Fin 256) :
    matmul (F := Ideal) D none x
        (truncf .bf16 (sitofp .f32 (extui 32 (cmpi .eq (iota .tc S2048x256 32 [0] Gen.iota_S2048x256_d0_w32)
          (broadcastTo S2048x256 (shapeCast S1x256 (shapeCast S1x256 (shapeCast S256 r Gen.shapeCasts_S1x256_S256)
            Gen.shapeCasts_S256_S1x256) Gen.shapeCasts_S1x256_S1x256) Gen.broadcasts_S1x256_S2048x256)) Gen.natLt_1_32)) Gen.bitsLt_bf16_f32)
        (constant (F := Ideal) S1024x256 .f32 0x00000000#32) (ix2 p q)
      = pickw x p (r (ix2 (0 : Fin 1) q)) :=
  (gather_vector x _ p q).trans (congrArg (pickw x p) (vector_of_row r q))

/-- Row k of the table of feature numbers, loaded as a block of one row, reads at (0, q) the table's entry (k, q). -/
theorem ld_row (x1 : Vec Ideal S32x256 .i32) (k : ℕ) (inb : ∀ a, (![k, 0] : Fin 2 → Nat) a + S1x256.size a ≤ S32x256.size a) (q : Fin 256) :
    View.ld x1 (Rect.unit (s := S32x256) ![k, 0] S1x256.size inb) (ix2 (0 : Fin 1) q)
      = x1 (ix2 (⟨k, by have := inb 0; simpa using this⟩ : Fin 32) q) := by
  refine congrArg x1 (funext fun a => Fin.ext ?_)
  match a with
  | ⟨0, _⟩ => show k + 1 * 0 = k; omega
  | ⟨1, _⟩ => show 0 + 1 * q.val = q.val; omega

/-! ## The running extrema, four rows of feature numbers at a time

Each step of the kernel joins to a running minimum, and to a running maximum, the activations that three or four more
rows of the table name.  At entry (p, q) a step's result is the running value there joined, in order, to the picked
activations. -/

/-- The first three rows, from +∞ … -/
theorem pay6_apply (x : Vec Ideal S1024x2048 .bf16) (r0 r1 r2 : Vec Ideal S1x256 .i32) (p : Fin 1024) (q : Fin 256) :
    Gen.k1_pay6 x r0 r1 r2 (ix2 p q)
      = min (min (min posInf (pickw x p (r0 (ix2 (0 : Fin 1) q)))) (pickw x p (r1 (ix2 (0 : Fin 1) q))))
          (pickw x p (r2 (ix2 (0 : Fin 1) q))) := by
  unfold Gen.k1_pay6 Gen.k1_pay3 Gen.k1_pay4 Gen.k1_pay5 Gen.k1_pay2
  simp only [minimumf_apply, broadcast_apply]
  rw [shapeCast_self x Gen.shapeCasts_S1024x2048_S1024x2048, gather_row x r0 p q, gather_row x r1 p q, gather_row x r2 p q]
  rfl

/-- … and from −∞. -/
theorem pay7_apply (x : Vec Ideal S1024x2048 .bf16) (r0 r1 r2 : Vec Ideal S1x256 .i32) (p : Fin 1024) (q : Fin 256) :
    Gen.k1_pay7 x r0 r1 r2 (ix2 p q)
      = max (max (max negInf (pickw x p (r0 (ix2 (0 : Fin 1) q)))) (pickw x p (r1 (ix2 (0 : Fin 1) q))))
          (pickw x p (r2 (ix2 (0 : Fin 1) q))) := by
  unfold Gen.k1_pay7 Gen.k1_pay3 Gen.k1_pay4 Gen.k1_pay5 Gen.k1_pay2
  simp only [maximumf_apply, broadcast_apply]
  rw [shapeCast_self x Gen.shapeCasts_S1024x2048_S1024x2048, gather_row x r0 p q, gather_row x r1 p q, gather_row x r2 p q]
  rfl

/-- Four more rows of feature numbers joined to a running minimum … -/
theorem pay13_apply (x : FVec Ideal S1024x2048 .bf16) (acc : FVec Ideal S1024x256 .f32) (s : IVec S256 32)
    (r1 r2 r3 : Vec Ideal S1x256 .i32) (p : Fin 1024) (q : Fin 256) :
    Gen.k1_pay13 x (iota .tc S2048x256 32 [0] Gen.iota_S2048x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k1_pay13 Gen.k1_pay9 Gen.k1_pay10 Gen.k1_pay11 Gen.k1_pay12
  simp only [minimumf_apply]
  rw [gather_vector x s p q, gather_row x r1 p q, gather_row x r2 p q, gather_row x r3 p q]

/-- … and to a running maximum. -/
theorem pay14_apply (x : FVec Ideal S1024x2048 .bf16) (acc : FVec Ideal S1024x256 .f32) (s : IVec S256 32)
    (r1 r2 r3 : Vec Ideal S1x256 .i32) (p : Fin 1024) (q : Fin 256) :
    Gen.k1_pay14 x (iota .tc S2048x256 32 [0] Gen.iota_S2048x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k1_pay14 Gen.k1_pay9 Gen.k1_pay10 Gen.k1_pay11 Gen.k1_pay12
  simp only [maximumf_apply]
  rw [gather_vector x s p q, gather_row x r1 p q, gather_row x r2 p q, gather_row x r3 p q]

/-- Four more rows of feature numbers joined to a running minimum … -/
theorem pay20_apply (x : FVec Ideal S1024x2048 .bf16) (acc : FVec Ideal S1024x256 .f32) (s : IVec S256 32)
    (r1 r2 r3 : Vec Ideal S1x256 .i32) (p : Fin 1024) (q : Fin 256) :
    Gen.k1_pay20 x (iota .tc S2048x256 32 [0] Gen.iota_S2048x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k1_pay20 Gen.k1_pay16 Gen.k1_pay17 Gen.k1_pay18 Gen.k1_pay19
  simp only [minimumf_apply]
  rw [gather_vector x s p q, gather_row x r1 p q, gather_row x r2 p q, gather_row x r3 p q]

/-- … and to a running maximum. -/
theorem pay21_apply (x : FVec Ideal S1024x2048 .bf16) (acc : FVec Ideal S1024x256 .f32) (s : IVec S256 32)
    (r1 r2 r3 : Vec Ideal S1x256 .i32) (p : Fin 1024) (q : Fin 256) :
    Gen.k1_pay21 x (iota .tc S2048x256 32 [0] Gen.iota_S2048x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k1_pay21 Gen.k1_pay16 Gen.k1_pay17 Gen.k1_pay18 Gen.k1_pay19
  simp only [maximumf_apply]
  rw [gather_vector x s p q, gather_row x r1 p q, gather_row x r2 p q, gather_row x r3 p q]

/-- Four more rows of feature numbers joined to a running minimum … -/
theorem pay27_apply (x : FVec Ideal S1024x2048 .bf16) (acc : FVec Ideal S1024x256 .f32) (s : IVec S256 32)
    (r1 r2 r3 : Vec Ideal S1x256 .i32) (p : Fin 1024) (q : Fin 256) :
    Gen.k1_pay27 x (iota .tc S2048x256 32 [0] Gen.iota_S2048x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k1_pay27 Gen.k1_pay23 Gen.k1_pay24 Gen.k1_pay25 Gen.k1_pay26
  simp only [minimumf_apply]
  rw [gather_vector x s p q, gather_row x r1 p q, gather_row x r2 p q, gather_row x r3 p q]

/-- … and to a running maximum. -/
theorem pay28_apply (x : FVec Ideal S1024x2048 .bf16) (acc : FVec Ideal S1024x256 .f32) (s : IVec S256 32)
    (r1 r2 r3 : Vec Ideal S1x256 .i32) (p : Fin 1024) (q : Fin 256) :
    Gen.k1_pay28 x (iota .tc S2048x256 32 [0] Gen.iota_S2048x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k1_pay28 Gen.k1_pay23 Gen.k1_pay24 Gen.k1_pay25 Gen.k1_pay26
  simp only [maximumf_apply]
  rw [gather_vector x s p q, gather_row x r1 p q, gather_row x r2 p q, gather_row x r3 p q]

/-- Four more rows of feature numbers joined to a running minimum … -/
theorem pay34_apply (x : FVec Ideal S1024x2048 .bf16) (acc : FVec Ideal S1024x256 .f32) (s : IVec S256 32)
    (r1 r2 r3 : Vec Ideal S1x256 .i32) (p : Fin 1024) (q : Fin 256) :
    Gen.k1_pay34 x (iota .tc S2048x256 32 [0] Gen.iota_S2048x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k1_pay34 Gen.k1_pay30 Gen.k1_pay31 Gen.k1_pay32 Gen.k1_pay33
  simp only [minimumf_apply]
  rw [gather_vector x s p q, gather_row x r1 p q, gather_row x r2 p q, gather_row x r3 p q]

/-- … and to a running maximum. -/
theorem pay35_apply (x : FVec Ideal S1024x2048 .bf16) (acc : FVec Ideal S1024x256 .f32) (s : IVec S256 32)
    (r1 r2 r3 : Vec Ideal S1x256 .i32) (p : Fin 1024) (q : Fin 256) :
    Gen.k1_pay35 x (iota .tc S2048x256 32 [0] Gen.iota_S2048x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k1_pay35 Gen.k1_pay30 Gen.k1_pay31 Gen.k1_pay32 Gen.k1_pay33
  simp only [maximumf_apply]
  rw [gather_vector x s p q, gather_row x r1 p q, gather_row x r2 p q, gather_row x r3 p q]

/-- Four more rows of feature numbers joined to a running minimum … -/
theorem pay41_apply (x : FVec Ideal S1024x2048 .bf16) (acc : FVec Ideal S1024x256 .f32) (s : IVec S256 32)
    (r1 r2 r3 : Vec Ideal S1x256 .i32) (p : Fin 1024) (q : Fin 256) :
    Gen.k1_pay41 x (iota .tc S2048x256 32 [0] Gen.iota_S2048x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k1_pay41 Gen.k1_pay37 Gen.k1_pay38 Gen.k1_pay39 Gen.k1_pay40
  simp only [minimumf_apply]
  rw [gather_vector x s p q, gather_row x r1 p q, gather_row x r2 p q, gather_row x r3 p q]

/-- … and to a running maximum. -/
theorem pay42_apply (x : FVec Ideal S1024x2048 .bf16) (acc : FVec Ideal S1024x256 .f32) (s : IVec S256 32)
    (r1 r2 r3 : Vec Ideal S1x256 .i32) (p : Fin 1024) (q : Fin 256) :
    Gen.k1_pay42 x (iota .tc S2048x256 32 [0] Gen.iota_S2048x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k1_pay42 Gen.k1_pay37 Gen.k1_pay38 Gen.k1_pay39 Gen.k1_pay40
  simp only [maximumf_apply]
  rw [gather_vector x s p q, gather_row x r1 p q, gather_row x r2 p q, gather_row x r3 p q]

/-- Four more rows of feature numbers joined to a running minimum … -/
theorem pay48_apply (x : FVec Ideal S1024x2048 .bf16) (acc : FVec Ideal S1024x256 .f32) (s : IVec S256 32)
    (r1 r2 r3 : Vec Ideal S1x256 .i32) (p : Fin 1024) (q : Fin 256) :
    Gen.k1_pay48 x (iota .tc S2048x256 32 [0] Gen.iota_S2048x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k1_pay48 Gen.k1_pay44 Gen.k1_pay45 Gen.k1_pay46 Gen.k1_pay47
  simp only [minimumf_apply]
  rw [gather_vector x s p q, gather_row x r1 p q, gather_row x r2 p q, gather_row x r3 p q]

/-- … and to a running maximum. -/
theorem pay49_apply (x : FVec Ideal S1024x2048 .bf16) (acc : FVec Ideal S1024x256 .f32) (s : IVec S256 32)
    (r1 r2 r3 : Vec Ideal S1x256 .i32) (p : Fin 1024) (q : Fin 256) :
    Gen.k1_pay49 x (iota .tc S2048x256 32 [0] Gen.iota_S2048x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k1_pay49 Gen.k1_pay44 Gen.k1_pay45 Gen.k1_pay46 Gen.k1_pay47
  simp only [maximumf_apply]
  rw [gather_vector x s p q, gather_row x r1 p q, gather_row x r2 p q, gather_row x r3 p q]

/-- Four more rows of feature numbers joined to a running minimum … -/
theorem pay55_apply (x : FVec Ideal S1024x2048 .bf16) (acc : FVec Ideal S1024x256 .f32) (s : IVec S256 32)
    (r1 r2 r3 : Vec Ideal S1x256 .i32) (p : Fin 1024) (q : Fin 256) :
    Gen.k1_pay55 x (iota .tc S2048x256 32 [0] Gen.iota_S2048x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k1_pay55 Gen.k1_pay51 Gen.k1_pay52 Gen.k1_pay53 Gen.k1_pay54
  simp only [minimumf_apply]
  rw [gather_vector x s p q, gather_row x r1 p q, gather_row x r2 p q, gather_row x r3 p q]

/-- … and to a running maximum. -/
theorem pay56_apply (x : FVec Ideal S1024x2048 .bf16) (acc : FVec Ideal S1024x256 .f32) (s : IVec S256 32)
    (r1 r2 r3 : Vec Ideal S1x256 .i32) (p : Fin 1024) (q : Fin 256) :
    Gen.k1_pay56 x (iota .tc S2048x256 32 [0] Gen.iota_S2048x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k1_pay56 Gen.k1_pay51 Gen.k1_pay52 Gen.k1_pay53 Gen.k1_pay54
  simp only [maximumf_apply]
  rw [gather_vector x s p q, gather_row x r1 p q, gather_row x r2 p q, gather_row x r3 p q]

/-- The last row joined to both running values, and the choice between them: the maximum where the selector word is 1,
    the minimum elsewhere. -/
theorem pay1_apply (x : FVec Ideal S1024x2048 .bf16) (amin amax : FVec Ideal S1024x256 .f32) (s : IVec S256 32)
    (sel : Vec Ideal S1x256 .i32) (p : Fin 1024) (q : Fin 256) :
    Gen.k1_pay1 x (iota .tc S2048x256 32 [0] Gen.iota_S2048x256_d0_w32) amin amax s sel (ix2 p q)
      = Scalar.select (IntOp.cmpi .eq (sel (ix2 (0 : Fin 1) q)) 1#32)
          (max (amax (ix2 p q)) (pickw x p (s (ix1 q)))) (min (amin (ix2 p q)) (pickw x p (s (ix1 q)))) := by
  unfold Gen.k1_pay1
  simp only [truncf_apply, select_apply, maximumf_apply, minimumf_apply]
  rw [gather_vector x s p q]
  show Scalar.select (IntOp.cmpi .eq (broadcastTo S1024x256 (shapeCast S1x256 (shapeCast S1x256 sel Gen.shapeCasts_S1x256_S1x256)
    Gen.shapeCasts_S1x256_S1x256) Gen.broadcasts_S1x256_S1024x256 (ix2 p q)) 1#32) _ _ = _
  rw [rows_of_row sel p q]

/-! ## The block -/

/-- Entry (p, q) of the block a point writes: with `x0` the point's 1024 rows of activations, `x1` its 32 × 256
    feature numbers (each below 2048) and `x2` its 256 selectors, the maximum or the minimum over `k` of
    `x0[p, x1[k, q]]`, as `x2[0, q]` is 1 or not. -/
theorem out_apply (x0 : Vec Ideal S1024x2048 .bf16) (x1 : Vec Ideal S32x256 .i32) (x2 : Vec Ideal S1x256 .i32)
    (h1 : ∀ (k : Fin 32) (q : Fin 256), (x1 (ix2 k q)).toNat < 2048) (p : Fin 1024) (q : Fin 256) :
    Gen.out1_3 (F := Ideal) x0 x1 x2 (ix2 p q)
      = Scalar.select (IntOp.cmpi .eq (x2 (ix2 (0 : Fin 1) q)) 1#32)
          (max32 fun k => x0 (ix2 p ⟨(x1 (ix2 k q)).toNat, h1 k q⟩))
          (min32 fun k => x0 (ix2 p ⟨(x1 (ix2 k q)).toNat, h1 k q⟩)) := by
  have hz : (![0, 0] : Fin 2 → Nat) = fun _ => 0 := by
    funext a
    match a with
    | ⟨0, _⟩ => rfl
    | ⟨1, _⟩ => rfl
  have ef : (fun k : Fin 32 => (x0 (ix2 p ⟨(x1 (ix2 k q)).toNat, h1 k q⟩) : Ideal .f32))
      = fun k => pickw x0 p (x1 (ix2 k q)) := funext fun k => (pickw_of_lt x0 p _ (h1 k q)).symm
  have hx : Gen.k1_pay2 (F := Ideal) x0 = x0 := by
    unfold Gen.k1_pay2
    exact shapeCast_self x0 _
  rw [ef]
  unfold Gen.out1_3
  rw [View.canon_unit_zero hz]
  simp only [View.ld_unit_zero (S := S1024x2048) hz, View.ld_unit_zero (S := S1x256) hz]
  rw [hx, pay1_apply, pay56_apply, pay55_apply, pay49_apply, pay48_apply, pay42_apply, pay41_apply, pay35_apply, pay34_apply,
    pay28_apply, pay27_apply, pay21_apply, pay20_apply, pay14_apply, pay13_apply, pay7_apply, pay6_apply]
  simp only [Gen.k1_pay8, Gen.k1_pay15, Gen.k1_pay22, Gen.k1_pay29, Gen.k1_pay36, Gen.k1_pay43, Gen.k1_pay50, Gen.k1_pay57,
    vector_of_row]
  rw [ld_row x1 0 _ q, ld_row x1 1 _ q, ld_row x1 2 _ q, ld_row x1 3 _ q, ld_row x1 4 _ q, ld_row x1 5 _ q,
    ld_row x1 6 _ q, ld_row x1 7 _ q, ld_row x1 8 _ q, ld_row x1 9 _ q, ld_row x1 10 _ q, ld_row x1 11 _ q,
    ld_row x1 12 _ q, ld_row x1 13 _ q, ld_row x1 14 _ q, ld_row x1 15 _ q, ld_row x1 16 _ q, ld_row x1 17 _ q,
    ld_row x1 18 _ q, ld_row x1 19 _ q, ld_row x1 20 _ q, ld_row x1 21 _ q, ld_row x1 22 _ q, ld_row x1 23 _ q,
    ld_row x1 24 _ q, ld_row x1 25 _ q, ld_row x1 26 _ q, ld_row x1 27 _ q, ld_row x1 28 _ q, ld_row x1 29 _ q,
    ld_row x1 30 _ q, ld_row x1 31 _ q]
  unfold max32 min32
  rw [Cert.Fold32.fold_univ_fin32 max, Cert.Fold32.fold_univ_fin32 min]
  rfl

end Cert.KernelIdeal.Block1

end
-- ==== Proof.KArray1.lean ====
/-
  The second layer's output array after its kernel's run, entry by entry.
-/
import proofs.«424863_j77781857731251_2_alg».proof.Proof.KBlock1
import Idealize.ShloMosaic.Lib.Pipeline.Value

set_option maxRecDepth 16384

noncomputable section

namespace Cert.KernelIdeal.Array1

open Idealize.ShloMosaic Idealize.ShloMosaic.TcCoe Idealize.ShloMosaic.ValueIdx Idealize.SL.Sem
open Idealize.ShloMosaic.Pipeline (Dat)
open Cert.KernelIdeal Cert.KernelIdeal.Gen Cert.Layers

variable (V : (c : Dev nD) → (b : Ref sig .tc) → Buf (Elt Ideal) ((c : Thread nD τ).loc b))

/-- The activations the region finds: 4096 rows of 2048 features. -/
abbrev xArr (c : Dev nD) : Vec Ideal S4096x2048 .bf16 := V c main_v4
/-- The feature numbers the region finds, transposed: 32 × 512. -/
abbrev connArr (c : Dev nD) : Vec Ideal S32x512 .i32 := V c main_v6
/-- The selectors the region finds, as one row of 512. -/
abbrev opArr (c : Dev nD) : Vec Ideal S1x512 .i32 := V c main_v7
/-- The region's output array after the last grid point's write-back. -/
abbrev outArr (c : Dev nD) : Vec Ideal S4096x512 .bf16 := (dat1 (F := Ideal) V c).arrAt 3 cfg1.N

/-- The layer's whole output, entry by entry: the maximum or the minimum over `k` of `x[b, conn[k, o]]`, as selector `o` is 1 or not. -/
def layerArr (c : Dev nD) (hconn : ∀ (k : Fin 32) (o : Fin 512), (connArr V c (ix2 k o)).toNat < 2048) :
    Vec Ideal S4096x512 .bf16 := fun j =>
  Scalar.select (IntOp.cmpi .eq (opArr V c (ix2 (0 : Fin 1) (j 1))) 1#32)
    (max32 fun k => xArr V c (ix2 (j 0) ⟨(connArr V c (ix2 k (j 1))).toNat, hconn k (j 1)⟩))
    (min32 fun k => xArr V c (ix2 (j 0) ⟨(connArr V c (ix2 k (j 1))).toNat, hconn k (j 1)⟩))

/-- How the four windows' block numbers go together at every grid point: the activations' block is the output's row
    block and spans all features; the feature numbers' and the selectors' blocks are the output's column block; there are
    4 row blocks and 2 column blocks. -/
theorem idx_facts : ∀ t : Fin cfg1.N,
    win1_0.index t (0 : Fin 2) = win1_3.index t (0 : Fin 2)
    ∧ win1_0.index t (1 : Fin 2) = 0
    ∧ win1_1.index t (0 : Fin 2) = 0
    ∧ win1_1.index t (1 : Fin 2) = win1_3.index t (1 : Fin 2)
    ∧ win1_2.index t (0 : Fin 2) = 0
    ∧ win1_2.index t (1 : Fin 2) = win1_3.index t (1 : Fin 2)
    ∧ win1_3.index t (0 : Fin 2) < 4 ∧ win1_3.index t (1 : Fin 2) < 2 :=
  (by decide +kernel : ∀ t : Fin grid1.N, _)

/-- Every (row block, column block) pair is some grid point's. -/
theorem idx_onto : ∀ (q0 : Fin 4) (q1 : Fin 2), ∃ t : Fin cfg1.N, win1_3.index t = ![q0.val, q1.val] :=
  (by decide +kernel : ∀ (q0 : Fin 4) (q1 : Fin 2), ∃ t : Fin grid1.N, win1_3.index t = ![q0.val, q1.val])

/-- A grid point's 1024 rows of activations. -/
abbrev xBlk (c : Dev nD) (t : Fin cfg1.N) : Vec Ideal S1024x2048 .bf16 := iblk1 (F := Ideal) V c 0 t
/-- A grid point's 32 × 256 feature numbers. -/
abbrev connBlk (c : Dev nD) (t : Fin cfg1.N) : Vec Ideal S32x256 .i32 := iblk1 (F := Ideal) V c 1 t
/-- A grid point's 256 selectors. -/
abbrev opBlk (c : Dev nD) (t : Fin cfg1.N) : Vec Ideal S1x256 .i32 := iblk1 (F := Ideal) V c 2 t

/-- Row `p` of a point's activations is row `b` of the array, `b` being `p` within the point's row block (the block spans
    all the features). -/
theorem xBlk_row (c : Dev nD) (t : Fin cfg1.N) (p : Fin 1024) (b : Fin 4096)
    (hb : b.val = win1_3.index t (0 : Fin 2) * 1024 + p.val) :
    (fun i => xBlk V c t (ix2 p i)) = fun i => xArr V c (ix2 b i) := by
  obtain ⟨e0, e1, -⟩ := idx_facts t
  funext i
  show V c main_v4 (((cfg1.win 0).blk t).view.emb (ix2 p i)) = V c main_v4 (ix2 b i)
  congr 1
  funext a
  apply Fin.ext
  match a with
  | ⟨0, _⟩ => show win1_0.index t (0 : Fin 2) * 1024 + 1 * p.val = b.val; omega
  | ⟨1, _⟩ => show win1_0.index t (1 : Fin 2) * _ + 1 * i.val = i.val; rw [e1, Nat.zero_mul, Nat.zero_add, Nat.one_mul]

/-- Column `q` of a point's feature numbers is column `o` of the array, `o` being `q` within the point's column block. -/
theorem connBlk_apply (c : Dev nD) (t : Fin cfg1.N) (k : Fin 32) (q : Fin 256) (o : Fin 512)
    (ho : o.val = win1_3.index t (1 : Fin 2) * 256 + q.val) :
    connBlk V c t (ix2 k q) = connArr V c (ix2 k o) := by
  obtain ⟨-, -, e2, e3, -⟩ := idx_facts t
  show V c main_v6 (((cfg1.win 1).blk t).view.emb (ix2 k q)) = V c main_v6 (ix2 k o)
  congr 1
  funext a
  apply Fin.ext
  match a with
  | ⟨0, _⟩ => show win1_1.index t (0 : Fin 2) * 32 + 1 * k.val = k.val; omega
  | ⟨1, _⟩ => show win1_1.index t (1 : Fin 2) * 256 + 1 * q.val = o.val; omega

/-- Column `q` of a point's selectors is column `o` of the array. -/
theorem opBlk_apply (c : Dev nD) (t : Fin cfg1.N) (q : Fin 256) (o : Fin 512)
    (ho : o.val = win1_3.index t (1 : Fin 2) * 256 + q.val) :
    opBlk V c t (ix2 (0 : Fin 1) q) = opArr V c (ix2 (0 : Fin 1) o) := by
  obtain ⟨-, -, -, -, e4, e5, -⟩ := idx_facts t
  show V c main_v7 (((cfg1.win 2).blk t).view.emb (ix2 (0 : Fin 1) q)) = V c main_v7 (ix2 (0 : Fin 1) o)
  congr 1
  funext a
  apply Fin.ext
  match a with
  | ⟨0, _⟩ => show win1_2.index t (0 : Fin 2) * 1 + 1 * (0 : Fin 1).val = (0 : Fin 1).val; omega
  | ⟨1, _⟩ => show win1_2.index t (1 : Fin 2) * 256 + 1 * q.val = o.val; omega

/-- What a grid point writes back is its block of the layer's output: entry (p, q) of the block is entry
    (row block × 1024 + p, column block × 256 + q) of the array, and the point's inputs are the arrays read there. -/
theorem flushed_eq (c : Dev nD) (hconn : ∀ (k : Fin 32) (o : Fin 512), (connArr V c (ix2 k o)).toNat < 2048) (t : Fin cfg1.N) :
    (dat1 (F := Ideal) V c).flushed 3 t = ((cfg1.win 3).blk t).view.read (Elt Ideal) (layerArr V c hconn) := by
  show (cfg1.win 3).cut (grid1.coords t) ((dat1 (F := Ideal) V c).after 3 t) = _
  rw [after1_3]
  obtain ⟨-, -, -, -, -, -, e6, e7⟩ := idx_facts t
  funext y
  obtain ⟨p, q, rfl⟩ : ∃ (p : Fin 1024) (q : Fin 256), y = ix2 p q := ⟨y 0, y 1, eq_ix2 y⟩
  have hb : win1_3.index t (0 : Fin 2) * 1024 + p.val < 4096 := by have := p.isLt; omega
  have ho : win1_3.index t (1 : Fin 2) * 256 + q.val < 512 := by have := q.isLt; omega
  have hemb : ((cfg1.win 3).blk t).view.emb (ix2 p q)
      = ix2 (⟨win1_3.index t (0 : Fin 2) * 1024 + p.val, hb⟩ : Fin 4096) (⟨win1_3.index t (1 : Fin 2) * 256 + q.val, ho⟩ : Fin 512) := by
    funext a
    apply Fin.ext
    match a with
    | ⟨0, _⟩ => show win1_3.index t (0 : Fin 2) * 1024 + 1 * p.val = win1_3.index t (0 : Fin 2) * 1024 + p.val; omega
    | ⟨1, _⟩ => show win1_3.index t (1 : Fin 2) * 256 + 1 * q.val = win1_3.index t (1 : Fin 2) * 256 + q.val; omega
  have h1 : ∀ (k : Fin 32) (q' : Fin 256), (connBlk V c t (ix2 k q')).toNat < 2048 := fun k q' => by
    have ho' : win1_3.index t (1 : Fin 2) * 256 + q'.val < 512 := by have := q'.isLt; omega
    rw [connBlk_apply V c t k q' ⟨_, ho'⟩ rfl]
    exact hconn k _
  show Gen.out1_3 (F := Ideal) (xBlk V c t) (connBlk V c t) (opBlk V c t) (ix2 p q) = layerArr V c hconn (((cfg1.win 3).blk t).view.emb (ix2 p q))
  rw [hemb, Block1.out_apply (xBlk V c t) (connBlk V c t) (opBlk V c t) h1 p q]
  have hent : (fun k : Fin 32 => xBlk V c t (ix2 p ⟨(connBlk V c t (ix2 k q)).toNat, h1 k q⟩))
      = fun k : Fin 32 => xArr V c (ix2 (⟨_, hb⟩ : Fin 4096) ⟨(connArr V c (ix2 k (⟨_, ho⟩ : Fin 512))).toNat, hconn k ⟨_, ho⟩⟩) :=
    funext fun k => (congrFun (xBlk_row V c t p ⟨_, hb⟩ rfl) _).trans
      (congrArg (fun i => xArr V c (ix2 (⟨_, hb⟩ : Fin 4096) i)) (Fin.ext (congrArg BitVec.toNat (connBlk_apply V c t k q ⟨_, ho⟩ rfl))))
  rw [hent, opBlk_apply V c t q ⟨_, ho⟩ rfl]
  rfl

/-- An entry of the array is in a point's output block iff each coordinate is in the block's range on its axis. -/
theorem mem_blk (t : Fin cfg1.N) (i : S4096x512.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole main_v8).slice (win1_3.rect t)).set ↔ _
  rw [View.set_slice_whole, Rect.mem_set_unit]
  exact Iff.rfl

/-- The output blocks tile the array: entry (b, o) is in the block of the point whose row block is `b / 1024` and whose
    column block is `o / 256`. -/
theorem cover (i : S4096x512.Idx) :
    ∃ t : Fin cfg1.N, (cfg1.win 3).flush t = true ∧ i ∈ ((cfg1.win 3).blk t).view.set := by
  have hi0 : (i 0).val < 4096 := (i 0).isLt
  have hi1 : (i 1).val < 512 := (i 1).isLt
  obtain ⟨t, ht⟩ := idx_onto ⟨(i 0).val / 1024, by omega⟩ ⟨(i 1).val / 256, by omega⟩
  have q0 : win1_3.index t (0 : Fin 2) = (i 0).val / 1024 := congrFun ht 0
  have q1 : win1_3.index t (1 : Fin 2) = (i 1).val / 256 := congrFun ht 1
  refine ⟨t, flush1_3 t, ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 256 ≤ (i 1).val ∧ (i 1).val < win1_3.index t (1 : Fin 2) * 256 + 256; omega

/-- So after the last point the output array is the layer's output. -/
theorem outArr_eq (c : Dev nD) (hconn : ∀ (k : Fin 32) (o : Fin 512), (connArr V c (ix2 k o)).toNat < 2048) :
    outArr V c = layerArr V c hconn :=
  (dat1 (F := Ideal) V c).arrAt_eq_of_cover 3 (layerArr V c hconn) (fun t _ => flushed_eq V c hconn t) cover

/-- Entry (b, o) of the output array: the maximum or the minimum over `k` of `x[b, conn[k, o]]`, as selector `o` is 1 or not. -/
theorem outArr_apply (c : Dev nD) (hconn : ∀ (k : Fin 32) (o : Fin 512), (connArr V c (ix2 k o)).toNat < 2048)
    (b : Fin 4096) (o : Fin 512) :
    outArr V c (ix2 b o)
      = Scalar.select (IntOp.cmpi .eq (opArr V c (ix2 (0 : Fin 1) o)) 1#32)
          (max32 fun k => xArr V c (ix2 b ⟨(connArr V c (ix2 k o)).toNat, hconn k o⟩))
          (min32 fun k => xArr V c (ix2 b ⟨(connArr V c (ix2 k o)).toNat, hconn k o⟩)) := by
  exact congrFun (outArr_eq V c hconn) (ix2 b o)

end Cert.KernelIdeal.Array1

end
-- ==== Proof.KBlock2.lean ====
/-
  What one grid point of the third layer's kernel leaves in its output block, entry by entry.

  The kernel never indexes the activations.  For each of the 32 rows of feature numbers it builds the indicator
  matrix whose entry (i, q) is 1 when i is the number the row holds at q and 0 otherwise, multiplies the block of
  activations by it, and joins the product to a running minimum and a running maximum.  A sum of products with an
  indicator column has one term that is not a product with zero, so the product's entry (p, q) is the activation
  of row p at the feature the word names: in the extended reals x · 0 = 0 and x · 1 = x for every x, infinite ones
  included, so no finiteness is needed.  The 32 joins are a fold of min (from +∞) and of max (from −∞) over the 32
  rows, and the block's entry is the one the selector word chooses.
-/
import proofs.«424863_j77781857731251_2_alg».proof.Proof.Gen.KernelIdeal.Frame
import proofs.«424863_j77781857731251_2_alg».proof.Proof.Spec
import proofs.«424863_j77781857731251_2_alg».proof.Proof.Fold32
import Idealize.ShloMosaic.Lib.ValueIdx
import Idealize.ShloMosaic.Lib.Pipeline.Value
import Idealize.ShloMosaic.PureOps.Ideal.Laws

noncomputable section

namespace Cert.KernelIdeal.Block2

open Idealize.ShloMosaic Idealize.ShloMosaic.ValueIdx Cert.KernelIdeal Cert.Layers

/-! ## The product's operand indices -/

/-- The dimension numbers of the layer's product: rows of the left operand against columns of the right. -/
abbrev D := dot_S1024x512_S512x256_S1024x256_1_0_0_1_n_n

theorem lhs_D_0 (j : S1024x256.Idx) (k : D.contr.Idx) : (D.lhsIdx j k 0).val = (j 0).val := by
  simp [DotDims.lhsIdx, D, dot_S1024x512_S512x256_S1024x256_1_0_0_1_n_n]; rfl

theorem lhs_D_1 (j : S1024x256.Idx) (k : D.contr.Idx) : (D.lhsIdx j k 1).val = (k ⟨0, by decide⟩).val :=
  D.lhsIdx_val_of_single rfl j k

theorem rhs_D_0 (j : S1024x256.Idx) (k : D.contr.Idx) : (D.rhsIdx j k 0).val = (k ⟨0, by decide⟩).val :=
  D.rhsIdx_val_of_single rfl j k

theorem rhs_D_1 (j : S1024x256.Idx) (k : D.contr.Idx) : (D.rhsIdx j k 1).val = (j 1).val := by
  simp [DotDims.rhsIdx, D, dot_S1024x512_S512x256_S1024x256_1_0_0_1_n_n]; rfl

/-- The two operand indices of the product at output entry (p, q) and contraction position c: (p, c) on the left, (c, q) on the right. -/
theorem lhsIdx_D (p : Fin 1024) (q : Fin 256) (c : Fin 512) :
    D.lhsIdx (ix2 p q) ((contrEquiv1 D 512 rfl rfl).symm c) = ix2 p c := by
  have hc := contrEquiv1_symm_val D 512 rfl rfl c
  funext a; apply Fin.ext
  match a with
  | ⟨0, _⟩ => exact lhs_D_0 _ _
  | ⟨1, _⟩ => exact (lhs_D_1 _ _).trans hc

theorem rhsIdx_D (p : Fin 1024) (q : Fin 256) (c : Fin 512) :
    D.rhsIdx (ix2 p q) ((contrEquiv1 D 512 rfl rfl).symm c) = ix2 c q := by
  have hc := contrEquiv1_symm_val D 512 rfl rfl c
  funext a; apply Fin.ext
  match a with
  | ⟨0, _⟩ => exact (rhs_D_0 _ _).trans hc
  | ⟨1, _⟩ => exact rhs_D_1 _ _

/-- A set bit, widened and read as a float, is 1 … -/
theorem sitofp_bit_true : (FloatOps.sitofp (F := Ideal) .f32 ((BitVec.ofBool true).setWidth 32) : Ideal .f32) = 1 := by
  show (((BitVec.setWidth 32 (BitVec.ofBool true)).toInt : ℝ) : EReal) = 1
  rw [show (BitVec.setWidth 32 (BitVec.ofBool true)).toInt = 1 from by decide]; simp

/-- … and a clear bit is 0. -/
theorem sitofp_bit_false : (FloatOps.sitofp (F := Ideal) .f32 ((BitVec.ofBool false).setWidth 32) : Ideal .f32) = 0 := by
  show (((BitVec.setWidth 32 (BitVec.ofBool false)).toInt : ℝ) : EReal) = 0
  rw [show (BitVec.setWidth 32 (BitVec.ofBool false)).toInt = 0 from by decide]; simp

/-- The indicator entry: row number c against the word w, as a float, is 1 when c is the number w names and 0 otherwise. -/
theorem indicator_eq (c : Fin 512) (w : BitVec 32) :
    (FloatOps.sitofp (F := Ideal) .f32 ((IntOp.cmpi .eq (BitVec.ofNat 32 c.val) w).setWidth 32) : Ideal .f32)
      = if c.val = w.toNat then 1 else 0 := by
  have hlt : c.val < 2 ^ 32 := lt_trans c.isLt (by norm_num)
  show (FloatOps.sitofp (F := Ideal) .f32 ((BitVec.ofBool (BitVec.ofNat 32 c.val == w)).setWidth 32) : Ideal .f32) = _
  by_cases h : c.val = w.toNat
  · have e : BitVec.ofNat 32 c.val = w :=
      BitVec.eq_of_toNat_eq (by rw [BitVec.toNat_ofNat, Nat.mod_eq_of_lt hlt, h])
    rw [if_pos h, e, beq_self_eq_true, sitofp_bit_true]
  · have e : ¬ BitVec.ofNat 32 c.val = w := fun e => h (by rw [← e, BitVec.toNat_ofNat, Nat.mod_eq_of_lt hlt])
    rw [if_neg h, beq_false_of_ne e, sitofp_bit_false]

/-- Entry w of row p of the activations, the word w read as a feature number; zero when it names none. -/
def pickw (x : FVec Ideal S1024x512 .bf16) (p : Fin 1024) (w : BitVec 32) : Ideal .f32 :=
  if h : w.toNat < 512 then x (ix2 p ⟨w.toNat, h⟩) else 0

theorem pickw_of_lt (x : FVec Ideal S1024x512 .bf16) (p : Fin 1024) (w : BitVec 32) (h : w.toNat < 512) :
    pickw x p w = x (ix2 p ⟨w.toNat, h⟩) := dif_pos h

/-- A product of the activations with the indicator of the numbers a row of words names picks, at column q, the
    activation the word there names: every other term of the sum is a product with 0, the one term a product with 1;
    and when the word names no feature every term is a product with 0. -/
theorem onehot_sum (x : FVec Ideal S1024x512 .bf16) (B : IVec S512x256 32) (p : Fin 1024) (q : Fin 256)
    (w : BitVec 32) (hB : ∀ i : Fin 512, B (ix2 i q) = w) :
    matmul (F := Ideal) D none x
        (truncf .bf16 (sitofp .f32 (extui 32 (cmpi .eq (iota .tc S512x256 32 [0] Gen.iota_S512x256_d0_w32) B) Gen.natLt_1_32)) Gen.bitsLt_bf16_f32)
        (constant (F := Ideal) S1024x256 .f32 0x00000000#32) (ix2 p q)
      = pickw x p w := by
  show FloatOps.matmul D none x _ (constant (F := Ideal) S1024x256 .f32 0x00000000#32) (ix2 p q) = _
  rw [Ideal.matmul_constant_zero_apply, ← Equiv.sum_comp (contrEquiv1 D 512 rfl rfl).symm]
  have term : ∀ c : Fin 512,
      x (D.lhsIdx (ix2 p q) ((contrEquiv1 D 512 rfl rfl).symm c))
        * (truncf .bf16 (sitofp .f32 (extui 32 (cmpi .eq (iota .tc S512x256 32 [0] Gen.iota_S512x256_d0_w32) B) Gen.natLt_1_32)) Gen.bitsLt_bf16_f32
            : FVec Ideal S512x256 .bf16) (D.rhsIdx (ix2 p q) ((contrEquiv1 D 512 rfl rfl).symm c))
      = x (ix2 p c) * (if c.val = w.toNat then 1 else 0) := by
    intro c
    rw [lhsIdx_D, rhsIdx_D, truncf_apply, sitofp_apply, extui_apply]
    show x (ix2 p c) * FloatOps.sitofp (F := Ideal) .f32
      ((IntOp.cmpi .eq (iota .tc S512x256 32 [0] Gen.iota_S512x256_d0_w32 (ix2 c q)) (B (ix2 c q))).setWidth 32) = _
    rw [iota_single_apply, hB c]
    exact congrArg (x (ix2 p c) * ·) (indicator_eq c w)
  rw [Finset.sum_congr rfl fun c _ => term c]
  unfold pickw
  by_cases h : w.toNat < 512
  · rw [dif_pos h, Finset.sum_eq_single (⟨w.toNat, h⟩ : Fin 512)]
    · rw [if_pos rfl, mul_one]
    · intro c _ hc
      rw [if_neg (fun e => hc (Fin.ext e)), mul_zero]
    · intro hn; exact absurd (Finset.mem_univ _) hn
  · rw [dif_neg h]
    exact Finset.sum_eq_zero fun c _ => by
      rw [if_neg (fun e : c.val = w.toNat => h (lt_of_eq_of_lt e.symm c.isLt)), mul_zero]

/-- A vector of 256 words, viewed as one row and repeated down the rows, reads at (i, q) its word q. -/
theorem rows_of_vector (s : IVec S256 32) (i : Fin 512) (q : Fin 256) :
    broadcastTo S512x256 (shapeCast S1x256 (shapeCast S1x256 s Gen.shapeCasts_S256_S1x256) Gen.shapeCasts_S1x256_S1x256)
        Gen.broadcasts_S1x256_S512x256 (ix2 i q) = s (ix1 q) := by
  rw [shapeCast_self]
  refine (broadcastTo_apply _ _ (ix2 i q) (ix2 (0 : Fin 1) q) (fun a => ?_)).trans ?_
  · match a with
    | ⟨0, _⟩ => rfl
    | ⟨1, _⟩ => rfl
  · refine (shapeCast_addUnit_apply ![256] s Gen.shapeCasts_S256_S1x256 (ix2 (0 : Fin 1) q)).trans (congrArg s ?_)
    funext a
    match a with
    | ⟨0, _⟩ => rfl

/-- One row of 256 words, viewed as a vector, reads at q the row's word q. -/
theorem vector_of_row (r : IVec S1x256 32) (q : Fin 256) :
    shapeCast S256 r Gen.shapeCasts_S1x256_S256 (ix1 q) = r (ix2 (0 : Fin 1) q) := by
  refine (shapeCast_dropUnit_apply ![256] r Gen.shapeCasts_S1x256_S256 (ix1 q)).trans (congrArg r ?_)
  funext a
  match a with
  | ⟨0, _⟩ => rfl
  | ⟨1, _⟩ => rfl

/-- One row of 256 words repeated down the rows reads at (i, q) the row's word q. -/
theorem rows_of_row (r : IVec S1x256 32) (i : Fin 1024) (q : Fin 256) :
    broadcastTo S1024x256 (shapeCast S1x256 (shapeCast S1x256 r Gen.shapeCasts_S1x256_S1x256) Gen.shapeCasts_S1x256_S1x256)
        Gen.broadcasts_S1x256_S1024x256 (ix2 i q) = r (ix2 (0 : Fin 1) q) := by
  rw [shapeCast_self, shapeCast_self]
  refine broadcastTo_apply _ _ (ix2 i q) (ix2 (0 : Fin 1) q) (fun a => ?_)
  match a with
  | ⟨0, _⟩ => rfl
  | ⟨1, _⟩ => rfl

/-- The layer's product against the indicator of a vector of words, at (p, q): the activation the vector's word q names. -/
theorem gather_vector (x : FVec Ideal S1024x512 .bf16) (s : IVec S256 32) (p : Fin 1024) (q : Fin 256) :
    matmul (F := Ideal) D none x
        (truncf .bf16 (sitofp .f32 (extui 32 (cmpi .eq (iota .tc S512x256 32 [0] Gen.iota_S512x256_d0_w32)
          (broadcastTo S512x256 (shapeCast S1x256 (shapeCast S1x256 s Gen.shapeCasts_S256_S1x256) Gen.shapeCasts_S1x256_S1x256)
            Gen.broadcasts_S1x256_S512x256)) Gen.natLt_1_32)) Gen.bitsLt_bf16_f32)
        (constant (F := Ideal) S1024x256 .f32 0x00000000#32) (ix2 p q)
      = pickw x p (s (ix1 q)) :=
  onehot_sum x _ p q _ fun i => rows_of_vector s i q

/-- The same against the indicator of one row of words: the activation the row's word q names. -/
theorem gather_row (x : FVec Ideal S1024x512 .bf16) (r : IVec S1x256 32) (p : Fin 1024) (q : Fin 256) :
    matmul (F := Ideal) D none x
        (truncf .bf16 (sitofp .f32 (extui 32 (cmpi .eq (iota .tc S512x256 32 [0] Gen.iota_S512x256_d0_w32)
          (broadcastTo S512x256 (shapeCast S1x256 (shapeCast S1x256 (shapeCast S256 r Gen.shapeCasts_S1x256_S256)
            Gen.shapeCasts_S256_S1x256) Gen.shapeCasts_S1x256_S1x256) Gen.broadcasts_S1x256_S512x256)) Gen.natLt_1_32)) Gen.bitsLt_bf16_f32)
        (constant (F := Ideal) S1024x256 .f32 0x00000000#32) (ix2 p q)
      = pickw x p (r (ix2 (0 : Fin 1) q)) :=
  (gather_vector x _ p q).trans (congrArg (pickw x p) (vector_of_row r q))

/-- Row k of the table of feature numbers, loaded as a block of one row, reads at (0, q) the table's entry (k, q). -/
theorem ld_row (x1 : Vec Ideal S32x256 .i32) (k : ℕ) (inb : ∀ a, (![k, 0] : Fin 2 → Nat) a + S1x256.size a ≤ S32x256.size a) (q : Fin 256) :
    View.ld x1 (Rect.unit (s := S32x256) ![k, 0] S1x256.size inb) (ix2 (0 : Fin 1) q)
      = x1 (ix2 (⟨k, by have := inb 0; simpa using this⟩ : Fin 32) q) := by
  refine congrArg x1 (funext fun a => Fin.ext ?_)
  match a with
  | ⟨0, _⟩ => show k + 1 * 0 = k; omega
  | ⟨1, _⟩ => show 0 + 1 * q.val = q.val; omega

/-! ## The running extrema, four rows of feature numbers at a time

Each step of the kernel joins to a running minimum, and to a running maximum, the activations that three or four more
rows of the table name.  At entry (p, q) a step's result is the running value there joined, in order, to the picked
activations. -/

/-- The first three rows, from +∞ … -/
theorem pay6_apply (x : Vec Ideal S1024x512 .bf16) (r0 r1 r2 : Vec Ideal S1x256 .i32) (p : Fin 1024) (q : Fin 256) :
    Gen.k2_pay6 x r0 r1 r2 (ix2 p q)
      = min (min (min posInf (pickw x p (r0 (ix2 (0 : Fin 1) q)))) (pickw x p (r1 (ix2 (0 : Fin 1) q))))
          (pickw x p (r2 (ix2 (0 : Fin 1) q))) := by
  unfold Gen.k2_pay6 Gen.k2_pay3 Gen.k2_pay4 Gen.k2_pay5 Gen.k2_pay2
  simp only [minimumf_apply, broadcast_apply]
  rw [shapeCast_self x Gen.shapeCasts_S1024x512_S1024x512, gather_row x r0 p q, gather_row x r1 p q, gather_row x r2 p q]
  rfl

/-- … and from −∞. -/
theorem pay7_apply (x : Vec Ideal S1024x512 .bf16) (r0 r1 r2 : Vec Ideal S1x256 .i32) (p : Fin 1024) (q : Fin 256) :
    Gen.k2_pay7 x r0 r1 r2 (ix2 p q)
      = max (max (max negInf (pickw x p (r0 (ix2 (0 : Fin 1) q)))) (pickw x p (r1 (ix2 (0 : Fin 1) q))))
          (pickw x p (r2 (ix2 (0 : Fin 1) q))) := by
  unfold Gen.k2_pay7 Gen.k2_pay3 Gen.k2_pay4 Gen.k2_pay5 Gen.k2_pay2
  simp only [maximumf_apply, broadcast_apply]
  rw [shapeCast_self x Gen.shapeCasts_S1024x512_S1024x512, gather_row x r0 p q, gather_row x r1 p q, gather_row x r2 p q]
  rfl

/-- Four more rows of feature numbers joined to a running minimum … -/
theorem pay13_apply (x : FVec Ideal S1024x512 .bf16) (acc : FVec Ideal S1024x256 .f32) (s : IVec S256 32)
    (r1 r2 r3 : Vec Ideal S1x256 .i32) (p : Fin 1024) (q : Fin 256) :
    Gen.k2_pay13 x (iota .tc S512x256 32 [0] Gen.iota_S512x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k2_pay13 Gen.k2_pay9 Gen.k2_pay10 Gen.k2_pay11 Gen.k2_pay12
  simp only [minimumf_apply]
  rw [gather_vector x s p q, gather_row x r1 p q, gather_row x r2 p q, gather_row x r3 p q]

/-- … and to a running maximum. -/
theorem pay14_apply (x : FVec Ideal S1024x512 .bf16) (acc : FVec Ideal S1024x256 .f32) (s : IVec S256 32)
    (r1 r2 r3 : Vec Ideal S1x256 .i32) (p : Fin 1024) (q : Fin 256) :
    Gen.k2_pay14 x (iota .tc S512x256 32 [0] Gen.iota_S512x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k2_pay14 Gen.k2_pay9 Gen.k2_pay10 Gen.k2_pay11 Gen.k2_pay12
  simp only [maximumf_apply]
  rw [gather_vector x s p q, gather_row x r1 p q, gather_row x r2 p q, gather_row x r3 p q]

/-- Four more rows of feature numbers joined to a running minimum … -/
theorem pay20_apply (x : FVec Ideal S1024x512 .bf16) (acc : FVec Ideal S1024x256 .f32) (s : IVec S256 32)
    (r1 r2 r3 : Vec Ideal S1x256 .i32) (p : Fin 1024) (q : Fin 256) :
    Gen.k2_pay20 x (iota .tc S512x256 32 [0] Gen.iota_S512x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k2_pay20 Gen.k2_pay16 Gen.k2_pay17 Gen.k2_pay18 Gen.k2_pay19
  simp only [minimumf_apply]
  rw [gather_vector x s p q, gather_row x r1 p q, gather_row x r2 p q, gather_row x r3 p q]

/-- … and to a running maximum. -/
theorem pay21_apply (x : FVec Ideal S1024x512 .bf16) (acc : FVec Ideal S1024x256 .f32) (s : IVec S256 32)
    (r1 r2 r3 : Vec Ideal S1x256 .i32) (p : Fin 1024) (q : Fin 256) :
    Gen.k2_pay21 x (iota .tc S512x256 32 [0] Gen.iota_S512x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k2_pay21 Gen.k2_pay16 Gen.k2_pay17 Gen.k2_pay18 Gen.k2_pay19
  simp only [maximumf_apply]
  rw [gather_vector x s p q, gather_row x r1 p q, gather_row x r2 p q, gather_row x r3 p q]

/-- Four more rows of feature numbers joined to a running minimum … -/
theorem pay27_apply (x : FVec Ideal S1024x512 .bf16) (acc : FVec Ideal S1024x256 .f32) (s : IVec S256 32)
    (r1 r2 r3 : Vec Ideal S1x256 .i32) (p : Fin 1024) (q : Fin 256) :
    Gen.k2_pay27 x (iota .tc S512x256 32 [0] Gen.iota_S512x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k2_pay27 Gen.k2_pay23 Gen.k2_pay24 Gen.k2_pay25 Gen.k2_pay26
  simp only [minimumf_apply]
  rw [gather_vector x s p q, gather_row x r1 p q, gather_row x r2 p q, gather_row x r3 p q]

/-- … and to a running maximum. -/
theorem pay28_apply (x : FVec Ideal S1024x512 .bf16) (acc : FVec Ideal S1024x256 .f32) (s : IVec S256 32)
    (r1 r2 r3 : Vec Ideal S1x256 .i32) (p : Fin 1024) (q : Fin 256) :
    Gen.k2_pay28 x (iota .tc S512x256 32 [0] Gen.iota_S512x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k2_pay28 Gen.k2_pay23 Gen.k2_pay24 Gen.k2_pay25 Gen.k2_pay26
  simp only [maximumf_apply]
  rw [gather_vector x s p q, gather_row x r1 p q, gather_row x r2 p q, gather_row x r3 p q]

/-- Four more rows of feature numbers joined to a running minimum … -/
theorem pay34_apply (x : FVec Ideal S1024x512 .bf16) (acc : FVec Ideal S1024x256 .f32) (s : IVec S256 32)
    (r1 r2 r3 : Vec Ideal S1x256 .i32) (p : Fin 1024) (q : Fin 256) :
    Gen.k2_pay34 x (iota .tc S512x256 32 [0] Gen.iota_S512x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k2_pay34 Gen.k2_pay30 Gen.k2_pay31 Gen.k2_pay32 Gen.k2_pay33
  simp only [minimumf_apply]
  rw [gather_vector x s p q, gather_row x r1 p q, gather_row x r2 p q, gather_row x r3 p q]

/-- … and to a running maximum. -/
theorem pay35_apply (x : FVec Ideal S1024x512 .bf16) (acc : FVec Ideal S1024x256 .f32) (s : IVec S256 32)
    (r1 r2 r3 : Vec Ideal S1x256 .i32) (p : Fin 1024) (q : Fin 256) :
    Gen.k2_pay35 x (iota .tc S512x256 32 [0] Gen.iota_S512x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k2_pay35 Gen.k2_pay30 Gen.k2_pay31 Gen.k2_pay32 Gen.k2_pay33
  simp only [maximumf_apply]
  rw [gather_vector x s p q, gather_row x r1 p q, gather_row x r2 p q, gather_row x r3 p q]

/-- Four more rows of feature numbers joined to a running minimum … -/
theorem pay41_apply (x : FVec Ideal S1024x512 .bf16) (acc : FVec Ideal S1024x256 .f32) (s : IVec S256 32)
    (r1 r2 r3 : Vec Ideal S1x256 .i32) (p : Fin 1024) (q : Fin 256) :
    Gen.k2_pay41 x (iota .tc S512x256 32 [0] Gen.iota_S512x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k2_pay41 Gen.k2_pay37 Gen.k2_pay38 Gen.k2_pay39 Gen.k2_pay40
  simp only [minimumf_apply]
  rw [gather_vector x s p q, gather_row x r1 p q, gather_row x r2 p q, gather_row x r3 p q]

/-- … and to a running maximum. -/
theorem pay42_apply (x : FVec Ideal S1024x512 .bf16) (acc : FVec Ideal S1024x256 .f32) (s : IVec S256 32)
    (r1 r2 r3 : Vec Ideal S1x256 .i32) (p : Fin 1024) (q : Fin 256) :
    Gen.k2_pay42 x (iota .tc S512x256 32 [0] Gen.iota_S512x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k2_pay42 Gen.k2_pay37 Gen.k2_pay38 Gen.k2_pay39 Gen.k2_pay40
  simp only [maximumf_apply]
  rw [gather_vector x s p q, gather_row x r1 p q, gather_row x r2 p q, gather_row x r3 p q]

/-- Four more rows of feature numbers joined to a running minimum … -/
theorem pay48_apply (x : FVec Ideal S1024x512 .bf16) (acc : FVec Ideal S1024x256 .f32) (s : IVec S256 32)
    (r1 r2 r3 : Vec Ideal S1x256 .i32) (p : Fin 1024) (q : Fin 256) :
    Gen.k2_pay48 x (iota .tc S512x256 32 [0] Gen.iota_S512x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k2_pay48 Gen.k2_pay44 Gen.k2_pay45 Gen.k2_pay46 Gen.k2_pay47
  simp only [minimumf_apply]
  rw [gather_vector x s p q, gather_row x r1 p q, gather_row x r2 p q, gather_row x r3 p q]

/-- … and to a running maximum. -/
theorem pay49_apply (x : FVec Ideal S1024x512 .bf16) (acc : FVec Ideal S1024x256 .f32) (s : IVec S256 32)
    (r1 r2 r3 : Vec Ideal S1x256 .i32) (p : Fin 1024) (q : Fin 256) :
    Gen.k2_pay49 x (iota .tc S512x256 32 [0] Gen.iota_S512x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k2_pay49 Gen.k2_pay44 Gen.k2_pay45 Gen.k2_pay46 Gen.k2_pay47
  simp only [maximumf_apply]
  rw [gather_vector x s p q, gather_row x r1 p q, gather_row x r2 p q, gather_row x r3 p q]

/-- Four more rows of feature numbers joined to a running minimum … -/
theorem pay55_apply (x : FVec Ideal S1024x512 .bf16) (acc : FVec Ideal S1024x256 .f32) (s : IVec S256 32)
    (r1 r2 r3 : Vec Ideal S1x256 .i32) (p : Fin 1024) (q : Fin 256) :
    Gen.k2_pay55 x (iota .tc S512x256 32 [0] Gen.iota_S512x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k2_pay55 Gen.k2_pay51 Gen.k2_pay52 Gen.k2_pay53 Gen.k2_pay54
  simp only [minimumf_apply]
  rw [gather_vector x s p q, gather_row x r1 p q, gather_row x r2 p q, gather_row x r3 p q]

/-- … and to a running maximum. -/
theorem pay56_apply (x : FVec Ideal S1024x512 .bf16) (acc : FVec Ideal S1024x256 .f32) (s : IVec S256 32)
    (r1 r2 r3 : Vec Ideal S1x256 .i32) (p : Fin 1024) (q : Fin 256) :
    Gen.k2_pay56 x (iota .tc S512x256 32 [0] Gen.iota_S512x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k2_pay56 Gen.k2_pay51 Gen.k2_pay52 Gen.k2_pay53 Gen.k2_pay54
  simp only [maximumf_apply]
  rw [gather_vector x s p q, gather_row x r1 p q, gather_row x r2 p q, gather_row x r3 p q]

/-- The last row joined to both running values, and the choice between them: the maximum where the selector word is 1,
    the minimum elsewhere. -/
theorem pay1_apply (x : FVec Ideal S1024x512 .bf16) (amin amax : FVec Ideal S1024x256 .f32) (s : IVec S256 32)
    (sel : Vec Ideal S1x256 .i32) (p : Fin 1024) (q : Fin 256) :
    Gen.k2_pay1 x (iota .tc S512x256 32 [0] Gen.iota_S512x256_d0_w32) amin amax s sel (ix2 p q)
      = Scalar.select (IntOp.cmpi .eq (sel (ix2 (0 : Fin 1) q)) 1#32)
          (max (amax (ix2 p q)) (pickw x p (s (ix1 q)))) (min (amin (ix2 p q)) (pickw x p (s (ix1 q)))) := by
  unfold Gen.k2_pay1
  simp only [truncf_apply, select_apply, maximumf_apply, minimumf_apply]
  rw [gather_vector x s p q]
  show Scalar.select (IntOp.cmpi .eq (broadcastTo S1024x256 (shapeCast S1x256 (shapeCast S1x256 sel Gen.shapeCasts_S1x256_S1x256)
    Gen.shapeCasts_S1x256_S1x256) Gen.broadcasts_S1x256_S1024x256 (ix2 p q)) 1#32) _ _ = _
  rw [rows_of_row sel p q]

/-! ## The block -/

/-- Entry (p, q) of the block a point writes: with `x0` the point's 1024 rows of activations, `x1` its 32 × 256
    feature numbers (each below 512) and `x2` its 256 selectors, the maximum or the minimum over `k` of
    `x0[p, x1[k, q]]`, as `x2[0, q]` is 1 or not. -/
theorem out_apply (x0 : Vec Ideal S1024x512 .bf16) (x1 : Vec Ideal S32x256 .i32) (x2 : Vec Ideal S1x256 .i32)
    (h1 : ∀ (k : Fin 32) (q : Fin 256), (x1 (ix2 k q)).toNat < 512) (p : Fin 1024) (q : Fin 256) :
    Gen.out2_3 (F := Ideal) x0 x1 x2 (ix2 p q)
      = Scalar.select (IntOp.cmpi .eq (x2 (ix2 (0 : Fin 1) q)) 1#32)
          (max32 fun k => x0 (ix2 p ⟨(x1 (ix2 k q)).toNat, h1 k q⟩))
          (min32 fun k => x0 (ix2 p ⟨(x1 (ix2 k q)).toNat, h1 k q⟩)) := by
  have hz : (![0, 0] : Fin 2 → Nat) = fun _ => 0 := by
    funext a
    match a with
    | ⟨0, _⟩ => rfl
    | ⟨1, _⟩ => rfl
  have ef : (fun k : Fin 32 => (x0 (ix2 p ⟨(x1 (ix2 k q)).toNat, h1 k q⟩) : Ideal .f32))
      = fun k => pickw x0 p (x1 (ix2 k q)) := funext fun k => (pickw_of_lt x0 p _ (h1 k q)).symm
  have hx : Gen.k2_pay2 (F := Ideal) x0 = x0 := by
    unfold Gen.k2_pay2
    exact shapeCast_self x0 _
  rw [ef]
  unfold Gen.out2_3
  rw [View.canon_unit_zero hz]
  simp only [View.ld_unit_zero (S := S1024x512) hz, View.ld_unit_zero (S := S1x256) hz]
  rw [hx, pay1_apply, pay56_apply, pay55_apply, pay49_apply, pay48_apply, pay42_apply, pay41_apply, pay35_apply, pay34_apply,
    pay28_apply, pay27_apply, pay21_apply, pay20_apply, pay14_apply, pay13_apply, pay7_apply, pay6_apply]
  simp only [Gen.k2_pay8, Gen.k2_pay15, Gen.k2_pay22, Gen.k2_pay29, Gen.k2_pay36, Gen.k2_pay43, Gen.k2_pay50, Gen.k2_pay57,
    vector_of_row]
  rw [ld_row x1 0 _ q, ld_row x1 1 _ q, ld_row x1 2 _ q, ld_row x1 3 _ q, ld_row x1 4 _ q, ld_row x1 5 _ q,
    ld_row x1 6 _ q, ld_row x1 7 _ q, ld_row x1 8 _ q, ld_row x1 9 _ q, ld_row x1 10 _ q, ld_row x1 11 _ q,
    ld_row x1 12 _ q, ld_row x1 13 _ q, ld_row x1 14 _ q, ld_row x1 15 _ q, ld_row x1 16 _ q, ld_row x1 17 _ q,
    ld_row x1 18 _ q, ld_row x1 19 _ q, ld_row x1 20 _ q, ld_row x1 21 _ q, ld_row x1 22 _ q, ld_row x1 23 _ q,
    ld_row x1 24 _ q, ld_row x1 25 _ q, ld_row x1 26 _ q, ld_row x1 27 _ q, ld_row x1 28 _ q, ld_row x1 29 _ q,
    ld_row x1 30 _ q, ld_row x1 31 _ q]
  unfold max32 min32
  rw [Cert.Fold32.fold_univ_fin32 max, Cert.Fold32.fold_univ_fin32 min]
  rfl

end Cert.KernelIdeal.Block2

end
-- ==== Proof.KArray2.lean ====
/-
  The third layer's output array after its kernel's run, entry by entry.
-/
import proofs.«424863_j77781857731251_2_alg».proof.Proof.KBlock2
import Idealize.ShloMosaic.Lib.Pipeline.Value

set_option maxRecDepth 16384

noncomputable section

namespace Cert.KernelIdeal.Array2

open Idealize.ShloMosaic Idealize.ShloMosaic.TcCoe Idealize.ShloMosaic.ValueIdx Idealize.SL.Sem
open Idealize.ShloMosaic.Pipeline (Dat)
open Cert.KernelIdeal Cert.KernelIdeal.Gen Cert.Layers

variable (V : (c : Dev nD) → (b : Ref sig .tc) → Buf (Elt Ideal) ((c : Thread nD τ).loc b))

/-- The activations the region finds: 4096 rows of 512 features. -/
abbrev xArr (c : Dev nD) : Vec Ideal S4096x512 .bf16 := V c main_v8
/-- The feature numbers the region finds, transposed: 32 × 2048. -/
abbrev connArr (c : Dev nD) : Vec Ideal S32x2048 .i32 := V c main_v10
/-- The selectors the region finds, as one row of 2048. -/
abbrev opArr (c : Dev nD) : Vec Ideal S1x2048 .i32 := V c main_v11
/-- The region's output array after the last grid point's write-back. -/
abbrev outArr (c : Dev nD) : Vec Ideal S4096x2048 .bf16 := (dat2 (F := Ideal) V c).arrAt 3 cfg2.N

/-- The layer's whole output, entry by entry: the maximum or the minimum over `k` of `x[b, conn[k, o]]`, as selector `o` is 1 or not. -/
def layerArr (c : Dev nD) (hconn : ∀ (k : Fin 32) (o : Fin 2048), (connArr V c (ix2 k o)).toNat < 512) :
    Vec Ideal S4096x2048 .bf16 := fun j =>
  Scalar.select (IntOp.cmpi .eq (opArr V c (ix2 (0 : Fin 1) (j 1))) 1#32)
    (max32 fun k => xArr V c (ix2 (j 0) ⟨(connArr V c (ix2 k (j 1))).toNat, hconn k (j 1)⟩))
    (min32 fun k => xArr V c (ix2 (j 0) ⟨(connArr V c (ix2 k (j 1))).toNat, hconn k (j 1)⟩))

/-- How the four windows' block numbers go together at every grid point: the activations' block is the output's row
    block and spans all features; the feature numbers' and the selectors' blocks are the output's column block; there are
    4 row blocks and 8 column blocks. -/
theorem idx_facts : ∀ t : Fin cfg2.N,
    win2_0.index t (0 : Fin 2) = win2_3.index t (0 : Fin 2)
    ∧ win2_0.index t (1 : Fin 2) = 0
    ∧ win2_1.index t (0 : Fin 2) = 0
    ∧ win2_1.index t (1 : Fin 2) = win2_3.index t (1 : Fin 2)
    ∧ win2_2.index t (0 : Fin 2) = 0
    ∧ win2_2.index t (1 : Fin 2) = win2_3.index t (1 : Fin 2)
    ∧ win2_3.index t (0 : Fin 2) < 4 ∧ win2_3.index t (1 : Fin 2) < 8 :=
  (by decide +kernel : ∀ t : Fin grid2.N, _)

/-- Every (row block, column block) pair is some grid point's. -/
theorem idx_onto : ∀ (q0 : Fin 4) (q1 : Fin 8), ∃ t : Fin cfg2.N, win2_3.index t = ![q0.val, q1.val] :=
  (by decide +kernel : ∀ (q0 : Fin 4) (q1 : Fin 8), ∃ t : Fin grid2.N, win2_3.index t = ![q0.val, q1.val])

/-- A grid point's 1024 rows of activations. -/
abbrev xBlk (c : Dev nD) (t : Fin cfg2.N) : Vec Ideal S1024x512 .bf16 := iblk2 (F := Ideal) V c 0 t
/-- A grid point's 32 × 256 feature numbers. -/
abbrev connBlk (c : Dev nD) (t : Fin cfg2.N) : Vec Ideal S32x256 .i32 := iblk2 (F := Ideal) V c 1 t
/-- A grid point's 256 selectors. -/
abbrev opBlk (c : Dev nD) (t : Fin cfg2.N) : Vec Ideal S1x256 .i32 := iblk2 (F := Ideal) V c 2 t

/-- Row `p` of a point's activations is row `b` of the array, `b` being `p` within the point's row block (the block spans
    all the features). -/
theorem xBlk_row (c : Dev nD) (t : Fin cfg2.N) (p : Fin 1024) (b : Fin 4096)
    (hb : b.val = win2_3.index t (0 : Fin 2) * 1024 + p.val) :
    (fun i => xBlk V c t (ix2 p i)) = fun i => xArr V c (ix2 b i) := by
  obtain ⟨e0, e1, -⟩ := idx_facts t
  funext i
  show V c main_v8 (((cfg2.win 0).blk t).view.emb (ix2 p i)) = V c main_v8 (ix2 b i)
  congr 1
  funext a
  apply Fin.ext
  match a with
  | ⟨0, _⟩ => show win2_0.index t (0 : Fin 2) * 1024 + 1 * p.val = b.val; omega
  | ⟨1, _⟩ => show win2_0.index t (1 : Fin 2) * _ + 1 * i.val = i.val; rw [e1, Nat.zero_mul, Nat.zero_add, Nat.one_mul]

/-- Column `q` of a point's feature numbers is column `o` of the array, `o` being `q` within the point's column block. -/
theorem connBlk_apply (c : Dev nD) (t : Fin cfg2.N) (k : Fin 32) (q : Fin 256) (o : Fin 2048)
    (ho : o.val = win2_3.index t (1 : Fin 2) * 256 + q.val) :
    connBlk V c t (ix2 k q) = connArr V c (ix2 k o) := by
  obtain ⟨-, -, e2, e3, -⟩ := idx_facts t
  show V c main_v10 (((cfg2.win 1).blk t).view.emb (ix2 k q)) = V c main_v10 (ix2 k o)
  congr 1
  funext a
  apply Fin.ext
  match a with
  | ⟨0, _⟩ => show win2_1.index t (0 : Fin 2) * 32 + 1 * k.val = k.val; omega
  | ⟨1, _⟩ => show win2_1.index t (1 : Fin 2) * 256 + 1 * q.val = o.val; omega

/-- Column `q` of a point's selectors is column `o` of the array. -/
theorem opBlk_apply (c : Dev nD) (t : Fin cfg2.N) (q : Fin 256) (o : Fin 2048)
    (ho : o.val = win2_3.index t (1 : Fin 2) * 256 + q.val) :
    opBlk V c t (ix2 (0 : Fin 1) q) = opArr V c (ix2 (0 : Fin 1) o) := by
  obtain ⟨-, -, -, -, e4, e5, -⟩ := idx_facts t
  show V c main_v11 (((cfg2.win 2).blk t).view.emb (ix2 (0 : Fin 1) q)) = V c main_v11 (ix2 (0 : Fin 1) o)
  congr 1
  funext a
  apply Fin.ext
  match a with
  | ⟨0, _⟩ => show win2_2.index t (0 : Fin 2) * 1 + 1 * (0 : Fin 1).val = (0 : Fin 1).val; omega
  | ⟨1, _⟩ => show win2_2.index t (1 : Fin 2) * 256 + 1 * q.val = o.val; omega

/-- What a grid point writes back is its block of the layer's output: entry (p, q) of the block is entry
    (row block × 1024 + p, column block × 256 + q) of the array, and the point's inputs are the arrays read there. -/
theorem flushed_eq (c : Dev nD) (hconn : ∀ (k : Fin 32) (o : Fin 2048), (connArr V c (ix2 k o)).toNat < 512) (t : Fin cfg2.N) :
    (dat2 (F := Ideal) V c).flushed 3 t = ((cfg2.win 3).blk t).view.read (Elt Ideal) (layerArr V c hconn) := by
  show (cfg2.win 3).cut (grid2.coords t) ((dat2 (F := Ideal) V c).after 3 t) = _
  rw [after2_3]
  obtain ⟨-, -, -, -, -, -, e6, e7⟩ := idx_facts t
  funext y
  obtain ⟨p, q, rfl⟩ : ∃ (p : Fin 1024) (q : Fin 256), y = ix2 p q := ⟨y 0, y 1, eq_ix2 y⟩
  have hb : win2_3.index t (0 : Fin 2) * 1024 + p.val < 4096 := by have := p.isLt; omega
  have ho : win2_3.index t (1 : Fin 2) * 256 + q.val < 2048 := by have := q.isLt; omega
  have hemb : ((cfg2.win 3).blk t).view.emb (ix2 p q)
      = ix2 (⟨win2_3.index t (0 : Fin 2) * 1024 + p.val, hb⟩ : Fin 4096) (⟨win2_3.index t (1 : Fin 2) * 256 + q.val, ho⟩ : Fin 2048) := by
    funext a
    apply Fin.ext
    match a with
    | ⟨0, _⟩ => show win2_3.index t (0 : Fin 2) * 1024 + 1 * p.val = win2_3.index t (0 : Fin 2) * 1024 + p.val; omega
    | ⟨1, _⟩ => show win2_3.index t (1 : Fin 2) * 256 + 1 * q.val = win2_3.index t (1 : Fin 2) * 256 + q.val; omega
  have h1 : ∀ (k : Fin 32) (q' : Fin 256), (connBlk V c t (ix2 k q')).toNat < 512 := fun k q' => by
    have ho' : win2_3.index t (1 : Fin 2) * 256 + q'.val < 2048 := by have := q'.isLt; omega
    rw [connBlk_apply V c t k q' ⟨_, ho'⟩ rfl]
    exact hconn k _
  show Gen.out2_3 (F := Ideal) (xBlk V c t) (connBlk V c t) (opBlk V c t) (ix2 p q) = layerArr V c hconn (((cfg2.win 3).blk t).view.emb (ix2 p q))
  rw [hemb, Block2.out_apply (xBlk V c t) (connBlk V c t) (opBlk V c t) h1 p q]
  have hent : (fun k : Fin 32 => xBlk V c t (ix2 p ⟨(connBlk V c t (ix2 k q)).toNat, h1 k q⟩))
      = fun k : Fin 32 => xArr V c (ix2 (⟨_, hb⟩ : Fin 4096) ⟨(connArr V c (ix2 k (⟨_, ho⟩ : Fin 2048))).toNat, hconn k ⟨_, ho⟩⟩) :=
    funext fun k => (congrFun (xBlk_row V c t p ⟨_, hb⟩ rfl) _).trans
      (congrArg (fun i => xArr V c (ix2 (⟨_, hb⟩ : Fin 4096) i)) (Fin.ext (congrArg BitVec.toNat (connBlk_apply V c t k q ⟨_, ho⟩ rfl))))
  rw [hent, opBlk_apply V c t q ⟨_, ho⟩ rfl]
  rfl

/-- An entry of the array is in a point's output block iff each coordinate is in the block's range on its axis. -/
theorem mem_blk (t : Fin cfg2.N) (i : S4096x2048.Idx) :
    i ∈ ((cfg2.win 3).blk t).view.set ↔ ∀ a : Fin 2, win2_3.index t a * S1024x256.size a ≤ (i a).val ∧ (i a).val < win2_3.index t a * S1024x256.size a + S1024x256.size a := by
  show i ∈ ((View.whole main_v12).slice (win2_3.rect t)).set ↔ _
  rw [View.set_slice_whole, Rect.mem_set_unit]
  exact Iff.rfl

/-- The output blocks tile the array: entry (b, o) is in the block of the point whose row block is `b / 1024` and whose
    column block is `o / 256`. -/
theorem cover (i : S4096x2048.Idx) :
    ∃ t : Fin cfg2.N, (cfg2.win 3).flush t = true ∧ i ∈ ((cfg2.win 3).blk t).view.set := by
  have hi0 : (i 0).val < 4096 := (i 0).isLt
  have hi1 : (i 1).val < 2048 := (i 1).isLt
  obtain ⟨t, ht⟩ := idx_onto ⟨(i 0).val / 1024, by omega⟩ ⟨(i 1).val / 256, by omega⟩
  have q0 : win2_3.index t (0 : Fin 2) = (i 0).val / 1024 := congrFun ht 0
  have q1 : win2_3.index t (1 : Fin 2) = (i 1).val / 256 := congrFun ht 1
  refine ⟨t, flush2_3 t, ?_⟩
  rw [mem_blk]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 256 ≤ (i 1).val ∧ (i 1).val < win2_3.index t (1 : Fin 2) * 256 + 256; omega

/-- So after the last point the output array is the layer's output. -/
theorem outArr_eq (c : Dev nD) (hconn : ∀ (k : Fin 32) (o : Fin 2048), (connArr V c (ix2 k o)).toNat < 512) :
    outArr V c = layerArr V c hconn :=
  (dat2 (F := Ideal) V c).arrAt_eq_of_cover 3 (layerArr V c hconn) (fun t _ => flushed_eq V c hconn t) cover

/-- Entry (b, o) of the output array: the maximum or the minimum over `k` of `x[b, conn[k, o]]`, as selector `o` is 1 or not. -/
theorem outArr_apply (c : Dev nD) (hconn : ∀ (k : Fin 32) (o : Fin 2048), (connArr V c (ix2 k o)).toNat < 512)
    (b : Fin 4096) (o : Fin 2048) :
    outArr V c (ix2 b o)
      = Scalar.select (IntOp.cmpi .eq (opArr V c (ix2 (0 : Fin 1) o)) 1#32)
          (max32 fun k => xArr V c (ix2 b ⟨(connArr V c (ix2 k o)).toNat, hconn k o⟩))
          (min32 fun k => xArr V c (ix2 b ⟨(connArr V c (ix2 k o)).toNat, hconn k o⟩)) := by
  exact congrFun (outArr_eq V c hconn) (ix2 b o)

end Cert.KernelIdeal.Array2

end
-- ==== Proof.KBlock3.lean ====
/-
  What one grid point of the fourth layer's kernel leaves in its output block, entry by entry.

  The kernel never indexes the activations.  For each of the 32 rows of feature numbers it builds the indicator
  matrix whose entry (i, q) is 1 when i is the number the row holds at q and 0 otherwise, multiplies the block of
  activations by it, and joins the product to a running minimum and a running maximum.  A sum of products with an
  indicator column has one term that is not a product with zero, so the product's entry (p, q) is the activation
  of row p at the feature the word names: in the extended reals x · 0 = 0 and x · 1 = x for every x, infinite ones
  included, so no finiteness is needed.  The 32 joins are a fold of min (from +∞) and of max (from −∞) over the 32
  rows, and the block's entry is the one the selector word chooses.
-/
import proofs.«424863_j77781857731251_2_alg».proof.Proof.Gen.KernelIdeal.Frame
import proofs.«424863_j77781857731251_2_alg».proof.Proof.Spec
import proofs.«424863_j77781857731251_2_alg».proof.Proof.Fold32
import Idealize.ShloMosaic.Lib.ValueIdx
import Idealize.ShloMosaic.Lib.Pipeline.Value
import Idealize.ShloMosaic.PureOps.Ideal.Laws

noncomputable section

namespace Cert.KernelIdeal.Block3

open Idealize.ShloMosaic Idealize.ShloMosaic.ValueIdx Cert.KernelIdeal Cert.Layers

/-! ## The product's operand indices -/

/-- The dimension numbers of the layer's product: rows of the left operand against columns of the right. -/
abbrev D := dot_S1024x2048_S2048x256_S1024x256_1_0_0_1_n_n

theorem lhs_D_0 (j : S1024x256.Idx) (k : D.contr.Idx) : (D.lhsIdx j k 0).val = (j 0).val := by
  simp [DotDims.lhsIdx, D, dot_S1024x2048_S2048x256_S1024x256_1_0_0_1_n_n]; rfl

theorem lhs_D_1 (j : S1024x256.Idx) (k : D.contr.Idx) : (D.lhsIdx j k 1).val = (k ⟨0, by decide⟩).val :=
  D.lhsIdx_val_of_single rfl j k

theorem rhs_D_0 (j : S1024x256.Idx) (k : D.contr.Idx) : (D.rhsIdx j k 0).val = (k ⟨0, by decide⟩).val :=
  D.rhsIdx_val_of_single rfl j k

theorem rhs_D_1 (j : S1024x256.Idx) (k : D.contr.Idx) : (D.rhsIdx j k 1).val = (j 1).val := by
  simp [DotDims.rhsIdx, D, dot_S1024x2048_S2048x256_S1024x256_1_0_0_1_n_n]; rfl

/-- The two operand indices of the product at output entry (p, q) and contraction position c: (p, c) on the left, (c, q) on the right. -/
theorem lhsIdx_D (p : Fin 1024) (q : Fin 256) (c : Fin 2048) :
    D.lhsIdx (ix2 p q) ((contrEquiv1 D 2048 rfl rfl).symm c) = ix2 p c := by
  have hc := contrEquiv1_symm_val D 2048 rfl rfl c
  funext a; apply Fin.ext
  match a with
  | ⟨0, _⟩ => exact lhs_D_0 _ _
  | ⟨1, _⟩ => exact (lhs_D_1 _ _).trans hc

theorem rhsIdx_D (p : Fin 1024) (q : Fin 256) (c : Fin 2048) :
    D.rhsIdx (ix2 p q) ((contrEquiv1 D 2048 rfl rfl).symm c) = ix2 c q := by
  have hc := contrEquiv1_symm_val D 2048 rfl rfl c
  funext a; apply Fin.ext
  match a with
  | ⟨0, _⟩ => exact (rhs_D_0 _ _).trans hc
  | ⟨1, _⟩ => exact rhs_D_1 _ _

/-- A set bit, widened and read as a float, is 1 … -/
theorem sitofp_bit_true : (FloatOps.sitofp (F := Ideal) .f32 ((BitVec.ofBool true).setWidth 32) : Ideal .f32) = 1 := by
  show (((BitVec.setWidth 32 (BitVec.ofBool true)).toInt : ℝ) : EReal) = 1
  rw [show (BitVec.setWidth 32 (BitVec.ofBool true)).toInt = 1 from by decide]; simp

/-- … and a clear bit is 0. -/
theorem sitofp_bit_false : (FloatOps.sitofp (F := Ideal) .f32 ((BitVec.ofBool false).setWidth 32) : Ideal .f32) = 0 := by
  show (((BitVec.setWidth 32 (BitVec.ofBool false)).toInt : ℝ) : EReal) = 0
  rw [show (BitVec.setWidth 32 (BitVec.ofBool false)).toInt = 0 from by decide]; simp

/-- The indicator entry: row number c against the word w, as a float, is 1 when c is the number w names and 0 otherwise. -/
theorem indicator_eq (c : Fin 2048) (w : BitVec 32) :
    (FloatOps.sitofp (F := Ideal) .f32 ((IntOp.cmpi .eq (BitVec.ofNat 32 c.val) w).setWidth 32) : Ideal .f32)
      = if c.val = w.toNat then 1 else 0 := by
  have hlt : c.val < 2 ^ 32 := lt_trans c.isLt (by norm_num)
  show (FloatOps.sitofp (F := Ideal) .f32 ((BitVec.ofBool (BitVec.ofNat 32 c.val == w)).setWidth 32) : Ideal .f32) = _
  by_cases h : c.val = w.toNat
  · have e : BitVec.ofNat 32 c.val = w :=
      BitVec.eq_of_toNat_eq (by rw [BitVec.toNat_ofNat, Nat.mod_eq_of_lt hlt, h])
    rw [if_pos h, e, beq_self_eq_true, sitofp_bit_true]
  · have e : ¬ BitVec.ofNat 32 c.val = w := fun e => h (by rw [← e, BitVec.toNat_ofNat, Nat.mod_eq_of_lt hlt])
    rw [if_neg h, beq_false_of_ne e, sitofp_bit_false]

/-- Entry w of row p of the activations, the word w read as a feature number; zero when it names none. -/
def pickw (x : FVec Ideal S1024x2048 .bf16) (p : Fin 1024) (w : BitVec 32) : Ideal .f32 :=
  if h : w.toNat < 2048 then x (ix2 p ⟨w.toNat, h⟩) else 0

theorem pickw_of_lt (x : FVec Ideal S1024x2048 .bf16) (p : Fin 1024) (w : BitVec 32) (h : w.toNat < 2048) :
    pickw x p w = x (ix2 p ⟨w.toNat, h⟩) := dif_pos h

/-- A product of the activations with the indicator of the numbers a row of words names picks, at column q, the
    activation the word there names: every other term of the sum is a product with 0, the one term a product with 1;
    and when the word names no feature every term is a product with 0. -/
theorem onehot_sum (x : FVec Ideal S1024x2048 .bf16) (B : IVec S2048x256 32) (p : Fin 1024) (q : Fin 256)
    (w : BitVec 32) (hB : ∀ i : Fin 2048, B (ix2 i q) = w) :
    matmul (F := Ideal) D none x
        (truncf .bf16 (sitofp .f32 (extui 32 (cmpi .eq (iota .tc S2048x256 32 [0] Gen.iota_S2048x256_d0_w32) B) Gen.natLt_1_32)) Gen.bitsLt_bf16_f32)
        (constant (F := Ideal) S1024x256 .f32 0x00000000#32) (ix2 p q)
      = pickw x p w := by
  show FloatOps.matmul D none x _ (constant (F := Ideal) S1024x256 .f32 0x00000000#32) (ix2 p q) = _
  rw [Ideal.matmul_constant_zero_apply, ← Equiv.sum_comp (contrEquiv1 D 2048 rfl rfl).symm]
  have term : ∀ c : Fin 2048,
      x (D.lhsIdx (ix2 p q) ((contrEquiv1 D 2048 rfl rfl).symm c))
        * (truncf .bf16 (sitofp .f32 (extui 32 (cmpi .eq (iota .tc S2048x256 32 [0] Gen.iota_S2048x256_d0_w32) B) Gen.natLt_1_32)) Gen.bitsLt_bf16_f32
            : FVec Ideal S2048x256 .bf16) (D.rhsIdx (ix2 p q) ((contrEquiv1 D 2048 rfl rfl).symm c))
      = x (ix2 p c) * (if c.val = w.toNat then 1 else 0) := by
    intro c
    rw [lhsIdx_D, rhsIdx_D, truncf_apply, sitofp_apply, extui_apply]
    show x (ix2 p c) * FloatOps.sitofp (F := Ideal) .f32
      ((IntOp.cmpi .eq (iota .tc S2048x256 32 [0] Gen.iota_S2048x256_d0_w32 (ix2 c q)) (B (ix2 c q))).setWidth 32) = _
    rw [iota_single_apply, hB c]
    exact congrArg (x (ix2 p c) * ·) (indicator_eq c w)
  rw [Finset.sum_congr rfl fun c _ => term c]
  unfold pickw
  by_cases h : w.toNat < 2048
  · rw [dif_pos h, Finset.sum_eq_single (⟨w.toNat, h⟩ : Fin 2048)]
    · rw [if_pos rfl, mul_one]
    · intro c _ hc
      rw [if_neg (fun e => hc (Fin.ext e)), mul_zero]
    · intro hn; exact absurd (Finset.mem_univ _) hn
  · rw [dif_neg h]
    exact Finset.sum_eq_zero fun c _ => by
      rw [if_neg (fun e : c.val = w.toNat => h (lt_of_eq_of_lt e.symm c.isLt)), mul_zero]

/-- A vector of 256 words, viewed as one row and repeated down the rows, reads at (i, q) its word q. -/
theorem rows_of_vector (s : IVec S256 32) (i : Fin 2048) (q : Fin 256) :
    broadcastTo S2048x256 (shapeCast S1x256 (shapeCast S1x256 s Gen.shapeCasts_S256_S1x256) Gen.shapeCasts_S1x256_S1x256)
        Gen.broadcasts_S1x256_S2048x256 (ix2 i q) = s (ix1 q) := by
  rw [shapeCast_self]
  refine (broadcastTo_apply _ _ (ix2 i q) (ix2 (0 : Fin 1) q) (fun a => ?_)).trans ?_
  · match a with
    | ⟨0, _⟩ => rfl
    | ⟨1, _⟩ => rfl
  · refine (shapeCast_addUnit_apply ![256] s Gen.shapeCasts_S256_S1x256 (ix2 (0 : Fin 1) q)).trans (congrArg s ?_)
    funext a
    match a with
    | ⟨0, _⟩ => rfl

/-- One row of 256 words, viewed as a vector, reads at q the row's word q. -/
theorem vector_of_row (r : IVec S1x256 32) (q : Fin 256) :
    shapeCast S256 r Gen.shapeCasts_S1x256_S256 (ix1 q) = r (ix2 (0 : Fin 1) q) := by
  refine (shapeCast_dropUnit_apply ![256] r Gen.shapeCasts_S1x256_S256 (ix1 q)).trans (congrArg r ?_)
  funext a
  match a with
  | ⟨0, _⟩ => rfl
  | ⟨1, _⟩ => rfl

/-- One row of 256 words repeated down the rows reads at (i, q) the row's word q. -/
theorem rows_of_row (r : IVec S1x256 32) (i : Fin 1024) (q : Fin 256) :
    broadcastTo S1024x256 (shapeCast S1x256 (shapeCast S1x256 r Gen.shapeCasts_S1x256_S1x256) Gen.shapeCasts_S1x256_S1x256)
        Gen.broadcasts_S1x256_S1024x256 (ix2 i q) = r (ix2 (0 : Fin 1) q) := by
  rw [shapeCast_self, shapeCast_self]
  refine broadcastTo_apply _ _ (ix2 i q) (ix2 (0 : Fin 1) q) (fun a => ?_)
  match a with
  | ⟨0, _⟩ => rfl
  | ⟨1, _⟩ => rfl

/-- The layer's product against the indicator of a vector of words, at (p, q): the activation the vector's word q names. -/
theorem gather_vector (x : FVec Ideal S1024x2048 .bf16) (s : IVec S256 32) (p : Fin 1024) (q : Fin 256) :
    matmul (F := Ideal) D none x
        (truncf .bf16 (sitofp .f32 (extui 32 (cmpi .eq (iota .tc S2048x256 32 [0] Gen.iota_S2048x256_d0_w32)
          (broadcastTo S2048x256 (shapeCast S1x256 (shapeCast S1x256 s Gen.shapeCasts_S256_S1x256) Gen.shapeCasts_S1x256_S1x256)
            Gen.broadcasts_S1x256_S2048x256)) Gen.natLt_1_32)) Gen.bitsLt_bf16_f32)
        (constant (F := Ideal) S1024x256 .f32 0x00000000#32) (ix2 p q)
      = pickw x p (s (ix1 q)) :=
  onehot_sum x _ p q _ fun i => rows_of_vector s i q

/-- The same against the indicator of one row of words: the activation the row's word q names. -/
theorem gather_row (x : FVec Ideal S1024x2048 .bf16) (r : IVec S1x256 32) (p : Fin 1024) (q : Fin 256) :
    matmul (F := Ideal) D none x
        (truncf .bf16 (sitofp .f32 (extui 32 (cmpi .eq (iota .tc S2048x256 32 [0] Gen.iota_S2048x256_d0_w32)
          (broadcastTo S2048x256 (shapeCast S1x256 (shapeCast S1x256 (shapeCast S256 r Gen.shapeCasts_S1x256_S256)
            Gen.shapeCasts_S256_S1x256) Gen.shapeCasts_S1x256_S1x256) Gen.broadcasts_S1x256_S2048x256)) Gen.natLt_1_32)) Gen.bitsLt_bf16_f32)
        (constant (F := Ideal) S1024x256 .f32 0x00000000#32) (ix2 p q)
      = pickw x p (r (ix2 (0 : Fin 1) q)) :=
  (gather_vector x _ p q).trans (congrArg (pickw x p) (vector_of_row r q))

/-- Row k of the table of feature numbers, loaded as a block of one row, reads at (0, q) the table's entry (k, q). -/
theorem ld_row (x1 : Vec Ideal S32x256 .i32) (k : ℕ) (inb : ∀ a, (![k, 0] : Fin 2 → Nat) a + S1x256.size a ≤ S32x256.size a) (q : Fin 256) :
    View.ld x1 (Rect.unit (s := S32x256) ![k, 0] S1x256.size inb) (ix2 (0 : Fin 1) q)
      = x1 (ix2 (⟨k, by have := inb 0; simpa using this⟩ : Fin 32) q) := by
  refine congrArg x1 (funext fun a => Fin.ext ?_)
  match a with
  | ⟨0, _⟩ => show k + 1 * 0 = k; omega
  | ⟨1, _⟩ => show 0 + 1 * q.val = q.val; omega

/-! ## The running extrema, four rows of feature numbers at a time

Each step of the kernel joins to a running minimum, and to a running maximum, the activations that three or four more
rows of the table name.  At entry (p, q) a step's result is the running value there joined, in order, to the picked
activations. -/

/-- The first three rows, from +∞ … -/
theorem pay6_apply (x : Vec Ideal S1024x2048 .bf16) (r0 r1 r2 : Vec Ideal S1x256 .i32) (p : Fin 1024) (q : Fin 256) :
    Gen.k3_pay6 x r0 r1 r2 (ix2 p q)
      = min (min (min posInf (pickw x p (r0 (ix2 (0 : Fin 1) q)))) (pickw x p (r1 (ix2 (0 : Fin 1) q))))
          (pickw x p (r2 (ix2 (0 : Fin 1) q))) := by
  unfold Gen.k3_pay6 Gen.k3_pay3 Gen.k3_pay4 Gen.k3_pay5 Gen.k3_pay2
  simp only [minimumf_apply, broadcast_apply]
  rw [shapeCast_self x Gen.shapeCasts_S1024x2048_S1024x2048, gather_row x r0 p q, gather_row x r1 p q, gather_row x r2 p q]
  rfl

/-- … and from −∞. -/
theorem pay7_apply (x : Vec Ideal S1024x2048 .bf16) (r0 r1 r2 : Vec Ideal S1x256 .i32) (p : Fin 1024) (q : Fin 256) :
    Gen.k3_pay7 x r0 r1 r2 (ix2 p q)
      = max (max (max negInf (pickw x p (r0 (ix2 (0 : Fin 1) q)))) (pickw x p (r1 (ix2 (0 : Fin 1) q))))
          (pickw x p (r2 (ix2 (0 : Fin 1) q))) := by
  unfold Gen.k3_pay7 Gen.k3_pay3 Gen.k3_pay4 Gen.k3_pay5 Gen.k3_pay2
  simp only [maximumf_apply, broadcast_apply]
  rw [shapeCast_self x Gen.shapeCasts_S1024x2048_S1024x2048, gather_row x r0 p q, gather_row x r1 p q, gather_row x r2 p q]
  rfl

/-- Four more rows of feature numbers joined to a running minimum … -/
theorem pay13_apply (x : FVec Ideal S1024x2048 .bf16) (acc : FVec Ideal S1024x256 .f32) (s : IVec S256 32)
    (r1 r2 r3 : Vec Ideal S1x256 .i32) (p : Fin 1024) (q : Fin 256) :
    Gen.k3_pay13 x (iota .tc S2048x256 32 [0] Gen.iota_S2048x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k3_pay13 Gen.k3_pay9 Gen.k3_pay10 Gen.k3_pay11 Gen.k3_pay12
  simp only [minimumf_apply]
  rw [gather_vector x s p q, gather_row x r1 p q, gather_row x r2 p q, gather_row x r3 p q]

/-- … and to a running maximum. -/
theorem pay14_apply (x : FVec Ideal S1024x2048 .bf16) (acc : FVec Ideal S1024x256 .f32) (s : IVec S256 32)
    (r1 r2 r3 : Vec Ideal S1x256 .i32) (p : Fin 1024) (q : Fin 256) :
    Gen.k3_pay14 x (iota .tc S2048x256 32 [0] Gen.iota_S2048x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k3_pay14 Gen.k3_pay9 Gen.k3_pay10 Gen.k3_pay11 Gen.k3_pay12
  simp only [maximumf_apply]
  rw [gather_vector x s p q, gather_row x r1 p q, gather_row x r2 p q, gather_row x r3 p q]

/-- Four more rows of feature numbers joined to a running minimum … -/
theorem pay20_apply (x : FVec Ideal S1024x2048 .bf16) (acc : FVec Ideal S1024x256 .f32) (s : IVec S256 32)
    (r1 r2 r3 : Vec Ideal S1x256 .i32) (p : Fin 1024) (q : Fin 256) :
    Gen.k3_pay20 x (iota .tc S2048x256 32 [0] Gen.iota_S2048x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k3_pay20 Gen.k3_pay16 Gen.k3_pay17 Gen.k3_pay18 Gen.k3_pay19
  simp only [minimumf_apply]
  rw [gather_vector x s p q, gather_row x r1 p q, gather_row x r2 p q, gather_row x r3 p q]

/-- … and to a running maximum. -/
theorem pay21_apply (x : FVec Ideal S1024x2048 .bf16) (acc : FVec Ideal S1024x256 .f32) (s : IVec S256 32)
    (r1 r2 r3 : Vec Ideal S1x256 .i32) (p : Fin 1024) (q : Fin 256) :
    Gen.k3_pay21 x (iota .tc S2048x256 32 [0] Gen.iota_S2048x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k3_pay21 Gen.k3_pay16 Gen.k3_pay17 Gen.k3_pay18 Gen.k3_pay19
  simp only [maximumf_apply]
  rw [gather_vector x s p q, gather_row x r1 p q, gather_row x r2 p q, gather_row x r3 p q]

/-- Four more rows of feature numbers joined to a running minimum … -/
theorem pay27_apply (x : FVec Ideal S1024x2048 .bf16) (acc : FVec Ideal S1024x256 .f32) (s : IVec S256 32)
    (r1 r2 r3 : Vec Ideal S1x256 .i32) (p : Fin 1024) (q : Fin 256) :
    Gen.k3_pay27 x (iota .tc S2048x256 32 [0] Gen.iota_S2048x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k3_pay27 Gen.k3_pay23 Gen.k3_pay24 Gen.k3_pay25 Gen.k3_pay26
  simp only [minimumf_apply]
  rw [gather_vector x s p q, gather_row x r1 p q, gather_row x r2 p q, gather_row x r3 p q]

/-- … and to a running maximum. -/
theorem pay28_apply (x : FVec Ideal S1024x2048 .bf16) (acc : FVec Ideal S1024x256 .f32) (s : IVec S256 32)
    (r1 r2 r3 : Vec Ideal S1x256 .i32) (p : Fin 1024) (q : Fin 256) :
    Gen.k3_pay28 x (iota .tc S2048x256 32 [0] Gen.iota_S2048x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k3_pay28 Gen.k3_pay23 Gen.k3_pay24 Gen.k3_pay25 Gen.k3_pay26
  simp only [maximumf_apply]
  rw [gather_vector x s p q, gather_row x r1 p q, gather_row x r2 p q, gather_row x r3 p q]

/-- Four more rows of feature numbers joined to a running minimum … -/
theorem pay34_apply (x : FVec Ideal S1024x2048 .bf16) (acc : FVec Ideal S1024x256 .f32) (s : IVec S256 32)
    (r1 r2 r3 : Vec Ideal S1x256 .i32) (p : Fin 1024) (q : Fin 256) :
    Gen.k3_pay34 x (iota .tc S2048x256 32 [0] Gen.iota_S2048x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k3_pay34 Gen.k3_pay30 Gen.k3_pay31 Gen.k3_pay32 Gen.k3_pay33
  simp only [minimumf_apply]
  rw [gather_vector x s p q, gather_row x r1 p q, gather_row x r2 p q, gather_row x r3 p q]

/-- … and to a running maximum. -/
theorem pay35_apply (x : FVec Ideal S1024x2048 .bf16) (acc : FVec Ideal S1024x256 .f32) (s : IVec S256 32)
    (r1 r2 r3 : Vec Ideal S1x256 .i32) (p : Fin 1024) (q : Fin 256) :
    Gen.k3_pay35 x (iota .tc S2048x256 32 [0] Gen.iota_S2048x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k3_pay35 Gen.k3_pay30 Gen.k3_pay31 Gen.k3_pay32 Gen.k3_pay33
  simp only [maximumf_apply]
  rw [gather_vector x s p q, gather_row x r1 p q, gather_row x r2 p q, gather_row x r3 p q]

/-- Four more rows of feature numbers joined to a running minimum … -/
theorem pay41_apply (x : FVec Ideal S1024x2048 .bf16) (acc : FVec Ideal S1024x256 .f32) (s : IVec S256 32)
    (r1 r2 r3 : Vec Ideal S1x256 .i32) (p : Fin 1024) (q : Fin 256) :
    Gen.k3_pay41 x (iota .tc S2048x256 32 [0] Gen.iota_S2048x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k3_pay41 Gen.k3_pay37 Gen.k3_pay38 Gen.k3_pay39 Gen.k3_pay40
  simp only [minimumf_apply]
  rw [gather_vector x s p q, gather_row x r1 p q, gather_row x r2 p q, gather_row x r3 p q]

/-- … and to a running maximum. -/
theorem pay42_apply (x : FVec Ideal S1024x2048 .bf16) (acc : FVec Ideal S1024x256 .f32) (s : IVec S256 32)
    (r1 r2 r3 : Vec Ideal S1x256 .i32) (p : Fin 1024) (q : Fin 256) :
    Gen.k3_pay42 x (iota .tc S2048x256 32 [0] Gen.iota_S2048x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k3_pay42 Gen.k3_pay37 Gen.k3_pay38 Gen.k3_pay39 Gen.k3_pay40
  simp only [maximumf_apply]
  rw [gather_vector x s p q, gather_row x r1 p q, gather_row x r2 p q, gather_row x r3 p q]

/-- Four more rows of feature numbers joined to a running minimum … -/
theorem pay48_apply (x : FVec Ideal S1024x2048 .bf16) (acc : FVec Ideal S1024x256 .f32) (s : IVec S256 32)
    (r1 r2 r3 : Vec Ideal S1x256 .i32) (p : Fin 1024) (q : Fin 256) :
    Gen.k3_pay48 x (iota .tc S2048x256 32 [0] Gen.iota_S2048x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k3_pay48 Gen.k3_pay44 Gen.k3_pay45 Gen.k3_pay46 Gen.k3_pay47
  simp only [minimumf_apply]
  rw [gather_vector x s p q, gather_row x r1 p q, gather_row x r2 p q, gather_row x r3 p q]

/-- … and to a running maximum. -/
theorem pay49_apply (x : FVec Ideal S1024x2048 .bf16) (acc : FVec Ideal S1024x256 .f32) (s : IVec S256 32)
    (r1 r2 r3 : Vec Ideal S1x256 .i32) (p : Fin 1024) (q : Fin 256) :
    Gen.k3_pay49 x (iota .tc S2048x256 32 [0] Gen.iota_S2048x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k3_pay49 Gen.k3_pay44 Gen.k3_pay45 Gen.k3_pay46 Gen.k3_pay47
  simp only [maximumf_apply]
  rw [gather_vector x s p q, gather_row x r1 p q, gather_row x r2 p q, gather_row x r3 p q]

/-- Four more rows of feature numbers joined to a running minimum … -/
theorem pay55_apply (x : FVec Ideal S1024x2048 .bf16) (acc : FVec Ideal S1024x256 .f32) (s : IVec S256 32)
    (r1 r2 r3 : Vec Ideal S1x256 .i32) (p : Fin 1024) (q : Fin 256) :
    Gen.k3_pay55 x (iota .tc S2048x256 32 [0] Gen.iota_S2048x256_d0_w32) acc s r1 r2 r3 (ix2 p q)
      = min (min (min (min (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k3_pay55 Gen.k3_pay51 Gen.k3_pay52 Gen.k3_pay53 Gen.k3_pay54
  simp only [minimumf_apply]
  rw [gather_vector x s p q, gather_row x r1 p q, gather_row x r2 p q, gather_row x r3 p q]

/-- … and to a running maximum. -/
theorem pay56_apply (x : FVec Ideal S1024x2048 .bf16) (acc : FVec Ideal S1024x256 .f32) (s : IVec S256 32)
    (r1 r2 r3 : Vec Ideal S1x256 .i32) (p : Fin 1024) (q : Fin 256) :
    Gen.k3_pay56 x (iota .tc S2048x256 32 [0] Gen.iota_S2048x256_d0_w32) acc s r1 r2 r3 (ix2 p q)
      = max (max (max (max (acc (ix2 p q)) (pickw x p (s (ix1 q)))) (pickw x p (r1 (ix2 (0 : Fin 1) q))))
          (pickw x p (r2 (ix2 (0 : Fin 1) q)))) (pickw x p (r3 (ix2 (0 : Fin 1) q))) := by
  unfold Gen.k3_pay56 Gen.k3_pay51 Gen.k3_pay52 Gen.k3_pay53 Gen.k3_pay54
  simp only [maximumf_apply]
  rw [gather_vector x s p q, gather_row x r1 p q, gather_row x r2 p q, gather_row x r3 p q]

/-- The last row joined to both running values, and the choice between them: the maximum where the selector word is 1,
    the minimum elsewhere. -/
theorem pay1_apply (x : FVec Ideal S1024x2048 .bf16) (amin amax : FVec Ideal S1024x256 .f32) (s : IVec S256 32)
    (sel : Vec Ideal S1x256 .i32) (p : Fin 1024) (q : Fin 256) :
    Gen.k3_pay1 x (iota .tc S2048x256 32 [0] Gen.iota_S2048x256_d0_w32) amin amax s sel (ix2 p q)
      = Scalar.select (IntOp.cmpi .eq (sel (ix2 (0 : Fin 1) q)) 1#32)
          (max (amax (ix2 p q)) (pickw x p (s (ix1 q)))) (min (amin (ix2 p q)) (pickw x p (s (ix1 q)))) := by
  unfold Gen.k3_pay1
  simp only [ select_apply, maximumf_apply, minimumf_apply]
  rw [gather_vector x s p q]
  show Scalar.select (IntOp.cmpi .eq (broadcastTo S1024x256 (shapeCast S1x256 (shapeCast S1x256 sel Gen.shapeCasts_S1x256_S1x256)
    Gen.shapeCasts_S1x256_S1x256) Gen.broadcasts_S1x256_S1024x256 (ix2 p q)) 1#32) _ _ = _
  rw [rows_of_row sel p q]

/-! ## The block -/

/-- Entry (p, q) of the block a point writes: with `x0` the point's 1024 rows of activations, `x1` its 32 × 256
    feature numbers (each below 2048) and `x2` its 256 selectors, the maximum or the minimum over `k` of
    `x0[p, x1[k, q]]`, as `x2[0, q]` is 1 or not. -/
theorem out_apply (x0 : Vec Ideal S1024x2048 .bf16) (x1 : Vec Ideal S32x256 .i32) (x2 : Vec Ideal S1x256 .i32)
    (h1 : ∀ (k : Fin 32) (q : Fin 256), (x1 (ix2 k q)).toNat < 2048) (p : Fin 1024) (q : Fin 256) :
    Gen.out3_3 (F := Ideal) x0 x1 x2 (ix2 p q)
      = Scalar.select (IntOp.cmpi .eq (x2 (ix2 (0 : Fin 1) q)) 1#32)
          (max32 fun k => x0 (ix2 p ⟨(x1 (ix2 k q)).toNat, h1 k q⟩))
          (min32 fun k => x0 (ix2 p ⟨(x1 (ix2 k q)).toNat, h1 k q⟩)) := by
  have hz : (![0, 0] : Fin 2 → Nat) = fun _ => 0 := by
    funext a
    match a with
    | ⟨0, _⟩ => rfl
    | ⟨1, _⟩ => rfl
  have ef : (fun k : Fin 32 => (x0 (ix2 p ⟨(x1 (ix2 k q)).toNat, h1 k q⟩) : Ideal .f32))
      = fun k => pickw x0 p (x1 (ix2 k q)) := funext fun k => (pickw_of_lt x0 p _ (h1 k q)).symm
  have hx : Gen.k3_pay2 (F := Ideal) x0 = x0 := by
    unfold Gen.k3_pay2
    exact shapeCast_self x0 _
  rw [ef]
  unfold Gen.out3_3
  rw [View.canon_unit_zero hz]
  simp only [View.ld_unit_zero (S := S1024x2048) hz, View.ld_unit_zero (S := S1x256) hz]
  rw [hx, pay1_apply, pay56_apply, pay55_apply, pay49_apply, pay48_apply, pay42_apply, pay41_apply, pay35_apply, pay34_apply,
    pay28_apply, pay27_apply, pay21_apply, pay20_apply, pay14_apply, pay13_apply, pay7_apply, pay6_apply]
  simp only [Gen.k3_pay8, Gen.k3_pay15, Gen.k3_pay22, Gen.k3_pay29, Gen.k3_pay36, Gen.k3_pay43, Gen.k3_pay50, Gen.k3_pay57,
    vector_of_row]
  rw [ld_row x1 0 _ q, ld_row x1 1 _ q, ld_row x1 2 _ q, ld_row x1 3 _ q, ld_row x1 4 _ q, ld_row x1 5 _ q,
    ld_row x1 6 _ q, ld_row x1 7 _ q, ld_row x1 8 _ q, ld_row x1 9 _ q, ld_row x1 10 _ q, ld_row x1 11 _ q,
    ld_row x1 12 _ q, ld_row x1 13 _ q, ld_row x1 14 _ q, ld_row x1 15 _ q, ld_row x1 16 _ q, ld_row x1 17 _ q,
    ld_row x1 18 _ q, ld_row x1 19 _ q, ld_row x1 20 _ q, ld_row x1 21 _ q, ld_row x1 22 _ q, ld_row x1 23 _ q,
    ld_row x1 24 _ q, ld_row x1 25 _ q, ld_row x1 26 _ q, ld_row x1 27 _ q, ld_row x1 28 _ q, ld_row x1 29 _ q,
    ld_row x1 30 _ q, ld_row x1 31 _ q]
  unfold max32 min32
  rw [Cert.Fold32.fold_univ_fin32 max, Cert.Fold32.fold_univ_fin32 min]
  rfl

end Cert.KernelIdeal.Block3

end
-- ==== Proof.KArray3.lean ====
/-
  The fourth layer's output array after its kernel's run, entry by entry.
-/
import proofs.«424863_j77781857731251_2_alg».proof.Proof.KBlock3
import Idealize.ShloMosaic.Lib.Pipeline.Value

set_option maxRecDepth 16384

noncomputable section

namespace Cert.KernelIdeal.Array3

open Idealize.ShloMosaic Idealize.ShloMosaic.TcCoe Idealize.ShloMosaic.ValueIdx Idealize.SL.Sem
open Idealize.ShloMosaic.Pipeline (Dat)
open Cert.KernelIdeal Cert.KernelIdeal.Gen Cert.Layers

variable (V : (c : Dev nD) → (b : Ref sig .tc) → Buf (Elt Ideal) ((c : Thread nD τ).loc b))

/-- The activations the region finds: 4096 rows of 2048 features. -/
abbrev xArr (c : Dev nD) : Vec Ideal S4096x2048 .bf16 := V c main_v12
/-- The feature numbers the region finds, transposed: 32 × 1024. -/
abbrev connArr (c : Dev nD) : Vec Ideal S32x1024 .i32 := V c main_v14
/-- The selectors the region finds, as one row of 1024. -/
abbrev opArr (c : Dev nD) : Vec Ideal S1x1024 .i32 := V c main_v15
/-- The region's output array after the last grid point's write-back. -/
abbrev outArr (c : Dev nD) : Vec Ideal S4096x1024 .f32 := (dat3 (F := Ideal) V c).arrAt 3 cfg3.N

/-- The layer's whole output, entry by entry: the maximum or the minimum over `k` of `x[b, conn[k, o]]`, as selector `o` is 1 or not. -/
def layerArr (c : Dev nD) (hconn : ∀ (k : Fin 32) (o : Fin 1024), (connArr V c (ix2 k o)).toNat < 2048) :
    Vec Ideal S4096x1024 .f32 := fun j =>
  Scalar.select (IntOp.cmpi .eq (opArr V c (ix2 (0 : Fin 1) (j 1))) 1#32)
    (max32 fun k => xArr V c (ix2 (j 0) ⟨(connArr V c (ix2 k (j 1))).toNat, hconn k (j 1)⟩))
    (min32 fun k => xArr V c (ix2 (j 0) ⟨(connArr V c (ix2 k (j 1))).toNat, hconn k (j 1)⟩))

/-- How the four windows' block numbers go together at every grid point: the activations' block is the output's row
    block and spans all features; the feature numbers' and the selectors' blocks are the output's column block; there are
    4 row blocks and 4 column blocks. -/
theorem idx_facts : ∀ t : Fin cfg3.N,
    win3_0.index t (0 : Fin 2) = win3_3.index t (0 : Fin 2)
    ∧ win3_0.index t (1 : Fin 2) = 0
    ∧ win3_1.index t (0 : Fin 2) = 0
    ∧ win3_1.index t (1 : Fin 2) = win3_3.index t (1 : Fin 2)
    ∧ win3_2.index t (0 : Fin 2) = 0
    ∧ win3_2.index t (1 : Fin 2) = win3_3.index t (1 : Fin 2)
    ∧ win3_3.index t (0 : Fin 2) < 4 ∧ win3_3.index t (1 : Fin 2) < 4 :=
  (by decide +kernel : ∀ t : Fin grid3.N, _)

/-- Every (row block, column block) pair is some grid point's. -/
theorem idx_onto : ∀ (q0 : Fin 4) (q1 : Fin 4), ∃ t : Fin cfg3.N, win3_3.index t = ![q0.val, q1.val] :=
  (by decide +kernel : ∀ (q0 : Fin 4) (q1 : Fin 4), ∃ t : Fin grid3.N, win3_3.index t = ![q0.val, q1.val])

/-- A grid point's 1024 rows of activations. -/
abbrev xBlk (c : Dev nD) (t : Fin cfg3.N) : Vec Ideal S1024x2048 .bf16 := iblk3 (F := Ideal) V c 0 t
/-- A grid point's 32 × 256 feature numbers. -/
abbrev connBlk (c : Dev nD) (t : Fin cfg3.N) : Vec Ideal S32x256 .i32 := iblk3 (F := Ideal) V c 1 t
/-- A grid point's 256 selectors. -/
abbrev opBlk (c : Dev nD) (t : Fin cfg3.N) : Vec Ideal S1x256 .i32 := iblk3 (F := Ideal) V c 2 t

/-- Row `p` of a point's activations is row `b` of the array, `b` being `p` within the point's row block (the block spans
    all the features). -/
theorem xBlk_row (c : Dev nD) (t : Fin cfg3.N) (p : Fin 1024) (b : Fin 4096)
    (hb : b.val = win3_3.index t (0 : Fin 2) * 1024 + p.val) :
    (fun i => xBlk V c t (ix2 p i)) = fun i => xArr V c (ix2 b i) := by
  obtain ⟨e0, e1, -⟩ := idx_facts t
  funext i
  show V c main_v12 (((cfg3.win 0).blk t).view.emb (ix2 p i)) = V c main_v12 (ix2 b i)
  congr 1
  funext a
  apply Fin.ext
  match a with
  | ⟨0, _⟩ => show win3_0.index t (0 : Fin 2) * 1024 + 1 * p.val = b.val; omega
  | ⟨1, _⟩ => show win3_0.index t (1 : Fin 2) * _ + 1 * i.val = i.val; rw [e1, Nat.zero_mul, Nat.zero_add, Nat.one_mul]

/-- Column `q` of a point's feature numbers is column `o` of the array, `o` being `q` within the point's column block. -/
theorem connBlk_apply (c : Dev nD) (t : Fin cfg3.N) (k : Fin 32) (q : Fin 256) (o : Fin 1024)
    (ho : o.val = win3_3.index t (1 : Fin 2) * 256 + q.val) :
    connBlk V c t (ix2 k q) = connArr V c (ix2 k o) := by
  obtain ⟨-, -, e2, e3, -⟩ := idx_facts t
  show V c main_v14 (((cfg3.win 1).blk t).view.emb (ix2 k q)) = V c main_v14 (ix2 k o)
  congr 1
  funext a
  apply Fin.ext
  match a with
  | ⟨0, _⟩ => show win3_1.index t (0 : Fin 2) * 32 + 1 * k.val = k.val; omega
  | ⟨1, _⟩ => show win3_1.index t (1 : Fin 2) * 256 + 1 * q.val = o.val; omega

/-- Column `q` of a point's selectors is column `o` of the array. -/
theorem opBlk_apply (c : Dev nD) (t : Fin cfg3.N) (q : Fin 256) (o : Fin 1024)
    (ho : o.val = win3_3.index t (1 : Fin 2) * 256 + q.val) :
    opBlk V c t (ix2 (0 : Fin 1) q) = opArr V c (ix2 (0 : Fin 1) o) := by
  obtain ⟨-, -, -, -, e4, e5, -⟩ := idx_facts t
  show V c main_v15 (((cfg3.win 2).blk t).view.emb (ix2 (0 : Fin 1) q)) = V c main_v15 (ix2 (0 : Fin 1) o)
  congr 1
  funext a
  apply Fin.ext
  match a with
  | ⟨0, _⟩ => show win3_2.index t (0 : Fin 2) * 1 + 1 * (0 : Fin 1).val = (0 : Fin 1).val; omega
  | ⟨1, _⟩ => show win3_2.index t (1 : Fin 2) * 256 + 1 * q.val = o.val; omega

/-- What a grid point writes back is its block of the layer's output: entry (p, q) of the block is entry
    (row block × 1024 + p, column block × 256 + q) of the array, and the point's inputs are the arrays read there. -/
theorem flushed_eq (c : Dev nD) (hconn : ∀ (k : Fin 32) (o : Fin 1024), (connArr V c (ix2 k o)).toNat < 2048) (t : Fin cfg3.N) :
    (dat3 (F := Ideal) V c).flushed 3 t = ((cfg3.win 3).blk t).view.read (Elt Ideal) (layerArr V c hconn) := by
  show (cfg3.win 3).cut (grid3.coords t) ((dat3 (F := Ideal) V c).after 3 t) = _
  rw [after3_3]
  obtain ⟨-, -, -, -, -, -, e6, e7⟩ := idx_facts t
  funext y
  obtain ⟨p, q, rfl⟩ : ∃ (p : Fin 1024) (q : Fin 256), y = ix2 p q := ⟨y 0, y 1, eq_ix2 y⟩
  have hb : win3_3.index t (0 : Fin 2) * 1024 + p.val < 4096 := by have := p.isLt; omega
  have ho : win3_3.index t (1 : Fin 2) * 256 + q.val < 1024 := by have := q.isLt; omega
  have hemb : ((cfg3.win 3).blk t).view.emb (ix2 p q)
      = ix2 (⟨win3_3.index t (0 : Fin 2) * 1024 + p.val, hb⟩ : Fin 4096) (⟨win3_3.index t (1 : Fin 2) * 256 + q.val, ho⟩ : Fin 1024) := by
    funext a
    apply Fin.ext
    match a with
    | ⟨0, _⟩ => show win3_3.index t (0 : Fin 2) * 1024 + 1 * p.val = win3_3.index t (0 : Fin 2) * 1024 + p.val; omega
    | ⟨1, _⟩ => show win3_3.index t (1 : Fin 2) * 256 + 1 * q.val = win3_3.index t (1 : Fin 2) * 256 + q.val; omega
  have h1 : ∀ (k : Fin 32) (q' : Fin 256), (connBlk V c t (ix2 k q')).toNat < 2048 := fun k q' => by
    have ho' : win3_3.index t (1 : Fin 2) * 256 + q'.val < 1024 := by have := q'.isLt; omega
    rw [connBlk_apply V c t k q' ⟨_, ho'⟩ rfl]
    exact hconn k _
  show Gen.out3_3 (F := Ideal) (xBlk V c t) (connBlk V c t) (opBlk V c t) (ix2 p q) = layerArr V c hconn (((cfg3.win 3).blk t).view.emb (ix2 p q))
  rw [hemb, Block3.out_apply (xBlk V c t) (connBlk V c t) (opBlk V c t) h1 p q]
  have hent : (fun k : Fin 32 => xBlk V c t (ix2 p ⟨(connBlk V c t (ix2 k q)).toNat, h1 k q⟩))
      = fun k : Fin 32 => xArr V c (ix2 (⟨_, hb⟩ : Fin 4096) ⟨(connArr V c (ix2 k (⟨_, ho⟩ : Fin 1024))).toNat, hconn k ⟨_, ho⟩⟩) :=
    funext fun k => (congrFun (xBlk_row V c t p ⟨_, hb⟩ rfl) _).trans
      (congrArg (fun i => xArr V c (ix2 (⟨_, hb⟩ : Fin 4096) i)) (Fin.ext (congrArg BitVec.toNat (connBlk_apply V c t k q ⟨_, ho⟩ rfl))))
  rw [hent, opBlk_apply V c t q ⟨_, ho⟩ rfl]
  rfl

/-- An entry of the array is in a point's output block iff each coordinate is in the block's range on its axis. -/
theorem mem_blk (t : Fin cfg3.N) (i : S4096x1024.Idx) :
    i ∈ ((cfg3.win 3).blk t).view.set ↔ ∀ a : Fin 2, win3_3.index t a * S1024x256.size a ≤ (i a).val ∧ (i a).val < win3_3.index t a * S1024x256.size a + S1024x256.size a := by
  show i ∈ ((View.whole main_v16).slice (win3_3.rect t)).set ↔ _
  rw [View.set_slice_whole, Rect.mem_set_unit]
  exact Iff.rfl

/-- The output blocks tile the array: entry (b, o) is in the block of the point whose row block is `b / 1024` and whose
    column block is `o / 256`. -/
theorem cover (i : S4096x1024.Idx) :
    ∃ t : Fin cfg3.N, (cfg3.win 3).flush t = true ∧ i ∈ ((cfg3.win 3).blk t).view.set := by
  have hi0 : (i 0).val < 4096 := (i 0).isLt
  have hi1 : (i 1).val < 1024 := (i 1).isLt
  obtain ⟨t, ht⟩ := idx_onto ⟨(i 0).val / 1024, by omega⟩ ⟨(i 1).val / 256, by omega⟩
  have q0 : win3_3.index t (0 : Fin 2) = (i 0).val / 1024 := congrFun ht 0
  have q1 : win3_3.index t (1 : Fin 2) = (i 1).val / 256 := congrFun ht 1
  refine ⟨t, flush3_3 t, ?_⟩
  rw [mem_blk]
  intro a
  match a with
  | ⟨0, _⟩ => show win3_3.index t (0 : Fin 2) * 1024 ≤ (i 0).val ∧ (i 0).val < win3_3.index t (0 : Fin 2) * 1024 + 1024; omega
  | ⟨1, _⟩ => show win3_3.index t (1 : Fin 2) * 256 ≤ (i 1).val ∧ (i 1).val < win3_3.index t (1 : Fin 2) * 256 + 256; omega

/-- So after the last point the output array is the layer's output. -/
theorem outArr_eq (c : Dev nD) (hconn : ∀ (k : Fin 32) (o : Fin 1024), (connArr V c (ix2 k o)).toNat < 2048) :
    outArr V c = layerArr V c hconn :=
  (dat3 (F := Ideal) V c).arrAt_eq_of_cover 3 (layerArr V c hconn) (fun t _ => flushed_eq V c hconn t) cover

/-- Entry (b, o) of the output array: the maximum or the minimum over `k` of `x[b, conn[k, o]]`, as selector `o` is 1 or not. -/
theorem outArr_apply (c : Dev nD) (hconn : ∀ (k : Fin 32) (o : Fin 1024), (connArr V c (ix2 k o)).toNat < 2048)
    (b : Fin 4096) (o : Fin 1024) :
    outArr V c (ix2 b o)
      = Scalar.select (IntOp.cmpi .eq (opArr V c (ix2 (0 : Fin 1) o)) 1#32)
          (max32 fun k => xArr V c (ix2 b ⟨(connArr V c (ix2 k o)).toNat, hconn k o⟩))
          (min32 fun k => xArr V c (ix2 b ⟨(connArr V c (ix2 k o)).toNat, hconn k o⟩)) := by
  exact congrFun (outArr_eq V c hconn) (ix2 b o)

end Cert.KernelIdeal.Array3

end
-- ==== Proof.KHost.lean ====
/-
  What each of the four layers finds in its three input arrays, and where the program's result ends.

  Between the launch and a layer the host only rearranges: the activations of the first layer are the launch
  activations (narrowing the float type changes nothing over the extended reals), and of each later layer the
  previous layer's output; a table of feature numbers is transposed and every entry brought into the range
  [0, I − 1] of the layer's input features (first raised to at least 0, then lowered to at most I − 1, as signed
  words); the selector vector is laid out as a single row.  An argument array is written by no host step and by no
  layer, so wherever a later step reads one it reads the launch contents.  The result array is written by the
  fourth layer only, so at the end it is that layer's output.
-/
import proofs.«424863_j77781857731251_2_alg».proof.Proof.Gen.KernelIdeal.Frame
import Idealize.ShloMosaic.Lib.ValueIdx
import Idealize.ShloMosaic.Lib.ValueLayout
import Idealize.ShloMosaic.Lib.IdealHost
import Idealize.ShloMosaic.Lib.StableHlo.Run

set_option maxRecDepth 16384

noncomputable section

namespace Cert.KernelIdeal.Host

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## An argument array no layer and no host step writes holds its launch contents at every later boundary -/

theorem W4_arg2 (c : Dev nD) : W4 m ρ c (Proc.devRef .tc main_arg2) = m ((c : Thread nD τ).loc main_arg2) := by
  rw [W4_of_ne m ρ c main_arg2 (by decide)]
  dsimp only [W3, W2, W1]
  after_results

theorem W4_arg3 (c : Dev nD) : W4 m ρ c (Proc.devRef .tc main_arg3) = m ((c : Thread nD τ).loc main_arg3) := by
  rw [W4_of_ne m ρ c main_arg3 (by decide)]
  dsimp only [W3, W2, W1]
  after_results

theorem W4_arg4 (c : Dev nD) : W4 m ρ c (Proc.devRef .tc main_arg4) = m ((c : Thread nD τ).loc main_arg4) := by
  rw [W4_of_ne m ρ c main_arg4 (by decide)]
  dsimp only [W3, W2, W1]
  after_results

theorem W4_arg6 (c : Dev nD) : W4 m ρ c (Proc.devRef .tc main_arg6) = m ((c : Thread nD τ).loc main_arg6) := by
  rw [W4_of_ne m ρ c main_arg6 (by decide)]
  dsimp only [W3, W2, W1]
  after_results

theorem W4_arg7 (c : Dev nD) : W4 m ρ c (Proc.devRef .tc main_arg7) = m ((c : Thread nD τ).loc main_arg7) := by
  rw [W4_of_ne m ρ c main_arg7 (by decide)]
  dsimp only [W3, W2, W1]
  after_results

theorem W4_arg8 (c : Dev nD) : W4 m ρ c (Proc.devRef .tc main_arg8) = m ((c : Thread nD τ).loc main_arg8) := by
  rw [W4_of_ne m ρ c main_arg8 (by decide)]
  dsimp only [W3, W2, W1]
  after_results

theorem W8_arg3 (c : Dev nD) : W8 m ρ c (Proc.devRef .tc main_arg3) = m ((c : Thread nD τ).loc main_arg3) := by
  rw [W8_of_ne m ρ c main_arg3 (by decide)]
  dsimp only [W7, W6, W5]
  after_results
  exact W4_arg3 m ρ c

theorem W8_arg4 (c : Dev nD) : W8 m ρ c (Proc.devRef .tc main_arg4) = m ((c : Thread nD τ).loc main_arg4) := by
  rw [W8_of_ne m ρ c main_arg4 (by decide)]
  dsimp only [W7, W6, W5]
  after_results
  exact W4_arg4 m ρ c

theorem W8_arg7 (c : Dev nD) : W8 m ρ c (Proc.devRef .tc main_arg7) = m ((c : Thread nD τ).loc main_arg7) := by
  rw [W8_of_ne m ρ c main_arg7 (by decide)]
  dsimp only [W7, W6, W5]
  after_results
  exact W4_arg7 m ρ c

theorem W8_arg8 (c : Dev nD) : W8 m ρ c (Proc.devRef .tc main_arg8) = m ((c : Thread nD τ).loc main_arg8) := by
  rw [W8_of_ne m ρ c main_arg8 (by decide)]
  dsimp only [W7, W6, W5]
  after_results
  exact W4_arg8 m ρ c

theorem W12_arg4 (c : Dev nD) : W12 m ρ c (Proc.devRef .tc main_arg4) = m ((c : Thread nD τ).loc main_arg4) := by
  rw [W12_of_ne m ρ c main_arg4 (by decide)]
  dsimp only [W11, W10, W9]
  after_results
  exact W8_arg4 m ρ c

theorem W12_arg8 (c : Dev nD) : W12 m ρ c (Proc.devRef .tc main_arg8) = m ((c : Thread nD τ).loc main_arg8) := by
  rw [W12_of_ne m ρ c main_arg8 (by decide)]
  dsimp only [W11, W10, W9]
  after_results
  exact W8_arg8 m ρ c

/-! ## What the first layer finds -/

/-- The activations the first layer finds are the launch activations: narrowing to the shorter float type is the
    identity on extended reals. -/
theorem V3_x (c : Dev nD) : (V3 m ρ c main_v0 : Vec Ideal S4096x1024 .bf16) = m ((c : Thread nD τ).loc main_arg0) := by
  have e : (V3 m ρ c main_v0 : Vec Ideal S4096x1024 .bf16) = W0 m ρ c (Proc.devRef .tc main_arg0) := by
    dsimp only [V3, W3, W2, W1]
    after_results
    rfl
  exact e

/-- Entry (k, o) of the feature-number table the first layer finds: entry (o, k) of the launch table (the table is
    transposed), raised to at least 0 and lowered to at most 1023 as signed words. -/
theorem V3_conn (c : Dev nD) (k : Fin 32) (o : Fin 2048) :
    (V3 m ρ c main_v2 : Vec Ideal S32x2048 .i32) (ix2 k o)
      = IntOp.minsi 1023#32 (IntOp.maxsi 0#32 ((m ((c : Thread nD τ).loc main_arg1) : Vec Ideal S2048x32 .i32) (ix2 o k))) := by
  have e : (V3 m ρ c main_v2 : Vec Ideal S32x2048 .i32)
      = minsi (broadcastInDim S32x2048 ![] bcast_S_S32x2048 (constantI S_ 32 1023#32))
          (maxsi (broadcastInDim S32x2048 ![] bcast_S_S32x2048 (constantI S_ 32 0#32))
            (transpose S32x2048 [1, 0] (m ((c : Thread nD τ).loc main_arg1) : Vec Ideal S2048x32 .i32) transposes_S2048x32_S32x2048_1_0)) := by
    dsimp only [V3, W3, W2, W1]
    after_results
    rfl
  rw [e]
  show IntOp.minsi _ (IntOp.maxsi _ _) = _
  rw [broadcastInDim_scalar_apply, broadcastInDim_scalar_apply, constantI_apply, constantI_apply, transpose_ix2_apply]

/-- Selector o the first layer finds (the selectors laid out as one row) is selector o of the launch vector. -/
theorem V3_op (c : Dev nD) (o : Fin 2048) :
    (V3 m ρ c main_v3 : Vec Ideal S1x2048 .i32) (ix2 (0 : Fin 1) o) = (m ((c : Thread nD τ).loc main_arg5) : Vec Ideal S2048 .i32) (ix1 o) := by
  have e : (V3 m ρ c main_v3 : Vec Ideal S1x2048 .i32)
      = shapeCast S1x2048 (m ((c : Thread nD τ).loc main_arg5) : Vec Ideal S2048 .i32) shapeCasts_S2048_S1x2048 := by
    dsimp only [V3, W3, W2, W1]
    after_results
    rfl
  rw [e, shapeCast_a_1a_apply]

/-! ## What the second layer finds -/

/-- The activations the second layer finds are the previous layer's output array as its last write-back left it. -/
theorem V7_x (c : Dev nD) : V7 m ρ c main_v4 = (dat0 (V3 m ρ) c).arrAt 3 cfg0.N := by
  have e : V7 m ρ c main_v4 = W4 m ρ c (Proc.devRef .tc main_v4) := by
    dsimp only [V7, W7, W6, W5]
    after_results
  exact e.trans (W4_arr m ρ c 3)

/-- Entry (k, o) of the feature-number table the second layer finds: entry (o, k) of the launch table (the table is
    transposed), raised to at least 0 and lowered to at most 2047 as signed words. -/
theorem V7_conn (c : Dev nD) (k : Fin 32) (o : Fin 512) :
    (V7 m ρ c main_v6 : Vec Ideal S32x512 .i32) (ix2 k o)
      = IntOp.minsi 2047#32 (IntOp.maxsi 0#32 ((m ((c : Thread nD τ).loc main_arg2) : Vec Ideal S512x32 .i32) (ix2 o k))) := by
  have e : (V7 m ρ c main_v6 : Vec Ideal S32x512 .i32)
      = minsi (broadcastInDim S32x512 ![] bcast_S_S32x512 (constantI S_ 32 2047#32))
          (maxsi (broadcastInDim S32x512 ![] bcast_S_S32x512 (constantI S_ 32 0#32))
            (transpose S32x512 [1, 0] (m ((c : Thread nD τ).loc main_arg2) : Vec Ideal S512x32 .i32) transposes_S512x32_S32x512_1_0)) := by
    dsimp only [V7, W7, W6, W5]
    after_results
    rw [W4_arg2 m ρ c]
    rfl
  rw [e]
  show IntOp.minsi _ (IntOp.maxsi _ _) = _
  rw [broadcastInDim_scalar_apply, broadcastInDim_scalar_apply, constantI_apply, constantI_apply, transpose_ix2_apply]

/-- Selector o the second layer finds (the selectors laid out as one row) is selector o of the launch vector. -/
theorem V7_op (c : Dev nD) (o : Fin 512) :
    (V7 m ρ c main_v7 : Vec Ideal S1x512 .i32) (ix2 (0 : Fin 1) o) = (m ((c : Thread nD τ).loc main_arg6) : Vec Ideal S512 .i32) (ix1 o) := by
  have e : (V7 m ρ c main_v7 : Vec Ideal S1x512 .i32)
      = shapeCast S1x512 (m ((c : Thread nD τ).loc main_arg6) : Vec Ideal S512 .i32) shapeCasts_S512_S1x512 := by
    dsimp only [V7, W7, W6, W5]
    after_results
    rw [W4_arg6 m ρ c]
    rfl
  rw [e, shapeCast_a_1a_apply]

/-! ## What the third layer finds -/

/-- The activations the third layer finds are the previous layer's output array as its last write-back left it. -/
theorem V11_x (c : Dev nD) : V11 m ρ c main_v8 = (dat1 (V7 m ρ) c).arrAt 3 cfg1.N := by
  have e : V11 m ρ c main_v8 = W8 m ρ c (Proc.devRef .tc main_v8) := by
    dsimp only [V11, W11, W10, W9]
    after_results
  exact e.trans (W8_arr m ρ c 3)

/-- Entry (k, o) of the feature-number table the third layer finds: entry (o, k) of the launch table (the table is
    transposed), raised to at least 0 and lowered to at most 511 as signed words. -/
theorem V11_conn (c : Dev nD) (k : Fin 32) (o : Fin 2048) :
    (V11 m ρ c main_v10 : Vec Ideal S32x2048 .i32) (ix2 k o)
      = IntOp.minsi 511#32 (IntOp.maxsi 0#32 ((m ((c : Thread nD τ).loc main_arg3) : Vec Ideal S2048x32 .i32) (ix2 o k))) := by
  have e : (V11 m ρ c main_v10 : Vec Ideal S32x2048 .i32)
      = minsi (broadcastInDim S32x2048 ![] bcast_S_S32x2048 (constantI S_ 32 511#32))
          (maxsi (broadcastInDim S32x2048 ![] bcast_S_S32x2048 (constantI S_ 32 0#32))
            (transpose S32x2048 [1, 0] (m ((c : Thread nD τ).loc main_arg3) : Vec Ideal S2048x32 .i32) transposes_S2048x32_S32x2048_1_0)) := by
    dsimp only [V11, W11, W10, W9]
    after_results
    rw [W8_arg3 m ρ c]
    rfl
  rw [e]
  show IntOp.minsi _ (IntOp.maxsi _ _) = _
  rw [broadcastInDim_scalar_apply, broadcastInDim_scalar_apply, constantI_apply, constantI_apply, transpose_ix2_apply]

/-- Selector o the third layer finds (the selectors laid out as one row) is selector o of the launch vector. -/
theorem V11_op (c : Dev nD) (o : Fin 2048) :
    (V11 m ρ c main_v11 : Vec Ideal S1x2048 .i32) (ix2 (0 : Fin 1) o) = (m ((c : Thread nD τ).loc main_arg7) : Vec Ideal S2048 .i32) (ix1 o) := by
  have e : (V11 m ρ c main_v11 : Vec Ideal S1x2048 .i32)
      = shapeCast S1x2048 (m ((c : Thread nD τ).loc main_arg7) : Vec Ideal S2048 .i32) shapeCasts_S2048_S1x2048 := by
    dsimp only [V11, W11, W10, W9]
    after_results
    rw [W8_arg7 m ρ c]
    rfl
  rw [e, shapeCast_a_1a_apply]

/-! ## What the fourth layer finds -/

/-- The activations the fourth layer finds are the previous layer's output array as its last write-back left it. -/
theorem V15_x (c : Dev nD) : V15 m ρ c main_v12 = (dat2 (V11 m ρ) c).arrAt 3 cfg2.N := by
  have e : V15 m ρ c main_v12 = W12 m ρ c (Proc.devRef .tc main_v12) := by
    dsimp only [V15, W15, W14, W13]
    after_results
  exact e.trans (W12_arr m ρ c 3)

/-- Entry (k, o) of the feature-number table the fourth layer finds: entry (o, k) of the launch table (the table is
    transposed), raised to at least 0 and lowered to at most 2047 as signed words. -/
theorem V15_conn (c : Dev nD) (k : Fin 32) (o : Fin 1024) :
    (V15 m ρ c main_v14 : Vec Ideal S32x1024 .i32) (ix2 k o)
      = IntOp.minsi 2047#32 (IntOp.maxsi 0#32 ((m ((c : Thread nD τ).loc main_arg4) : Vec Ideal S1024x32 .i32) (ix2 o k))) := by
  have e : (V15 m ρ c main_v14 : Vec Ideal S32x1024 .i32)
      = minsi (broadcastInDim S32x1024 ![] bcast_S_S32x1024 (constantI S_ 32 2047#32))
          (maxsi (broadcastInDim S32x1024 ![] bcast_S_S32x1024 (constantI S_ 32 0#32))
            (transpose S32x1024 [1, 0] (m ((c : Thread nD τ).loc main_arg4) : Vec Ideal S1024x32 .i32) transposes_S1024x32_S32x1024_1_0)) := by
    dsimp only [V15, W15, W14, W13]
    after_results
    rw [W12_arg4 m ρ c]
    rfl
  rw [e]
  show IntOp.minsi _ (IntOp.maxsi _ _) = _
  rw [broadcastInDim_scalar_apply, broadcastInDim_scalar_apply, constantI_apply, constantI_apply, transpose_ix2_apply]

/-- Selector o the fourth layer finds (the selectors laid out as one row) is selector o of the launch vector. -/
theorem V15_op (c : Dev nD) (o : Fin 1024) :
    (V15 m ρ c main_v15 : Vec Ideal S1x1024 .i32) (ix2 (0 : Fin 1) o) = (m ((c : Thread nD τ).loc main_arg8) : Vec Ideal S1024 .i32) (ix1 o) := by
  have e : (V15 m ρ c main_v15 : Vec Ideal S1x1024 .i32)
      = shapeCast S1x1024 (m ((c : Thread nD τ).loc main_arg8) : Vec Ideal S1024 .i32) shapeCasts_S1024_S1x1024 := by
    dsimp only [V15, W15, W14, W13]
    after_results
    rw [W12_arg8 m ρ c]
    rfl
  rw [e, shapeCast_a_1a_apply]

/-! ## The result -/

/-- The program's result array at the last boundary is the fourth layer's output array as its last write-back left it. -/
theorem W16_out (c : Dev nD) : W16 m ρ c (Proc.devRef .tc main_v16) = (dat3 (V15 m ρ) c).arrAt 3 cfg3.N :=
  W16_arr m ρ c 3

end Cert.KernelIdeal.Host

end
-- ==== Proof.PreDecode.lean ====
/-
  The claim's precondition, read back as facts about the four tables of feature numbers.

  The precondition is one truth value: the conjunction of five "for all entries" tests.  The first is about the
  activations and is not used here.  Each of the other four says of one table that every entry `w`, read as a
  signed 32-bit number, satisfies `0 ≤ w` and `w < I` for that layer's number of input features `I`.  A
  conjunction is 1 only when both its sides are 1; a "for all" that came out 1 met a 1 at every entry; and a word
  that is nonnegative as a signed number reads the same unsigned.  So every entry, read as a natural number, is
  below `I`.

  Also here: a word that already lies between 0 and a nonnegative bound `hi` is left unchanged by clamping it to
  `[0, hi]` (first the larger of 0 and the word, then the smaller of `hi` and that).
-/
import proofs.«424863_j77781857731251_2_alg».proof.Pre_finite_inputs
import proofs.«424863_j77781857731251_2_alg».proof.Proof.Gen.Pre_finite_inputs
import proofs.«424863_j77781857731251_2_alg».proof.Proof.Spec
import Idealize.ShloMosaic.Lib.ReduceAll

namespace Cert.PreDecode

open Idealize.ShloMosaic Idealize.ShloMosaic.ValueIdx
open Cert.Pre_finite_inputs

/-- The shape with no axes has exactly one index. -/
instance : Subsingleton S_.Idx := ⟨fun a b => funext fun d => d.elim0⟩

/-- A word that is nonnegative and below `I` as a signed number is below `I` as a natural number
    (for `I` itself nonnegative as a signed number). -/
theorem toNat_lt_of_signed (w I : BitVec 32) (hI : I.toNat < 2 ^ 31)
    (h0 : IntOp.cmpi .sge w 0#32 = 1#1) (h1 : IntOp.cmpi .slt w I = 1#1) : w.toNat < I.toNat := by
  rw [IntOp.cmpi_sge] at h0
  rw [IntOp.cmpi_slt] at h1
  have hz : (0#32 : BitVec 32).toInt = 0 := by decide
  rw [hz] at h0
  have hIi : I.toInt = I.toNat := BitVec.toInt_eq_toNat_of_lt (by omega)
  have hw : 2 * w.toNat < 2 ^ 32 := BitVec.toInt_pos_iff.1 h0
  have hwi : w.toInt = w.toNat := BitVec.toInt_eq_toNat_of_lt hw
  rw [hwi, hIi] at h1
  exact_mod_cast h1

/-- One entry of one table's test: the conjunction of the two signed comparisons, against the constants 0 and `I`
    spread over the table's shape, is 1 at `i`; so the entry at `i` is below `I`. -/
theorem entry_lt {s : Shape} (a : IVec s 32) (hb : S_.BroadcastsInDim s (![] : Fin 0 → Fin s.rank)) (I : BitVec 32)
    (hI : I.toNat < 2 ^ 31) (i : s.Idx)
    (e : andi (cmpi .sge a (broadcastInDim s ![] hb (constantI S_ 32 0#32)))
          (cmpi .slt a (broadcastInDim s ![] hb (constantI S_ 32 I))) i = 1#1) : (a i).toNat < I.toNat := by
  have e' : IntOp.andi (IntOp.cmpi .sge (a i) 0#32) (IntOp.cmpi .slt (a i) I) = 1#1 := e
  obtain ⟨h0, h1⟩ := IntOp.andi_eq_one.1 e'
  exact toNat_lt_of_signed (a i) I hI h0 h1

/-- Under the precondition every entry of every table names an input feature of its layer. -/
theorem inRange_of_pre {F : FTy → Type} [FloatOps F] (a0 : FVec F S4096x1024 .f32) (a1 : IVec S2048x32 32)
    (a2 : IVec S512x32 32) (a3 : IVec S2048x32 32) (a4 : IVec S1024x32 32) (a5 : IVec S2048 32) (a6 : IVec S512 32)
    (a7 : IVec S2048 32) (a8 : IVec S1024 32)
    (h : Cert.Pre_finite_inputs.fn (F := F) a0 a1 a2 a3 a4 a5 a6 a7 a8 = fun _ => 1#1) :
    Cert.Layers.InRange 1024 a1 ∧ Cert.Layers.InRange 2048 a2 ∧ Cert.Layers.InRange 512 a3 ∧
      Cert.Layers.InRange 2048 a4 := by
  have e := congrFun h ix0
  dsimp only [Cert.Pre_finite_inputs.fn, Cert.Pre_finite_inputs.fn_part1] at e
  -- the five conjuncts, outermost first
  obtain ⟨e, e4⟩ := IntOp.andi_eq_one.1 e
  obtain ⟨e, e3⟩ := IntOp.andi_eq_one.1 e
  obtain ⟨e, e2⟩ := IntOp.andi_eq_one.1 e
  obtain ⟨_, e1⟩ := IntOp.andi_eq_one.1 e
  refine ⟨fun o k => ?_, fun o k => ?_, fun o k => ?_, fun o k => ?_⟩
  · exact entry_lt a1 _ 1024#32 (by decide) (ix2 o k) (Host.reduce_andi_all _ _ _ _ _ e1 (ix2 o k))
  · exact entry_lt a2 _ 2048#32 (by decide) (ix2 o k) (Host.reduce_andi_all _ _ _ _ _ e2 (ix2 o k))
  · exact entry_lt a3 _ 512#32 (by decide) (ix2 o k) (Host.reduce_andi_all _ _ _ _ _ e3 (ix2 o k))
  · exact entry_lt a4 _ 2048#32 (by decide) (ix2 o k) (Host.reduce_andi_all _ _ _ _ _ e4 (ix2 o k))

/-- A word already in `[0, hi]` (both read as natural numbers, `hi` nonnegative as a signed number) is its own
    clamp to that interval. -/
theorem clip_eq_self (hi w : BitVec 32) (hhi : hi.toNat < 2 ^ 31) (hw : w.toNat ≤ hi.toNat) :
    IntOp.minsi hi (IntOp.maxsi 0#32 w) = w := by
  have hwi : w.toInt = w.toNat := BitVec.toInt_eq_toNat_of_lt (by omega)
  have hhii : hi.toInt = hi.toNat := BitVec.toInt_eq_toNat_of_lt (by omega)
  have hz : (0#32 : BitVec 32).toInt = 0 := by decide
  -- the larger of 0 and `w` is `w`: `w` is not below 0
  have h1 : IntOp.maxsi 0#32 w = w := by
    unfold IntOp.maxsi
    rw [if_neg]
    rw [BitVec.slt_iff_toInt_lt, hwi, hz]
    omega
  -- the smaller of `hi` and `w` is `w`: `hi` is not below `w`
  rw [h1]
  unfold IntOp.minsi
  rw [if_neg]
  rw [BitVec.slt_iff_toInt_lt, hwi, hhii]
  omega

end Cert.PreDecode
-- ==== Proof.SpecLemmas.lean ====
/-
  Two ways of writing one layer entry meet: a selection between the maximum and the minimum of 32 entries of row `b`
  named by in-range words is the specification's `layerAt`, once the words are the table's and the selector the layer's.
-/
import proofs.«424863_j77781857731251_2_alg».proof.Proof.Spec

noncomputable section

namespace Cert.Layers

open Idealize.ShloMosaic Idealize.ShloMosaic.ValueIdx

/-- If the 32 words `w k` are the table's entries for output feature `o`, each naming a feature, and `sel` is that
    feature's selector, then choosing between the maximum and the minimum of the named entries is `layerAt`. -/
theorem select_eq_layerAt {I O : ℕ} (x : FVec Ideal ⟨2, ![4096, I]⟩ .f32) (conn : IVec ⟨2, ![O, 32]⟩ 32) (op : IVec ⟨1, ![O]⟩ 32)
    (b : Fin 4096) (o : Fin O) (sel : BitVec 32) (w : Fin 32 → BitVec 32) (hlt : ∀ k, (w k).toNat < I)
    (hsel : sel = op (ix1 o)) (hw : ∀ k, w k = conn (ix2 o k)) :
    Scalar.select (IntOp.cmpi .eq sel 1#32)
        (max32 fun k => x (ix2 b ⟨(w k).toNat, hlt k⟩))
        (min32 fun k => x (ix2 b ⟨(w k).toNat, hlt k⟩))
      = layerAt x conn op b o := by
  have e : (fun k => x (ix2 b ⟨(w k).toNat, hlt k⟩)) = fun k => pick x b (conn (ix2 o k)) :=
    funext fun k => by rw [← hw k]; exact (pick_of_lt x b (w k) (hlt k)).symm
  unfold layerAt
  rw [hsel, e]

/-- A computed array is the specification's layer as soon as it is read off arrays that ARE the layer's inputs: its
    activations `xA` are `x`, its table `connT` is `conn` transposed, its selector row `opRow` is `op` as one row, the
    table is in range, and every entry of the array is the selection between the maximum and the minimum of the
    entries of its row that its column of the table names. -/
theorem layer_of_found {I O : ℕ} (xA : FVec Ideal ⟨2, ![4096, I]⟩ .f32) (connT : IVec ⟨2, ![32, O]⟩ 32) (opRow : IVec ⟨2, ![1, O]⟩ 32)
    (outA : FVec Ideal ⟨2, ![4096, O]⟩ .f32)
    (x : FVec Ideal ⟨2, ![4096, I]⟩ .f32) (conn : IVec ⟨2, ![O, 32]⟩ 32) (op : IVec ⟨1, ![O]⟩ 32)
    (hx : xA = x) (hconn : ∀ (k : Fin 32) (o : Fin O), connT (ix2 k o) = conn (ix2 o k))
    (hop : ∀ o : Fin O, opRow (ix2 (0 : Fin 1) o) = op (ix1 o)) (hin : InRange I conn)
    (hout : ∀ (hc : ∀ (k : Fin 32) (o : Fin O), (connT (ix2 k o)).toNat < I) (b : Fin 4096) (o : Fin O),
      outA (ix2 b o) = Scalar.select (IntOp.cmpi .eq (opRow (ix2 (0 : Fin 1) o)) 1#32)
        (max32 fun k => xA (ix2 b ⟨(connT (ix2 k o)).toNat, hc k o⟩))
        (min32 fun k => xA (ix2 b ⟨(connT (ix2 k o)).toNat, hc k o⟩))) :
    outA = layer x conn op := by
  subst hx
  have hc : ∀ (k : Fin 32) (o : Fin O), (connT (ix2 k o)).toNat < I := fun k o => by rw [hconn k o]; exact hin o k
  refine eq_layer_of_apply _ _ _ _ fun b o => ?_
  rw [hout hc b o]
  exact select_eq_layerAt _ conn op b o _ _ _ (hop o) (fun k => hconn k o)

end Cert.Layers

end
-- ==== Proof.KNet.lean ====
/-
  The kernel program's result as the specification's network of its arguments.

  Each region finds as its activations what the region before left (the first: the argument itself, a change of
  float format being the identity on the extended reals), as its feature numbers the argument table transposed and
  clamped to [0, I - 1] — its own entries, since the precondition puts them in range —, and as its selectors the
  argument vector as one row.  So each region's output array is the specification's layer of the previous one, and
  the result buffer, which the last region writes, is the four layers in sequence.
-/
import proofs.«424863_j77781857731251_2_alg».proof.Proof.KArray0
import proofs.«424863_j77781857731251_2_alg».proof.Proof.KArray1
import proofs.«424863_j77781857731251_2_alg».proof.Proof.KArray2
import proofs.«424863_j77781857731251_2_alg».proof.Proof.KArray3
import proofs.«424863_j77781857731251_2_alg».proof.Proof.KHost
import proofs.«424863_j77781857731251_2_alg».proof.Proof.PreDecode
import proofs.«424863_j77781857731251_2_alg».proof.Proof.SpecLemmas

set_option maxRecDepth 16384

noncomputable section

namespace Cert.KernelIdeal.Net

open Idealize.ShloMosaic Idealize.ShloMosaic.TcCoe Idealize.ShloMosaic.ValueIdx Idealize.SL.Sem
open Cert.KernelIdeal Cert.KernelIdeal.Gen Cert.Layers

variable (m : (ℓ : Loc nD τ sig) → Buf (Elt Ideal) ℓ) (ρ : Dev nD → PrngReg)

/-- The activations argument. -/
abbrev xArg (c : Dev nD) : FVec Ideal S4096x1024 .f32 := m ((c : Thread nD τ).loc main_arg0)
/-- The four tables of feature numbers. -/
abbrev conn0 (c : Dev nD) : IVec S2048x32 32 := m ((c : Thread nD τ).loc main_arg1)
abbrev conn1 (c : Dev nD) : IVec S512x32 32 := m ((c : Thread nD τ).loc main_arg2)
abbrev conn2 (c : Dev nD) : IVec S2048x32 32 := m ((c : Thread nD τ).loc main_arg3)
abbrev conn3 (c : Dev nD) : IVec S1024x32 32 := m ((c : Thread nD τ).loc main_arg4)
/-- The four selector vectors. -/
abbrev op0 (c : Dev nD) : IVec S2048 32 := m ((c : Thread nD τ).loc main_arg5)
abbrev op1 (c : Dev nD) : IVec S512 32 := m ((c : Thread nD τ).loc main_arg6)
abbrev op2 (c : Dev nD) : IVec S2048 32 := m ((c : Thread nD τ).loc main_arg7)
abbrev op3 (c : Dev nD) : IVec S1024 32 := m ((c : Thread nD τ).loc main_arg8)

/-- The first region's output array: the first layer of the argument. -/
theorem region0 (c : Dev nD) (h0 : InRange 1024 (conn0 m c)) :
    Array0.outArr (V3 m ρ) c = layer (xArg m c) (conn0 m c) (op0 m c) :=
  layer_of_found (Array0.xArr (V3 m ρ) c) (Array0.connArr (V3 m ρ) c) (Array0.opArr (V3 m ρ) c) _ _ _ _
    (Host.V3_x m ρ c)
    (fun k o => (Host.V3_conn m ρ c k o).trans (Cert.PreDecode.clip_eq_self 1023#32 _ (by decide) (Nat.le_of_lt_succ (h0 o k))))
    (Host.V3_op m ρ c) h0 (Array0.outArr_apply (V3 m ρ) c)

/-- The second region's output array: the second layer of the first. -/
theorem region1 (c : Dev nD) (h0 : InRange 1024 (conn0 m c)) (h1 : InRange 2048 (conn1 m c)) :
    Array1.outArr (V7 m ρ) c = layer (layer (xArg m c) (conn0 m c) (op0 m c)) (conn1 m c) (op1 m c) :=
  layer_of_found (Array1.xArr (V7 m ρ) c) (Array1.connArr (V7 m ρ) c) (Array1.opArr (V7 m ρ) c) _ _ _ _
    ((Host.V7_x m ρ c).trans (region0 m ρ c h0))
    (fun k o => (Host.V7_conn m ρ c k o).trans (Cert.PreDecode.clip_eq_self 2047#32 _ (by decide) (Nat.le_of_lt_succ (h1 o k))))
    (Host.V7_op m ρ c) h1 (Array1.outArr_apply (V7 m ρ) c)

/-- The third region's output array: the third layer of the second. -/
theorem region2 (c : Dev nD) (h0 : InRange 1024 (conn0 m c)) (h1 : InRange 2048 (conn1 m c)) (h2 : InRange 512 (conn2 m c)) :
    Array2.outArr (V11 m ρ) c
      = layer (layer (layer (xArg m c) (conn0 m c) (op0 m c)) (conn1 m c) (op1 m c)) (conn2 m c) (op2 m c) :=
  layer_of_found (Array2.xArr (V11 m ρ) c) (Array2.connArr (V11 m ρ) c) (Array2.opArr (V11 m ρ) c) _ _ _ _
    ((Host.V11_x m ρ c).trans (region1 m ρ c h0 h1))
    (fun k o => (Host.V11_conn m ρ c k o).trans (Cert.PreDecode.clip_eq_self 511#32 _ (by decide) (Nat.le_of_lt_succ (h2 o k))))
    (Host.V11_op m ρ c) h2 (Array2.outArr_apply (V11 m ρ) c)

/-- The fourth region's output array: the network of the arguments. -/
theorem region3 (c : Dev nD) (h0 : InRange 1024 (conn0 m c)) (h1 : InRange 2048 (conn1 m c)) (h2 : InRange 512 (conn2 m c))
    (h3 : InRange 2048 (conn3 m c)) :
    Array3.outArr (V15 m ρ) c
      = net (xArg m c) (conn0 m c) (conn1 m c) (conn2 m c) (conn3 m c) (op0 m c) (op1 m c) (op2 m c) (op3 m c) :=
  layer_of_found (Array3.xArr (V15 m ρ) c) (Array3.connArr (V15 m ρ) c) (Array3.opArr (V15 m ρ) c) _ _ _ _
    ((Host.V15_x m ρ c).trans (region2 m ρ c h0 h1 h2))
    (fun k o => (Host.V15_conn m ρ c k o).trans (Cert.PreDecode.clip_eq_self 2047#32 _ (by decide) (Nat.le_of_lt_succ (h3 o k))))
    (Host.V15_op m ρ c) h3 (Array3.outArr_apply (V15 m ρ) c)

/-- The network of the arguments, as the contents of the result buffer. -/
abbrev result (c : Dev nD) : Buf (Elt Ideal) ((c : Thread nD τ).loc main_v16) :=
  net (xArg m c) (conn0 m c) (conn1 m c) (conn2 m c) (conn3 m c) (op0 m c) (op1 m c) (op2 m c) (op3 m c)

/-- The result buffer after the run, which the last region writes, is the network of the arguments. -/
theorem result_eq (c : Dev nD) (h0 : InRange 1024 (conn0 m c)) (h1 : InRange 2048 (conn1 m c)) (h2 : InRange 512 (conn2 m c))
    (h3 : InRange 2048 (conn3 m c)) :
    W16 m ρ c (Proc.devRef .tc main_v16) = result m c :=
  (Host.W16_out m ρ c).trans (region3 m ρ c h0 h1 h2 h3)

end Cert.KernelIdeal.Net

end
-- ==== Proof.RDefs0.lean ====
/-
  The reference's first layer as a pure function of whole arrays, operation for operation as its program applies
  them: the feature numbers normalised the way `jnp.take` does (a negative number has the extent added), a mask of
  the numbers that then lie inside the extent, the gather along the feature axis, the fill outside the mask, the
  minimum and the maximum over the 32 gathered entries, and the selection between the two by the layer's selector.
-/
import proofs.«424863_j77781857731251_2_alg».proof.ReferenceIdeal
import proofs.«424863_j77781857731251_2_alg».proof.Proof.Gen.ReferenceIdeal

noncomputable section

namespace Cert.ReferenceIdeal.Hand

open Idealize.ShloMosaic Cert.ReferenceIdeal
open Cert.ReferenceIdeal.Facts₀ Cert.ReferenceIdeal.Facts

variable {F : FTy → Type} [FloatOps F]

/-- The first layer's feature numbers as `jnp.take` normalises them: a negative number has 1024 added. -/
def wrapIdx0 (conn : IVec S2048x32 32) : IVec S2048x32 32 :=
  select (cmpi .slt conn (broadcastInDim S2048x32 ![] bcast_S_S2048x32 (constantI S_ 32 0#32)))
    (addi conn (broadcastInDim S2048x32 ![] bcast_S_S2048x32 (constantI S_ 32 1024#32))) conn

/-- The first layer's normalised feature numbers with a trailing unit axis: the gather's start indices. -/
def startIdx0 (conn : IVec S2048x32 32) : IVec S2048x32x1 32 :=
  broadcastInDim S2048x32x1 ![0, 1] bcast_S2048x32_S2048x32x1_0_1 (wrapIdx0 conn)

/-- Which of the first layer's normalised feature numbers lie in [0, 1023]. -/
def inBounds0 (conn : IVec S2048x32 32) : IVec S2048x32 1 :=
  Host.reduce IntOp.andi
    (andi (cmpi .sge (startIdx0 conn) (broadcastInDim S2048x32x1 ![] bcast_S_S2048x32x1 (constantI S_ 32 0#32)))
      (cmpi .sle (startIdx0 conn)
        (broadcastInDim S2048x32x1 ![0, 1, 2] bcast_S1x1x1_S2048x32x1_0_1_2
          (broadcastInDim S1x1x1 ![2] bcast_S1_S1x1x1_2 (constantI S1 32 1023#32)))))
    (constantI S_ 1 1#1) reducesTo_S2048x32x1_S2048x32_d2 h_S_

/-- The first layer's gathered entries [4096, 2048, 32]: `x[b, conn[o, k]]` inside the mask, the fill word outside. -/
def take0 (x : FVec F S4096x1024 .f32) (conn : IVec S2048x32 32) : FVec F S4096x2048x32 .f32 :=
  select (broadcastInDim S4096x2048x32 ![1, 2] bcast_S2048x32_S4096x2048x32_1_2 (inBounds0 conn))
    (Host.gather gather_S4096x1024_S2048x32x1_S4096x2048x32_0_1_n_n_1_2_40961 x (startIdx0 conn))
    (broadcastInDim S4096x2048x32 ![] bcast_S_S4096x2048x32 (constant S_ .f32 0x7FC00000#32))

/-- The first layer: per output feature the maximum of its 32 gathered entries where the selector is 1, their minimum elsewhere. -/
def refLayer0 (x : FVec F S4096x1024 .f32) (conn : IVec S2048x32 32) (op : IVec S2048 32) : FVec F S4096x2048 .f32 :=
  select
    (broadcastInDim S4096x2048 ![0, 1] bcast_S1x2048_S4096x2048_0_1
      (cmpi .eq (broadcastInDim S1x2048 ![1] bcast_S2048_S1x2048_1 op) (broadcastInDim S1x2048 ![] bcast_S_S1x2048 (constantI S_ 32 1#32))))
    (Host.reduce FloatOps.maximumf (take0 x conn) (constant S_ .f32 0xFF800000#32) reducesTo_S4096x2048x32_S4096x2048_d2 h_S_)
    (Host.reduce FloatOps.minimumf (take0 x conn) (constant S_ .f32 0x7F800000#32) reducesTo_S4096x2048x32_S4096x2048_d2 h_S_)

end Cert.ReferenceIdeal.Hand

end
-- ==== Proof.RDefs1.lean ====
/-
  The reference's second layer as a pure function of whole arrays, operation for operation as its program applies
  them: the feature numbers normalised the way `jnp.take` does (a negative number has the extent added), a mask of
  the numbers that then lie inside the extent, the gather along the feature axis, the fill outside the mask, the
  minimum and the maximum over the 32 gathered entries, and the selection between the two by the layer's selector.
-/
import proofs.«424863_j77781857731251_2_alg».proof.ReferenceIdeal
import proofs.«424863_j77781857731251_2_alg».proof.Proof.Gen.ReferenceIdeal

noncomputable section

namespace Cert.ReferenceIdeal.Hand

open Idealize.ShloMosaic Cert.ReferenceIdeal
open Cert.ReferenceIdeal.Facts₀ Cert.ReferenceIdeal.Facts

variable {F : FTy → Type} [FloatOps F]

/-- The second layer's feature numbers as `jnp.take` normalises them: a negative number has 2048 added. -/
def wrapIdx1 (conn : IVec S512x32 32) : IVec S512x32 32 :=
  select (cmpi .slt conn (broadcastInDim S512x32 ![] bcast_S_S512x32 (constantI S_ 32 0#32)))
    (addi conn (broadcastInDim S512x32 ![] bcast_S_S512x32 (constantI S_ 32 2048#32))) conn

/-- The second layer's normalised feature numbers with a trailing unit axis: the gather's start indices. -/
def startIdx1 (conn : IVec S512x32 32) : IVec S512x32x1 32 :=
  broadcastInDim S512x32x1 ![0, 1] bcast_S512x32_S512x32x1_0_1 (wrapIdx1 conn)

/-- Which of the second layer's normalised feature numbers lie in [0, 2047]. -/
def inBounds1 (conn : IVec S512x32 32) : IVec S512x32 1 :=
  Host.reduce IntOp.andi
    (andi (cmpi .sge (startIdx1 conn) (broadcastInDim S512x32x1 ![] bcast_S_S512x32x1 (constantI S_ 32 0#32)))
      (cmpi .sle (startIdx1 conn)
        (broadcastInDim S512x32x1 ![0, 1, 2] bcast_S1x1x1_S512x32x1_0_1_2
          (broadcastInDim S1x1x1 ![2] bcast_S1_S1x1x1_2 (constantI S1 32 2047#32)))))
    (constantI S_ 1 1#1) reducesTo_S512x32x1_S512x32_d2 h_S_

/-- The second layer's gathered entries [4096, 512, 32]: `x[b, conn[o, k]]` inside the mask, the fill word outside. -/
def take1 (x : FVec F S4096x2048 .f32) (conn : IVec S512x32 32) : FVec F S4096x512x32 .f32 :=
  select (broadcastInDim S4096x512x32 ![1, 2] bcast_S512x32_S4096x512x32_1_2 (inBounds1 conn))
    (Host.gather gather_S4096x2048_S512x32x1_S4096x512x32_0_1_n_n_1_2_40961 x (startIdx1 conn))
    (broadcastInDim S4096x512x32 ![] bcast_S_S4096x512x32 (constant S_ .f32 0x7FC00000#32))

/-- The second layer: per output feature the maximum of its 32 gathered entries where the selector is 1, their minimum elsewhere. -/
def refLayer1 (x : FVec F S4096x2048 .f32) (conn : IVec S512x32 32) (op : IVec S512 32) : FVec F S4096x512 .f32 :=
  select
    (broadcastInDim S4096x512 ![0, 1] bcast_S1x512_S4096x512_0_1
      (cmpi .eq (broadcastInDim S1x512 ![1] bcast_S512_S1x512_1 op) (broadcastInDim S1x512 ![] bcast_S_S1x512 (constantI S_ 32 1#32))))
    (Host.reduce FloatOps.maximumf (take1 x conn) (constant S_ .f32 0xFF800000#32) reducesTo_S4096x512x32_S4096x512_d2 h_S_)
    (Host.reduce FloatOps.minimumf (take1 x conn) (constant S_ .f32 0x7F800000#32) reducesTo_S4096x512x32_S4096x512_d2 h_S_)

end Cert.ReferenceIdeal.Hand

end
-- ==== Proof.RDefs2.lean ====
/-
  The reference's third layer as a pure function of whole arrays, operation for operation as its program applies
  them: the feature numbers normalised the way `jnp.take` does (a negative number has the extent added), a mask of
  the numbers that then lie inside the extent, the gather along the feature axis, the fill outside the mask, the
  minimum and the maximum over the 32 gathered entries, and the selection between the two by the layer's selector.
-/
import proofs.«424863_j77781857731251_2_alg».proof.ReferenceIdeal
import proofs.«424863_j77781857731251_2_alg».proof.Proof.Gen.ReferenceIdeal

noncomputable section

namespace Cert.ReferenceIdeal.Hand

open Idealize.ShloMosaic Cert.ReferenceIdeal
open Cert.ReferenceIdeal.Facts₀ Cert.ReferenceIdeal.Facts

variable {F : FTy → Type} [FloatOps F]

/-- The third layer's feature numbers as `jnp.take` normalises them: a negative number has 512 added. -/
def wrapIdx2 (conn : IVec S2048x32 32) : IVec S2048x32 32 :=
  select (cmpi .slt conn (broadcastInDim S2048x32 ![] bcast_S_S2048x32 (constantI S_ 32 0#32)))
    (addi conn (broadcastInDim S2048x32 ![] bcast_S_S2048x32 (constantI S_ 32 512#32))) conn

/-- The third layer's normalised feature numbers with a trailing unit axis: the gather's start indices. -/
def startIdx2 (conn : IVec S2048x32 32) : IVec S2048x32x1 32 :=
  broadcastInDim S2048x32x1 ![0, 1] bcast_S2048x32_S2048x32x1_0_1 (wrapIdx2 conn)

/-- Which of the third layer's normalised feature numbers lie in [0, 511]. -/
def inBounds2 (conn : IVec S2048x32 32) : IVec S2048x32 1 :=
  Host.reduce IntOp.andi
    (andi (cmpi .sge (startIdx2 conn) (broadcastInDim S2048x32x1 ![] bcast_S_S2048x32x1 (constantI S_ 32 0#32)))
      (cmpi .sle (startIdx2 conn)
        (broadcastInDim S2048x32x1 ![0, 1, 2] bcast_S1x1x1_S2048x32x1_0_1_2
          (broadcastInDim S1x1x1 ![2] bcast_S1_S1x1x1_2 (constantI S1 32 511#32)))))
    (constantI S_ 1 1#1) reducesTo_S2048x32x1_S2048x32_d2 h_S_

/-- The third layer's gathered entries [4096, 2048, 32]: `x[b, conn[o, k]]` inside the mask, the fill word outside. -/
def take2 (x : FVec F S4096x512 .f32) (conn : IVec S2048x32 32) : FVec F S4096x2048x32 .f32 :=
  select (broadcastInDim S4096x2048x32 ![1, 2] bcast_S2048x32_S4096x2048x32_1_2 (inBounds2 conn))
    (Host.gather gather_S4096x512_S2048x32x1_S4096x2048x32_0_1_n_n_1_2_40961 x (startIdx2 conn))
    (broadcastInDim S4096x2048x32 ![] bcast_S_S4096x2048x32 (constant S_ .f32 0x7FC00000#32))

/-- The third layer: per output feature the maximum of its 32 gathered entries where the selector is 1, their minimum elsewhere. -/
def refLayer2 (x : FVec F S4096x512 .f32) (conn : IVec S2048x32 32) (op : IVec S2048 32) : FVec F S4096x2048 .f32 :=
  select
    (broadcastInDim S4096x2048 ![0, 1] bcast_S1x2048_S4096x2048_0_1
      (cmpi .eq (broadcastInDim S1x2048 ![1] bcast_S2048_S1x2048_1 op) (broadcastInDim S1x2048 ![] bcast_S_S1x2048 (constantI S_ 32 1#32))))
    (Host.reduce FloatOps.maximumf (take2 x conn) (constant S_ .f32 0xFF800000#32) reducesTo_S4096x2048x32_S4096x2048_d2 h_S_)
    (Host.reduce FloatOps.minimumf (take2 x conn) (constant S_ .f32 0x7F800000#32) reducesTo_S4096x2048x32_S4096x2048_d2 h_S_)

end Cert.ReferenceIdeal.Hand

end
-- ==== Proof.RDefs3.lean ====
/-
  The reference's fourth layer as a pure function of whole arrays, operation for operation as its program applies
  them: the feature numbers normalised the way `jnp.take` does (a negative number has the extent added), a mask of
  the numbers that then lie inside the extent, the gather along the feature axis, the fill outside the mask, the
  minimum and the maximum over the 32 gathered entries, and the selection between the two by the layer's selector.
-/
import proofs.«424863_j77781857731251_2_alg».proof.ReferenceIdeal
import proofs.«424863_j77781857731251_2_alg».proof.Proof.Gen.ReferenceIdeal

noncomputable section

namespace Cert.ReferenceIdeal.Hand

open Idealize.ShloMosaic Cert.ReferenceIdeal
open Cert.ReferenceIdeal.Facts₀ Cert.ReferenceIdeal.Facts

variable {F : FTy → Type} [FloatOps F]

/-- The fourth layer's feature numbers as `jnp.take` normalises them: a negative number has 2048 added. -/
def wrapIdx3 (conn : IVec S1024x32 32) : IVec S1024x32 32 :=
  select (cmpi .slt conn (broadcastInDim S1024x32 ![] bcast_S_S1024x32 (constantI S_ 32 0#32)))
    (addi conn (broadcastInDim S1024x32 ![] bcast_S_S1024x32 (constantI S_ 32 2048#32))) conn

/-- The fourth layer's normalised feature numbers with a trailing unit axis: the gather's start indices. -/
def startIdx3 (conn : IVec S1024x32 32) : IVec S1024x32x1 32 :=
  broadcastInDim S1024x32x1 ![0, 1] bcast_S1024x32_S1024x32x1_0_1 (wrapIdx3 conn)

/-- Which of the fourth layer's normalised feature numbers lie in [0, 2047]. -/
def inBounds3 (conn : IVec S1024x32 32) : IVec S1024x32 1 :=
  Host.reduce IntOp.andi
    (andi (cmpi .sge (startIdx3 conn) (broadcastInDim S1024x32x1 ![] bcast_S_S1024x32x1 (constantI S_ 32 0#32)))
      (cmpi .sle (startIdx3 conn)
        (broadcastInDim S1024x32x1 ![0, 1, 2] bcast_S1x1x1_S1024x32x1_0_1_2
          (broadcastInDim S1x1x1 ![2] bcast_S1_S1x1x1_2 (constantI S1 32 2047#32)))))
    (constantI S_ 1 1#1) reducesTo_S1024x32x1_S1024x32_d2 h_S_

/-- The fourth layer's gathered entries [4096, 1024, 32]: `x[b, conn[o, k]]` inside the mask, the fill word outside. -/
def take3 (x : FVec F S4096x2048 .f32) (conn : IVec S1024x32 32) : FVec F S4096x1024x32 .f32 :=
  select (broadcastInDim S4096x1024x32 ![1, 2] bcast_S1024x32_S4096x1024x32_1_2 (inBounds3 conn))
    (Host.gather gather_S4096x2048_S1024x32x1_S4096x1024x32_0_1_n_n_1_2_40961 x (startIdx3 conn))
    (broadcastInDim S4096x1024x32 ![] bcast_S_S4096x1024x32 (constant S_ .f32 0x7FC00000#32))

/-- The fourth layer: per output feature the maximum of its 32 gathered entries where the selector is 1, their minimum elsewhere. -/
def refLayer3 (x : FVec F S4096x2048 .f32) (conn : IVec S1024x32 32) (op : IVec S1024 32) : FVec F S4096x1024 .f32 :=
  select
    (broadcastInDim S4096x1024 ![0, 1] bcast_S1x1024_S4096x1024_0_1
      (cmpi .eq (broadcastInDim S1x1024 ![1] bcast_S1024_S1x1024_1 op) (broadcastInDim S1x1024 ![] bcast_S_S1x1024 (constantI S_ 32 1#32))))
    (Host.reduce FloatOps.maximumf (take3 x conn) (constant S_ .f32 0xFF800000#32) reducesTo_S4096x1024x32_S4096x1024_d2 h_S_)
    (Host.reduce FloatOps.minimumf (take3 x conn) (constant S_ .f32 0x7F800000#32) reducesTo_S4096x1024x32_S4096x1024_d2 h_S_)

end Cert.ReferenceIdeal.Hand

end
-- ==== Proof.RNet.lean ====
/-
  The reference's network: its four layers in sequence.
-/
import proofs.«424863_j77781857731251_2_alg».proof.Proof.RDefs0
import proofs.«424863_j77781857731251_2_alg».proof.Proof.RDefs1
import proofs.«424863_j77781857731251_2_alg».proof.Proof.RDefs2
import proofs.«424863_j77781857731251_2_alg».proof.Proof.RDefs3

noncomputable section

namespace Cert.ReferenceIdeal.Hand

open Idealize.ShloMosaic Cert.ReferenceIdeal

variable {F : FTy → Type} [FloatOps F]

/-- The reference's network: the four layers in sequence. -/
def refNet (x : FVec F S4096x1024 .f32) (c0 : IVec S2048x32 32) (c1 : IVec S512x32 32) (c2 : IVec S2048x32 32) (c3 : IVec S1024x32 32)
    (o0 : IVec S2048 32) (o1 : IVec S512 32) (o2 : IVec S2048 32) (o3 : IVec S1024 32) : FVec F S4096x1024 .f32 :=
  refLayer3 (refLayer2 (refLayer1 (refLayer0 x c0 o0) c1 o1) c2 o2) c3 o3

end Cert.ReferenceIdeal.Hand

end
-- ==== Proof.RRun.lean ====
/-
  The reference program's run. Its entry function is a straight line of host operations once each call is replaced by
  its callee's body over that call's own buffers (a call means its callee's body on the operands): per layer the
  index normalisation and the gather (twenty-three operations, the inner select among them), the two reductions with
  their initial words, the selector's comparison with one, and the outer select (two operations). The four layers'
  operations are listed in order; the entry function is their sequence; every fair execution ends with each buffer at
  the fold of the operations over the launch contents; and that fold, read at the last result and at the arguments,
  is the composed network of the arguments' contents and the arguments themselves.
-/
import proofs.«424863_j77781857731251_2_alg».proof.Proof.RNet
import Idealize.ShloMosaic.Lib.StableHlo.Run

noncomputable section

namespace Cert.ReferenceIdeal.HandRun

open Idealize.ShloMosaic Idealize.ShloMosaic.TcCoe Idealize.ShloMosaic.StableHlo Idealize.SL.Sem
open Cert.ReferenceIdeal Cert.ReferenceIdeal.Hand
open Cert.ReferenceIdeal.Facts₀ Cert.ReferenceIdeal.Facts

variable {F : FTy → Type} [FloatOps F]

/-- The first layer's thirty-three operations: the gather of `x[b, conn[o, k]]` with its index normalisation and its
    in-range mask (into the first call's buffers), the minimum and the maximum over the 32 gathered entries, the
    selector compared with one, and the select between maximum and minimum (into the second call's buffers). -/
abbrev ops0 : List (HloOp τ sig (Elt F)) :=
  [ TRef.nullary main_call0.c (constantI S_ 32 0#32),
    TRef.unary main_call0.c main_call0.v0 (broadcastInDim S2048x32 ![] bcast_S_S2048x32),
    TRef.binary (.of main_arg1) main_call0.v0 main_call0.v1 (cmpi .slt),
    TRef.nullary main_call0.c_0 (constantI S_ 32 1024#32),
    TRef.unary main_call0.c_0 main_call0.v2 (broadcastInDim S2048x32 ![] bcast_S_S2048x32),
    TRef.binary (.of main_arg1) main_call0.v2 main_call0.v3 addi,
    TRef.ternary main_call0.v1 main_call0.v3 (.of main_arg1) main_call0.call0.v0 select,
    TRef.unary main_call0.call0.v0 main_call0.v5 (broadcastInDim S2048x32x1 ![0, 1] bcast_S2048x32_S2048x32x1_0_1),
    TRef.nullary main_call0.c_1 (constantI S1 32 1023#32),
    TRef.nullary main_call0.c_2 (constantI S_ 32 0#32),
    TRef.unary main_call0.c_2 main_call0.v6 (broadcastInDim S2048x32x1 ![] bcast_S_S2048x32x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S2048x32x1 ![0, 1, 2] bcast_S1x1x1_S2048x32x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2048x32x1_S2048x32_d2 h_S_),
    TRef.binary (.of main_arg0) main_call0.v5 main_call0.v13 (fun x i => Host.gather gather_S4096x1024_S2048x32x1_S4096x2048x32_0_1_n_n_1_2_40961 x i),
    TRef.unary main_call0.v12 main_call0.v14 (broadcastInDim S4096x2048x32 ![1, 2] bcast_S2048x32_S4096x2048x32_1_2),
    TRef.nullary main_call0.cst (constant S_ .f32 0x7FC00000#32),
    TRef.unary main_call0.cst main_call0.v15 (broadcastInDim S4096x2048x32 ![] bcast_S_S4096x2048x32),
    TRef.ternary main_call0.v14 main_call0.v13 main_call0.v15 main_call0.v16 select,
    nullary main_cst (constant S_ .f32 0x7F800000#32),
    binary main_v0 main_cst main_v1 (fun x v => Host.reduce FloatOps.minimumf x v reducesTo_S4096x2048x32_S4096x2048_d2 h_S_),
    nullary main_cst_0 (constant S_ .f32 0xFF800000#32),
    binary main_v0 main_cst_0 main_v2 (fun x v => Host.reduce FloatOps.maximumf x v reducesTo_S4096x2048x32_S4096x2048_d2 h_S_),
    unary main_arg5 main_v3 (broadcastInDim S1x2048 ![1] bcast_S2048_S1x2048_1),
    nullary main_c (constantI S_ 32 1#32),
    unary main_c main_v4 (broadcastInDim S1x2048 ![] bcast_S_S1x2048),
    binary main_v3 main_v4 main_v5 (cmpi .eq),
    TRef.unary (.of main_v5 : TRef sig ⟨S1x2048, .i1⟩) main_call1.v0 (broadcastInDim S4096x2048 ![0, 1] bcast_S1x2048_S4096x2048_0_1),
    TRef.ternary main_call1.v0 (.of main_v2) (.of main_v1) main_call1.v1 select ]

/-- The second layer's thirty-three operations, the same line over the first layer's result (2048 features in,
    512 out): the third and fourth calls' buffers. -/
abbrev ops1 : List (HloOp τ sig (Elt F)) :=
  [ TRef.nullary main_call2.c (constantI S_ 32 0#32),
    TRef.unary main_call2.c main_call2.v0 (broadcastInDim S512x32 ![] bcast_S_S512x32),
    TRef.binary (.of main_arg2) main_call2.v0 main_call2.v1 (cmpi .slt),
    TRef.nullary main_call2.c_0 (constantI S_ 32 2048#32),
    TRef.unary main_call2.c_0 main_call2.v2 (broadcastInDim S512x32 ![] bcast_S_S512x32),
    TRef.binary (.of main_arg2) main_call2.v2 main_call2.v3 addi,
    TRef.ternary main_call2.v1 main_call2.v3 (.of main_arg2) main_call2.call0.v0 select,
    TRef.unary main_call2.call0.v0 main_call2.v5 (broadcastInDim S512x32x1 ![0, 1] bcast_S512x32_S512x32x1_0_1),
    TRef.nullary main_call2.c_1 (constantI S1 32 2047#32),
    TRef.nullary main_call2.c_2 (constantI S_ 32 0#32),
    TRef.unary main_call2.c_2 main_call2.v6 (broadcastInDim S512x32x1 ![] bcast_S_S512x32x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S512x32x1 ![0, 1, 2] bcast_S1x1x1_S512x32x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S512x32x1_S512x32_d2 h_S_),
    TRef.binary (.of main_v6) main_call2.v5 main_call2.v13 (fun x i => Host.gather gather_S4096x2048_S512x32x1_S4096x512x32_0_1_n_n_1_2_40961 x i),
    TRef.unary main_call2.v12 main_call2.v14 (broadcastInDim S4096x512x32 ![1, 2] bcast_S512x32_S4096x512x32_1_2),
    TRef.nullary main_call2.cst (constant S_ .f32 0x7FC00000#32),
    TRef.unary main_call2.cst main_call2.v15 (broadcastInDim S4096x512x32 ![] bcast_S_S4096x512x32),
    TRef.ternary main_call2.v14 main_call2.v13 main_call2.v15 main_call2.v16 select,
    nullary main_cst_1 (constant S_ .f32 0x7F800000#32),
    binary main_v7 main_cst_1 main_v8 (fun x v => Host.reduce FloatOps.minimumf x v reducesTo_S4096x512x32_S4096x512_d2 h_S_),
    nullary main_cst_2 (constant S_ .f32 0xFF800000#32),
    binary main_v7 main_cst_2 main_v9 (fun x v => Host.reduce FloatOps.maximumf x v reducesTo_S4096x512x32_S4096x512_d2 h_S_),
    unary main_arg6 main_v10 (broadcastInDim S1x512 ![1] bcast_S512_S1x512_1),
    nullary main_c_3 (constantI S_ 32 1#32),
    unary main_c_3 main_v11 (broadcastInDim S1x512 ![] bcast_S_S1x512),
    binary main_v10 main_v11 main_v12 (cmpi .eq),
    TRef.unary (.of main_v12 : TRef sig ⟨S1x512, .i1⟩) main_call3.v0 (broadcastInDim S4096x512 ![0, 1] bcast_S1x512_S4096x512_0_1),
    TRef.ternary main_call3.v0 (.of main_v9) (.of main_v8) main_call3.v1 select ]

/-- The third layer's thirty-three operations (512 features in, 2048 out): the fifth and sixth calls' buffers. -/
abbrev ops2 : List (HloOp τ sig (Elt F)) :=
  [ TRef.nullary main_call4.c (constantI S_ 32 0#32),
    TRef.unary main_call4.c main_call4.v0 (broadcastInDim S2048x32 ![] bcast_S_S2048x32),
    TRef.binary (.of main_arg3) main_call4.v0 main_call4.v1 (cmpi .slt),
    TRef.nullary main_call4.c_0 (constantI S_ 32 512#32),
    TRef.unary main_call4.c_0 main_call4.v2 (broadcastInDim S2048x32 ![] bcast_S_S2048x32),
    TRef.binary (.of main_arg3) main_call4.v2 main_call4.v3 addi,
    TRef.ternary main_call4.v1 main_call4.v3 (.of main_arg3) main_call4.call0.v0 select,
    TRef.unary main_call4.call0.v0 main_call4.v5 (broadcastInDim S2048x32x1 ![0, 1] bcast_S2048x32_S2048x32x1_0_1),
    TRef.nullary main_call4.c_1 (constantI S1 32 511#32),
    TRef.nullary main_call4.c_2 (constantI S_ 32 0#32),
    TRef.unary main_call4.c_2 main_call4.v6 (broadcastInDim S2048x32x1 ![] bcast_S_S2048x32x1),
    TRef.binary main_call4.v5 main_call4.v6 main_call4.v7 (cmpi .sge),
    TRef.unary main_call4.c_1 main_call4.v8 (broadcastInDim S1x1x1 ![2] bcast_S1_S1x1x1_2),
    TRef.unary main_call4.v8 main_call4.v9 (broadcastInDim S2048x32x1 ![0, 1, 2] bcast_S1x1x1_S2048x32x1_0_1_2),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S2048x32x1_S2048x32_d2 h_S_),
    TRef.binary (.of main_v13) main_call4.v5 main_call4.v13 (fun x i => Host.gather gather_S4096x512_S2048x32x1_S4096x2048x32_0_1_n_n_1_2_40961 x i),
    TRef.unary main_call4.v12 main_call4.v14 (broadcastInDim S4096x2048x32 ![1, 2] bcast_S2048x32_S4096x2048x32_1_2),
    TRef.nullary main_call4.cst (constant S_ .f32 0x7FC00000#32),
    TRef.unary main_call4.cst main_call4.v15 (broadcastInDim S4096x2048x32 ![] bcast_S_S4096x2048x32),
    TRef.ternary main_call4.v14 main_call4.v13 main_call4.v15 main_call4.v16 select,
    nullary main_cst_4 (constant S_ .f32 0x7F800000#32),
    binary main_v14 main_cst_4 main_v15 (fun x v => Host.reduce FloatOps.minimumf x v reducesTo_S4096x2048x32_S4096x2048_d2 h_S_),
    nullary main_cst_5 (constant S_ .f32 0xFF800000#32),
    binary main_v14 main_cst_5 main_v16 (fun x v => Host.reduce FloatOps.maximumf x v reducesTo_S4096x2048x32_S4096x2048_d2 h_S_),
    unary main_arg7 main_v17 (broadcastInDim S1x2048 ![1] bcast_S2048_S1x2048_1),
    nullary main_c_6 (constantI S_ 32 1#32),
    unary main_c_6 main_v18 (broadcastInDim S1x2048 ![] bcast_S_S1x2048),
    binary main_v17 main_v18 main_v19 (cmpi .eq),
    TRef.unary (.of main_v19 : TRef sig ⟨S1x2048, .i1⟩) main_call5.v0 (broadcastInDim S4096x2048 ![0, 1] bcast_S1x2048_S4096x2048_0_1),
    TRef.ternary main_call5.v0 (.of main_v16) (.of main_v15) main_call5.v1 select ]

/-- The fourth layer's thirty-three operations (2048 features in, 1024 out): the seventh and eighth calls' buffers. -/
abbrev ops3 : List (HloOp τ sig (Elt F)) :=
  [ TRef.nullary main_call6.c (constantI S_ 32 0#32),
    TRef.unary main_call6.c main_call6.v0 (broadcastInDim S1024x32 ![] bcast_S_S1024x32),
    TRef.binary (.of main_arg4) main_call6.v0 main_call6.v1 (cmpi .slt),
    TRef.nullary main_call6.c_0 (constantI S_ 32 2048#32),
    TRef.unary main_call6.c_0 main_call6.v2 (broadcastInDim S1024x32 ![] bcast_S_S1024x32),
    TRef.binary (.of main_arg4) main_call6.v2 main_call6.v3 addi,
    TRef.ternary main_call6.v1 main_call6.v3 (.of main_arg4) main_call6.call0.v0 select,
    TRef.unary main_call6.call0.v0 main_call6.v5 (broadcastInDim S1024x32x1 ![0, 1] bcast_S1024x32_S1024x32x1_0_1),
    TRef.nullary main_call6.c_1 (constantI S1 32 2047#32),
    TRef.nullary main_call6.c_2 (constantI S_ 32 0#32),
    TRef.unary main_call6.c_2 main_call6.v6 (broadcastInDim S1024x32x1 ![] bcast_S_S1024x32x1),
    TRef.binary main_call6.v5 main_call6.v6 main_call6.v7 (cmpi .sge),
    TRef.unary main_call6.c_1 main_call6.v8 (broadcastInDim S1x1x1 ![2] bcast_S1_S1x1x1_2),
    TRef.unary main_call6.v8 main_call6.v9 (broadcastInDim S1024x32x1 ![0, 1, 2] bcast_S1x1x1_S1024x32x1_0_1_2),
    TRef.binary main_call6.v5 main_call6.v9 main_call6.v10 (cmpi .sle),
    TRef.binary main_call6.v7 main_call6.v10 main_call6.v11 andi,
    TRef.nullary main_call6.c_3 (constantI S_ 1 1#1),
    TRef.binary main_call6.v11 main_call6.c_3 main_call6.v12 (fun x v => Host.reduce IntOp.andi x v reducesTo_S1024x32x1_S1024x32_d2 h_S_),
    TRef.binary (.of main_v20) main_call6.v5 main_call6.v13 (fun x i => Host.gather gather_S4096x2048_S1024x32x1_S4096x1024x32_0_1_n_n_1_2_40961 x i),
    TRef.unary main_call6.v12 main_call6.v14 (broadcastInDim S4096x1024x32 ![1, 2] bcast_S1024x32_S4096x1024x32_1_2),
    TRef.nullary main_call6.cst (constant S_ .f32 0x7FC00000#32),
    TRef.unary main_call6.cst main_call6.v15 (broadcastInDim S4096x1024x32 ![] bcast_S_S4096x1024x32),
    TRef.ternary main_call6.v14 main_call6.v13 main_call6.v15 main_call6.v16 select,
    nullary main_cst_7 (constant S_ .f32 0x7F800000#32),
    binary main_v21 main_cst_7 main_v22 (fun x v => Host.reduce FloatOps.minimumf x v reducesTo_S4096x1024x32_S4096x1024_d2 h_S_),
    nullary main_cst_8 (constant S_ .f32 0xFF800000#32),
    binary main_v21 main_cst_8 main_v23 (fun x v => Host.reduce FloatOps.maximumf x v reducesTo_S4096x1024x32_S4096x1024_d2 h_S_),
    unary main_arg8 main_v24 (broadcastInDim S1x1024 ![1] bcast_S1024_S1x1024_1),
    nullary main_c_9 (constantI S_ 32 1#32),
    unary main_c_9 main_v25 (broadcastInDim S1x1024 ![] bcast_S_S1x1024),
    binary main_v24 main_v25 main_v26 (cmpi .eq),
    TRef.unary (.of main_v26 : TRef sig ⟨S1x1024, .i1⟩) main_call7.v0 (broadcastInDim S4096x1024 ![0, 1] bcast_S1x1024_S4096x1024_0_1),
    TRef.ternary main_call7.v0 (.of main_v23) (.of main_v22) main_call7.v1 select ]

/-- Every operation of the entry function in order, each call replaced by its callee's operations: the four layers'. -/
abbrev ops : List (HloOp τ sig (Elt F)) := ops0 ++ (ops1 ++ (ops2 ++ ops3))

-- some hundred and thirty binds re-associated: the rewrite under the chain recurses once per statement
set_option maxRecDepth 4096 in
/-- The entry function is that straight line: each callee's definition unfolded at its call and each call's record at
    its fields, both sides are one chain of single steps once sequencing is re-associated. -/
theorem main_eq (c : Dev nD) : main (F := F) c = seq ops := by
  simp only [main, fn_take.body, fn_take_1.body, fn_take_4.body, fn_take_5.body, fn_where.body, fn_where_0.body,
    fn_where_2.body, fn_where_3.body, fn_where_6.body, fn_where_7.body, ops, ops0, ops1, ops2, ops3,
    List.cons_append, List.nil_append, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the first layer touches TensorCore references only. -/
theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    binary_bufs_sub .., nullary_bufs_sub .., binary_bufs_sub .., unary_bufs_sub .., nullary_bufs_sub .., unary_bufs_sub ..,
    binary_bufs_sub .., unary_bufs_sub .., ternary_bufs_sub ..⟩

/-- Every operation of the second layer touches TensorCore references only. -/
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    binary_bufs_sub .., nullary_bufs_sub .., binary_bufs_sub .., unary_bufs_sub .., nullary_bufs_sub .., unary_bufs_sub ..,
    binary_bufs_sub .., unary_bufs_sub .., ternary_bufs_sub ..⟩

/-- Every operation of the third layer touches TensorCore references only. -/
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    binary_bufs_sub .., nullary_bufs_sub .., binary_bufs_sub .., unary_bufs_sub .., nullary_bufs_sub .., unary_bufs_sub ..,
    binary_bufs_sub .., unary_bufs_sub .., ternary_bufs_sub ..⟩

/-- Every operation of the fourth layer touches TensorCore references only. -/
theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    binary_bufs_sub .., nullary_bufs_sub .., binary_bufs_sub .., unary_bufs_sub .., nullary_bufs_sub .., unary_bufs_sub ..,
    binary_bufs_sub .., unary_bufs_sub .., ternary_bufs_sub ..⟩

/-- So does every operation of the whole line: a property of all members of a concatenation holds of each piece. -/
theorem ops_sub : (ops : List (HloOp τ sig (Elt F))).Forall fun op => op.bufs ⊆ tcRefs τ sig :=
  List.forall_append.mpr ⟨ops0_sub, List.forall_append.mpr ⟨ops1_sub, List.forall_append.mpr ⟨ops2_sub, ops3_sub⟩⟩⟩

/-- At the compiled mesh, for any float values, from any memory with zero counters: every weakly fair execution of the
    entry function on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RStageLib.lean ====
/-
  Two facts every layer's reading uses: a fold over two stretches of operations run one after the other is the second
  stretch's fold over what the first leaves; and the nine argument buffers, named as one list.
-/
import proofs.«424863_j77781857731251_2_alg».proof.Proof.RRun

noncomputable section

namespace Cert.ReferenceIdeal.HandRun

open Idealize.ShloMosaic Idealize.ShloMosaic.TcCoe Idealize.ShloMosaic.StableHlo Idealize.SL.Sem
open Cert.ReferenceIdeal Cert.ReferenceIdeal.Hand
open Cert.ReferenceIdeal.Facts₀ Cert.ReferenceIdeal.Facts

variable {F : FTy → Type} [FloatOps F]

/-- The fold over two stretches run one after the other is the second stretch's fold over what the first leaves. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The nine argument buffers: the activations, the four tables of feature numbers, the four selector vectors. -/
abbrev argRefs : List (Ref sig .tc) :=
  [main_arg0, main_arg1, main_arg2, main_arg3, main_arg4, main_arg5, main_arg6, main_arg7, main_arg8]

end Cert.ReferenceIdeal.HandRun

end
-- ==== Proof.RStage0.lean ====
/-
  The first layer of the reference's straight line, read from ANY contents of the buffers. Its operations are cut into
  three stretches: the gather part (the feature numbers normalised, the in-range mask, the gather along the feature
  axis, the fill outside the mask), the two reductions over the 32 gathered entries together with the selector's
  comparison with one, and the selection between maximum and minimum. What each stretch leaves in the buffer it is
  read at is one operation, or one hand-named stage, of what the buffers it reads held; so the layer's result buffer
  holds the layer of what its three inputs held, and no argument buffer is written.
-/
import proofs.«424863_j77781857731251_2_alg».proof.Proof.RStageLib

noncomputable section

namespace Cert.ReferenceIdeal.HandRun

open Idealize.ShloMosaic Idealize.ShloMosaic.TcCoe Idealize.ShloMosaic.StableHlo Idealize.SL.Sem
open Cert.ReferenceIdeal Cert.ReferenceIdeal.Hand
open Cert.ReferenceIdeal.Facts₀ Cert.ReferenceIdeal.Facts

variable {F : FTy → Type} [FloatOps F]

/-- The first layer's gather part: the index normalisation, the in-range mask, the gather and the fill. -/
abbrev opsT0 : List (HloOp τ sig (Elt F)) :=
  [ TRef.nullary main_call0.c (constantI S_ 32 0#32),
    TRef.unary main_call0.c main_call0.v0 (broadcastInDim S2048x32 ![] bcast_S_S2048x32),
    TRef.binary (.of main_arg1) main_call0.v0 main_call0.v1 (cmpi .slt),
    TRef.nullary main_call0.c_0 (constantI S_ 32 1024#32),
    TRef.unary main_call0.c_0 main_call0.v2 (broadcastInDim S2048x32 ![] bcast_S_S2048x32),
    TRef.binary (.of main_arg1) main_call0.v2 main_call0.v3 addi,
    TRef.ternary main_call0.v1 main_call0.v3 (.of main_arg1) main_call0.call0.v0 select,
    TRef.unary main_call0.call0.v0 main_call0.v5 (broadcastInDim S2048x32x1 ![0, 1] bcast_S2048x32_S2048x32x1_0_1),
    TRef.nullary main_call0.c_1 (constantI S1 32 1023#32),
    TRef.nullary main_call0.c_2 (constantI S_ 32 0#32),
    TRef.unary main_call0.c_2 main_call0.v6 (broadcastInDim S2048x32x1 ![] bcast_S_S2048x32x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S2048x32x1 ![0, 1, 2] bcast_S1x1x1_S2048x32x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2048x32x1_S2048x32_d2 h_S_),
    TRef.binary (.of main_arg0) main_call0.v5 main_call0.v13 (fun x i => Host.gather gather_S4096x1024_S2048x32x1_S4096x2048x32_0_1_n_n_1_2_40961 x i),
    TRef.unary main_call0.v12 main_call0.v14 (broadcastInDim S4096x2048x32 ![1, 2] bcast_S2048x32_S4096x2048x32_1_2),
    TRef.nullary main_call0.cst (constant S_ .f32 0x7FC00000#32),
    TRef.unary main_call0.cst main_call0.v15 (broadcastInDim S4096x2048x32 ![] bcast_S_S4096x2048x32),
    TRef.ternary main_call0.v14 main_call0.v13 main_call0.v15 main_call0.v16 select ]

/-- The first layer's two reductions with their initial words, and its selector compared with one. -/
abbrev opsRa0 : List (HloOp τ sig (Elt F)) :=
  [ nullary main_cst (constant S_ .f32 0x7F800000#32),
    binary main_v0 main_cst main_v1 (fun x v => Host.reduce FloatOps.minimumf x v reducesTo_S4096x2048x32_S4096x2048_d2 h_S_),
    nullary main_cst_0 (constant S_ .f32 0xFF800000#32),
    binary main_v0 main_cst_0 main_v2 (fun x v => Host.reduce FloatOps.maximumf x v reducesTo_S4096x2048x32_S4096x2048_d2 h_S_),
    unary main_arg5 main_v3 (broadcastInDim S1x2048 ![1] bcast_S2048_S1x2048_1),
    nullary main_c (constantI S_ 32 1#32),
    unary main_c main_v4 (broadcastInDim S1x2048 ![] bcast_S_S1x2048),
    binary main_v3 main_v4 main_v5 (cmpi .eq) ]

/-- The first layer's selection between the maximum and the minimum. -/
abbrev opsRb0 : List (HloOp τ sig (Elt F)) :=
  [ TRef.unary (.of main_v5 : TRef sig ⟨S1x2048, .i1⟩) main_call1.v0 (broadcastInDim S4096x2048 ![0, 1] bcast_S1x2048_S4096x2048_0_1),
    TRef.ternary main_call1.v0 (.of main_v2) (.of main_v1) main_call1.v1 select ]

theorem ops0_split : (ops0 : List (HloOp τ sig (Elt F))) = opsT0 ++ (opsRa0 ++ opsRb0) := rfl

set_option maxRecDepth 8192 in
/-- The first layer's gathered entries, from any contents. -/
theorem take0_eq (W : Valuation τ sig (Elt F)) :
    after opsT0 W (main_v0 : DevRef τ sig) = take0 (W (main_arg0 : DevRef τ sig)) (W (main_arg1 : DevRef τ sig)) := by
  after_results_simp
  simp only [TRef.ofBuf, TRef.toBuf, cast_cast, cast_eq]
  rfl

/-- The gather part leaves the selector vector as it was. -/
theorem take0_op (W : Valuation τ sig (Elt F)) :
    after opsT0 W (main_arg5 : DevRef τ sig) = W (main_arg5 : DevRef τ sig) := by
  after_results_simp

/-- The minimum over the 32 gathered entries, from any contents. -/
theorem min0_eq (W : Valuation τ sig (Elt F)) :
    after opsRa0 W (main_v1 : DevRef τ sig)
      = Host.reduce FloatOps.minimumf (W (main_v0 : DevRef τ sig)) (constant S_ .f32 0x7F800000#32) reducesTo_S4096x2048x32_S4096x2048_d2 h_S_ := by
  after_results_simp

/-- The maximum over the 32 gathered entries, from any contents. -/
theorem max0_eq (W : Valuation τ sig (Elt F)) :
    after opsRa0 W (main_v2 : DevRef τ sig)
      = Host.reduce FloatOps.maximumf (W (main_v0 : DevRef τ sig)) (constant S_ .f32 0xFF800000#32) reducesTo_S4096x2048x32_S4096x2048_d2 h_S_ := by
  after_results_simp

/-- The selector compared with one, as a row, from any contents. -/
theorem sel0_eq (W : Valuation τ sig (Elt F)) :
    after opsRa0 W (main_v5 : DevRef τ sig)
      = cmpi .eq (broadcastInDim S1x2048 ![1] bcast_S2048_S1x2048_1 (W (main_arg5 : DevRef τ sig))) (broadcastInDim S1x2048 ![] bcast_S_S1x2048 (constantI S_ 32 1#32)) := by
  after_results_simp

/-- The selection between two arrays by a row of bits, from any contents. -/
theorem pick0_eq (W : Valuation τ sig (Elt F)) :
    after opsRb0 W (main_v6 : DevRef τ sig)
      = select (broadcastInDim S4096x2048 ![0, 1] bcast_S1x2048_S4096x2048_0_1 (W (main_v5 : DevRef τ sig))) (W (main_v2 : DevRef τ sig)) (W (main_v1 : DevRef τ sig)) := by
  after_results_simp
  simp only [TRef.ofBuf, TRef.toBuf, cast_cast, cast_eq]

/-- The first layer's result buffer after its operations, from any contents: the layer of what its three inputs held. -/
theorem layer0_eq (W : Valuation τ sig (Elt F)) :
    after ops0 W (main_v6 : DevRef τ sig) = refLayer0 (W (main_arg0 : DevRef τ sig)) (W (main_arg1 : DevRef τ sig)) (W (main_arg5 : DevRef τ sig)) := by
  rw [ops0_split, after_app, after_app, pick0_eq, sel0_eq, max0_eq, min0_eq, take0_eq, take0_op]
  rfl

/-- The first layer writes no argument buffer: each holds afterwards what it held before. -/
theorem layer0_keep (W : Valuation τ sig (Elt F)) (r : Ref sig .tc) (hr : r ∈ argRefs) :
    after ops0 W (r : DevRef τ sig) = W (r : DevRef τ sig) := by
  simp only [argRefs, List.mem_cons, List.not_mem_nil, or_false] at hr
  rcases hr with rfl | rfl | rfl | rfl | rfl | rfl | rfl | rfl | rfl <;> after_results_simp

end Cert.ReferenceIdeal.HandRun

end
-- ==== Proof.RStage1.lean ====
/-
  The second layer of the reference's straight line, read from ANY contents of the buffers. Its operations are cut into
  three stretches: the gather part (the feature numbers normalised, the in-range mask, the gather along the feature
  axis, the fill outside the mask), the two reductions over the 32 gathered entries together with the selector's
  comparison with one, and the selection between maximum and minimum. What each stretch leaves in the buffer it is
  read at is one operation, or one hand-named stage, of what the buffers it reads held; so the layer's result buffer
  holds the layer of what its three inputs held, and no argument buffer is written.
-/
import proofs.«424863_j77781857731251_2_alg».proof.Proof.RStageLib

noncomputable section

namespace Cert.ReferenceIdeal.HandRun

open Idealize.ShloMosaic Idealize.ShloMosaic.TcCoe Idealize.ShloMosaic.StableHlo Idealize.SL.Sem
open Cert.ReferenceIdeal Cert.ReferenceIdeal.Hand
open Cert.ReferenceIdeal.Facts₀ Cert.ReferenceIdeal.Facts

variable {F : FTy → Type} [FloatOps F]

/-- The second layer's gather part: the index normalisation, the in-range mask, the gather and the fill. -/
abbrev opsT1 : List (HloOp τ sig (Elt F)) :=
  [ TRef.nullary main_call2.c (constantI S_ 32 0#32),
    TRef.unary main_call2.c main_call2.v0 (broadcastInDim S512x32 ![] bcast_S_S512x32),
    TRef.binary (.of main_arg2) main_call2.v0 main_call2.v1 (cmpi .slt),
    TRef.nullary main_call2.c_0 (constantI S_ 32 2048#32),
    TRef.unary main_call2.c_0 main_call2.v2 (broadcastInDim S512x32 ![] bcast_S_S512x32),
    TRef.binary (.of main_arg2) main_call2.v2 main_call2.v3 addi,
    TRef.ternary main_call2.v1 main_call2.v3 (.of main_arg2) main_call2.call0.v0 select,
    TRef.unary main_call2.call0.v0 main_call2.v5 (broadcastInDim S512x32x1 ![0, 1] bcast_S512x32_S512x32x1_0_1),
    TRef.nullary main_call2.c_1 (constantI S1 32 2047#32),
    TRef.nullary main_call2.c_2 (constantI S_ 32 0#32),
    TRef.unary main_call2.c_2 main_call2.v6 (broadcastInDim S512x32x1 ![] bcast_S_S512x32x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S512x32x1 ![0, 1, 2] bcast_S1x1x1_S512x32x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S512x32x1_S512x32_d2 h_S_),
    TRef.binary (.of main_v6) main_call2.v5 main_call2.v13 (fun x i => Host.gather gather_S4096x2048_S512x32x1_S4096x512x32_0_1_n_n_1_2_40961 x i),
    TRef.unary main_call2.v12 main_call2.v14 (broadcastInDim S4096x512x32 ![1, 2] bcast_S512x32_S4096x512x32_1_2),
    TRef.nullary main_call2.cst (constant S_ .f32 0x7FC00000#32),
    TRef.unary main_call2.cst main_call2.v15 (broadcastInDim S4096x512x32 ![] bcast_S_S4096x512x32),
    TRef.ternary main_call2.v14 main_call2.v13 main_call2.v15 main_call2.v16 select ]

/-- The second layer's two reductions with their initial words, and its selector compared with one. -/
abbrev opsRa1 : List (HloOp τ sig (Elt F)) :=
  [ nullary main_cst_1 (constant S_ .f32 0x7F800000#32),
    binary main_v7 main_cst_1 main_v8 (fun x v => Host.reduce FloatOps.minimumf x v reducesTo_S4096x512x32_S4096x512_d2 h_S_),
    nullary main_cst_2 (constant S_ .f32 0xFF800000#32),
    binary main_v7 main_cst_2 main_v9 (fun x v => Host.reduce FloatOps.maximumf x v reducesTo_S4096x512x32_S4096x512_d2 h_S_),
    unary main_arg6 main_v10 (broadcastInDim S1x512 ![1] bcast_S512_S1x512_1),
    nullary main_c_3 (constantI S_ 32 1#32),
    unary main_c_3 main_v11 (broadcastInDim S1x512 ![] bcast_S_S1x512),
    binary main_v10 main_v11 main_v12 (cmpi .eq) ]

/-- The second layer's selection between the maximum and the minimum. -/
abbrev opsRb1 : List (HloOp τ sig (Elt F)) :=
  [ TRef.unary (.of main_v12 : TRef sig ⟨S1x512, .i1⟩) main_call3.v0 (broadcastInDim S4096x512 ![0, 1] bcast_S1x512_S4096x512_0_1),
    TRef.ternary main_call3.v0 (.of main_v9) (.of main_v8) main_call3.v1 select ]

theorem ops1_split : (ops1 : List (HloOp τ sig (Elt F))) = opsT1 ++ (opsRa1 ++ opsRb1) := rfl

set_option maxRecDepth 8192 in
/-- The second layer's gathered entries, from any contents. -/
theorem take1_eq (W : Valuation τ sig (Elt F)) :
    after opsT1 W (main_v7 : DevRef τ sig) = take1 (W (main_v6 : DevRef τ sig)) (W (main_arg2 : DevRef τ sig)) := by
  after_results_simp
  simp only [TRef.ofBuf, TRef.toBuf, cast_cast, cast_eq]
  rfl

/-- The gather part leaves the selector vector as it was. -/
theorem take1_op (W : Valuation τ sig (Elt F)) :
    after opsT1 W (main_arg6 : DevRef τ sig) = W (main_arg6 : DevRef τ sig) := by
  after_results_simp

/-- The minimum over the 32 gathered entries, from any contents. -/
theorem min1_eq (W : Valuation τ sig (Elt F)) :
    after opsRa1 W (main_v8 : DevRef τ sig)
      = Host.reduce FloatOps.minimumf (W (main_v7 : DevRef τ sig)) (constant S_ .f32 0x7F800000#32) reducesTo_S4096x512x32_S4096x512_d2 h_S_ := by
  after_results_simp

/-- The maximum over the 32 gathered entries, from any contents. -/
theorem max1_eq (W : Valuation τ sig (Elt F)) :
    after opsRa1 W (main_v9 : DevRef τ sig)
      = Host.reduce FloatOps.maximumf (W (main_v7 : DevRef τ sig)) (constant S_ .f32 0xFF800000#32) reducesTo_S4096x512x32_S4096x512_d2 h_S_ := by
  after_results_simp

/-- The selector compared with one, as a row, from any contents. -/
theorem sel1_eq (W : Valuation τ sig (Elt F)) :
    after opsRa1 W (main_v12 : DevRef τ sig)
      = cmpi .eq (broadcastInDim S1x512 ![1] bcast_S512_S1x512_1 (W (main_arg6 : DevRef τ sig))) (broadcastInDim S1x512 ![] bcast_S_S1x512 (constantI S_ 32 1#32)) := by
  after_results_simp

/-- The selection between two arrays by a row of bits, from any contents. -/
theorem pick1_eq (W : Valuation τ sig (Elt F)) :
    after opsRb1 W (main_v13 : DevRef τ sig)
      = select (broadcastInDim S4096x512 ![0, 1] bcast_S1x512_S4096x512_0_1 (W (main_v12 : DevRef τ sig))) (W (main_v9 : DevRef τ sig)) (W (main_v8 : DevRef τ sig)) := by
  after_results_simp
  simp only [TRef.ofBuf, TRef.toBuf, cast_cast, cast_eq]

/-- The second layer's result buffer after its operations, from any contents: the layer of what its three inputs held. -/
theorem layer1_eq (W : Valuation τ sig (Elt F)) :
    after ops1 W (main_v13 : DevRef τ sig) = refLayer1 (W (main_v6 : DevRef τ sig)) (W (main_arg2 : DevRef τ sig)) (W (main_arg6 : DevRef τ sig)) := by
  rw [ops1_split, after_app, after_app, pick1_eq, sel1_eq, max1_eq, min1_eq, take1_eq, take1_op]
  rfl

/-- The second layer writes no argument buffer: each holds afterwards what it held before. -/
theorem layer1_keep (W : Valuation τ sig (Elt F)) (r : Ref sig .tc) (hr : r ∈ argRefs) :
    after ops1 W (r : DevRef τ sig) = W (r : DevRef τ sig) := by
  simp only [argRefs, List.mem_cons, List.not_mem_nil, or_false] at hr
  rcases hr with rfl | rfl | rfl | rfl | rfl | rfl | rfl | rfl | rfl <;> after_results_simp

end Cert.ReferenceIdeal.HandRun

end
-- ==== Proof.RStage2.lean ====
/-
  The third layer of the reference's straight line, read from ANY contents of the buffers. Its operations are cut into
  three stretches: the gather part (the feature numbers normalised, the in-range mask, the gather along the feature
  axis, the fill outside the mask), the two reductions over the 32 gathered entries together with the selector's
  comparison with one, and the selection between maximum and minimum. What each stretch leaves in the buffer it is
  read at is one operation, or one hand-named stage, of what the buffers it reads held; so the layer's result buffer
  holds the layer of what its three inputs held, and no argument buffer is written.
-/
import proofs.«424863_j77781857731251_2_alg».proof.Proof.RStageLib

noncomputable section

namespace Cert.ReferenceIdeal.HandRun

open Idealize.ShloMosaic Idealize.ShloMosaic.TcCoe Idealize.ShloMosaic.StableHlo Idealize.SL.Sem
open Cert.ReferenceIdeal Cert.ReferenceIdeal.Hand
open Cert.ReferenceIdeal.Facts₀ Cert.ReferenceIdeal.Facts

variable {F : FTy → Type} [FloatOps F]

/-- The third layer's gather part: the index normalisation, the in-range mask, the gather and the fill. -/
abbrev opsT2 : List (HloOp τ sig (Elt F)) :=
  [ TRef.nullary main_call4.c (constantI S_ 32 0#32),
    TRef.unary main_call4.c main_call4.v0 (broadcastInDim S2048x32 ![] bcast_S_S2048x32),
    TRef.binary (.of main_arg3) main_call4.v0 main_call4.v1 (cmpi .slt),
    TRef.nullary main_call4.c_0 (constantI S_ 32 512#32),
    TRef.unary main_call4.c_0 main_call4.v2 (broadcastInDim S2048x32 ![] bcast_S_S2048x32),
    TRef.binary (.of main_arg3) main_call4.v2 main_call4.v3 addi,
    TRef.ternary main_call4.v1 main_call4.v3 (.of main_arg3) main_call4.call0.v0 select,
    TRef.unary main_call4.call0.v0 main_call4.v5 (broadcastInDim S2048x32x1 ![0, 1] bcast_S2048x32_S2048x32x1_0_1),
    TRef.nullary main_call4.c_1 (constantI S1 32 511#32),
    TRef.nullary main_call4.c_2 (constantI S_ 32 0#32),
    TRef.unary main_call4.c_2 main_call4.v6 (broadcastInDim S2048x32x1 ![] bcast_S_S2048x32x1),
    TRef.binary main_call4.v5 main_call4.v6 main_call4.v7 (cmpi .sge),
    TRef.unary main_call4.c_1 main_call4.v8 (broadcastInDim S1x1x1 ![2] bcast_S1_S1x1x1_2),
    TRef.unary main_call4.v8 main_call4.v9 (broadcastInDim S2048x32x1 ![0, 1, 2] bcast_S1x1x1_S2048x32x1_0_1_2),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S2048x32x1_S2048x32_d2 h_S_),
    TRef.binary (.of main_v13) main_call4.v5 main_call4.v13 (fun x i => Host.gather gather_S4096x512_S2048x32x1_S4096x2048x32_0_1_n_n_1_2_40961 x i),
    TRef.unary main_call4.v12 main_call4.v14 (broadcastInDim S4096x2048x32 ![1, 2] bcast_S2048x32_S4096x2048x32_1_2),
    TRef.nullary main_call4.cst (constant S_ .f32 0x7FC00000#32),
    TRef.unary main_call4.cst main_call4.v15 (broadcastInDim S4096x2048x32 ![] bcast_S_S4096x2048x32),
    TRef.ternary main_call4.v14 main_call4.v13 main_call4.v15 main_call4.v16 select ]

/-- The third layer's two reductions with their initial words, and its selector compared with one. -/
abbrev opsRa2 : List (HloOp τ sig (Elt F)) :=
  [ nullary main_cst_4 (constant S_ .f32 0x7F800000#32),
    binary main_v14 main_cst_4 main_v15 (fun x v => Host.reduce FloatOps.minimumf x v reducesTo_S4096x2048x32_S4096x2048_d2 h_S_),
    nullary main_cst_5 (constant S_ .f32 0xFF800000#32),
    binary main_v14 main_cst_5 main_v16 (fun x v => Host.reduce FloatOps.maximumf x v reducesTo_S4096x2048x32_S4096x2048_d2 h_S_),
    unary main_arg7 main_v17 (broadcastInDim S1x2048 ![1] bcast_S2048_S1x2048_1),
    nullary main_c_6 (constantI S_ 32 1#32),
    unary main_c_6 main_v18 (broadcastInDim S1x2048 ![] bcast_S_S1x2048),
    binary main_v17 main_v18 main_v19 (cmpi .eq) ]

/-- The third layer's selection between the maximum and the minimum. -/
abbrev opsRb2 : List (HloOp τ sig (Elt F)) :=
  [ TRef.unary (.of main_v19 : TRef sig ⟨S1x2048, .i1⟩) main_call5.v0 (broadcastInDim S4096x2048 ![0, 1] bcast_S1x2048_S4096x2048_0_1),
    TRef.ternary main_call5.v0 (.of main_v16) (.of main_v15) main_call5.v1 select ]

theorem ops2_split : (ops2 : List (HloOp τ sig (Elt F))) = opsT2 ++ (opsRa2 ++ opsRb2) := rfl

set_option maxRecDepth 8192 in
/-- The third layer's gathered entries, from any contents. -/
theorem take2_eq (W : Valuation τ sig (Elt F)) :
    after opsT2 W (main_v14 : DevRef τ sig) = take2 (W (main_v13 : DevRef τ sig)) (W (main_arg3 : DevRef τ sig)) := by
  after_results_simp
  simp only [TRef.ofBuf, TRef.toBuf, cast_cast, cast_eq]
  rfl

/-- The gather part leaves the selector vector as it was. -/
theorem take2_op (W : Valuation τ sig (Elt F)) :
    after opsT2 W (main_arg7 : DevRef τ sig) = W (main_arg7 : DevRef τ sig) := by
  after_results_simp

/-- The minimum over the 32 gathered entries, from any contents. -/
theorem min2_eq (W : Valuation τ sig (Elt F)) :
    after opsRa2 W (main_v15 : DevRef τ sig)
      = Host.reduce FloatOps.minimumf (W (main_v14 : DevRef τ sig)) (constant S_ .f32 0x7F800000#32) reducesTo_S4096x2048x32_S4096x2048_d2 h_S_ := by
  after_results_simp

/-- The maximum over the 32 gathered entries, from any contents. -/
theorem max2_eq (W : Valuation τ sig (Elt F)) :
    after opsRa2 W (main_v16 : DevRef τ sig)
      = Host.reduce FloatOps.maximumf (W (main_v14 : DevRef τ sig)) (constant S_ .f32 0xFF800000#32) reducesTo_S4096x2048x32_S4096x2048_d2 h_S_ := by
  after_results_simp

/-- The selector compared with one, as a row, from any contents. -/
theorem sel2_eq (W : Valuation τ sig (Elt F)) :
    after opsRa2 W (main_v19 : DevRef τ sig)
      = cmpi .eq (broadcastInDim S1x2048 ![1] bcast_S2048_S1x2048_1 (W (main_arg7 : DevRef τ sig))) (broadcastInDim S1x2048 ![] bcast_S_S1x2048 (constantI S_ 32 1#32)) := by
  after_results_simp

/-- The selection between two arrays by a row of bits, from any contents. -/
theorem pick2_eq (W : Valuation τ sig (Elt F)) :
    after opsRb2 W (main_v20 : DevRef τ sig)
      = select (broadcastInDim S4096x2048 ![0, 1] bcast_S1x2048_S4096x2048_0_1 (W (main_v19 : DevRef τ sig))) (W (main_v16 : DevRef τ sig)) (W (main_v15 : DevRef τ sig)) := by
  after_results_simp
  simp only [TRef.ofBuf, TRef.toBuf, cast_cast, cast_eq]

/-- The third layer's result buffer after its operations, from any contents: the layer of what its three inputs held. -/
theorem layer2_eq (W : Valuation τ sig (Elt F)) :
    after ops2 W (main_v20 : DevRef τ sig) = refLayer2 (W (main_v13 : DevRef τ sig)) (W (main_arg3 : DevRef τ sig)) (W (main_arg7 : DevRef τ sig)) := by
  rw [ops2_split, after_app, after_app, pick2_eq, sel2_eq, max2_eq, min2_eq, take2_eq, take2_op]
  rfl

/-- The third layer writes no argument buffer: each holds afterwards what it held before. -/
theorem layer2_keep (W : Valuation τ sig (Elt F)) (r : Ref sig .tc) (hr : r ∈ argRefs) :
    after ops2 W (r : DevRef τ sig) = W (r : DevRef τ sig) := by
  simp only [argRefs, List.mem_cons, List.not_mem_nil, or_false] at hr
  rcases hr with rfl | rfl | rfl | rfl | rfl | rfl | rfl | rfl | rfl <;> after_results_simp

end Cert.ReferenceIdeal.HandRun

end
-- ==== Proof.RStage3.lean ====
/-
  The fourth layer of the reference's straight line, read from ANY contents of the buffers. Its operations are cut into
  three stretches: the gather part (the feature numbers normalised, the in-range mask, the gather along the feature
  axis, the fill outside the mask), the two reductions over the 32 gathered entries together with the selector's
  comparison with one, and the selection between maximum and minimum. What each stretch leaves in the buffer it is
  read at is one operation, or one hand-named stage, of what the buffers it reads held; so the layer's result buffer
  holds the layer of what its three inputs held, and no argument buffer is written.
-/
import proofs.«424863_j77781857731251_2_alg».proof.Proof.RStageLib

noncomputable section

namespace Cert.ReferenceIdeal.HandRun

open Idealize.ShloMosaic Idealize.ShloMosaic.TcCoe Idealize.ShloMosaic.StableHlo Idealize.SL.Sem
open Cert.ReferenceIdeal Cert.ReferenceIdeal.Hand
open Cert.ReferenceIdeal.Facts₀ Cert.ReferenceIdeal.Facts

variable {F : FTy → Type} [FloatOps F]

/-- The fourth layer's gather part: the index normalisation, the in-range mask, the gather and the fill. -/
abbrev opsT3 : List (HloOp τ sig (Elt F)) :=
  [ TRef.nullary main_call6.c (constantI S_ 32 0#32),
    TRef.unary main_call6.c main_call6.v0 (broadcastInDim S1024x32 ![] bcast_S_S1024x32),
    TRef.binary (.of main_arg4) main_call6.v0 main_call6.v1 (cmpi .slt),
    TRef.nullary main_call6.c_0 (constantI S_ 32 2048#32),
    TRef.unary main_call6.c_0 main_call6.v2 (broadcastInDim S1024x32 ![] bcast_S_S1024x32),
    TRef.binary (.of main_arg4) main_call6.v2 main_call6.v3 addi,
    TRef.ternary main_call6.v1 main_call6.v3 (.of main_arg4) main_call6.call0.v0 select,
    TRef.unary main_call6.call0.v0 main_call6.v5 (broadcastInDim S1024x32x1 ![0, 1] bcast_S1024x32_S1024x32x1_0_1),
    TRef.nullary main_call6.c_1 (constantI S1 32 2047#32),
    TRef.nullary main_call6.c_2 (constantI S_ 32 0#32),
    TRef.unary main_call6.c_2 main_call6.v6 (broadcastInDim S1024x32x1 ![] bcast_S_S1024x32x1),
    TRef.binary main_call6.v5 main_call6.v6 main_call6.v7 (cmpi .sge),
    TRef.unary main_call6.c_1 main_call6.v8 (broadcastInDim S1x1x1 ![2] bcast_S1_S1x1x1_2),
    TRef.unary main_call6.v8 main_call6.v9 (broadcastInDim S1024x32x1 ![0, 1, 2] bcast_S1x1x1_S1024x32x1_0_1_2),
    TRef.binary main_call6.v5 main_call6.v9 main_call6.v10 (cmpi .sle),
    TRef.binary main_call6.v7 main_call6.v10 main_call6.v11 andi,
    TRef.nullary main_call6.c_3 (constantI S_ 1 1#1),
    TRef.binary main_call6.v11 main_call6.c_3 main_call6.v12 (fun x v => Host.reduce IntOp.andi x v reducesTo_S1024x32x1_S1024x32_d2 h_S_),
    TRef.binary (.of main_v20) main_call6.v5 main_call6.v13 (fun x i => Host.gather gather_S4096x2048_S1024x32x1_S4096x1024x32_0_1_n_n_1_2_40961 x i),
    TRef.unary main_call6.v12 main_call6.v14 (broadcastInDim S4096x1024x32 ![1, 2] bcast_S1024x32_S4096x1024x32_1_2),
    TRef.nullary main_call6.cst (constant S_ .f32 0x7FC00000#32),
    TRef.unary main_call6.cst main_call6.v15 (broadcastInDim S4096x1024x32 ![] bcast_S_S4096x1024x32),
    TRef.ternary main_call6.v14 main_call6.v13 main_call6.v15 main_call6.v16 select ]

/-- The fourth layer's two reductions with their initial words, and its selector compared with one. -/
abbrev opsRa3 : List (HloOp τ sig (Elt F)) :=
  [ nullary main_cst_7 (constant S_ .f32 0x7F800000#32),
    binary main_v21 main_cst_7 main_v22 (fun x v => Host.reduce FloatOps.minimumf x v reducesTo_S4096x1024x32_S4096x1024_d2 h_S_),
    nullary main_cst_8 (constant S_ .f32 0xFF800000#32),
    binary main_v21 main_cst_8 main_v23 (fun x v => Host.reduce FloatOps.maximumf x v reducesTo_S4096x1024x32_S4096x1024_d2 h_S_),
    unary main_arg8 main_v24 (broadcastInDim S1x1024 ![1] bcast_S1024_S1x1024_1),
    nullary main_c_9 (constantI S_ 32 1#32),
    unary main_c_9 main_v25 (broadcastInDim S1x1024 ![] bcast_S_S1x1024),
    binary main_v24 main_v25 main_v26 (cmpi .eq) ]

/-- The fourth layer's selection between the maximum and the minimum. -/
abbrev opsRb3 : List (HloOp τ sig (Elt F)) :=
  [ TRef.unary (.of main_v26 : TRef sig ⟨S1x1024, .i1⟩) main_call7.v0 (broadcastInDim S4096x1024 ![0, 1] bcast_S1x1024_S4096x1024_0_1),
    TRef.ternary main_call7.v0 (.of main_v23) (.of main_v22) main_call7.v1 select ]

theorem ops3_split : (ops3 : List (HloOp τ sig (Elt F))) = opsT3 ++ (opsRa3 ++ opsRb3) := rfl

set_option maxRecDepth 8192 in
/-- The fourth layer's gathered entries, from any contents. -/
theorem take3_eq (W : Valuation τ sig (Elt F)) :
    after opsT3 W (main_v21 : DevRef τ sig) = take3 (W (main_v20 : DevRef τ sig)) (W (main_arg4 : DevRef τ sig)) := by
  after_results_simp
  simp only [TRef.ofBuf, TRef.toBuf, cast_cast, cast_eq]
  rfl

/-- The gather part leaves the selector vector as it was. -/
theorem take3_op (W : Valuation τ sig (Elt F)) :
    after opsT3 W (main_arg8 : DevRef τ sig) = W (main_arg8 : DevRef τ sig) := by
  after_results_simp

/-- The minimum over the 32 gathered entries, from any contents. -/
theorem min3_eq (W : Valuation τ sig (Elt F)) :
    after opsRa3 W (main_v22 : DevRef τ sig)
      = Host.reduce FloatOps.minimumf (W (main_v21 : DevRef τ sig)) (constant S_ .f32 0x7F800000#32) reducesTo_S4096x1024x32_S4096x1024_d2 h_S_ := by
  after_results_simp

/-- The maximum over the 32 gathered entries, from any contents. -/
theorem max3_eq (W : Valuation τ sig (Elt F)) :
    after opsRa3 W (main_v23 : DevRef τ sig)
      = Host.reduce FloatOps.maximumf (W (main_v21 : DevRef τ sig)) (constant S_ .f32 0xFF800000#32) reducesTo_S4096x1024x32_S4096x1024_d2 h_S_ := by
  after_results_simp

/-- The selector compared with one, as a row, from any contents. -/
theorem sel3_eq (W : Valuation τ sig (Elt F)) :
    after opsRa3 W (main_v26 : DevRef τ sig)
      = cmpi .eq (broadcastInDim S1x1024 ![1] bcast_S1024_S1x1024_1 (W (main_arg8 : DevRef τ sig))) (broadcastInDim S1x1024 ![] bcast_S_S1x1024 (constantI S_ 32 1#32)) := by
  after_results_simp

/-- The selection between two arrays by a row of bits, from any contents. -/
theorem pick3_eq (W : Valuation τ sig (Elt F)) :
    after opsRb3 W (main_v27 : DevRef τ sig)
      = select (broadcastInDim S4096x1024 ![0, 1] bcast_S1x1024_S4096x1024_0_1 (W (main_v26 : DevRef τ sig))) (W (main_v23 : DevRef τ sig)) (W (main_v22 : DevRef τ sig)) := by
  after_results_simp
  simp only [TRef.ofBuf, TRef.toBuf, cast_cast, cast_eq]

/-- The fourth layer's result buffer after its operations, from any contents: the layer of what its three inputs held. -/
theorem layer3_eq (W : Valuation τ sig (Elt F)) :
    after ops3 W (main_v27 : DevRef τ sig) = refLayer3 (W (main_v20 : DevRef τ sig)) (W (main_arg4 : DevRef τ sig)) (W (main_arg8 : DevRef τ sig)) := by
  rw [ops3_split, after_app, after_app, pick3_eq, sel3_eq, max3_eq, min3_eq, take3_eq, take3_op]
  rfl

/-- The fourth layer writes no argument buffer: each holds afterwards what it held before. -/
theorem layer3_keep (W : Valuation τ sig (Elt F)) (r : Ref sig .tc) (hr : r ∈ argRefs) :
    after ops3 W (r : DevRef τ sig) = W (r : DevRef τ sig) := by
  simp only [argRefs, List.mem_cons, List.not_mem_nil, or_false] at hr
  rcases hr with rfl | rfl | rfl | rfl | rfl | rfl | rfl | rfl | rfl <;> after_results_simp

end Cert.ReferenceIdeal.HandRun

end
-- ==== Proof.RResult.lean ====
/-
  What the reference program's straight line of operations leaves in its last result buffer: the network of what the
  nine arguments held at the start. The whole line is the four layers' lines one after the other, so its fold is the
  fourth layer's fold over the third's over the second's over the first's; each layer's result buffer holds the layer
  of what its three inputs held; a layer's activations input is the previous layer's result buffer; and no layer writes
  an argument buffer, so every table and selector vector is still the argument's when its layer reads it.
-/
import proofs.«424863_j77781857731251_2_alg».proof.Proof.RStage0
import proofs.«424863_j77781857731251_2_alg».proof.Proof.RStage1
import proofs.«424863_j77781857731251_2_alg».proof.Proof.RStage2
import proofs.«424863_j77781857731251_2_alg».proof.Proof.RStage3

noncomputable section

namespace Cert.ReferenceIdeal.HandRun

open Idealize.ShloMosaic Idealize.ShloMosaic.TcCoe Idealize.ShloMosaic.StableHlo Idealize.SL.Sem
open Cert.ReferenceIdeal Cert.ReferenceIdeal.Hand
open Cert.ReferenceIdeal.Facts₀ Cert.ReferenceIdeal.Facts

variable {F : FTy → Type} [FloatOps F]

/-- The last result buffer after the whole line is the four layers in sequence of what the nine arguments held: each layer's
    result buffer is the next layer's input, and every table and selector vector is still the argument's when its
    layer reads it. -/
theorem result_eq (V : Valuation τ sig (Elt F)) :
    after ops V (main_v27 : DevRef τ sig)
      = refNet (V (main_arg0 : DevRef τ sig)) (V (main_arg1 : DevRef τ sig)) (V (main_arg2 : DevRef τ sig)) (V (main_arg3 : DevRef τ sig)) (V (main_arg4 : DevRef τ sig))
          (V (main_arg5 : DevRef τ sig)) (V (main_arg6 : DevRef τ sig)) (V (main_arg7 : DevRef τ sig)) (V (main_arg8 : DevRef τ sig)) := by
  show after (ops0 ++ (ops1 ++ (ops2 ++ ops3))) V (main_v27 : DevRef τ sig) = _
  rw [after_app, after_app, after_app, layer3_eq, layer2_eq, layer1_eq, layer0_eq,
    layer2_keep _ main_arg4 (by decide), layer2_keep _ main_arg8 (by decide),
    layer1_keep _ main_arg4 (by decide), layer1_keep _ main_arg8 (by decide), layer1_keep _ main_arg3 (by decide), layer1_keep _ main_arg7 (by decide),
    layer0_keep _ main_arg4 (by decide), layer0_keep _ main_arg8 (by decide), layer0_keep _ main_arg3 (by decide), layer0_keep _ main_arg7 (by decide), layer0_keep _ main_arg2 (by decide), layer0_keep _ main_arg6 (by decide)]
  rfl

end Cert.ReferenceIdeal.HandRun

end
-- ==== Proof.RArgs.lean ====
/-
  The reference program's run leaves its arguments as they were. No operation of the line writes an argument buffer —
  each writes the buffer of its own result, a different reference — so the fold of the operations, read at an argument
  buffer, is what the buffer held at the launch: layer by layer, then across the four layers' concatenation.
-/
import proofs.«424863_j77781857731251_2_alg».proof.Proof.RRun
import Idealize.ShloMosaic.Lib.Pipeline.Frame

noncomputable section

namespace Cert.ReferenceIdeal.HandRun

open Idealize.ShloMosaic Idealize.ShloMosaic.TcCoe Idealize.ShloMosaic.StableHlo Idealize.SL.Sem
open Cert.ReferenceIdeal Cert.ReferenceIdeal.Hand
open Cert.ReferenceIdeal.Facts₀ Cert.ReferenceIdeal.Facts

variable {F : FTy → Type} [FloatOps F]

/-- The nine argument buffers. -/
abbrev args : List (Ref sig .tc) :=
  [main_arg0, main_arg1, main_arg2, main_arg3, main_arg4, main_arg5, main_arg6, main_arg7, main_arg8]

/-- The whole line's fold is the four layers' folds one after the other. -/
theorem after_ops (V : Valuation τ sig (Elt F)) :
    after ops V = after ops3 (after ops2 (after ops1 (after ops0 V))) := by
  simp only [ops, after_append]

/-- No operation of the first layer writes an argument buffer: each writes its own result buffer, a different reference. -/
theorem keep0 (W : Valuation τ sig (Elt F)) :
    ∀ r ∈ args, after ops0 W (Proc.devRef .tc r) = W (Proc.devRef .tc r) := by
  intro r hr
  simp only [args, List.mem_cons, List.not_mem_nil, or_false] at hr
  rcases hr with rfl | rfl | rfl | rfl | rfl | rfl | rfl | rfl | rfl <;>
  exact after_of_forall_not_mem _ _ (List.forall_iff_forall_mem.mp (by
    simp only [ops0, List.Forall, nullary_writes, unary_writes, binary_writes, ternary_writes, Finset.mem_singleton]
    repeat' apply And.intro
    all_goals exact devRef_ne_of_ne (by decide)))

/-- Nor does any of the second layer. -/
theorem keep1 (W : Valuation τ sig (Elt F)) :
    ∀ r ∈ args, after ops1 W (Proc.devRef .tc r) = W (Proc.devRef .tc r) := by
  intro r hr
  simp only [args, List.mem_cons, List.not_mem_nil, or_false] at hr
  rcases hr with rfl | rfl | rfl | rfl | rfl | rfl | rfl | rfl | rfl <;>
  exact after_of_forall_not_mem _ _ (List.forall_iff_forall_mem.mp (by
    simp only [ops1, List.Forall, nullary_writes, unary_writes, binary_writes, ternary_writes, Finset.mem_singleton]
    repeat' apply And.intro
    all_goals exact devRef_ne_of_ne (by decide)))

/-- Nor any of the third. -/
theorem keep2 (W : Valuation τ sig (Elt F)) :
    ∀ r ∈ args, after ops2 W (Proc.devRef .tc r) = W (Proc.devRef .tc r) := by
  intro r hr
  simp only [args, List.mem_cons, List.not_mem_nil, or_false] at hr
  rcases hr with rfl | rfl | rfl | rfl | rfl | rfl | rfl | rfl | rfl <;>
  exact after_of_forall_not_mem _ _ (List.forall_iff_forall_mem.mp (by
    simp only [ops2, List.Forall, nullary_writes, unary_writes, binary_writes, ternary_writes, Finset.mem_singleton]
    repeat' apply And.intro
    all_goals exact devRef_ne_of_ne (by decide)))

/-- Nor any of the fourth. -/
theorem keep3 (W : Valuation τ sig (Elt F)) :
    ∀ r ∈ args, after ops3 W (Proc.devRef .tc r) = W (Proc.devRef .tc r) := by
  intro r hr
  simp only [args, List.mem_cons, List.not_mem_nil, or_false] at hr
  rcases hr with rfl | rfl | rfl | rfl | rfl | rfl | rfl | rfl | rfl <;>
  exact after_of_forall_not_mem _ _ (List.forall_iff_forall_mem.mp (by
    simp only [ops3, List.Forall, nullary_writes, unary_writes, binary_writes, ternary_writes, Finset.mem_singleton]
    repeat' apply And.intro
    all_goals exact devRef_ne_of_ne (by decide)))

/-- So an argument buffer holds after the whole line what it held before it. -/
theorem keep (V : Valuation τ sig (Elt F)) (r : Ref sig .tc) (hr : r ∈ args) :
    after ops V (Proc.devRef .tc r) = V (Proc.devRef .tc r) := by
  rw [after_ops, keep3 _ r hr, keep2 _ r hr, keep1 _ r hr, keep0 _ r hr]

theorem arg0_eq (V : Valuation τ sig (Elt F)) : after ops V (main_arg0 : DevRef τ sig) = V (main_arg0 : DevRef τ sig) :=
  keep V main_arg0 (by decide)
theorem arg1_eq (V : Valuation τ sig (Elt F)) : after ops V (main_arg1 : DevRef τ sig) = V (main_arg1 : DevRef τ sig) :=
  keep V main_arg1 (by decide)
theorem arg2_eq (V : Valuation τ sig (Elt F)) : after ops V (main_arg2 : DevRef τ sig) = V (main_arg2 : DevRef τ sig) :=
  keep V main_arg2 (by decide)
theorem arg3_eq (V : Valuation τ sig (Elt F)) : after ops V (main_arg3 : DevRef τ sig) = V (main_arg3 : DevRef τ sig) :=
  keep V main_arg3 (by decide)
theorem arg4_eq (V : Valuation τ sig (Elt F)) : after ops V (main_arg4 : DevRef τ sig) = V (main_arg4 : DevRef τ sig) :=
  keep V main_arg4 (by decide)
theorem arg5_eq (V : Valuation τ sig (Elt F)) : after ops V (main_arg5 : DevRef τ sig) = V (main_arg5 : DevRef τ sig) :=
  keep V main_arg5 (by decide)
theorem arg6_eq (V : Valuation τ sig (Elt F)) : after ops V (main_arg6 : DevRef τ sig) = V (main_arg6 : DevRef τ sig) :=
  keep V main_arg6 (by decide)
theorem arg7_eq (V : Valuation τ sig (Elt F)) : after ops V (main_arg7 : DevRef τ sig) = V (main_arg7 : DevRef τ sig) :=
  keep V main_arg7 (by decide)
theorem arg8_eq (V : Valuation τ sig (Elt F)) : after ops V (main_arg8 : DevRef τ sig) = V (main_arg8 : DevRef τ sig) :=
  keep V main_arg8 (by decide)

end Cert.ReferenceIdeal.HandRun

end
-- ==== Proof.RLayer0.lean ====
/-
  The reference's first layer, read at one output entry, is the layer of the shared specification.

  Under the range hypothesis every feature number is a word in [0, 1024): the sign test of the normalisation is
  false, so the normalised number is the number itself; both bound tests of the mask are true, so the mask is 1
  everywhere; the gather's clamp of the start index into [0, 1023] is the identity.  The gathered entry is then
  the picked entry of the specification, and the two reductions over the last axis are the folds of the minimum
  from +∞ and of the maximum from −∞ over the 32 positions.
-/
import proofs.«424863_j77781857731251_2_alg».proof.Proof.RDefs0
import proofs.«424863_j77781857731251_2_alg».proof.Proof.Spec
import Idealize.ShloMosaic.Lib.ValueIdx
import Idealize.ShloMosaic.PureOps.Reduce
import Idealize.ShloMosaic.PureOps.Ideal.Laws
import Idealize.ShloMosaic.Lib.StableHlo.Predicate

noncomputable section

namespace Cert.ReferenceIdeal.Layer0

open Idealize.ShloMosaic Idealize.ShloMosaic.ValueIdx Cert.ReferenceIdeal Cert.Layers
open Cert.ReferenceIdeal.Facts₀ Cert.ReferenceIdeal.Facts
open Idealize.ShloMosaic.StableHlo.Predicate (slt_iff_toNat sge_iff_toNat sle_iff_toNat)

/-! ## Words in range: the three signed comparisons -/

/-- A word below 1024 is not negative: the test "less than 0" gives the bit 0. -/
theorem slt_zero_of_lt {w : BitVec 32} (hw : w.toNat < 1024) : IntOp.cmpi .slt w 0#32 = 0#1 := by
  refine eq_zero_of_ne_one fun e => ?_
  have := (slt_iff_toNat (a := w) (b := 0#32) (by omega) (by decide)).1 e
  simp at this

/-- A word below 1024 is at least 0 as a signed number. -/
theorem sge_zero_of_lt {w : BitVec 32} (hw : w.toNat < 1024) : IntOp.cmpi .sge w 0#32 = 1#1 :=
  (sge_iff_toNat (a := w) (b := 0#32) (by omega) (by decide)).2 (by simp)

/-- A word below 1024 is at most 1023 as a signed number. -/
theorem sle_top_of_lt {w : BitVec 32} (hw : w.toNat < 1024) : IntOp.cmpi .sle w 1023#32 = 1#1 :=
  (sle_iff_toNat (a := w) (b := 1023#32) (by omega) (by decide)).2 (by
    have : (1023#32 : BitVec 32).toNat = 1023 := by decide
    omega)

/-! ## The normalised feature numbers, the start indices and the mask -/

/-- In range, normalisation leaves a feature number alone. -/
theorem wrapIdx0_apply (conn : IVec S2048x32 32) (h : InRange 1024 conn) (o : Fin 2048) (k : Fin 32) :
    Hand.wrapIdx0 conn (ix2 o k) = conn (ix2 o k) := by
  show Scalar.select (IntOp.cmpi .slt (conn (ix2 o k)) 0#32) _ (conn (ix2 o k)) = conn (ix2 o k)
  rw [slt_zero_of_lt (h o k), select_zero]

/-- The start index at (o, k, 0) is the feature number at (o, k). -/
theorem startIdx0_apply (conn : IVec S2048x32 32) (h : InRange 1024 conn) (o : Fin 2048) (k : Fin 32) (z : Fin 1) :
    Hand.startIdx0 conn (ix3 o k z) = conn (ix2 o k) := by
  have e : Hand.startIdx0 conn (ix3 o k z) = Hand.wrapIdx0 conn (ix2 o k) := by
    unfold Hand.startIdx0 broadcastInDim
    refine congrArg (Hand.wrapIdx0 conn) (funext fun a => ?_)
    fin_cases a <;> rfl
  rw [e, wrapIdx0_apply conn h]

/-! ## The mask -/

/-- A left fold of `and` from 1 over bits that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- In range, both bound tests hold at every start index, so the mask is 1 at every (o, k). -/
theorem inBounds0_apply (conn : IVec S2048x32 32) (h : InRange 1024 conn) (o : Fin 2048) (k : Fin 32) :
    Hand.inBounds0 conn (ix2 o k) = 1#1 := by
  unfold Hand.inBounds0 Host.reduce
  refine foldl_andi_ones _ (fun n => ?_) _
  obtain ⟨a, b, c, e⟩ : ∃ (a : Fin 2048) (b : Fin 32) (c : Fin 1), S2048x32x1.rowMajor.symm n = ix3 a b c :=
    ⟨_, _, _, eq_ix3 _⟩
  rw [e]
  show IntOp.andi (IntOp.cmpi .sge (Hand.startIdx0 conn (ix3 a b c)) 0#32)
      (IntOp.cmpi .sle (Hand.startIdx0 conn (ix3 a b c)) 1023#32) = 1#1
  rw [startIdx0_apply conn h, sge_zero_of_lt (h a b), sle_top_of_lt (h a b)]
  decide

/-! ## The gather -/

/-- The start-indices position the gather reads for result position (b, o, k): (o, k, 0). -/
theorem gather0_siIdx (b : Fin 4096) (o : Fin 2048) (k : Fin 32)
    (c : Fin gather_S4096x1024_S2048x32x1_S4096x2048x32_0_1_n_n_1_2_40961.startIndexMap.length) :
    gather_S4096x1024_S2048x32x1_S4096x2048x32_0_1_n_n_1_2_40961.siIdx (ix3 b o k) c = ix3 o k (0 : Fin 1) := by
  funext a
  refine Fin.ext ?_
  have hc : c.val = 0 := by have := c.isLt; simp [gather_S4096x1024_S2048x32x1_S4096x2048x32_0_1_n_n_1_2_40961] at this; omega
  match a with
  | ⟨0, _⟩ => rfl
  | ⟨1, _⟩ => rfl
  | ⟨2, _⟩ => exact hc

/-- The gather at (b, o, k) reads row `b` of the operand at the feature the start index (o, k, 0) names, when
    that word is in range: the clamp of the start into [0, 1023] leaves it alone. -/
theorem gather0_apply {α : Type} (x : S4096x1024.Idx → α) (idx : IVec S2048x32x1 32) (b : Fin 4096) (o : Fin 2048)
    (k : Fin 32) (w : BitVec 32) (hw : idx (ix3 o k (0 : Fin 1)) = w) (hlt : w.toNat < 1024) :
    Host.gather gather_S4096x1024_S2048x32x1_S4096x2048x32_0_1_n_n_1_2_40961 x idx (ix3 b o k)
      = x (ix2 b ⟨w.toNat, hlt⟩) := by
  unfold Host.gather
  refine congrArg x (funext fun a => Fin.ext ?_)
  show gather_S4096x1024_S2048x32x1_S4096x2048x32_0_1_n_n_1_2_40961.start (ix3 b o k) idx a
      + gather_S4096x1024_S2048x32x1_S4096x2048x32_0_1_n_n_1_2_40961.batchCoord (ix3 b o k) a
      + gather_S4096x1024_S2048x32x1_S4096x2048x32_0_1_n_n_1_2_40961.offCoord (ix3 b o k) a = _
  rw [GatherDims.batchCoord_eq_zero gather_S4096x1024_S2048x32x1_S4096x2048x32_0_1_n_n_1_2_40961 (ix3 b o k) a
    List.not_mem_nil, Nat.add_zero]
  match a with
  | ⟨0, _⟩ =>
    -- the row axis: no start index, the offset coordinate is the row
    have hs : gather_S4096x1024_S2048x32x1_S4096x2048x32_0_1_n_n_1_2_40961.start (ix3 b o k) idx ⟨0, by decide⟩ = 0 := by
      unfold GatherDims.start
      rw [dif_neg (by decide)]
    rw [hs, Nat.zero_add]
    have hk : (⟨0, by decide⟩ : Fin S4096x1024.rank) ∈ gather_S4096x1024_S2048x32x1_S4096x2048x32_0_1_n_n_1_2_40961.sKept := by
      decide
    unfold GatherDims.offCoord
    rw [dif_pos hk]
    rfl
  | ⟨1, _⟩ =>
    -- the feature axis: collapsed, so no offset; the start is the clamped start index
    rw [GatherDims.offCoord_eq_zero gather_S4096x1024_S2048x32x1_S4096x2048x32_0_1_n_n_1_2_40961 (ix3 b o k) ⟨1, by decide⟩
      (by decide), Nat.add_zero]
    have hm : (⟨1, by decide⟩ : Fin S4096x1024.rank) ∈ gather_S4096x1024_S2048x32x1_S4096x2048x32_0_1_n_n_1_2_40961.startIndexMap := by
      decide
    unfold GatherDims.start
    rw [dif_pos hm, gather0_siIdx, hw,
      Idealize.ShloMosaic.StableHlo.Predicate.toInt_eq_toNat_of_lt (a := w) (by omega), Int.toNat_natCast]
    show min w.toNat (1024 - 1) = w.toNat
    omega

/-! ## The gathered entries -/

/-- In range, the gathered entry at (b, o, k) is entry `conn[o, k]` of row `b`: the mask is 1 there, and the
    gather reads the feature the start index names. -/
theorem take0_apply (x : FVec Ideal S4096x1024 .f32) (conn : IVec S2048x32 32) (h : InRange 1024 conn)
    (b : Fin 4096) (o : Fin 2048) (k : Fin 32) :
    Hand.take0 (F := Ideal) x conn (ix3 b o k) = pick x b (conn (ix2 o k)) := by
  have hm : broadcastInDim S4096x2048x32 ![1, 2] bcast_S2048x32_S4096x2048x32_1_2 (Hand.inBounds0 conn) (ix3 b o k)
      = 1#1 := by
    have e : broadcastInDim S4096x2048x32 ![1, 2] bcast_S2048x32_S4096x2048x32_1_2 (Hand.inBounds0 conn) (ix3 b o k)
        = Hand.inBounds0 conn (ix2 o k) := by
      unfold broadcastInDim
      refine congrArg (Hand.inBounds0 conn) (funext fun a => ?_)
      fin_cases a <;> rfl
    rw [e, inBounds0_apply conn h]
  unfold Hand.take0
  rw [select_apply, hm, select_one,
    gather0_apply x (Hand.startIdx0 conn) b o k (conn (ix2 o k)) (startIdx0_apply conn h o k 0) (h o k),
    pick_of_lt x b _ (h o k)]

/-! ## The reductions over the 32 positions -/

/-- Position (b, o) with `k` put back on the last axis is (b, o, k). -/
theorem lift_ix3 (hr : S4096x2048x32.Reduces [2] S4096x2048) (b : Fin 4096) (o : Fin 2048)
    (k : Fin (S4096x2048x32.size 2)) : hr.lift (ix2 b o) k = ix3 b o (⟨k.val, k.isLt⟩ : Fin 32) := by
  funext c; apply Fin.ext
  fin_cases c <;> rfl

/-- The reduction by minimum from +∞ over the last axis, at (b, o), is the minimum of the 32 entries there. -/
theorem reduceMin0_apply (f : FVec Ideal S4096x2048x32 .f32) (b : Fin 4096) (o : Fin 2048) :
    Host.reduce FloatOps.minimumf f (constant (F := Ideal) S_ .f32 0x7F800000#32)
        reducesTo_S4096x2048x32_S4096x2048_d2 h_S_ (ix2 b o)
      = min32 fun k => f (ix3 b o k) := by
  have hr : S4096x2048x32.Reduces [2] S4096x2048 := by decide
  rw [Host.reduce_eq_fold_single FloatOps.minimumf f _ reducesTo_S4096x2048x32_S4096x2048_d2 hr h_S_]
  have hf : (f ∘ hr.lift (ix2 b o)) = fun k : Fin 32 => f (ix3 b o k) :=
    funext fun k => congrArg f (lift_ix3 hr b o k)
  rw [hf]
  rfl

/-- The reduction by maximum from −∞ over the last axis, at (b, o), is the maximum of the 32 entries there. -/
theorem reduceMax0_apply (f : FVec Ideal S4096x2048x32 .f32) (b : Fin 4096) (o : Fin 2048) :
    Host.reduce FloatOps.maximumf f (constant (F := Ideal) S_ .f32 0xFF800000#32)
        reducesTo_S4096x2048x32_S4096x2048_d2 h_S_ (ix2 b o)
      = max32 fun k => f (ix3 b o k) := by
  have hr : S4096x2048x32.Reduces [2] S4096x2048 := by decide
  rw [Host.reduce_eq_fold_single FloatOps.maximumf f _ reducesTo_S4096x2048x32_S4096x2048_d2 hr h_S_]
  have hf : (f ∘ hr.lift (ix2 b o)) = fun k : Fin 32 => f (ix3 b o k) :=
    funext fun k => congrArg f (lift_ix3 hr b o k)
  rw [hf]
  rfl

/-! ## The selector -/

/-- The selector bit at (b, o) is the test "the selector of feature `o` is 1": the row of tests is the same
    in every row `b`. -/
theorem selector0_apply (op : IVec S2048 32) (b : Fin 4096) (o : Fin 2048) :
    broadcastInDim S4096x2048 ![0, 1] bcast_S1x2048_S4096x2048_0_1
        (cmpi .eq (broadcastInDim S1x2048 ![1] bcast_S2048_S1x2048_1 op)
          (broadcastInDim S1x2048 ![] bcast_S_S1x2048 (constantI S_ 32 1#32))) (ix2 b o)
      = IntOp.cmpi .eq (op (ix1 o)) 1#32 := by
  have e1 : ∀ y : S1x2048.Idx → BitVec 1,
      broadcastInDim S4096x2048 ![0, 1] bcast_S1x2048_S4096x2048_0_1 y (ix2 b o) = y (ix2 (0 : Fin 1) o) := by
    intro y
    unfold broadcastInDim
    refine congrArg y (funext fun a => ?_)
    fin_cases a <;> rfl
  have e2 : broadcastInDim S1x2048 ![1] bcast_S2048_S1x2048_1 op (ix2 (0 : Fin 1) o) = op (ix1 o) := by
    unfold broadcastInDim
    refine congrArg op (funext fun a => ?_)
    fin_cases a; rfl
  rw [e1]
  show IntOp.cmpi .eq (broadcastInDim S1x2048 ![1] bcast_S2048_S1x2048_1 op (ix2 (0 : Fin 1) o)) 1#32 = _
  rw [e2]

/-! ## The layer -/

/-- The reference's first layer at (b, o) is the specification's: the maximum of the 32 picked entries where the
    selector is 1, their minimum elsewhere. -/
theorem refLayer0_apply (x : FVec Ideal S4096x1024 .f32) (conn : IVec S2048x32 32) (op : IVec S2048 32)
    (h : Cert.Layers.InRange 1024 conn) (b : Fin 4096) (o : Fin 2048) :
    Hand.refLayer0 (F := Ideal) x conn op (ix2 b o) = Cert.Layers.layerAt x conn op b o := by
  unfold Hand.refLayer0
  rw [select_apply, selector0_apply, reduceMax0_apply, reduceMin0_apply]
  unfold Cert.Layers.layerAt
  simp only [take0_apply x conn h]

/-- The reference's first layer is the specification's layer, as whole arrays. -/
theorem refLayer0_eq (x : FVec Ideal S4096x1024 .f32) (conn : IVec S2048x32 32) (op : IVec S2048 32)
    (h : Cert.Layers.InRange 1024 conn) :
    Hand.refLayer0 (F := Ideal) x conn op = Cert.Layers.layer x conn op :=
  Cert.Layers.eq_layer_of_apply x conn op _ (refLayer0_apply x conn op h)

end Cert.ReferenceIdeal.Layer0

end
-- ==== Proof.RLayer1.lean ====
/-
  The reference's second layer, read at one output entry, is the layer of the shared specification.

  Under the range hypothesis every feature number is a word in [0, 2048): the sign test of the normalisation is
  false, so the normalised number is the number itself; both bound tests of the mask are true, so the mask is 1
  everywhere; the gather's clamp of the start index into [0, 2047] is the identity.  The gathered entry is then
  the picked entry of the specification, and the two reductions over the last axis are the folds of the minimum
  from +∞ and of the maximum from −∞ over the 32 positions.
-/
import proofs.«424863_j77781857731251_2_alg».proof.Proof.RDefs1
import proofs.«424863_j77781857731251_2_alg».proof.Proof.Spec
import Idealize.ShloMosaic.Lib.ValueIdx
import Idealize.ShloMosaic.PureOps.Reduce
import Idealize.ShloMosaic.PureOps.Ideal.Laws
import Idealize.ShloMosaic.Lib.StableHlo.Predicate

noncomputable section

namespace Cert.ReferenceIdeal.Layer1

open Idealize.ShloMosaic Idealize.ShloMosaic.ValueIdx Cert.ReferenceIdeal Cert.Layers
open Cert.ReferenceIdeal.Facts₀ Cert.ReferenceIdeal.Facts
open Idealize.ShloMosaic.StableHlo.Predicate (slt_iff_toNat sge_iff_toNat sle_iff_toNat)

/-! ## Words in range: the three signed comparisons -/

/-- A word below 2048 is not negative: the test "less than 0" gives the bit 0. -/
theorem slt_zero_of_lt {w : BitVec 32} (hw : w.toNat < 2048) : IntOp.cmpi .slt w 0#32 = 0#1 := by
  refine eq_zero_of_ne_one fun e => ?_
  have := (slt_iff_toNat (a := w) (b := 0#32) (by omega) (by decide)).1 e
  simp at this

/-- A word below 2048 is at least 0 as a signed number. -/
theorem sge_zero_of_lt {w : BitVec 32} (hw : w.toNat < 2048) : IntOp.cmpi .sge w 0#32 = 1#1 :=
  (sge_iff_toNat (a := w) (b := 0#32) (by omega) (by decide)).2 (by simp)

/-- A word below 2048 is at most 2047 as a signed number. -/
theorem sle_top_of_lt {w : BitVec 32} (hw : w.toNat < 2048) : IntOp.cmpi .sle w 2047#32 = 1#1 :=
  (sle_iff_toNat (a := w) (b := 2047#32) (by omega) (by decide)).2 (by
    have : (2047#32 : BitVec 32).toNat = 2047 := by decide
    omega)

/-! ## The normalised feature numbers, the start indices and the mask -/

/-- In range, normalisation leaves a feature number alone. -/
theorem wrapIdx1_apply (conn : IVec S512x32 32) (h : InRange 2048 conn) (o : Fin 512) (k : Fin 32) :
    Hand.wrapIdx1 conn (ix2 o k) = conn (ix2 o k) := by
  show Scalar.select (IntOp.cmpi .slt (conn (ix2 o k)) 0#32) _ (conn (ix2 o k)) = conn (ix2 o k)
  rw [slt_zero_of_lt (h o k), select_zero]

/-- The start index at (o, k, 0) is the feature number at (o, k). -/
theorem startIdx1_apply (conn : IVec S512x32 32) (h : InRange 2048 conn) (o : Fin 512) (k : Fin 32) (z : Fin 1) :
    Hand.startIdx1 conn (ix3 o k z) = conn (ix2 o k) := by
  have e : Hand.startIdx1 conn (ix3 o k z) = Hand.wrapIdx1 conn (ix2 o k) := by
    unfold Hand.startIdx1 broadcastInDim
    refine congrArg (Hand.wrapIdx1 conn) (funext fun a => ?_)
    fin_cases a <;> rfl
  rw [e, wrapIdx1_apply conn h]

/-! ## The mask -/

/-- A left fold of `and` from 1 over bits that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- In range, both bound tests hold at every start index, so the mask is 1 at every (o, k). -/
theorem inBounds1_apply (conn : IVec S512x32 32) (h : InRange 2048 conn) (o : Fin 512) (k : Fin 32) :
    Hand.inBounds1 conn (ix2 o k) = 1#1 := by
  unfold Hand.inBounds1 Host.reduce
  refine foldl_andi_ones _ (fun n => ?_) _
  obtain ⟨a, b, c, e⟩ : ∃ (a : Fin 512) (b : Fin 32) (c : Fin 1), S512x32x1.rowMajor.symm n = ix3 a b c :=
    ⟨_, _, _, eq_ix3 _⟩
  rw [e]
  show IntOp.andi (IntOp.cmpi .sge (Hand.startIdx1 conn (ix3 a b c)) 0#32)
      (IntOp.cmpi .sle (Hand.startIdx1 conn (ix3 a b c)) 2047#32) = 1#1
  rw [startIdx1_apply conn h, sge_zero_of_lt (h a b), sle_top_of_lt (h a b)]
  decide

/-! ## The gather -/

/-- The start-indices position the gather reads for result position (b, o, k): (o, k, 0). -/
theorem gather1_siIdx (b : Fin 4096) (o : Fin 512) (k : Fin 32)
    (c : Fin gather_S4096x2048_S512x32x1_S4096x512x32_0_1_n_n_1_2_40961.startIndexMap.length) :
    gather_S4096x2048_S512x32x1_S4096x512x32_0_1_n_n_1_2_40961.siIdx (ix3 b o k) c = ix3 o k (0 : Fin 1) := by
  funext a
  refine Fin.ext ?_
  have hc : c.val = 0 := by have := c.isLt; simp [gather_S4096x2048_S512x32x1_S4096x512x32_0_1_n_n_1_2_40961] at this; omega
  match a with
  | ⟨0, _⟩ => rfl
  | ⟨1, _⟩ => rfl
  | ⟨2, _⟩ => exact hc

/-- The gather at (b, o, k) reads row `b` of the operand at the feature the start index (o, k, 0) names, when
    that word is in range: the clamp of the start into [0, 2047] leaves it alone. -/
theorem gather1_apply {α : Type} (x : S4096x2048.Idx → α) (idx : IVec S512x32x1 32) (b : Fin 4096) (o : Fin 512)
    (k : Fin 32) (w : BitVec 32) (hw : idx (ix3 o k (0 : Fin 1)) = w) (hlt : w.toNat < 2048) :
    Host.gather gather_S4096x2048_S512x32x1_S4096x512x32_0_1_n_n_1_2_40961 x idx (ix3 b o k)
      = x (ix2 b ⟨w.toNat, hlt⟩) := by
  unfold Host.gather
  refine congrArg x (funext fun a => Fin.ext ?_)
  show gather_S4096x2048_S512x32x1_S4096x512x32_0_1_n_n_1_2_40961.start (ix3 b o k) idx a
      + gather_S4096x2048_S512x32x1_S4096x512x32_0_1_n_n_1_2_40961.batchCoord (ix3 b o k) a
      + gather_S4096x2048_S512x32x1_S4096x512x32_0_1_n_n_1_2_40961.offCoord (ix3 b o k) a = _
  rw [GatherDims.batchCoord_eq_zero gather_S4096x2048_S512x32x1_S4096x512x32_0_1_n_n_1_2_40961 (ix3 b o k) a
    List.not_mem_nil, Nat.add_zero]
  match a with
  | ⟨0, _⟩ =>
    -- the row axis: no start index, the offset coordinate is the row
    have hs : gather_S4096x2048_S512x32x1_S4096x512x32_0_1_n_n_1_2_40961.start (ix3 b o k) idx ⟨0, by decide⟩ = 0 := by
      unfold GatherDims.start
      rw [dif_neg (by decide)]
    rw [hs, Nat.zero_add]
    have hk : (⟨0, by decide⟩ : Fin S4096x2048.rank) ∈ gather_S4096x2048_S512x32x1_S4096x512x32_0_1_n_n_1_2_40961.sKept := by
      decide
    unfold GatherDims.offCoord
    rw [dif_pos hk]
    rfl
  | ⟨1, _⟩ =>
    -- the feature axis: collapsed, so no offset; the start is the clamped start index
    rw [GatherDims.offCoord_eq_zero gather_S4096x2048_S512x32x1_S4096x512x32_0_1_n_n_1_2_40961 (ix3 b o k) ⟨1, by decide⟩
      (by decide), Nat.add_zero]
    have hm : (⟨1, by decide⟩ : Fin S4096x2048.rank) ∈ gather_S4096x2048_S512x32x1_S4096x512x32_0_1_n_n_1_2_40961.startIndexMap := by
      decide
    unfold GatherDims.start
    rw [dif_pos hm, gather1_siIdx, hw,
      Idealize.ShloMosaic.StableHlo.Predicate.toInt_eq_toNat_of_lt (a := w) (by omega), Int.toNat_natCast]
    show min w.toNat (2048 - 1) = w.toNat
    omega

/-! ## The gathered entries -/

/-- In range, the gathered entry at (b, o, k) is entry `conn[o, k]` of row `b`: the mask is 1 there, and the
    gather reads the feature the start index names. -/
theorem take1_apply (x : FVec Ideal S4096x2048 .f32) (conn : IVec S512x32 32) (h : InRange 2048 conn)
    (b : Fin 4096) (o : Fin 512) (k : Fin 32) :
    Hand.take1 (F := Ideal) x conn (ix3 b o k) = pick x b (conn (ix2 o k)) := by
  have hm : broadcastInDim S4096x512x32 ![1, 2] bcast_S512x32_S4096x512x32_1_2 (Hand.inBounds1 conn) (ix3 b o k)
      = 1#1 := by
    have e : broadcastInDim S4096x512x32 ![1, 2] bcast_S512x32_S4096x512x32_1_2 (Hand.inBounds1 conn) (ix3 b o k)
        = Hand.inBounds1 conn (ix2 o k) := by
      unfold broadcastInDim
      refine congrArg (Hand.inBounds1 conn) (funext fun a => ?_)
      fin_cases a <;> rfl
    rw [e, inBounds1_apply conn h]
  unfold Hand.take1
  rw [select_apply, hm, select_one,
    gather1_apply x (Hand.startIdx1 conn) b o k (conn (ix2 o k)) (startIdx1_apply conn h o k 0) (h o k),
    pick_of_lt x b _ (h o k)]

/-! ## The reductions over the 32 positions -/

/-- Position (b, o) with `k` put back on the last axis is (b, o, k). -/
theorem lift_ix3 (hr : S4096x512x32.Reduces [2] S4096x512) (b : Fin 4096) (o : Fin 512)
    (k : Fin (S4096x512x32.size 2)) : hr.lift (ix2 b o) k = ix3 b o (⟨k.val, k.isLt⟩ : Fin 32) := by
  funext c; apply Fin.ext
  fin_cases c <;> rfl

/-- The reduction by minimum from +∞ over the last axis, at (b, o), is the minimum of the 32 entries there. -/
theorem reduceMin1_apply (f : FVec Ideal S4096x512x32 .f32) (b : Fin 4096) (o : Fin 512) :
    Host.reduce FloatOps.minimumf f (constant (F := Ideal) S_ .f32 0x7F800000#32)
        reducesTo_S4096x512x32_S4096x512_d2 h_S_ (ix2 b o)
      = min32 fun k => f (ix3 b o k) := by
  have hr : S4096x512x32.Reduces [2] S4096x512 := by decide
  rw [Host.reduce_eq_fold_single FloatOps.minimumf f _ reducesTo_S4096x512x32_S4096x512_d2 hr h_S_]
  have hf : (f ∘ hr.lift (ix2 b o)) = fun k : Fin 32 => f (ix3 b o k) :=
    funext fun k => congrArg f (lift_ix3 hr b o k)
  rw [hf]
  rfl

/-- The reduction by maximum from −∞ over the last axis, at (b, o), is the maximum of the 32 entries there. -/
theorem reduceMax1_apply (f : FVec Ideal S4096x512x32 .f32) (b : Fin 4096) (o : Fin 512) :
    Host.reduce FloatOps.maximumf f (constant (F := Ideal) S_ .f32 0xFF800000#32)
        reducesTo_S4096x512x32_S4096x512_d2 h_S_ (ix2 b o)
      = max32 fun k => f (ix3 b o k) := by
  have hr : S4096x512x32.Reduces [2] S4096x512 := by decide
  rw [Host.reduce_eq_fold_single FloatOps.maximumf f _ reducesTo_S4096x512x32_S4096x512_d2 hr h_S_]
  have hf : (f ∘ hr.lift (ix2 b o)) = fun k : Fin 32 => f (ix3 b o k) :=
    funext fun k => congrArg f (lift_ix3 hr b o k)
  rw [hf]
  rfl

/-! ## The selector -/

/-- The selector bit at (b, o) is the test "the selector of feature `o` is 1": the row of tests is the same
    in every row `b`. -/
theorem selector1_apply (op : IVec S512 32) (b : Fin 4096) (o : Fin 512) :
    broadcastInDim S4096x512 ![0, 1] bcast_S1x512_S4096x512_0_1
        (cmpi .eq (broadcastInDim S1x512 ![1] bcast_S512_S1x512_1 op)
          (broadcastInDim S1x512 ![] bcast_S_S1x512 (constantI S_ 32 1#32))) (ix2 b o)
      = IntOp.cmpi .eq (op (ix1 o)) 1#32 := by
  have e1 : ∀ y : S1x512.Idx → BitVec 1,
      broadcastInDim S4096x512 ![0, 1] bcast_S1x512_S4096x512_0_1 y (ix2 b o) = y (ix2 (0 : Fin 1) o) := by
    intro y
    unfold broadcastInDim
    refine congrArg y (funext fun a => ?_)
    fin_cases a <;> rfl
  have e2 : broadcastInDim S1x512 ![1] bcast_S512_S1x512_1 op (ix2 (0 : Fin 1) o) = op (ix1 o) := by
    unfold broadcastInDim
    refine congrArg op (funext fun a => ?_)
    fin_cases a; rfl
  rw [e1]
  show IntOp.cmpi .eq (broadcastInDim S1x512 ![1] bcast_S512_S1x512_1 op (ix2 (0 : Fin 1) o)) 1#32 = _
  rw [e2]

/-! ## The layer -/

/-- The reference's second layer at (b, o) is the specification's: the maximum of the 32 picked entries where the
    selector is 1, their minimum elsewhere. -/
theorem refLayer1_apply (x : FVec Ideal S4096x2048 .f32) (conn : IVec S512x32 32) (op : IVec S512 32)
    (h : Cert.Layers.InRange 2048 conn) (b : Fin 4096) (o : Fin 512) :
    Hand.refLayer1 (F := Ideal) x conn op (ix2 b o) = Cert.Layers.layerAt x conn op b o := by
  unfold Hand.refLayer1
  rw [select_apply, selector1_apply, reduceMax1_apply, reduceMin1_apply]
  unfold Cert.Layers.layerAt
  simp only [take1_apply x conn h]

/-- The reference's second layer is the specification's layer, as whole arrays. -/
theorem refLayer1_eq (x : FVec Ideal S4096x2048 .f32) (conn : IVec S512x32 32) (op : IVec S512 32)
    (h : Cert.Layers.InRange 2048 conn) :
    Hand.refLayer1 (F := Ideal) x conn op = Cert.Layers.layer x conn op :=
  Cert.Layers.eq_layer_of_apply x conn op _ (refLayer1_apply x conn op h)

end Cert.ReferenceIdeal.Layer1

end
-- ==== Proof.RLayer2.lean ====
/-
  The reference's third layer, read at one output entry, is the layer of the shared specification.

  Under the range hypothesis every feature number is a word in [0, 512): the sign test of the normalisation is
  false, so the normalised number is the number itself; both bound tests of the mask are true, so the mask is 1
  everywhere; the gather's clamp of the start index into [0, 511] is the identity.  The gathered entry is then
  the picked entry of the specification, and the two reductions over the last axis are the folds of the minimum
  from +∞ and of the maximum from −∞ over the 32 positions.
-/
import proofs.«424863_j77781857731251_2_alg».proof.Proof.RDefs2
import proofs.«424863_j77781857731251_2_alg».proof.Proof.Spec
import Idealize.ShloMosaic.Lib.ValueIdx
import Idealize.ShloMosaic.PureOps.Reduce
import Idealize.ShloMosaic.PureOps.Ideal.Laws
import Idealize.ShloMosaic.Lib.StableHlo.Predicate

noncomputable section

namespace Cert.ReferenceIdeal.Layer2

open Idealize.ShloMosaic Idealize.ShloMosaic.ValueIdx Cert.ReferenceIdeal Cert.Layers
open Cert.ReferenceIdeal.Facts₀ Cert.ReferenceIdeal.Facts
open Idealize.ShloMosaic.StableHlo.Predicate (slt_iff_toNat sge_iff_toNat sle_iff_toNat)

/-! ## Words in range: the three signed comparisons -/

/-- A word below 512 is not negative: the test "less than 0" gives the bit 0. -/
theorem slt_zero_of_lt {w : BitVec 32} (hw : w.toNat < 512) : IntOp.cmpi .slt w 0#32 = 0#1 := by
  refine eq_zero_of_ne_one fun e => ?_
  have := (slt_iff_toNat (a := w) (b := 0#32) (by omega) (by decide)).1 e
  simp at this

/-- A word below 512 is at least 0 as a signed number. -/
theorem sge_zero_of_lt {w : BitVec 32} (hw : w.toNat < 512) : IntOp.cmpi .sge w 0#32 = 1#1 :=
  (sge_iff_toNat (a := w) (b := 0#32) (by omega) (by decide)).2 (by simp)

/-- A word below 512 is at most 511 as a signed number. -/
theorem sle_top_of_lt {w : BitVec 32} (hw : w.toNat < 512) : IntOp.cmpi .sle w 511#32 = 1#1 :=
  (sle_iff_toNat (a := w) (b := 511#32) (by omega) (by decide)).2 (by
    have : (511#32 : BitVec 32).toNat = 511 := by decide
    omega)

/-! ## The normalised feature numbers, the start indices and the mask -/

/-- In range, normalisation leaves a feature number alone. -/
theorem wrapIdx2_apply (conn : IVec S2048x32 32) (h : InRange 512 conn) (o : Fin 2048) (k : Fin 32) :
    Hand.wrapIdx2 conn (ix2 o k) = conn (ix2 o k) := by
  show Scalar.select (IntOp.cmpi .slt (conn (ix2 o k)) 0#32) _ (conn (ix2 o k)) = conn (ix2 o k)
  rw [slt_zero_of_lt (h o k), select_zero]

/-- The start index at (o, k, 0) is the feature number at (o, k). -/
theorem startIdx2_apply (conn : IVec S2048x32 32) (h : InRange 512 conn) (o : Fin 2048) (k : Fin 32) (z : Fin 1) :
    Hand.startIdx2 conn (ix3 o k z) = conn (ix2 o k) := by
  have e : Hand.startIdx2 conn (ix3 o k z) = Hand.wrapIdx2 conn (ix2 o k) := by
    unfold Hand.startIdx2 broadcastInDim
    refine congrArg (Hand.wrapIdx2 conn) (funext fun a => ?_)
    fin_cases a <;> rfl
  rw [e, wrapIdx2_apply conn h]

/-! ## The mask -/

/-- A left fold of `and` from 1 over bits that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- In range, both bound tests hold at every start index, so the mask is 1 at every (o, k). -/
theorem inBounds2_apply (conn : IVec S2048x32 32) (h : InRange 512 conn) (o : Fin 2048) (k : Fin 32) :
    Hand.inBounds2 conn (ix2 o k) = 1#1 := by
  unfold Hand.inBounds2 Host.reduce
  refine foldl_andi_ones _ (fun n => ?_) _
  obtain ⟨a, b, c, e⟩ : ∃ (a : Fin 2048) (b : Fin 32) (c : Fin 1), S2048x32x1.rowMajor.symm n = ix3 a b c :=
    ⟨_, _, _, eq_ix3 _⟩
  rw [e]
  show IntOp.andi (IntOp.cmpi .sge (Hand.startIdx2 conn (ix3 a b c)) 0#32)
      (IntOp.cmpi .sle (Hand.startIdx2 conn (ix3 a b c)) 511#32) = 1#1
  rw [startIdx2_apply conn h, sge_zero_of_lt (h a b), sle_top_of_lt (h a b)]
  decide

/-! ## The gather -/

/-- The start-indices position the gather reads for result position (b, o, k): (o, k, 0). -/
theorem gather2_siIdx (b : Fin 4096) (o : Fin 2048) (k : Fin 32)
    (c : Fin gather_S4096x512_S2048x32x1_S4096x2048x32_0_1_n_n_1_2_40961.startIndexMap.length) :
    gather_S4096x512_S2048x32x1_S4096x2048x32_0_1_n_n_1_2_40961.siIdx (ix3 b o k) c = ix3 o k (0 : Fin 1) := by
  funext a
  refine Fin.ext ?_
  have hc : c.val = 0 := by have := c.isLt; simp [gather_S4096x512_S2048x32x1_S4096x2048x32_0_1_n_n_1_2_40961] at this; omega
  match a with
  | ⟨0, _⟩ => rfl
  | ⟨1, _⟩ => rfl
  | ⟨2, _⟩ => exact hc

/-- The gather at (b, o, k) reads row `b` of the operand at the feature the start index (o, k, 0) names, when
    that word is in range: the clamp of the start into [0, 511] leaves it alone. -/
theorem gather2_apply {α : Type} (x : S4096x512.Idx → α) (idx : IVec S2048x32x1 32) (b : Fin 4096) (o : Fin 2048)
    (k : Fin 32) (w : BitVec 32) (hw : idx (ix3 o k (0 : Fin 1)) = w) (hlt : w.toNat < 512) :
    Host.gather gather_S4096x512_S2048x32x1_S4096x2048x32_0_1_n_n_1_2_40961 x idx (ix3 b o k)
      = x (ix2 b ⟨w.toNat, hlt⟩) := by
  unfold Host.gather
  refine congrArg x (funext fun a => Fin.ext ?_)
  show gather_S4096x512_S2048x32x1_S4096x2048x32_0_1_n_n_1_2_40961.start (ix3 b o k) idx a
      + gather_S4096x512_S2048x32x1_S4096x2048x32_0_1_n_n_1_2_40961.batchCoord (ix3 b o k) a
      + gather_S4096x512_S2048x32x1_S4096x2048x32_0_1_n_n_1_2_40961.offCoord (ix3 b o k) a = _
  rw [GatherDims.batchCoord_eq_zero gather_S4096x512_S2048x32x1_S4096x2048x32_0_1_n_n_1_2_40961 (ix3 b o k) a
    List.not_mem_nil, Nat.add_zero]
  match a with
  | ⟨0, _⟩ =>
    -- the row axis: no start index, the offset coordinate is the row
    have hs : gather_S4096x512_S2048x32x1_S4096x2048x32_0_1_n_n_1_2_40961.start (ix3 b o k) idx ⟨0, by decide⟩ = 0 := by
      unfold GatherDims.start
      rw [dif_neg (by decide)]
    rw [hs, Nat.zero_add]
    have hk : (⟨0, by decide⟩ : Fin S4096x512.rank) ∈ gather_S4096x512_S2048x32x1_S4096x2048x32_0_1_n_n_1_2_40961.sKept := by
      decide
    unfold GatherDims.offCoord
    rw [dif_pos hk]
    rfl
  | ⟨1, _⟩ =>
    -- the feature axis: collapsed, so no offset; the start is the clamped start index
    rw [GatherDims.offCoord_eq_zero gather_S4096x512_S2048x32x1_S4096x2048x32_0_1_n_n_1_2_40961 (ix3 b o k) ⟨1, by decide⟩
      (by decide), Nat.add_zero]
    have hm : (⟨1, by decide⟩ : Fin S4096x512.rank) ∈ gather_S4096x512_S2048x32x1_S4096x2048x32_0_1_n_n_1_2_40961.startIndexMap := by
      decide
    unfold GatherDims.start
    rw [dif_pos hm, gather2_siIdx, hw,
      Idealize.ShloMosaic.StableHlo.Predicate.toInt_eq_toNat_of_lt (a := w) (by omega), Int.toNat_natCast]
    show min w.toNat (512 - 1) = w.toNat
    omega

/-! ## The gathered entries -/

/-- In range, the gathered entry at (b, o, k) is entry `conn[o, k]` of row `b`: the mask is 1 there, and the
    gather reads the feature the start index names. -/
theorem take2_apply (x : FVec Ideal S4096x512 .f32) (conn : IVec S2048x32 32) (h : InRange 512 conn)
    (b : Fin 4096) (o : Fin 2048) (k : Fin 32) :
    Hand.take2 (F := Ideal) x conn (ix3 b o k) = pick x b (conn (ix2 o k)) := by
  have hm : broadcastInDim S4096x2048x32 ![1, 2] bcast_S2048x32_S4096x2048x32_1_2 (Hand.inBounds2 conn) (ix3 b o k)
      = 1#1 := by
    have e : broadcastInDim S4096x2048x32 ![1, 2] bcast_S2048x32_S4096x2048x32_1_2 (Hand.inBounds2 conn) (ix3 b o k)
        = Hand.inBounds2 conn (ix2 o k) := by
      unfold broadcastInDim
      refine congrArg (Hand.inBounds2 conn) (funext fun a => ?_)
      fin_cases a <;> rfl
    rw [e, inBounds2_apply conn h]
  unfold Hand.take2
  rw [select_apply, hm, select_one,
    gather2_apply x (Hand.startIdx2 conn) b o k (conn (ix2 o k)) (startIdx2_apply conn h o k 0) (h o k),
    pick_of_lt x b _ (h o k)]

/-! ## The reductions over the 32 positions -/

/-- Position (b, o) with `k` put back on the last axis is (b, o, k). -/
theorem lift_ix3 (hr : S4096x2048x32.Reduces [2] S4096x2048) (b : Fin 4096) (o : Fin 2048)
    (k : Fin (S4096x2048x32.size 2)) : hr.lift (ix2 b o) k = ix3 b o (⟨k.val, k.isLt⟩ : Fin 32) := by
  funext c; apply Fin.ext
  fin_cases c <;> rfl

/-- The reduction by minimum from +∞ over the last axis, at (b, o), is the minimum of the 32 entries there. -/
theorem reduceMin2_apply (f : FVec Ideal S4096x2048x32 .f32) (b : Fin 4096) (o : Fin 2048) :
    Host.reduce FloatOps.minimumf f (constant (F := Ideal) S_ .f32 0x7F800000#32)
        reducesTo_S4096x2048x32_S4096x2048_d2 h_S_ (ix2 b o)
      = min32 fun k => f (ix3 b o k) := by
  have hr : S4096x2048x32.Reduces [2] S4096x2048 := by decide
  rw [Host.reduce_eq_fold_single FloatOps.minimumf f _ reducesTo_S4096x2048x32_S4096x2048_d2 hr h_S_]
  have hf : (f ∘ hr.lift (ix2 b o)) = fun k : Fin 32 => f (ix3 b o k) :=
    funext fun k => congrArg f (lift_ix3 hr b o k)
  rw [hf]
  rfl

/-- The reduction by maximum from −∞ over the last axis, at (b, o), is the maximum of the 32 entries there. -/
theorem reduceMax2_apply (f : FVec Ideal S4096x2048x32 .f32) (b : Fin 4096) (o : Fin 2048) :
    Host.reduce FloatOps.maximumf f (constant (F := Ideal) S_ .f32 0xFF800000#32)
        reducesTo_S4096x2048x32_S4096x2048_d2 h_S_ (ix2 b o)
      = max32 fun k => f (ix3 b o k) := by
  have hr : S4096x2048x32.Reduces [2] S4096x2048 := by decide
  rw [Host.reduce_eq_fold_single FloatOps.maximumf f _ reducesTo_S4096x2048x32_S4096x2048_d2 hr h_S_]
  have hf : (f ∘ hr.lift (ix2 b o)) = fun k : Fin 32 => f (ix3 b o k) :=
    funext fun k => congrArg f (lift_ix3 hr b o k)
  rw [hf]
  rfl

/-! ## The selector -/

/-- The selector bit at (b, o) is the test "the selector of feature `o` is 1": the row of tests is the same
    in every row `b`. -/
theorem selector2_apply (op : IVec S2048 32) (b : Fin 4096) (o : Fin 2048) :
    broadcastInDim S4096x2048 ![0, 1] bcast_S1x2048_S4096x2048_0_1
        (cmpi .eq (broadcastInDim S1x2048 ![1] bcast_S2048_S1x2048_1 op)
          (broadcastInDim S1x2048 ![] bcast_S_S1x2048 (constantI S_ 32 1#32))) (ix2 b o)
      = IntOp.cmpi .eq (op (ix1 o)) 1#32 := by
  have e1 : ∀ y : S1x2048.Idx → BitVec 1,
      broadcastInDim S4096x2048 ![0, 1] bcast_S1x2048_S4096x2048_0_1 y (ix2 b o) = y (ix2 (0 : Fin 1) o) := by
    intro y
    unfold broadcastInDim
    refine congrArg y (funext fun a => ?_)
    fin_cases a <;> rfl
  have e2 : broadcastInDim S1x2048 ![1] bcast_S2048_S1x2048_1 op (ix2 (0 : Fin 1) o) = op (ix1 o) := by
    unfold broadcastInDim
    refine congrArg op (funext fun a => ?_)
    fin_cases a; rfl
  rw [e1]
  show IntOp.cmpi .eq (broadcastInDim S1x2048 ![1] bcast_S2048_S1x2048_1 op (ix2 (0 : Fin 1) o)) 1#32 = _
  rw [e2]

/-! ## The layer -/

/-- The reference's third layer at (b, o) is the specification's: the maximum of the 32 picked entries where the
    selector is 1, their minimum elsewhere. -/
theorem refLayer2_apply (x : FVec Ideal S4096x512 .f32) (conn : IVec S2048x32 32) (op : IVec S2048 32)
    (h : Cert.Layers.InRange 512 conn) (b : Fin 4096) (o : Fin 2048) :
    Hand.refLayer2 (F := Ideal) x conn op (ix2 b o) = Cert.Layers.layerAt x conn op b o := by
  unfold Hand.refLayer2
  rw [select_apply, selector2_apply, reduceMax2_apply, reduceMin2_apply]
  unfold Cert.Layers.layerAt
  simp only [take2_apply x conn h]

/-- The reference's third layer is the specification's layer, as whole arrays. -/
theorem refLayer2_eq (x : FVec Ideal S4096x512 .f32) (conn : IVec S2048x32 32) (op : IVec S2048 32)
    (h : Cert.Layers.InRange 512 conn) :
    Hand.refLayer2 (F := Ideal) x conn op = Cert.Layers.layer x conn op :=
  Cert.Layers.eq_layer_of_apply x conn op _ (refLayer2_apply x conn op h)

end Cert.ReferenceIdeal.Layer2

end
-- ==== Proof.RLayer3.lean ====
/-
  The reference's fourth layer, read at one output entry, is the layer of the shared specification.

  Under the range hypothesis every feature number is a word in [0, 2048): the sign test of the normalisation is
  false, so the normalised number is the number itself; both bound tests of the mask are true, so the mask is 1
  everywhere; the gather's clamp of the start index into [0, 2047] is the identity.  The gathered entry is then
  the picked entry of the specification, and the two reductions over the last axis are the folds of the minimum
  from +∞ and of the maximum from −∞ over the 32 positions.
-/
import proofs.«424863_j77781857731251_2_alg».proof.Proof.RDefs3
import proofs.«424863_j77781857731251_2_alg».proof.Proof.Spec
import Idealize.ShloMosaic.Lib.ValueIdx
import Idealize.ShloMosaic.PureOps.Reduce
import Idealize.ShloMosaic.PureOps.Ideal.Laws
import Idealize.ShloMosaic.Lib.StableHlo.Predicate

noncomputable section

namespace Cert.ReferenceIdeal.Layer3

open Idealize.ShloMosaic Idealize.ShloMosaic.ValueIdx Cert.ReferenceIdeal Cert.Layers
open Cert.ReferenceIdeal.Facts₀ Cert.ReferenceIdeal.Facts
open Idealize.ShloMosaic.StableHlo.Predicate (slt_iff_toNat sge_iff_toNat sle_iff_toNat)

/-! ## Words in range: the three signed comparisons -/

/-- A word below 2048 is not negative: the test "less than 0" gives the bit 0. -/
theorem slt_zero_of_lt {w : BitVec 32} (hw : w.toNat < 2048) : IntOp.cmpi .slt w 0#32 = 0#1 := by
  refine eq_zero_of_ne_one fun e => ?_
  have := (slt_iff_toNat (a := w) (b := 0#32) (by omega) (by decide)).1 e
  simp at this

/-- A word below 2048 is at least 0 as a signed number. -/
theorem sge_zero_of_lt {w : BitVec 32} (hw : w.toNat < 2048) : IntOp.cmpi .sge w 0#32 = 1#1 :=
  (sge_iff_toNat (a := w) (b := 0#32) (by omega) (by decide)).2 (by simp)

/-- A word below 2048 is at most 2047 as a signed number. -/
theorem sle_top_of_lt {w : BitVec 32} (hw : w.toNat < 2048) : IntOp.cmpi .sle w 2047#32 = 1#1 :=
  (sle_iff_toNat (a := w) (b := 2047#32) (by omega) (by decide)).2 (by
    have : (2047#32 : BitVec 32).toNat = 2047 := by decide
    omega)

/-! ## The normalised feature numbers, the start indices and the mask -/

/-- In range, normalisation leaves a feature number alone. -/
theorem wrapIdx3_apply (conn : IVec S1024x32 32) (h : InRange 2048 conn) (o : Fin 1024) (k : Fin 32) :
    Hand.wrapIdx3 conn (ix2 o k) = conn (ix2 o k) := by
  show Scalar.select (IntOp.cmpi .slt (conn (ix2 o k)) 0#32) _ (conn (ix2 o k)) = conn (ix2 o k)
  rw [slt_zero_of_lt (h o k), select_zero]

/-- The start index at (o, k, 0) is the feature number at (o, k). -/
theorem startIdx3_apply (conn : IVec S1024x32 32) (h : InRange 2048 conn) (o : Fin 1024) (k : Fin 32) (z : Fin 1) :
    Hand.startIdx3 conn (ix3 o k z) = conn (ix2 o k) := by
  have e : Hand.startIdx3 conn (ix3 o k z) = Hand.wrapIdx3 conn (ix2 o k) := by
    unfold Hand.startIdx3 broadcastInDim
    refine congrArg (Hand.wrapIdx3 conn) (funext fun a => ?_)
    fin_cases a <;> rfl
  rw [e, wrapIdx3_apply conn h]

/-! ## The mask -/

/-- A left fold of `and` from 1 over bits that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- In range, both bound tests hold at every start index, so the mask is 1 at every (o, k). -/
theorem inBounds3_apply (conn : IVec S1024x32 32) (h : InRange 2048 conn) (o : Fin 1024) (k : Fin 32) :
    Hand.inBounds3 conn (ix2 o k) = 1#1 := by
  unfold Hand.inBounds3 Host.reduce
  refine foldl_andi_ones _ (fun n => ?_) _
  obtain ⟨a, b, c, e⟩ : ∃ (a : Fin 1024) (b : Fin 32) (c : Fin 1), S1024x32x1.rowMajor.symm n = ix3 a b c :=
    ⟨_, _, _, eq_ix3 _⟩
  rw [e]
  show IntOp.andi (IntOp.cmpi .sge (Hand.startIdx3 conn (ix3 a b c)) 0#32)
      (IntOp.cmpi .sle (Hand.startIdx3 conn (ix3 a b c)) 2047#32) = 1#1
  rw [startIdx3_apply conn h, sge_zero_of_lt (h a b), sle_top_of_lt (h a b)]
  decide

/-! ## The gather -/

/-- The start-indices position the gather reads for result position (b, o, k): (o, k, 0). -/
theorem gather3_siIdx (b : Fin 4096) (o : Fin 1024) (k : Fin 32)
    (c : Fin gather_S4096x2048_S1024x32x1_S4096x1024x32_0_1_n_n_1_2_40961.startIndexMap.length) :
    gather_S4096x2048_S1024x32x1_S4096x1024x32_0_1_n_n_1_2_40961.siIdx (ix3 b o k) c = ix3 o k (0 : Fin 1) := by
  funext a
  refine Fin.ext ?_
  have hc : c.val = 0 := by have := c.isLt; simp [gather_S4096x2048_S1024x32x1_S4096x1024x32_0_1_n_n_1_2_40961] at this; omega
  match a with
  | ⟨0, _⟩ => rfl
  | ⟨1, _⟩ => rfl
  | ⟨2, _⟩ => exact hc

/-- The gather at (b, o, k) reads row `b` of the operand at the feature the start index (o, k, 0) names, when
    that word is in range: the clamp of the start into [0, 2047] leaves it alone. -/
theorem gather3_apply {α : Type} (x : S4096x2048.Idx → α) (idx : IVec S1024x32x1 32) (b : Fin 4096) (o : Fin 1024)
    (k : Fin 32) (w : BitVec 32) (hw : idx (ix3 o k (0 : Fin 1)) = w) (hlt : w.toNat < 2048) :
    Host.gather gather_S4096x2048_S1024x32x1_S4096x1024x32_0_1_n_n_1_2_40961 x idx (ix3 b o k)
      = x (ix2 b ⟨w.toNat, hlt⟩) := by
  unfold Host.gather
  refine congrArg x (funext fun a => Fin.ext ?_)
  show gather_S4096x2048_S1024x32x1_S4096x1024x32_0_1_n_n_1_2_40961.start (ix3 b o k) idx a
      + gather_S4096x2048_S1024x32x1_S4096x1024x32_0_1_n_n_1_2_40961.batchCoord (ix3 b o k) a
      + gather_S4096x2048_S1024x32x1_S4096x1024x32_0_1_n_n_1_2_40961.offCoord (ix3 b o k) a = _
  rw [GatherDims.batchCoord_eq_zero gather_S4096x2048_S1024x32x1_S4096x1024x32_0_1_n_n_1_2_40961 (ix3 b o k) a
    List.not_mem_nil, Nat.add_zero]
  match a with
  | ⟨0, _⟩ =>
    -- the row axis: no start index, the offset coordinate is the row
    have hs : gather_S4096x2048_S1024x32x1_S4096x1024x32_0_1_n_n_1_2_40961.start (ix3 b o k) idx ⟨0, by decide⟩ = 0 := by
      unfold GatherDims.start
      rw [dif_neg (by decide)]
    rw [hs, Nat.zero_add]
    have hk : (⟨0, by decide⟩ : Fin S4096x2048.rank) ∈ gather_S4096x2048_S1024x32x1_S4096x1024x32_0_1_n_n_1_2_40961.sKept := by
      decide
    unfold GatherDims.offCoord
    rw [dif_pos hk]
    rfl
  | ⟨1, _⟩ =>
    -- the feature axis: collapsed, so no offset; the start is the clamped start index
    rw [GatherDims.offCoord_eq_zero gather_S4096x2048_S1024x32x1_S4096x1024x32_0_1_n_n_1_2_40961 (ix3 b o k) ⟨1, by decide⟩
      (by decide), Nat.add_zero]
    have hm : (⟨1, by decide⟩ : Fin S4096x2048.rank) ∈ gather_S4096x2048_S1024x32x1_S4096x1024x32_0_1_n_n_1_2_40961.startIndexMap := by
      decide
    unfold GatherDims.start
    rw [dif_pos hm, gather3_siIdx, hw,
      Idealize.ShloMosaic.StableHlo.Predicate.toInt_eq_toNat_of_lt (a := w) (by omega), Int.toNat_natCast]
    show min w.toNat (2048 - 1) = w.toNat
    omega

/-! ## The gathered entries -/

/-- In range, the gathered entry at (b, o, k) is entry `conn[o, k]` of row `b`: the mask is 1 there, and the
    gather reads the feature the start index names. -/
theorem take3_apply (x : FVec Ideal S4096x2048 .f32) (conn : IVec S1024x32 32) (h : InRange 2048 conn)
    (b : Fin 4096) (o : Fin 1024) (k : Fin 32) :
    Hand.take3 (F := Ideal) x conn (ix3 b o k) = pick x b (conn (ix2 o k)) := by
  have hm : broadcastInDim S4096x1024x32 ![1, 2] bcast_S1024x32_S4096x1024x32_1_2 (Hand.inBounds3 conn) (ix3 b o k)
      = 1#1 := by
    have e : broadcastInDim S4096x1024x32 ![1, 2] bcast_S1024x32_S4096x1024x32_1_2 (Hand.inBounds3 conn) (ix3 b o k)
        = Hand.inBounds3 conn (ix2 o k) := by
      unfold broadcastInDim
      refine congrArg (Hand.inBounds3 conn) (funext fun a => ?_)
      fin_cases a <;> rfl
    rw [e, inBounds3_apply conn h]
  unfold Hand.take3
  rw [select_apply, hm, select_one,
    gather3_apply x (Hand.startIdx3 conn) b o k (conn (ix2 o k)) (startIdx3_apply conn h o k 0) (h o k),
    pick_of_lt x b _ (h o k)]

/-! ## The reductions over the 32 positions -/

/-- Position (b, o) with `k` put back on the last axis is (b, o, k). -/
theorem lift_ix3 (hr : S4096x1024x32.Reduces [2] S4096x1024) (b : Fin 4096) (o : Fin 1024)
    (k : Fin (S4096x1024x32.size 2)) : hr.lift (ix2 b o) k = ix3 b o (⟨k.val, k.isLt⟩ : Fin 32) := by
  funext c; apply Fin.ext
  fin_cases c <;> rfl

/-- The reduction by minimum from +∞ over the last axis, at (b, o), is the minimum of the 32 entries there. -/
theorem reduceMin3_apply (f : FVec Ideal S4096x1024x32 .f32) (b : Fin 4096) (o : Fin 1024) :
    Host.reduce FloatOps.minimumf f (constant (F := Ideal) S_ .f32 0x7F800000#32)
        reducesTo_S4096x1024x32_S4096x1024_d2 h_S_ (ix2 b o)
      = min32 fun k => f (ix3 b o k) := by
  have hr : S4096x1024x32.Reduces [2] S4096x1024 := by decide
  rw [Host.reduce_eq_fold_single FloatOps.minimumf f _ reducesTo_S4096x1024x32_S4096x1024_d2 hr h_S_]
  have hf : (f ∘ hr.lift (ix2 b o)) = fun k : Fin 32 => f (ix3 b o k) :=
    funext fun k => congrArg f (lift_ix3 hr b o k)
  rw [hf]
  rfl

/-- The reduction by maximum from −∞ over the last axis, at (b, o), is the maximum of the 32 entries there. -/
theorem reduceMax3_apply (f : FVec Ideal S4096x1024x32 .f32) (b : Fin 4096) (o : Fin 1024) :
    Host.reduce FloatOps.maximumf f (constant (F := Ideal) S_ .f32 0xFF800000#32)
        reducesTo_S4096x1024x32_S4096x1024_d2 h_S_ (ix2 b o)
      = max32 fun k => f (ix3 b o k) := by
  have hr : S4096x1024x32.Reduces [2] S4096x1024 := by decide
  rw [Host.reduce_eq_fold_single FloatOps.maximumf f _ reducesTo_S4096x1024x32_S4096x1024_d2 hr h_S_]
  have hf : (f ∘ hr.lift (ix2 b o)) = fun k : Fin 32 => f (ix3 b o k) :=
    funext fun k => congrArg f (lift_ix3 hr b o k)
  rw [hf]
  rfl

/-! ## The selector -/

/-- The selector bit at (b, o) is the test "the selector of feature `o` is 1": the row of tests is the same
    in every row `b`. -/
theorem selector3_apply (op : IVec S1024 32) (b : Fin 4096) (o : Fin 1024) :
    broadcastInDim S4096x1024 ![0, 1] bcast_S1x1024_S4096x1024_0_1
        (cmpi .eq (broadcastInDim S1x1024 ![1] bcast_S1024_S1x1024_1 op)
          (broadcastInDim S1x1024 ![] bcast_S_S1x1024 (constantI S_ 32 1#32))) (ix2 b o)
      = IntOp.cmpi .eq (op (ix1 o)) 1#32 := by
  have e1 : ∀ y : S1x1024.Idx → BitVec 1,
      broadcastInDim S4096x1024 ![0, 1] bcast_S1x1024_S4096x1024_0_1 y (ix2 b o) = y (ix2 (0 : Fin 1) o) := by
    intro y
    unfold broadcastInDim
    refine congrArg y (funext fun a => ?_)
    fin_cases a <;> rfl
  have e2 : broadcastInDim S1x1024 ![1] bcast_S1024_S1x1024_1 op (ix2 (0 : Fin 1) o) = op (ix1 o) := by
    unfold broadcastInDim
    refine congrArg op (funext fun a => ?_)
    fin_cases a; rfl
  rw [e1]
  show IntOp.cmpi .eq (broadcastInDim S1x1024 ![1] bcast_S1024_S1x1024_1 op (ix2 (0 : Fin 1) o)) 1#32 = _
  rw [e2]

/-! ## The layer -/

/-- The reference's fourth layer at (b, o) is the specification's: the maximum of the 32 picked entries where the
    selector is 1, their minimum elsewhere. -/
theorem refLayer3_apply (x : FVec Ideal S4096x2048 .f32) (conn : IVec S1024x32 32) (op : IVec S1024 32)
    (h : Cert.Layers.InRange 2048 conn) (b : Fin 4096) (o : Fin 1024) :
    Hand.refLayer3 (F := Ideal) x conn op (ix2 b o) = Cert.Layers.layerAt x conn op b o := by
  unfold Hand.refLayer3
  rw [select_apply, selector3_apply, reduceMax3_apply, reduceMin3_apply]
  unfold Cert.Layers.layerAt
  simp only [take3_apply x conn h]

/-- The reference's fourth layer is the specification's layer, as whole arrays. -/
theorem refLayer3_eq (x : FVec Ideal S4096x2048 .f32) (conn : IVec S1024x32 32) (op : IVec S1024 32)
    (h : Cert.Layers.InRange 2048 conn) :
    Hand.refLayer3 (F := Ideal) x conn op = Cert.Layers.layer x conn op :=
  Cert.Layers.eq_layer_of_apply x conn op _ (refLayer3_apply x conn op h)

end Cert.ReferenceIdeal.Layer3

end
-- ==== Proof.RNetEq.lean ====
/-
  The reference's network is the specification's: layer by layer, each of the reference's layers is the specification's
  layer once its table of feature numbers is in range.
-/
import proofs.«424863_j77781857731251_2_alg».proof.Proof.RNet
import proofs.«424863_j77781857731251_2_alg».proof.Proof.RLayer0
import proofs.«424863_j77781857731251_2_alg».proof.Proof.RLayer1
import proofs.«424863_j77781857731251_2_alg».proof.Proof.RLayer2
import proofs.«424863_j77781857731251_2_alg».proof.Proof.RLayer3

noncomputable section

namespace Cert.ReferenceIdeal.NetEq

open Idealize.ShloMosaic Cert.ReferenceIdeal Cert.Layers

/-- With every table in range the reference's four layers in sequence are the specification's network. -/
theorem refNet_eq (x : FVec Ideal S4096x1024 .f32) (c0 : IVec S2048x32 32) (c1 : IVec S512x32 32) (c2 : IVec S2048x32 32)
    (c3 : IVec S1024x32 32) (o0 : IVec S2048 32) (o1 : IVec S512 32) (o2 : IVec S2048 32) (o3 : IVec S1024 32)
    (h0 : InRange 1024 c0) (h1 : InRange 2048 c1) (h2 : InRange 512 c2) (h3 : InRange 2048 c3) :
    Hand.refNet (F := Ideal) x c0 c1 c2 c3 o0 o1 o2 o3 = net x c0 c1 c2 c3 o0 o1 o2 o3 := by
  unfold Hand.refNet net
  rw [Layer0.refLayer0_eq x c0 o0 h0, Layer1.refLayer1_eq _ c1 o1 h1, Layer2.refLayer2_eq _ c2 o2 h2,
    Layer3.refLayer3_eq _ c3 o3 h3]

end Cert.ReferenceIdeal.NetEq

end
-- ==== Proof.lean ====
/-
  The claim: the kernel program, read over the extended reals, computes what the reference computes.

  Both programs evaluate a network of four layers; a layer takes, for each output feature, the maximum or the minimum
  (by the feature's selector) of 32 entries of the activations' row, the entries named by a table of feature numbers.
  The kernel gathers each entry by a product with a one-hot matrix — exact over the extended reals, where a product
  with zero is zero and a sum of zeros and one entry is that entry — and folds the 32 entries into running extrema;
  the reference gathers with `take` and reduces.  Under the precondition every feature number is in range, so the
  kernel's clamp and the reference's wrap-and-fill are both the identity, and both results are the specification's
  network of the arguments (Spec.lean).  The frames of the two kernel programs are the generated ones; the
  reference's frame is its run with the result dropped; no rewrite was applied when the kernel was idealized.
-/
import proofs.«424863_j77781857731251_2_alg».proof.Defs
import proofs.«424863_j77781857731251_2_alg».proof.Proof.Gen.Kernel
import proofs.«424863_j77781857731251_2_alg».proof.Proof.Gen.Kernel.Skeleton
import proofs.«424863_j77781857731251_2_alg».proof.Proof.Gen.Kernel.Launch
import proofs.«424863_j77781857731251_2_alg».proof.Proof.Gen.Kernel.Points
import proofs.«424863_j77781857731251_2_alg».proof.Proof.Gen.Kernel.Frame
import proofs.«424863_j77781857731251_2_alg».proof.Proof.Gen.KernelIdeal
import proofs.«424863_j77781857731251_2_alg».proof.Proof.Gen.KernelIdeal.Skeleton
import proofs.«424863_j77781857731251_2_alg».proof.Proof.Gen.KernelIdeal.Launch
import proofs.«424863_j77781857731251_2_alg».proof.Proof.Gen.KernelIdeal.Points
import proofs.«424863_j77781857731251_2_alg».proof.Proof.Gen.KernelIdeal.Frame
import proofs.«424863_j77781857731251_2_alg».proof.Proof.Gen.ReferenceIdeal
import proofs.«424863_j77781857731251_2_alg».proof.Proof.Gen.Pre_finite_inputs
import proofs.«424863_j77781857731251_2_alg».proof.Proof.KRun
import proofs.«424863_j77781857731251_2_alg».proof.Proof.KNet
import proofs.«424863_j77781857731251_2_alg».proof.Proof.RRun
import proofs.«424863_j77781857731251_2_alg».proof.Proof.RResult
import proofs.«424863_j77781857731251_2_alg».proof.Proof.RArgs
import proofs.«424863_j77781857731251_2_alg».proof.Proof.RNetEq
import proofs.«424863_j77781857731251_2_alg».proof.Proof.PreDecode
import Idealize.ShloMosaic.Adequacy
import Idealize.ShloMosaic.Init

set_option maxRecDepth 16384

noncomputable section

namespace Cert.Proof

open Idealize.ShloMosaic Idealize.SL.Sem Cert.Layers

theorem frame_kernel : Cert.frame_Kernel := fun m ρ _ => Cert.Kernel.Gen.frame m ρ

theorem frame_kernelIdeal : Cert.frame_KernelIdeal := fun m ρ _ => Cert.KernelIdeal.Gen.frame m ρ

/-- The reference's run leaves every buffer at its operations' fold over the launch contents, and no operation writes an argument. -/
theorem frame_referenceIdeal : Cert.frame_ReferenceIdeal := fun m ρ _ =>
  (θ_run Cert.ReferenceIdeal.defs _ _).mono
    (fun _ h c =>
      ⟨(h c _).trans (Cert.ReferenceIdeal.HandRun.arg0_eq _), (h c _).trans (Cert.ReferenceIdeal.HandRun.arg1_eq _),
       (h c _).trans (Cert.ReferenceIdeal.HandRun.arg2_eq _), (h c _).trans (Cert.ReferenceIdeal.HandRun.arg3_eq _),
       (h c _).trans (Cert.ReferenceIdeal.HandRun.arg4_eq _), (h c _).trans (Cert.ReferenceIdeal.HandRun.arg5_eq _),
       (h c _).trans (Cert.ReferenceIdeal.HandRun.arg6_eq _), (h c _).trans (Cert.ReferenceIdeal.HandRun.arg7_eq _),
       (h c _).trans (Cert.ReferenceIdeal.HandRun.arg8_eq _)⟩)
    (Cert.ReferenceIdeal.HandRun.run_main (F := Ideal) m ρ)

/-- Both programs end at the specification's network of the arguments: the kernel by its regions' output arrays, the
    reference by its layers, the tables in range by the precondition and the two memories agreeing on the arguments. -/
theorem algebraic : Cert.algebraic_KernelIdeal_ReferenceIdeal := by
  intro m ρ m' ρ' hpre hagree
  have hr := fun c => Cert.PreDecode.inRange_of_pre (F := Ideal) _ _ _ _ _ _ _ _ _ (hpre c)
  refine ⟨fun c => Cert.KernelIdeal.Net.result m c, ?_, ?_⟩
  · refine (θ_run Cert.KernelIdeal.defs _ _).mono (fun r h c => ?_) (Cert.KernelIdeal.Run.run (F := Ideal) m ρ)
    exact ⟨(h c).1.trans (Cert.KernelIdeal.Net.result_eq m ρ c (hr c).1 (hr c).2.1 (hr c).2.2.1 (hr c).2.2.2), (h c).2⟩
  · refine (θ_run Cert.ReferenceIdeal.defs _ _).mono (fun r h c => ?_) (Cert.ReferenceIdeal.HandRun.run_main (F := Ideal) m' ρ')
    obtain ⟨e0, e1, e2, e3, e4, e5, e6, e7, e8⟩ := hagree c
    refine ⟨?_, (h c _).trans (Cert.ReferenceIdeal.HandRun.arg0_eq _), (h c _).trans (Cert.ReferenceIdeal.HandRun.arg1_eq _),
       (h c _).trans (Cert.ReferenceIdeal.HandRun.arg2_eq _), (h c _).trans (Cert.ReferenceIdeal.HandRun.arg3_eq _),
       (h c _).trans (Cert.ReferenceIdeal.HandRun.arg4_eq _), (h c _).trans (Cert.ReferenceIdeal.HandRun.arg5_eq _),
       (h c _).trans (Cert.ReferenceIdeal.HandRun.arg6_eq _), (h c _).trans (Cert.ReferenceIdeal.HandRun.arg7_eq _),
       (h c _).trans (Cert.ReferenceIdeal.HandRun.arg8_eq _)⟩
    refine (h c _).trans ((Cert.ReferenceIdeal.HandRun.result_eq _).trans ?_)
    show Cert.ReferenceIdeal.Hand.refNet (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8)) = _
    rw [e0, e1, e2, e3, e4, e5, e6, e7, e8]
    exact Cert.ReferenceIdeal.NetEq.refNet_eq _ _ _ _ _ _ _ _ _ (hr c).1 (hr c).2.1 (hr c).2.2.1 (hr c).2.2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
